-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v26)) (v4 : (c : Dev Cert.KernelIdeal.nD) → Buf (Elt Ideal) ((c.tc : Thread Cert.KernelIdeal.nD Cert.KernelIdeal.τ).loc Cert.KernelIdeal.main_v23)) (v5 : (c : Dev Cert.KernelIdeal.nD) → Buf (Elt Ideal) ((c.tc : Thread Cert.KernelIdeal.nD Cert.KernelIdeal.τ).loc Cert.KernelIdeal.main_v70)) (v6 : (c : Dev Cert.KernelIdeal.nD) → Buf (Elt Ideal) ((c.tc : Thread Cert.KernelIdeal.nD Cert.KernelIdeal.τ).loc Cert.KernelIdeal.main_v38)) (v7 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_v23) = v4 c
          ∧ r.2.mem ((c.tc : Thread Cert.KernelIdeal.nD Cert.KernelIdeal.τ).loc Cert.KernelIdeal.main_v70) = v5 c
          ∧ r.2.mem ((c.tc : Thread Cert.KernelIdeal.nD Cert.KernelIdeal.τ).loc Cert.KernelIdeal.main_v38) = v6 c
          ∧ r.2.mem ((c.tc : Thread Cert.KernelIdeal.nD Cert.KernelIdeal.τ).loc Cert.KernelIdeal.main_v46) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_v107) = v5 c
          ∧ r.2.mem ((c.tc : Thread Cert.ReferenceIdeal.nD Cert.ReferenceIdeal.τ).loc Cert.ReferenceIdeal.main_v67) = v6 c
          ∧ r.2.mem ((c.tc : Thread Cert.ReferenceIdeal.nD Cert.ReferenceIdeal.τ).loc Cert.ReferenceIdeal.main_v83) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x3 : Shape := ⟨2, ![100000, 3]⟩
abbrev S100000 : Shape := ⟨1, ![100000]⟩
abbrev S100000x16 : Shape := ⟨2, ![100000, 16]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S100000x16 : S_.BroadcastsInDim S100000x16 (![] : Fin 0 → Fin S100000x16.rank)
  reducesTo_S100000x16_S_d0_1 : S100000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  reducesTo_S_S_d : S_.ReducesTo [] S_

variable [Facts]

def fn_part2 {F : FTy → Type} [FloatOps F] (main_arg8 : FVec F S_ .f32) (main_v33 : IVec S_ 1) : IVec S_ 1 :=
  let main_v34 : FVec F S_ .f32 := Host.absf main_arg8
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg5 : FVec F S128 .f32) (main_arg6 : FVec F S128x16 .f32) (main_arg7 : FVec F S16 .f32) (main_arg8 : FVec F S_ .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : FVec F S100000x3 .f32) (main_arg2 : IVec S100000 32) (main_arg3 : FVec F S100000x16 .f32) (main_arg4 : FVec F S128x128 .f32) (main_arg5 : FVec F S128 .f32) (main_arg6 : FVec F S128x16 .f32) (main_arg7 : FVec F S16 .f32) (main_arg8 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S100000x16 .f32 := Host.absf main_arg3
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S100000x3 : Shape := ⟨2, ![100000, 3]⟩
abbrev S100000 : Shape := ⟨1, ![100000]⟩
abbrev S100000x16 : Shape := ⟨2, ![100000, 16]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S100000x1 : Shape := ⟨2, ![100000, 1]⟩
abbrev S1x128 : Shape := ⟨2, ![1, 128]⟩
abbrev S1x16 : Shape := ⟨2, ![1, 16]⟩
abbrev S1x1 : Shape := ⟨2, ![1, 1]⟩
abbrev S2x256x128 : Shape := ⟨3, ![2, 256, 128]⟩
abbrev S2x256x3 : Shape := ⟨3, ![2, 256, 3]⟩
abbrev S2x1x256 : Shape := ⟨3, ![2, 1, 256]⟩
abbrev S2x16x3 : Shape := ⟨3, ![2, 16, 3]⟩
abbrev S2x16x1 : Shape := ⟨3, ![2, 16, 1]⟩
abbrev S2x1x16 : Shape := ⟨3, ![2, 1, 16]⟩
abbrev S2x1x1 : Shape := ⟨3, ![2, 1, 1]⟩
abbrev S2000x128 : Shape := ⟨2, ![2000, 128]⟩
abbrev S2000x3 : Shape := ⟨2, ![2000, 3]⟩
abbrev S2000x1 : Shape := ⟨2, ![2000, 1]⟩
abbrev S2000x16 : Shape := ⟨2, ![2000, 16]⟩
abbrev S1x256x128 : Shape := ⟨3, ![1, 256, 128]⟩
abbrev S1x256x3 : Shape := ⟨3, ![1, 256, 3]⟩
abbrev S1x1x256 : Shape := ⟨3, ![1, 1, 256]⟩
abbrev S1x16x3 : Shape := ⟨3, ![1, 16, 3]⟩
abbrev S1x16x1 : Shape := ⟨3, ![1, 16, 1]⟩
abbrev S1x1x16 : Shape := ⟨3, ![1, 1, 16]⟩
abbrev S1x1x1 : Shape := ⟨3, ![1, 1, 1]⟩
abbrev S256x128 : Shape := ⟨2, ![256, 128]⟩
abbrev S256x3 : Shape := ⟨2, ![256, 3]⟩
abbrev S1x256 : Shape := ⟨2, ![1, 256]⟩
abbrev S16x3 : Shape := ⟨2, ![16, 3]⟩
abbrev S16x1 : Shape := ⟨2, ![16, 1]⟩
abbrev S2000 : Shape := ⟨1, ![2000]⟩
abbrev S1x2000x16 : Shape := ⟨3, ![1, 2000, 16]⟩
abbrev S1 : Shape := ⟨1, ![1]⟩
abbrev S2000x256 : Shape := ⟨2, ![2000, 256]⟩
abbrev S256 : Shape := ⟨1, ![256]⟩
abbrev S16x16x128 : Shape := ⟨3, ![16, 16, 128]⟩
abbrev S16x16x3 : Shape := ⟨3, ![16, 16, 3]⟩
abbrev S16x16 : Shape := ⟨2, ![16, 16]⟩
abbrev S16x16x1 : Shape := ⟨3, ![16, 16, 1]⟩
abbrev S16x16x1x3 : Shape := ⟨4, ![16, 16, 1, 3]⟩
abbrev S16x1x16x3 : Shape := ⟨4, ![16, 1, 16, 3]⟩
abbrev S16x16x16x3 : Shape := ⟨4, ![16, 16, 16, 3]⟩
abbrev S16x16x16 : Shape := ⟨3, ![16, 16, 16]⟩
abbrev S1x16x16 : Shape := ⟨3, ![1, 16, 16]⟩

abbrev nBuf : Space → Nat
  | .hbm => 112
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S100000, .i32⟩
  | .hbm, ⟨3, _⟩ => ⟨S100000x16, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S_, .f32⟩
  | .hbm, ⟨9, _⟩ => ⟨S100000x1, .i32⟩
  | .hbm, ⟨10, _⟩ => ⟨S1x128, .f32⟩
  | .hbm, ⟨11, _⟩ => ⟨S1x16, .f32⟩
  | .hbm, ⟨12, _⟩ => ⟨S1x1, .f32⟩
  | .hbm, ⟨13, _⟩ => ⟨S100000x16, .f32⟩
  | .hbm, ⟨14, _⟩ => ⟨S2x256x128, .f32⟩
  | .hbm, ⟨15, _⟩ => ⟨S2x256x3, .f32⟩
  | .hbm, ⟨16, _⟩ => ⟨S2x1x256, .f32⟩
  | .hbm, ⟨17, _⟩ => ⟨S2x16x3, .f32⟩
  | .hbm, ⟨18, _⟩ => ⟨S2x16x1, .f32⟩
  | .hbm, ⟨19, _⟩ => ⟨S2x1x16, .f32⟩
  | .hbm, ⟨20, _⟩ => ⟨S2x1x1, .f32⟩
  | .hbm, ⟨21, _⟩ => ⟨S_, .f32⟩
  | .hbm, ⟨22, _⟩ => ⟨S256x128, .f32⟩
  | .hbm, ⟨23, _⟩ => ⟨S_, .f32⟩
  | .hbm, ⟨24, _⟩ => ⟨S256x3, .f32⟩
  | .hbm, ⟨25, _⟩ => ⟨S_, .f32⟩
  | .hbm, ⟨26, _⟩ => ⟨S1x256, .f32⟩
  | .hbm, ⟨27, _⟩ => ⟨S_, .f32⟩
  | .hbm, ⟨28, _⟩ => ⟨S16x3, .f32⟩
  | .hbm, ⟨29, _⟩ => ⟨S_, .f32⟩
  | .hbm, ⟨30, _⟩ => ⟨S16x1, .f32⟩
  | .hbm, ⟨31, _⟩ => ⟨S_, .f32⟩
  | .hbm, ⟨32, _⟩ => ⟨S1x16, .f32⟩
  | .hbm, ⟨33, _⟩ => ⟨S_, .f32⟩
  | .hbm, ⟨34, _⟩ => ⟨S1x1, .f32⟩
  | .hbm, ⟨35, _⟩ => ⟨S16x16x128, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S_, .f32⟩
  | .hbm, ⟨47, _⟩ => ⟨S16, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16x1, .f32⟩
  | .hbm, ⟨60, _⟩ => ⟨S16x3, .f32⟩
  | .hbm, ⟨61, _⟩ => ⟨S16x3, .f32⟩
  | .hbm, ⟨62, _⟩ => ⟨S16, .f32⟩
  | .hbm, ⟨63, _⟩ => ⟨S16, .f32⟩
  | .hbm, ⟨64, _⟩ => ⟨S16x3, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S16x16x3, .f32⟩
  | .hbm, ⟨73, _⟩ => ⟨S256, .f32⟩
  | .hbm, ⟨74, _⟩ => ⟨S16x16, .f32⟩
  | .hbm, ⟨75, _⟩ => ⟨S16x16x1, .f32⟩
  | .hbm, ⟨76, _⟩ => ⟨S_, .f32⟩
  | .hbm, ⟨77, _⟩ => ⟨S16x16x1, .f32⟩
  | .hbm, ⟨78, _⟩ => ⟨S16x16x1, .f32⟩
  | .hbm, ⟨79, _⟩ => ⟨S16x16x3, .f32⟩
  | .hbm, ⟨80, _⟩ => ⟨S16x16x3, .f32⟩
  | .hbm, ⟨81, _⟩ => ⟨S16x16x1x3, .f32⟩
  | .hbm, ⟨82, _⟩ => ⟨S16x1x16x3, .f32⟩
  | .hbm, ⟨83, _⟩ => ⟨S16x16x16x3, .f32⟩
  | .hbm, ⟨84, _⟩ => ⟨S16x16x16x3, .f32⟩
  | .hbm, ⟨85, _⟩ => ⟨S16x16x16x3, .f32⟩
  | .hbm, ⟨86, _⟩ => ⟨S16x16x16x3, .f32⟩
  | .hbm, ⟨87, _⟩ => ⟨S_, .f32⟩
  | .hbm, ⟨88, _⟩ => ⟨S16x16x16, .f32⟩
  | .hbm, ⟨89, _⟩ => ⟨S16x16, .i32⟩
  | .hbm, ⟨90, _⟩ => ⟨S16x16, .i32⟩
  | .hbm, ⟨91, _⟩ => ⟨S_, .i32⟩
  | .hbm, ⟨92, _⟩ => ⟨S16x16, .i32⟩
  | .hbm, ⟨93, _⟩ => ⟨S16x16, .i32⟩
  | .hbm, ⟨94, _⟩ => ⟨S16x16, .i1⟩
  | .hbm, ⟨95, _⟩ => ⟨S16x16, .f32⟩
  | .hbm, ⟨96, _⟩ => ⟨S1x16x16, .f32⟩
  | .hbm, ⟨97, _⟩ => ⟨S_, .f32⟩
  | .hbm, ⟨98, _⟩ => ⟨S16x16x16, .f32⟩
  | .hbm, ⟨99, _⟩ => ⟨S16x16x16, .f32⟩
  | .hbm, ⟨100, _⟩ => ⟨S_, .f32⟩
  | .hbm, ⟨101, _⟩ => ⟨S16x16x16, .f32⟩
  | .hbm, ⟨102, _⟩ => ⟨S16x16x16, .f32⟩
  | .hbm, ⟨103, _⟩ => ⟨S_, .f32⟩
  | .hbm, ⟨104, _⟩ => ⟨S1x16x16, .f32⟩
  | .hbm, ⟨105, _⟩ => ⟨S1x16x16, .f32⟩
  | .hbm, ⟨106, _⟩ => ⟨S16x16x16, .f32⟩
  | .hbm, ⟨107, _⟩ => ⟨S16x16x16, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .local _ .vmem, ⟨0, _⟩ => ⟨S2000x128, .f32⟩
  | .local _ .vmem, ⟨1, _⟩ => ⟨S2000x128, .f32⟩
  | .local _ .vmem, ⟨2, _⟩ => ⟨S2000x3, .f32⟩
  | .local _ .vmem, ⟨3, _⟩ => ⟨S2000x3, .f32⟩
  | .local _ .vmem, ⟨4, _⟩ => ⟨S2000x1, .i32⟩
  | .local _ .vmem, ⟨5, _⟩ => ⟨S2000x1, .i32⟩
  | .local _ .vmem, ⟨6, _⟩ => ⟨S2000x16, .f32⟩
  | .local _ .vmem, ⟨7, _⟩ => ⟨S2000x16, .f32⟩
  | .local _ .vmem, ⟨8, _⟩ => ⟨S128x128, .f32⟩
  | .local _ .vmem, ⟨9, _⟩ => ⟨S1x128, .f32⟩
  | .local _ .vmem, ⟨10, _⟩ => ⟨S128x16, .f32⟩
  | .local _ .vmem, ⟨11, _⟩ => ⟨S1x16, .f32⟩
  | .local _ .vmem, ⟨12, _⟩ => ⟨S1x1, .f32⟩
  | .local _ .vmem, ⟨13, _⟩ => ⟨S2000x16, .f32⟩
  | .local _ .vmem, ⟨14, _⟩ => ⟨S2000x16, .f32⟩
  | .local _ .vmem, ⟨15, _⟩ => ⟨S1x256x128, .f32⟩
  | .local _ .vmem, ⟨16, _⟩ => ⟨S1x256x128, .f32⟩
  | .local _ .vmem, ⟨17, _⟩ => ⟨S1x256x3, .f32⟩
  | .local _ .vmem, ⟨18, _⟩ => ⟨S1x256x3, .f32⟩
  | .local _ .vmem, ⟨19, _⟩ => ⟨S1x1x256, .f32⟩
  | .local _ .vmem, ⟨20, _⟩ => ⟨S1x1x256, .f32⟩
  | .local _ .vmem, ⟨21, _⟩ => ⟨S1x16x3, .f32⟩
  | .local _ .vmem, ⟨22, _⟩ => ⟨S1x16x3, .f32⟩
  | .local _ .vmem, ⟨23, _⟩ => ⟨S1x16x1, .f32⟩
  | .local _ .vmem, ⟨24, _⟩ => ⟨S1x16x1, .f32⟩
  | .local _ .vmem, ⟨25, _⟩ => ⟨S1x1x16, .f32⟩
  | .local _ .vmem, ⟨26, _⟩ => ⟨S1x1x16, .f32⟩
  | .local _ .vmem, ⟨27, _⟩ => ⟨S1x1x1, .f32⟩
  | .local _ .vmem, ⟨28, _⟩ => ⟨S1x1x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev main_v4_7 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_6 : Ref sig .tc := ⟨.hbm, 37, rfl⟩
abbrev main_v14 : Ref sig .tc := ⟨.hbm, 38, rfl⟩
abbrev main_v15 : Ref sig .tc := ⟨.hbm, 39, rfl⟩
abbrev main_cst_7 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_8 : Ref sig .tc := ⟨.hbm, 45, rfl⟩
abbrev main_v20 : Ref sig .tc := ⟨.hbm, 46, rfl⟩
abbrev main_v21 : Ref sig .tc := ⟨.hbm, 47, rfl⟩
abbrev main_cst_9 : Ref sig .tc := ⟨.hbm, 48, rfl⟩
abbrev main_v22 : Ref sig .tc := ⟨.hbm, 49, rfl⟩
abbrev main_cst_10 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_11 : Ref sig .tc := ⟨.hbm, 54, rfl⟩
abbrev main_v26 : Ref sig .tc := ⟨.hbm, 55, rfl⟩
abbrev main_cst_12 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_13 : Ref sig .tc := ⟨.hbm, 65, rfl⟩
abbrev main_v35 : Ref sig .tc := ⟨.hbm, 66, rfl⟩
abbrev main_v36 : Ref sig .tc := ⟨.hbm, 67, rfl⟩
abbrev main_cst_14 : Ref sig .tc := ⟨.hbm, 68, rfl⟩
abbrev main_v37 : Ref sig .tc := ⟨.hbm, 69, rfl⟩
abbrev main_cst_15 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_16 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_17 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_18 : Ref sig .tc := ⟨.hbm, 97, rfl⟩
abbrev main_v61 : Ref sig .tc := ⟨.hbm, 98, rfl⟩
abbrev main_v62 : Ref sig .tc := ⟨.hbm, 99, rfl⟩
abbrev main_cst_19 : Ref sig .tc := ⟨.hbm, 100, rfl⟩
abbrev main_v63 : Ref sig .tc := ⟨.hbm, 101, rfl⟩
abbrev main_v64 : Ref sig .tc := ⟨.hbm, 102, rfl⟩
abbrev main_cst_20 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_21 : Ref sig .tc := ⟨.hbm, 108, rfl⟩
abbrev main_v69 : Ref sig .tc := ⟨.hbm, 109, rfl⟩
abbrev main_cst_22 : Ref sig .tc := ⟨.hbm, 110, rfl⟩
abbrev main_v70 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2000x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x16x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x16x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

class Facts₀ : Prop where
  shapeCasts_S100000_S100000x1 : S100000.ShapeCasts S100000x1
  shapeCasts_S128_S1x128 : S128.ShapeCasts S1x128
  shapeCasts_S16_S1x16 : S16.ShapeCasts S1x16
  shapeCasts_S_S1x1 : S_.ShapeCasts S1x1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x16x3_S1x16x3_0_0_0 : ∀ a, (![0, 0, 0] : Fin 3 → Nat) a + S1x16x3.size a ≤ S1x16x3.size a
  h_S1x16x3 : 0 < S1x16x3.numel
  shapeCasts_S1x16x3_S16x3 : S1x16x3.ShapeCasts S16x3
  shapeCasts_S16x3_S1x16x3 : S16x3.ShapeCasts S1x16x3
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  shapeCasts_S1x16_S1x1x16 : S1x16.ShapeCasts S1x1x16
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2000x128_S2000x128_0_0 : ∀ a, (![0, 0] : Fin 2 → Nat) a + S2000x128.size a ≤ S2000x128.size a
  h_S2000x128 : 0 < S2000x128.numel
  inb_S2000x3_S2000x3_0_0 : ∀ a, (![0, 0] : Fin 2 → Nat) a + S2000x3.size a ≤ S2000x3.size a
  h_S2000x3 : 0 < S2000x3.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x16_S2000x16_0_0 : ∀ a, (![0, 0] : Fin 2 → Nat) a + S2000x16.size a ≤ S2000x16.size a
  h_S2000x16 : 0 < S2000x16.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x128_S2000x128 : S1x128.Broadcasts S2000x128
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  reduces_S2000x16_S16 : S2000x16.Reduces [0] S16
  shapeCasts_S2000x16_S1x2000x16 : S2000x16.ShapeCasts S1x2000x16
  reduces_S1x2000x16_S1 : S1x2000x16.Reduces [1, 2] S1
  shapeCasts_S1_S1x1x1 : S1.ShapeCasts S1x1x1
  inpos_S1x1x1_p0_0_0 : ∀ a, (![0, 0, 0] : Fin 3 → Nat) a < S1x1x1.size a
  reduces_S2000x3_S2000 : S2000x3.Reduces [1] S2000
  iota_S2000x256_d1_w32 : S2000x256.Iotas .tc 32 [1]
  natLt_1_32 : 1 < 32
  broadcasts_S2000x1_S2000x256 : S2000x1.Broadcasts S2000x256
  concatenates_S2000x16_S2000x16_S2000x16_S2000x16_S2000x16_S2000x16_S2000x16_S2000x16_S2000x16_S2000x16_S2000x16_S2000x16_S2000x16_S2000x16_S2000x16_S2000x16_S2000x256_d1 : Shape.Concatenates [S2000x16, S2000x16, S2000x16, S2000x16, S2000x16, S2000x16, S2000x16, S2000x16, S2000x16, S2000x16, S2000x16, S2000x16, S2000x16, S2000x16, S2000x16, S2000x16] S2000x256 1
  reduces_S2000x256_S256 : S2000x256.Reduces [0] S256
  shapeCasts_S256_S1x256 : S256.ShapeCasts S1x256
  reducesTo_S2x256x128_S256x128_d0 : S2x256x128.ReducesTo [0] S256x128
  h_S_ : 0 < S_.numel
  reducesTo_S2x256x3_S256x3_d0 : S2x256x3.ReducesTo [0] S256x3
  reducesTo_S2x1x256_S1x256_d0 : S2x1x256.ReducesTo [0] S1x256
  reducesTo_S2x16x3_S16x3_d0 : S2x16x3.ReducesTo [0] S16x3
  reducesTo_S2x16x1_S16x1_d0 : S2x16x1.ReducesTo [0] S16x1
  reducesTo_S2x1x16_S1x16_d0 : S2x1x16.ReducesTo [0] S1x16
  reducesTo_S2x1x1_S1x1_d0 : S2x1x1.ReducesTo [0] S1x1
  shapeCasts_S256x128_S16x16x128 : S256x128.ShapeCasts S16x16x128
  shapeCasts_S1x16_S16 : S1x16.ShapeCasts S16
  bcast_S_S16 : S_.BroadcastsInDim S16 (![] : Fin 0 → Fin S16.rank)
  reducesTo_S16_S_d0 : S16.ReducesTo [0] S_
  shapeCasts_S1x1_S_ : S1x1.ShapeCasts S_
  bcast_S16_S16x1_0 : S16.BroadcastsInDim S16x1 (![0] : Fin 1 → Fin S16x1.rank)
  bcast_S16x1_S16x3_0_1 : S16x1.BroadcastsInDim S16x3 (![0, 1] : Fin 2 → Fin S16x3.rank)
  shapeCasts_S16x1_S16 : S16x1.ShapeCasts S16
  reducesTo_S16x3_S16_d1 : S16x3.ReducesTo [1] S16
  shapeCasts_S256x3_S16x16x3 : S256x3.ShapeCasts S16x16x3
  shapeCasts_S1x256_S256 : S1x256.ShapeCasts S256
  shapeCasts_S256_S16x16 : S256.ShapeCasts S16x16
  bcast_S16x16_S16x16x1_0_1 : S16x16.BroadcastsInDim S16x16x1 (![0, 1] : Fin 2 → Fin S16x16x1.rank)
  bcast_S_S16x16x1 : S_.BroadcastsInDim S16x16x1 (![] : Fin 0 → Fin S16x16x1.rank)
  bcast_S16x16x1_S16x16x3_0_1_2 : S16x16x1.BroadcastsInDim S16x16x3 (![0, 1, 2] : Fin 3 → Fin S16x16x3.rank)
  bcast_S16x16x3_S16x16x1x3_0_1_3 : S16x16x3.BroadcastsInDim S16x16x1x3 (![0, 1, 3] : Fin 3 → Fin S16x16x1x3.rank)
  bcast_S16x16x3_S16x1x16x3_0_2_3 : S16x16x3.BroadcastsInDim S16x1x16x3 (![0, 2, 3] : Fin 3 → Fin S16x1x16x3.rank)
  bcast_S16x16x1x3_S16x16x16x3_0_1_2_3 : S16x16x1x3.BroadcastsInDim S16x16x16x3 (![0, 1, 2, 3] : Fin 4 → Fin S16x16x16x3.rank)
  bcast_S16x1x16x3_S16x16x16x3_0_1_2_3 : S16x1x16x3.BroadcastsInDim S16x16x16x3 (![0, 1, 2, 3] : Fin 4 → Fin S16x16x16x3.rank)
  reducesTo_S16x16x16x3_S16x16x16_d3 : S16x16x16x3.ReducesTo [3] S16x16x16
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S_S16x16x16 : S_.BroadcastsInDim S16x16x16 (![] : Fin 0 → Fin S16x16x16.rank)
  bcast_S_S1x16x16 : S_.BroadcastsInDim S1x16x16 (![] : Fin 0 → Fin S1x16x16.rank)
  bcast_S1x16x16_S16x16x16_0_1_2 : S1x16x16.BroadcastsInDim S16x16x16 (![0, 1, 2] : Fin 3 → Fin S16x16x16.rank)
  reducesTo_S16x16x16_S_d0_1_2 : S16x16x16.ReducesTo [0, 1, 2] S_
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  dot_S2000x16_S2000x3_S16x3_0_0_1_1_n_n_wf : DotDims.WF S2000x16 S2000x3 S16x3 [0] [0] [1] [1] [] []
  dot_S2000x16_S2000x1_S16x1_0_0_1_1_n_n_wf : DotDims.WF S2000x16 S2000x1 S16x1 [0] [0] [1] [1] [] []
  dot_S2000x256_S2000x3_S256x3_0_0_1_1_n_n_wf : DotDims.WF S2000x256 S2000x3 S256x3 [0] [0] [1] [1] [] []
  dot_S2000x256_S2000x128_S256x128_0_0_1_1_n_n_wf : DotDims.WF S2000x256 S2000x128 S256x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S100000x3.size a
  hwx0_1 : ∀ i : grid0.Coords, EltTy.bits .f32 = 32 ∨ (Rect.block (s := S100000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .i32 = 32 ∨ (Rect.block (s := S100000x1) S2000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .f32 = 32 ∨ (Rect.block (s := S100000x16) S2000x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x16.size a ≤ S128x16.size a
  hwx0_6 : ∀ i : grid0.Coords, EltTy.bits .f32 = 32 ∨ (Rect.block (s := S128x16) S128x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x16.size a ≤ S100000x16.size a
  hwx0_9 : ∀ i : grid0.Coords, EltTy.bits .f32 = 32 ∨ (Rect.block (s := S100000x16) S2000x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x128.size a ≤ S2x256x128.size a
  hwx0_10 : ∀ i : grid0.Coords, EltTy.bits .f32 = 32 ∨ (Rect.block (s := S2x256x128) S1x256x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x3.size a ≤ S2x256x3.size a
  hwx0_11 : ∀ i : grid0.Coords, EltTy.bits .f32 = 32 ∨ (Rect.block (s := S2x256x3) S1x256x3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x256.size a ≤ S2x1x256.size a
  hwx0_12 : ∀ i : grid0.Coords, EltTy.bits .f32 = 32 ∨ (Rect.block (s := S2x1x256) S1x1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x16x3.size a ≤ S2x16x3.size a
  hwx0_13 : ∀ i : grid0.Coords, EltTy.bits .f32 = 32 ∨ (Rect.block (s := S2x16x3) S1x16x3.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x16x1.size a ≤ S2x16x1.size a
  hwx0_14 : ∀ i : grid0.Coords, EltTy.bits .f32 = 32 ∨ (Rect.block (s := S2x16x1) S1x16x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x16.size a ≤ S2x1x16.size a
  hwx0_15 : ∀ i : grid0.Coords, EltTy.bits .f32 = 32 ∨ (Rect.block (s := S2x1x16) S1x1x16.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x1.size a ≤ S2x1x1.size a
  hwx0_16 : ∀ i : grid0.Coords, EltTy.bits .f32 = 32 ∨ (Rect.block (s := S2x1x1) S1x1x1.size (cc0_transform_16 i) (hinb0_16 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def dot_S2000x16_S2000x3_S16x3_0_0_1_1_n_n : DotDims S2000x16 S2000x3 S16x3 where
  lhsContracting := [0]
  rhsContracting := [0]
  lhsNonContracting := [1]
  rhsNonContracting := [1]
  lhsBatch := []
  rhsBatch := []
  wf := dot_S2000x16_S2000x3_S16x3_0_0_1_1_n_n_wf
def dot_S2000x16_S2000x1_S16x1_0_0_1_1_n_n : DotDims S2000x16 S2000x1 S16x1 where
  lhsContracting := [0]
  rhsContracting := [0]
  lhsNonContracting := [1]
  rhsNonContracting := [1]
  lhsBatch := []
  rhsBatch := []
  wf := dot_S2000x16_S2000x1_S16x1_0_0_1_1_n_n_wf
def dot_S2000x256_S2000x3_S256x3_0_0_1_1_n_n : DotDims S2000x256 S2000x3 S256x3 where
  lhsContracting := [0]
  rhsContracting := [0]
  lhsNonContracting := [1]
  rhsNonContracting := [1]
  lhsBatch := []
  rhsBatch := []
  wf := dot_S2000x256_S2000x3_S256x3_0_0_1_1_n_n_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S2000x16.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S1x256x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S1x256x3.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_3) S1x1x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_4) S1x16x3.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v4_5) S1x16x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4_6) S1x1x16.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v4_7) S1x1x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000x3 : Shape := ⟨2, ![100000, 3]⟩
abbrev S100000 : Shape := ⟨1, ![100000]⟩
abbrev S100000x16 : Shape := ⟨2, ![100000, 16]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S1x128 : Shape := ⟨2, ![1, 128]⟩
abbrev S1x16 : Shape := ⟨2, ![1, 16]⟩
abbrev S100000x1 : Shape := ⟨2, ![100000, 1]⟩
abbrev S16x100000 : Shape := ⟨2, ![16, 100000]⟩
abbrev S16x3 : Shape := ⟨2, ![16, 3]⟩
abbrev S16x1 : Shape := ⟨2, ![16, 1]⟩
abbrev S100000x1x3 : Shape := ⟨3, ![100000, 1, 3]⟩
abbrev S100000x16x1 : Shape := ⟨3, ![100000, 16, 1]⟩
abbrev S100000x16x3 : Shape := ⟨3, ![100000, 16, 3]⟩
abbrev S16x16x3 : Shape := ⟨3, ![16, 16, 3]⟩
abbrev S16x16 : Shape := ⟨2, ![16, 16]⟩
abbrev S16x16x1 : Shape := ⟨3, ![16, 16, 1]⟩
abbrev S16x16x1x3 : Shape := ⟨4, ![16, 16, 1, 3]⟩
abbrev S16x1x16x3 : Shape := ⟨4, ![16, 1, 16, 3]⟩
abbrev S16x16x16x3 : Shape := ⟨4, ![16, 16, 16, 3]⟩
abbrev S16x16x16 : Shape := ⟨3, ![16, 16, 16]⟩
abbrev S1x16x16 : Shape := ⟨3, ![1, 16, 16]⟩
abbrev S100000x1x128 : Shape := ⟨3, ![100000, 1, 128]⟩
abbrev S100000x16x128 : Shape := ⟨3, ![100000, 16, 128]⟩
abbrev S16x16x128 : Shape := ⟨3, ![16, 16, 128]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S100000x3, .f32⟩
  | 2 => ⟨S100000, .i32⟩
  | 3 => ⟨S100000x16, .f32⟩
  | 4 => ⟨S128x128, .f32⟩
  | 5 => ⟨S128, .f32⟩
  | 6 => ⟨S128x16, .f32⟩
  | 7 => ⟨S16, .f32⟩
  | 8 => ⟨S_, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x16, .f32⟩
  | 17 => ⟨S1x16, .f32⟩
  | 18 => ⟨S100000x16, .f32⟩
  | 19 => ⟨S100000x16, .f32⟩
  | 20 => ⟨S100000x16, .f32⟩
  | 21 => ⟨S100000x16, .f32⟩
  | 22 => ⟨S100000x16, .f32⟩
  | 23 => ⟨S_, .f32⟩
  | 24 => ⟨S100000x16, .f32⟩
  | 25 => ⟨S100000x16, .f32⟩
  | 26 => ⟨S_, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x16, .f32⟩
  | 33 => ⟨S100000x16, .f32⟩
  | 34 => ⟨S100000x16, .f32⟩
  | 35 => ⟨S_, .f32⟩
  | 36 => ⟨S100000, .f32⟩
  | 37 => ⟨S100000x1, .f32⟩
  | 38 => ⟨S100000x16, .f32⟩
  | 39 => ⟨S100000x16, .f32⟩
  | 40 => ⟨S_, .f32⟩
  | 41 => ⟨S100000x16, .f32⟩
  | 42 => ⟨S100000x16, .f32⟩
  | 43 => ⟨S100000x16, .f32⟩
  | 44 => ⟨S100000x16, .f32⟩
  | 45 => ⟨S_, .f32⟩
  | 46 => ⟨S100000, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S16, .f32⟩
  | 61 => ⟨S16, .f32⟩
  | 62 => ⟨S_, .f32⟩
  | 63 => ⟨S_, .f32⟩
  | 64 => ⟨S16, .f32⟩
  | 65 => ⟨S_, .f32⟩
  | 66 => ⟨S_, .f32⟩
  | 67 => ⟨S_, .f32⟩
  | 68 => ⟨S_, .f32⟩
  | 69 => ⟨S_, .f32⟩
  | 70 => ⟨S16, .f32⟩
  | 71 => ⟨S1x16, .f32⟩
  | 72 => ⟨S_, .f32⟩
  | 73 => ⟨S1x16, .f32⟩
  | 74 => ⟨S1x16, .f32⟩
  | 75 => ⟨S100000x16, .f32⟩
  | 76 => ⟨S100000x16, .f32⟩
  | 77 => ⟨S16x100000, .f32⟩
  | 78 => ⟨S16x3, .f32⟩
  | 79 => ⟨S100000x3, .f32⟩
  | 80 => ⟨S_, .f32⟩
  | 81 => ⟨S100000, .f32⟩
  | 82 => ⟨S100000x1, .f32⟩
  | 83 => ⟨S16x3, .f32⟩
  | 84 => ⟨S_, .f32⟩
  | 85 => ⟨S16, .f32⟩
  | 86 => ⟨S16x100000, .f32⟩
  | 87 => ⟨S16x1, .f32⟩
  | 88 => ⟨S16, .f32⟩
  | 89 => ⟨S16x3, .f32⟩
  | 90 => ⟨S_, .f32⟩
  | 91 => ⟨S16, .f32⟩
  | 92 => ⟨S_, .f32⟩
  | 93 => ⟨S16, .f32⟩
  | 94 => ⟨S16, .f32⟩
  | 95 => ⟨S16, .f32⟩
  | 96 => ⟨S16, .f32⟩
  | 97 => ⟨S_, .f32⟩
  | 98 => ⟨S_, .f32⟩
  | 99 => ⟨S_, .f32⟩
  | 100 => ⟨S_, .f32⟩
  | 101 => ⟨S100000x1x3, .f32⟩
  | 102 => ⟨S100000x16x1, .f32⟩
  | 103 => ⟨S100000x16x3, .f32⟩
  | 104 => ⟨S100000x16x3, .f32⟩
  | 105 => ⟨S100000x16x3, .f32⟩
  | 106 => ⟨S_, .f32⟩
  | 107 => ⟨S16x16x3, .f32⟩
  | 108 => ⟨S100000x1, .i32⟩
  | 109 => ⟨S16x16x3, .f32⟩
  | 110 => ⟨S_, .f32⟩
  | 111 => ⟨S16x16, .f32⟩
  | 112 => ⟨S100000x1, .i32⟩
  | 113 => ⟨S16x16, .f32⟩
  | 114 => ⟨S16x16x1, .f32⟩
  | 115 => ⟨S_, .f32⟩
  | 116 => ⟨S16x16x1, .f32⟩
  | 117 => ⟨S16x16x1, .f32⟩
  | 118 => ⟨S16x16x3, .f32⟩
  | 119 => ⟨S16x16x3, .f32⟩
  | 120 => ⟨S16x16x1x3, .f32⟩
  | 121 => ⟨S16x1x16x3, .f32⟩
  | 122 => ⟨S16x16x16x3, .f32⟩
  | 123 => ⟨S16x16x16x3, .f32⟩
  | 124 => ⟨S16x16x16x3, .f32⟩
  | 125 => ⟨S16x16x16x3, .f32⟩
  | 126 => ⟨S_, .f32⟩
  | 127 => ⟨S16x16x16, .f32⟩
  | _ => ⟨S100000x128, .f32⟩

abbrev hbmTy0_1 (i : Nat) : BufTy := match i % 128 with
  | 0 => ⟨S16x16, .i32⟩
  | 1 => ⟨S16x16, .i32⟩
  | 2 => ⟨S_, .i32⟩
  | 3 => ⟨S16x16, .i32⟩
  | 4 => ⟨S16x16, .i32⟩
  | 5 => ⟨S16x16, .i1⟩
  | 6 => ⟨S16x16, .f32⟩
  | 7 => ⟨S1x16x16, .f32⟩
  | 8 => ⟨S_, .f32⟩
  | 9 => ⟨S16x16x16, .f32⟩
  | 10 => ⟨S16x16x16, .f32⟩
  | 11 => ⟨S_, .f32⟩
  | 12 => ⟨S16x16x16, .f32⟩
  | 13 => ⟨S16x16x16, .f32⟩
  | 14 => ⟨S_, .f32⟩
  | 15 => ⟨S1x16x16, .f32⟩
  | 16 => ⟨S1x16x16, .f32⟩
  | 17 => ⟨S16x16x16, .f32⟩
  | 18 => ⟨S16x16x16, .f32⟩
  | 19 => ⟨S_, .f32⟩
  | 20 => ⟨S_, .f32⟩
  | 21 => ⟨S_, .f32⟩
  | 22 => ⟨S_, .f32⟩
  | 23 => ⟨S100000x1x128, .f32⟩
  | 24 => ⟨S100000x16x1, .f32⟩
  | 25 => ⟨S100000x16x128, .f32⟩
  | 26 => ⟨S100000x16x128, .f32⟩
  | 27 => ⟨S100000x16x128, .f32⟩
  | 28 => ⟨S_, .f32⟩
  | 29 => ⟨S16x16x128, .f32⟩
  | 30 => ⟨S100000x1, .i32⟩
  | 31 => ⟨S16x16x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_cst_13 : Ref sig .tc := ⟨.hbm, 69, rfl⟩
abbrev main_v44 : Ref sig .tc := ⟨.hbm, 70, rfl⟩
abbrev main_v45 : Ref sig .tc := ⟨.hbm, 71, rfl⟩
abbrev main_cst_14 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_16 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_17 : Ref sig .tc := ⟨.hbm, 90, rfl⟩
abbrev main_v61 : Ref sig .tc := ⟨.hbm, 91, rfl⟩
abbrev main_cst_18 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_19 : Ref sig .tc := ⟨.hbm, 97, rfl⟩
abbrev main_v66 : Ref sig .tc := ⟨.hbm, 98, rfl⟩
abbrev main_cst_20 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_21 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_22 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_23 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_24 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_25 : Ref sig .tc := ⟨.hbm, 136, rfl⟩
abbrev main_v98 : Ref sig .tc := ⟨.hbm, 137, rfl⟩
abbrev main_v99 : Ref sig .tc := ⟨.hbm, 138, rfl⟩
abbrev main_cst_26 : Ref sig .tc := ⟨.hbm, 139, rfl⟩
abbrev main_v100 : Ref sig .tc := ⟨.hbm, 140, rfl⟩
abbrev main_v101 : Ref sig .tc := ⟨.hbm, 141, rfl⟩
abbrev main_cst_27 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_28 : Ref sig .tc := ⟨.hbm, 147, rfl⟩
abbrev main_v106 : Ref sig .tc := ⟨.hbm, 148, rfl⟩
abbrev main_cst_29 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_30 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  reducesTo_S100000_S_d0 : S100000.ReducesTo [0] S_
  reducesTo_S100000x16_S16_d0 : S100000x16.ReducesTo [0] S16
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  transposes_S100000x16_S16x100000_1_0 : S100000x16.Transposes [1, 0] S16x100000
  reducesTo_S100000x3_S100000_d1 : S100000x3.ReducesTo [1] S100000
  reducesTo_S16x3_S16_d1 : S16x3.ReducesTo [1] S16
  shapeCasts_S16x1_S16 : S16x1.ShapeCasts S16
  bcast_S100000x3_S100000x1x3_0_2 : S100000x3.BroadcastsInDim S100000x1x3 (![0, 2] : Fin 2 → Fin S100000x1x3.rank)
  bcast_S100000x16_S100000x16x1_0_1 : S100000x16.BroadcastsInDim S100000x16x1 (![0, 1] : Fin 2 → Fin S100000x16x1.rank)
  bcast_S100000x1x3_S100000x16x3_0_1_2 : S100000x1x3.BroadcastsInDim S100000x16x3 (![0, 1, 2] : Fin 3 → Fin S100000x16x3.rank)
  bcast_S100000x16x1_S100000x16x3_0_1_2 : S100000x16x1.BroadcastsInDim S100000x16x3 (![0, 1, 2] : Fin 3 → Fin S100000x16x3.rank)
  bcast_S_S16x16x3 : S_.BroadcastsInDim S16x16x3 (![] : Fin 0 → Fin S16x16x3.rank)
  bcast_S_S16x16 : S_.BroadcastsInDim S16x16 (![] : Fin 0 → Fin S16x16.rank)
  bcast_S16x16_S16x16x1_0_1 : S16x16.BroadcastsInDim S16x16x1 (![0, 1] : Fin 2 → Fin S16x16x1.rank)
  bcast_S_S16x16x1 : S_.BroadcastsInDim S16x16x1 (![] : Fin 0 → Fin S16x16x1.rank)
  bcast_S16x16x1_S16x16x3_0_1_2 : S16x16x1.BroadcastsInDim S16x16x3 (![0, 1, 2] : Fin 3 → Fin S16x16x3.rank)
  bcast_S16x16x3_S16x16x1x3_0_1_3 : S16x16x3.BroadcastsInDim S16x16x1x3 (![0, 1, 3] : Fin 3 → Fin S16x16x1x3.rank)
  bcast_S16x16x3_S16x1x16x3_0_2_3 : S16x16x3.BroadcastsInDim S16x1x16x3 (![0, 2, 3] : Fin 3 → Fin S16x1x16x3.rank)
  bcast_S16x16x1x3_S16x16x16x3_0_1_2_3 : S16x16x1x3.BroadcastsInDim S16x16x16x3 (![0, 1, 2, 3] : Fin 4 → Fin S16x16x16x3.rank)
  bcast_S16x1x16x3_S16x16x16x3_0_1_2_3 : S16x1x16x3.BroadcastsInDim S16x16x16x3 (![0, 1, 2, 3] : Fin 4 → Fin S16x16x16x3.rank)
  reducesTo_S16x16x16x3_S16x16x16_d3 : S16x16x16x3.ReducesTo [3] S16x16x16
  bcast_S16x16_S1x16x16_1_2 : S16x16.BroadcastsInDim S1x16x16 (![1, 2] : Fin 2 → Fin S1x16x16.rank)
  bcast_S_S16x16x16 : S_.BroadcastsInDim S16x16x16 (![] : Fin 0 → Fin S16x16x16.rank)
  bcast_S_S1x16x16 : S_.BroadcastsInDim S1x16x16 (![] : Fin 0 → Fin S1x16x16.rank)
  bcast_S1x16x16_S16x16x16_0_1_2 : S1x16x16.BroadcastsInDim S16x16x16 (![0, 1, 2] : Fin 3 → Fin S16x16x16.rank)
  reducesTo_S16x16x16_S_d0_1_2 : S16x16x16.ReducesTo [0, 1, 2] S_
  bcast_S100000x128_S100000x1x128_0_2 : S100000x128.BroadcastsInDim S100000x1x128 (![0, 2] : Fin 2 → Fin S100000x1x128.rank)
  bcast_S100000x1x128_S100000x16x128_0_1_2 : S100000x1x128.BroadcastsInDim S100000x16x128 (![0, 1, 2] : Fin 3 → Fin S100000x16x128.rank)
  bcast_S100000x16x1_S100000x16x128_0_1_2 : S100000x16x1.BroadcastsInDim S100000x16x128 (![0, 1, 2] : Fin 3 → Fin S100000x16x128.rank)
  bcast_S_S16x16x128 : S_.BroadcastsInDim S16x16x128 (![] : Fin 0 → Fin S16x16x128.rank)
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []
  dot_S16x100000_S100000x3_S16x3_1_0_0_1_n_n_wf : DotDims.WF S16x100000 S100000x3 S16x3 [1] [0] [0] [1] [] []
  dot_S16x100000_S100000x1_S16x1_1_0_0_1_n_n_wf : DotDims.WF S16x100000 S100000x1 S16x1 [1] [0] [0] [1] [] []
  scatter_S16x16x3_S100000x1_S100000x16x3_12_0_0_1_wf : ScatterDims.WF S16x16x3 S100000x1 S100000x16x3 [1, 2] [0] [0] 1
  scatter_S16x16_S100000x1_S100000x16_1_0_0_1_wf : ScatterDims.WF S16x16 S100000x1 S100000x16 [1] [0] [0] 1
  scatter_S16x16x128_S100000x1_S100000x16x128_12_0_0_1_wf : ScatterDims.WF S16x16x128 S100000x1 S100000x16x128 [1, 2] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S16x100000_S100000x3_S16x3_1_0_0_1_n_n : DotDims S16x100000 S100000x3 S16x3 where
  lhsContracting := [1]
  rhsContracting := [0]
  lhsNonContracting := [0]
  rhsNonContracting := [1]
  lhsBatch := []
  rhsBatch := []
  wf := dot_S16x100000_S100000x3_S16x3_1_0_0_1_n_n_wf
def dot_S16x100000_S100000x1_S16x1_1_0_0_1_n_n : DotDims S16x100000 S100000x1 S16x1 where
  lhsContracting := [1]
  rhsContracting := [0]
  lhsNonContracting := [0]
  rhsNonContracting := [1]
  lhsBatch := []
  rhsBatch := []
  wf := dot_S16x100000_S100000x1_S16x1_1_0_0_1_n_n_wf
def scatter_S16x16x3_S100000x1_S100000x16x3_12_0_0_1 : ScatterDims S16x16x3 S100000x1 S100000x16x3 where
  updateWindowDims := [1, 2]
  insertedWindowDims := [0]
  scatterDimsToOperandDims := [0]
  indexVectorDim := 1
  wf := scatter_S16x16x3_S100000x1_S100000x16x3_12_0_0_1_wf
def scatter_S16x16_S100000x1_S100000x16_1_0_0_1 : ScatterDims S16x16 S100000x1 S100000x16 where
  updateWindowDims := [1]
  insertedWindowDims := [0]
  scatterDimsToOperandDims := [0]
  indexVectorDim := 1
  wf := scatter_S16x16_S100000x1_S100000x16_1_0_0_1_wf
def scatter_S16x16x128_S100000x1_S100000x16x128_12_0_0_1 : ScatterDims S16x16x128 S100000x1 S100000x16x128 where
  updateWindowDims := [1, 2]
  insertedWindowDims := [0]
  scatterDimsToOperandDims := [0]
  indexVectorDim := 1
  wf := scatter_S16x16x128_S100000x1_S100000x16x128_12_0_0_1_wf

class Facts : Prop extends Facts₀ where

variable [Facts]
-- ==== Proof.K.Cond.lean ====
/-
  The body's one branch: the accumulators are reset at the first step of each core's row range, that is at the grid
  points whose second coordinate is 0 — the points 0 and 25 of the 50.
-/
import proofs.«406053_j76209899700419_3_alg».proof.Proof.Gen.Kernel.Launch
import proofs.«406053_j76209899700419_3_alg».proof.Proof.Gen.Kernel.Skeleton
import proofs.«406053_j76209899700419_3_alg».proof.Proof.Gen.Kernel.Points

noncomputable section

namespace Cert.Kernel.Fr

open Idealize.ShloMosaic Idealize.ShloMosaic.TcCoe
open Cert.Kernel Cert.Kernel.Gen

/-- The condition of the body's branch, from the grid coordinates (the printed scalar chain). -/
abbrev cond0_0 (i : grid0.Coords) : Prop :=
  (Scalar.cmpi .ne (Scalar.extui (Scalar.cmpi .eq (BitVec.ofNat 32 (i 1).val) 0#32)) 0#32) = 1#1

/-- It holds exactly at the points that are multiples of 25. -/
theorem hcond0_0 : ∀ t : Fin cfg0.N, cond0_0 (grid0.coords t) ↔ t.val % 25 = 0 :=
  (by decide +kernel : ∀ t : Fin grid0.N, cond0_0 (grid0.coords t) ↔ t.val % 25 = 0)

end Cert.Kernel.Fr

end
-- ==== Proof.K.Blocks.lean ====
/-
  What the region finds in each core's buffers, and each window's block of it at a grid point.

  Before the region the program only re-lays four arguments (the segment words as a column, the two biases as rows, the
  scale as a 1×1 array); the region's windows then cut, at grid point t = 25·core + step, rows [2000·t, 2000·t + 2000) of
  the row-indexed arrays, the whole of the weight arrays, and slab `core` of each accumulator.
-/
import proofs.«406053_j76209899700419_3_alg».proof.Proof.K.Cond
import Idealize.ShloMosaic.Lib.Pipeline.FrameBody
import Idealize.ShloMosaic.Lib.Pipeline.FrameSuffix

set_option maxRecDepth 16384

noncomputable section

namespace Cert.Kernel.Fr

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- Core `c`'s TensorCore buffer contents when the region is entered, as a valuation: after the four re-laying lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Fr

end
-- ==== Proof.K.Shared.lean ====
/-
  What the frame certificate of the printed program shares.

  @main is four re-laying lines, the one region, and ninety-one lines after it.  The lines before the region write only the
  four re-laid copies; the lines after it write only buffers of their own, none of them an array of the region's seventeen
  windows and none of them an argument.  So every argument buffer reads, through the region-entry valuation and through the
  tail, what the launch put there; every input window's staging buffer holds its block at every grid point, fetched there
  or not; and the frame claim's post follows from the frame run's.
-/
import proofs.«406053_j76209899700419_3_alg».proof.Proof.K.Blocks

set_option maxRecDepth 16384

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host lines write -/

/-- The buffers the four lines before the region write: the re-laid copies. -/
def headW : List (Ref sig .tc) := [main_v0, main_v1, main_v2, main_v3]

/-- The buffers the ninety-one lines after the region write, line by line. -/
def tailW : List (Ref sig .tc) :=
  [main_cst, main_v5, main_cst_0, main_v6, main_cst_1, main_v7, main_cst_2, main_v8, main_cst_3, main_v9, main_cst_4, main_v10, main_cst_5, main_v11, main_v12, main_v13, main_cst_6, main_v14, main_v15, main_cst_7, main_v16, main_v17, main_v18, main_v19, main_cst_8, main_v20, main_v21, main_cst_9, main_v22, main_cst_10, main_v23, main_v24, main_v25, main_cst_11, main_v26, main_cst_12, main_v27, main_v28, main_v29, main_v30, main_v31, main_v32, main_v33, main_v34, main_cst_13, main_v35, main_v36, main_cst_14, main_v37, main_cst_15, main_v38, main_v39, main_v40, main_v41, main_v42, main_cst_16, main_v43, main_v44, main_v45, main_v46, main_v47, main_v48, main_v49, main_v50, main_v51, main_v52, main_cst_17, main_v53, main_v54, main_v55, main_c, main_v56, main_v57, main_v58, main_v59, main_v60, main_cst_18, main_v61, main_v62, main_cst_19, main_v63, main_v64, main_cst_20, main_v65, main_v66, main_v67, main_v68, main_cst_21, main_v69, main_cst_22, main_v70]

/-- A line whose one result buffer is in a list writes within the list. -/
theorem single_sub (W : List (Ref sig .tc)) (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-- The lines before the region write the re-laid copies only. -/
theorem hostOps0_writes : (List.flatten [(hostOps0 : List (HloOp τ sig (Elt F)))]).Forall fun op =>
    op.writes ⊆ (headW.map (Proc.devRef (τ := τ) .tc)).toFinset := by
  show (hostOps0 : List (HloOp τ sig (Elt F))).Forall _
  simp only [List.Forall, StableHlo.reshape_writes]
  repeat' constructor
  all_goals exact single_sub headW _ (by decide)

set_option maxHeartbeats 4000000 in
/-- The lines after the region write their own result buffers only. -/
theorem hostOps1_writes : (hostOps1 : List (HloOp τ sig (Elt F))).Forall fun op =>
    op.writes ⊆ (tailW.map (Proc.devRef (τ := τ) .tc)).toFinset := by
  simp only [List.Forall, StableHlo.nullary_writes, StableHlo.unary_writes, StableHlo.binary_writes, StableHlo.reshape_writes]
  repeat' constructor
  all_goals exact single_sub tailW _ (by decide)

/-- No array of the region's windows is a result buffer of a later line. -/
theorem arr_not_tailW : ∀ w : Fin 17, Pipeline.arrRef spec0 w ∉ tailW := by decide

set_option maxHeartbeats 4000000 in
/-- The later lines allocate nothing. -/
theorem hostOps1_fresh : (hostOps1 : List (HloOp τ sig (Elt F))).Forall fun op => op.fresh = ∅ := by
  simp only [List.Forall]; repeat' constructor

/-! ## @main around the region -/

/-- The lines before the region allocate nothing. -/
theorem hostOps0_fresh : (hostOps0 : List (HloOp τ sig (Elt F))).Forall fun op => op.fresh = ∅ :=
  ⟨rfl, rfl, rfl, rfl⟩

set_option maxHeartbeats 4000000 in
/-- @main around the region: the four lines before it, the region, then the later lines as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The later lines touch unscoped TensorCore buffers only: each an array of the region or a buffer bypassing it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop

/-- And they write no array of the region: what a line writes is in the list of result buffers, and no array is. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  obtain rfl := List.mem_singleton.mp hops
  obtain ⟨y, hy, he⟩ := List.mem_map.mp (List.mem_toFinset.mp ((List.forall_iff_forall_mem.mp hostOps1_writes) op hop hw))
  exact arr_not_tailW w (Proc.devRef_injective _ he ▸ hy)

/-! ## The argument buffers as the region finds them -/

theorem V_main_arg0 (c : Dev nD) : V m c main_arg0 = m ((c : Thread nD τ).loc main_arg0) :=
  StableHlo.after_of_writes_sub _ _ hostOps0_writes (by decide)
theorem V_main_arg1 (c : Dev nD) : V m c main_arg1 = m ((c : Thread nD τ).loc main_arg1) :=
  StableHlo.after_of_writes_sub _ _ hostOps0_writes (by decide)
theorem V_main_arg2 (c : Dev nD) : V m c main_arg2 = m ((c : Thread nD τ).loc main_arg2) :=
  StableHlo.after_of_writes_sub _ _ hostOps0_writes (by decide)
theorem V_main_arg3 (c : Dev nD) : V m c main_arg3 = m ((c : Thread nD τ).loc main_arg3) :=
  StableHlo.after_of_writes_sub _ _ hostOps0_writes (by decide)
theorem V_main_arg4 (c : Dev nD) : V m c main_arg4 = m ((c : Thread nD τ).loc main_arg4) :=
  StableHlo.after_of_writes_sub _ _ hostOps0_writes (by decide)
theorem V_main_arg5 (c : Dev nD) : V m c main_arg5 = m ((c : Thread nD τ).loc main_arg5) :=
  StableHlo.after_of_writes_sub _ _ hostOps0_writes (by decide)
theorem V_main_arg6 (c : Dev nD) : V m c main_arg6 = m ((c : Thread nD τ).loc main_arg6) :=
  StableHlo.after_of_writes_sub _ _ hostOps0_writes (by decide)
theorem V_main_arg7 (c : Dev nD) : V m c main_arg7 = m ((c : Thread nD τ).loc main_arg7) :=
  StableHlo.after_of_writes_sub _ _ hostOps0_writes (by decide)
theorem V_main_arg8 (c : Dev nD) : V m c main_arg8 = m ((c : Thread nD τ).loc main_arg8) :=
  StableHlo.after_of_writes_sub _ _ hostOps0_writes (by decide)

/-- A buffer that is no array of the region and that no host line writes holds, after the tail, what the launch put there. -/
theorem afterTail_untouched (dats : (p : Fin 1) → (c : Dev nD) → Dat τ (Elt F) Unit ℕ (UR sig nD τ) ℕ (cfgs p) c) (c : Dev nD)
    (b : Ref sig .tc) (h1 : b ∉ tailW) (h0 : b ∉ headW) (ha : ∀ w, Pipeline.arrRef spec0 w ≠ b) :
    Pipeline.afterTail₀ cfgs dats 0 (V0 m) [hostOps1] c b = m ((c : Thread nD τ).loc b) := by
  unfold Pipeline.afterTail₀
  rw [show List.flatten [(hostOps1 : List (HloOp τ sig (Elt F)))] = hostOps1 from List.append_nil _,
    StableHlo.after_of_writes_sub _ _ hostOps1_writes h1, Pipeline.withArrays_of_ne _ c _ _ b ha]
  exact StableHlo.after_of_writes_sub _ _ hostOps0_writes h0

/-! ## The input windows' staging buffers -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: an argument that is a window's array is an input's array, unchanged by the region and
    unwritten by the tail; an argument staged through a re-laid copy is a buffer bypassing the region, unwritten by every host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (Pipeline.mem_restRefs_of main_arg2 rfl (by decide))).trans (afterTail_untouched m dats c main_arg2 (by decide) (by decide) (by decide)),
     ((h c).1 3).trans (((dats 0 c).arrAt_in 3 rfl _).trans ((hA c 3).trans (V_main_arg3 m c))),
     ((h c).1 4).trans (((dats 0 c).arrAt_in 4 rfl _).trans ((hA c 4).trans (V_main_arg4 m c))),
     ((h c).2 main_arg5 (Pipeline.mem_restRefs_of main_arg5 rfl (by decide))).trans (afterTail_untouched m dats c main_arg5 (by decide) (by decide) (by decide)),
     ((h c).1 6).trans (((dats 0 c).arrAt_in 6 rfl _).trans ((hA c 6).trans (V_main_arg6 m c))),
     ((h c).2 main_arg7 (Pipeline.mem_restRefs_of main_arg7 rfl (by decide))).trans (afterTail_untouched m dats c main_arg7 (by decide) (by decide) (by decide)),
     ((h c).2 main_arg8 (Pipeline.mem_restRefs_of main_arg8 rfl (by decide))).trans (afterTail_untouched m dats c main_arg8 (by decide) (by decide) (by decide))⟩) h

/-! ## The staging memrefs at a point -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2000x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x3 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x16x3 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x16x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x16 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x1 .f32 := win0_16.stage (cfg0.slots t 16)
abbrev hs0_16 (t : Fin cfg0.N) : (ms0_16 t).IsWhole := hstage0_16 ((cfg0.slots t 16).cast nbuf0_16)

end Cert.Kernel.Fr

end
-- ==== Proof.K.Step.lean ====
/-
  One grid point's work as pure functions of the point's input blocks (generic in the float instance).

  From the blocks x0 (features), x1 (positions), x2 (segment words), x3 (noise) and the weights x4 … x8 the body computes the
  soft-assignment block `sBlk` and stores it; every accumulator buffer then ends at "what it held, plus this block's
  contribution" (`step10` … `step16`), where at a point that resets the accumulators "what it held" is the zero array
  the body has just stored (`zero10` … `zero16`).  `accAt` runs this along the grid: what the seven accumulator buffers
  hold after the body at each point.
-/
import proofs.«406053_j76209899700419_3_alg».proof.Proof.K.Blocks

set_option maxRecDepth 16384

noncomputable section

namespace Cert.Kernel.Fr

open Idealize.ShloMosaic Idealize.ShloMosaic.TcCoe
open Idealize.SL Idealize.SL.Sem
open Cert.Kernel Cert.Kernel.Gen

variable {F : FTy → Type} [FloatOps F]

/-- The seven accumulator buffers' contents: segment-wise feature sums, segment-wise position sums, segment-wise
    assignment sums, position sums, squared-length sums, assignment sums, the entropy sum. -/
abbrev Acc (F : FTy → Type) [FloatOps F] : Type :=
  Vec F S1x256x128 .f32 × Vec F S1x256x3 .f32 × Vec F S1x1x256 .f32 × Vec F S1x16x3 .f32 × Vec F S1x16x1 .f32
    × Vec F S1x1x16 .f32 × Vec F S1x1x1 .f32

section Point

variable (x0 : Vec F S2000x128 .f32) (x1 : Vec F S2000x3 .f32) (x2 : Vec F S2000x1 .i32) (x3 : Vec F S2000x16 .f32)
  (x4 : Vec F S128x128 .f32) (x5 : Vec F S1x128 .f32) (x6 : Vec F S128x16 .f32) (x7 : Vec F S1x16 .f32) (x8 : Vec F S1x1 .f32)

/-- The block's soft assignment (what the body stores into the assignment output). -/
def sBlk : FVec F S2000x16 .f32 := k0_pay16 (k0_pay14 x0 x3 x4 x5 x6 x7 x8) (k0_pay15 x0 x3 x4 x5 x6 x7 x8)

/-- "Column j belongs to the row's segment": the one-bit mask over the 256 (segment, cluster) columns. -/
def selBlk : IVec S2000x256 1 := k0_pay23 (k0_pay13 x2)

/-- The soft assignment repeated sixteen times along the columns. -/
def tileBlk : FVec F S2000x256 .f32 := k0_pay24 (sBlk x0 x3 x4 x5 x6 x7 x8)

def step10 (o : Vec F S1x256x128 .f32) : Vec F S1x256x128 .f32 := k0_pay4 x0 (selBlk x2) (tileBlk x0 x3 x4 x5 x6 x7 x8) o
def step11 (o : Vec F S1x256x3 .f32) : Vec F S1x256x3 .f32 := k0_pay2 x1 (selBlk x2) (tileBlk x0 x3 x4 x5 x6 x7 x8) o
def step12 (o : Vec F S1x1x256 .f32) : Vec F S1x1x256 .f32 := k0_pay3 (selBlk x2) (tileBlk x0 x3 x4 x5 x6 x7 x8) o
def step13 (o : Vec F S1x16x3 .f32) : Vec F S1x16x3 .f32 := k0_pay21 x1 (sBlk x0 x3 x4 x5 x6 x7 x8) (k0_pay20 o)
def step14 (o : Vec F S1x16x1 .f32) : Vec F S1x16x1 .f32 := k0_pay22 (sBlk x0 x3 x4 x5 x6 x7 x8) (k0_pay19 x1) o
def step15 (o : Vec F S1x1x16 .f32) : Vec F S1x1x16 .f32 :=
  k0_pay17 (k0_pay14 x0 x3 x4 x5 x6 x7 x8) (k0_pay15 x0 x3 x4 x5 x6 x7 x8) o
def step16 (o : Vec F S1x1x1 .f32) : Vec F S1x1x1 .f32 :=
  k0_pay18 (k0_pay14 x0 x3 x4 x5 x6 x7 x8) (k0_pay15 x0 x3 x4 x5 x6 x7 x8) o

/-- All seven accumulators advanced by one point. -/
def stepAll (o : Acc F) : Acc F :=
  (step10 x0 x2 x3 x4 x5 x6 x7 x8 o.1, step11 x0 x1 x2 x3 x4 x5 x6 x7 x8 o.2.1, step12 x0 x2 x3 x4 x5 x6 x7 x8 o.2.2.1,
   step13 x0 x1 x3 x4 x5 x6 x7 x8 o.2.2.2.1, step14 x0 x1 x3 x4 x5 x6 x7 x8 o.2.2.2.2.1, step15 x0 x3 x4 x5 x6 x7 x8 o.2.2.2.2.2.1,
   step16 x0 x3 x4 x5 x6 x7 x8 o.2.2.2.2.2.2)

end Point

/-- The zero arrays a resetting point stores first. -/
def zeroAll : Acc F := (k0_pay5, k0_pay6, k0_pay7, k0_pay8, k0_pay9, k0_pay10, k0_pay12 k0_pay11)

variable (m : (ℓ : Loc nD τ sig) → Buf (Elt F) ℓ)

/-- One point's step at the blocks the grid point cuts. -/
def stepAt (c : Dev nD) (t : Fin cfg0.N) (o : Acc F) : Acc F :=
  stepAll (iblk m c 0 t) (iblk m c 1 t) (iblk m c 2 t) (iblk m c 3 t) (iblk m c 4 t) (iblk m c 5 t) (iblk m c 6 t) (iblk m c 7 t)
    (iblk m c 8 t) o

/-- The soft-assignment block of point `t`. -/
def sAt (c : Dev nD) (t : Fin cfg0.N) : Vec F S2000x16 .f32 :=
  sBlk (iblk m c 0 t) (iblk m c 3 t) (iblk m c 4 t) (iblk m c 5 t) (iblk m c 6 t) (iblk m c 7 t) (iblk m c 8 t)

/-- THE ACCUMULATION: what the seven accumulator buffers hold after the body at position `n`: at a multiple of 25 the
    step from the zero arrays, elsewhere the step from what the point before left. -/
def accAt (c : Dev nD) : (n : ℕ) → n < cfg0.N → Acc F
  | 0, hn => stepAt m c ⟨0, hn⟩ zeroAll
  | n + 1, hn =>
    if (n + 1) % 25 = 0 then stepAt m c ⟨n + 1, hn⟩ zeroAll
    else stepAt m c ⟨n + 1, hn⟩ (accAt c n (Nat.lt_of_succ_lt hn))

/-- `accAt` at a resetting point. -/
theorem accAt_reset (c : Dev nD) (t : Fin cfg0.N) (h0 : t.val % 25 = 0) :
    accAt m c t.val t.isLt = stepAt m c t zeroAll := by
  obtain ⟨n, hn⟩ := t
  cases n with
  | zero => rfl
  | succ n => exact (if_pos h0).trans rfl

/-- `accAt` at a carrying point: the step over what the point before left. -/
theorem accAt_carry (c : Dev nD) (t : Fin cfg0.N) (h0 : ¬t.val % 25 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

end Cert.Kernel.Fr

end
-- ==== Proof.K.Dats.lean ====
/-
  The pipeline's proof data on one core: the arrays as the region finds them; after the body at grid point t every input
  window's buffer still at its block, the assignment output's buffer at the point's soft-assignment block, and the seven
  accumulator buffers at the running sums of `accAt`.
-/
import proofs.«406053_j76209899700419_3_alg».proof.Proof.K.Step

set_option maxRecDepth 16384

noncomputable section

namespace Cert.Kernel.Fr

open Idealize.ShloMosaic Idealize.ShloMosaic.TcCoe
open Idealize.SL Idealize.SL.RA Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => sAt m c t
    | ⟨10, _⟩ => (accAt m c t.val t.isLt).1
    | ⟨11, _⟩ => (accAt m c t.val t.isLt).2.1
    | ⟨12, _⟩ => (accAt m c t.val t.isLt).2.2.1
    | ⟨13, _⟩ => (accAt m c t.val t.isLt).2.2.2.1
    | ⟨14, _⟩ => (accAt m c t.val t.isLt).2.2.2.2.1
    | ⟨15, _⟩ => (accAt m c t.val t.isLt).2.2.2.2.2.1
    | ⟨16, _⟩ => (accAt m c t.val t.isLt).2.2.2.2.2.2
    | ⟨n + 17, h⟩ => absurd (show n + 17 < 17 from h) (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = sAt m c t := by dsimp only [dats]
theorem after0_10 (c : Dev nD) (t : Fin cfg0.N) : (dats m 0 c).after 10 t = (accAt m c t.val t.isLt).1 := by dsimp only [dats]
theorem after0_11 (c : Dev nD) (t : Fin cfg0.N) : (dats m 0 c).after 11 t = (accAt m c t.val t.isLt).2.1 := by dsimp only [dats]
theorem after0_12 (c : Dev nD) (t : Fin cfg0.N) : (dats m 0 c).after 12 t = (accAt m c t.val t.isLt).2.2.1 := by dsimp only [dats]
theorem after0_13 (c : Dev nD) (t : Fin cfg0.N) : (dats m 0 c).after 13 t = (accAt m c t.val t.isLt).2.2.2.1 := by dsimp only [dats]
theorem after0_14 (c : Dev nD) (t : Fin cfg0.N) : (dats m 0 c).after 14 t = (accAt m c t.val t.isLt).2.2.2.2.1 := by dsimp only [dats]
theorem after0_15 (c : Dev nD) (t : Fin cfg0.N) : (dats m 0 c).after 15 t = (accAt m c t.val t.isLt).2.2.2.2.2.1 := by dsimp only [dats]
theorem after0_16 (c : Dev nD) (t : Fin cfg0.N) : (dats m 0 c).after 16 t = (accAt m c t.val t.isLt).2.2.2.2.2.2 := by dsimp only [dats]

end Cert.Kernel.Fr

end
-- ==== Proof.K.RunA.lean ====
/-
  The kernel body run once on whole staging buffers at a point where the accumulators are reset: every input buffer at its block, every output buffer at whatever it held; it ends with the inputs as they were and each output buffer overwritten by the pieces the body stored.
-/
import proofs.«406053_j76209899700419_3_alg».proof.Proof.K.Cond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in each output buffer at a reset point, with the proof that the body runs to its
    continuation holding them. -/
noncomputable def kernelRun0_A (c : Dev nD) (i : grid0.Coords) (arg2 : Memref sig .tc .vmem S2000x128 .f32) (harg2 : arg2.IsWhole) (arg3 : Memref sig .tc .vmem S2000x3 .f32) (harg3 : arg3.IsWhole) (arg4 : Memref sig .tc .vmem S2000x1 .i32) (harg4 : arg4.IsWhole) (arg5 : Memref sig .tc .vmem S2000x16 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S1x1 .f32) (harg10 : arg10.IsWhole) (arg11 : Memref sig .tc .vmem S2000x16 .f32) (harg11 : arg11.IsWhole) (arg12 : Memref sig .tc .vmem S1x256x128 .f32) (harg12 : arg12.IsWhole) (arg13 : Memref sig .tc .vmem S1x256x3 .f32) (harg13 : arg13.IsWhole) (arg14 : Memref sig .tc .vmem S1x1x256 .f32) (harg14 : arg14.IsWhole) (arg15 : Memref sig .tc .vmem S1x16x3 .f32) (harg15 : arg15.IsWhole) (arg16 : Memref sig .tc .vmem S1x16x1 .f32) (harg16 : arg16.IsWhole) (arg17 : Memref sig .tc .vmem S1x1x16 .f32) (harg17 : arg17.IsWhole) (arg18 : Memref sig .tc .vmem S1x1x1 .f32) (harg18 : arg18.IsWhole) (hc0 : cond0_0 i)
    (x0 : Vec F S2000x128 .f32) (x1 : Vec F S2000x3 .f32) (x2 : Vec F S2000x1 .i32) (x3 : Vec F S2000x16 .f32) (x4 : Vec F S128x128 .f32) (x5 : Vec F S1x128 .f32) (x6 : Vec F S128x16 .f32) (x7 : Vec F S1x16 .f32) (x8 : Vec F S1x1 .f32) :
    Σ' (L9 : List (View.Piece (Elt F) S2000x16 .f32)) (L10 : List (View.Piece (Elt F) S1x256x128 .f32)) (L11 : List (View.Piece (Elt F) S1x256x3 .f32)) (L12 : List (View.Piece (Elt F) S1x1x256 .f32)) (L13 : List (View.Piece (Elt F) S1x16x3 .f32)) (L14 : List (View.Piece (Elt F) S1x16x1 .f32)) (L15 : List (View.Piece (Elt F) S1x1x16 .f32)), { L16 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

end Cert.Kernel.Fr

end
-- ==== Proof.K.RunB.lean ====
/-
  The kernel body run once on whole staging buffers at a point where the accumulators are carried: every input buffer at its block, each accumulator's buffer at what the point before left; it ends with the inputs as they were and each output buffer overwritten by the pieces the body stored.
-/
import proofs.«406053_j76209899700419_3_alg».proof.Proof.K.RunA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in each output buffer at a carrying point, with the proof that the body runs to its
    continuation holding them. -/
noncomputable def kernelRun0_B (c : Dev nD) (i : grid0.Coords) (arg2 : Memref sig .tc .vmem S2000x128 .f32) (harg2 : arg2.IsWhole) (arg3 : Memref sig .tc .vmem S2000x3 .f32) (harg3 : arg3.IsWhole) (arg4 : Memref sig .tc .vmem S2000x1 .i32) (harg4 : arg4.IsWhole) (arg5 : Memref sig .tc .vmem S2000x16 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S1x1 .f32) (harg10 : arg10.IsWhole) (arg11 : Memref sig .tc .vmem S2000x16 .f32) (harg11 : arg11.IsWhole) (arg12 : Memref sig .tc .vmem S1x256x128 .f32) (harg12 : arg12.IsWhole) (arg13 : Memref sig .tc .vmem S1x256x3 .f32) (harg13 : arg13.IsWhole) (arg14 : Memref sig .tc .vmem S1x1x256 .f32) (harg14 : arg14.IsWhole) (arg15 : Memref sig .tc .vmem S1x16x3 .f32) (harg15 : arg15.IsWhole) (arg16 : Memref sig .tc .vmem S1x16x1 .f32) (harg16 : arg16.IsWhole) (arg17 : Memref sig .tc .vmem S1x1x16 .f32) (harg17 : arg17.IsWhole) (arg18 : Memref sig .tc .vmem S1x1x1 .f32) (harg18 : arg18.IsWhole) (hc0 : ¬cond0_0 i)
    (x0 : Vec F S2000x128 .f32) (x1 : Vec F S2000x3 .f32) (x2 : Vec F S2000x1 .i32) (x3 : Vec F S2000x16 .f32) (x4 : Vec F S128x128 .f32) (x5 : Vec F S1x128 .f32) (x6 : Vec F S128x16 .f32) (x7 : Vec F S1x16 .f32) (x8 : Vec F S1x1 .f32) (xo10 : Vec F S1x256x128 .f32) (xo11 : Vec F S1x256x3 .f32) (xo12 : Vec F S1x1x256 .f32) (xo13 : Vec F S1x16x3 .f32) (xo14 : Vec F S1x16x1 .f32) (xo15 : Vec F S1x1x16 .f32) (xo16 : Vec F S1x1x1 .f32) :
    Σ' (L9 : List (View.Piece (Elt F) S2000x16 .f32)) (L10 : List (View.Piece (Elt F) S1x256x128 .f32)) (L11 : List (View.Piece (Elt F) S1x256x3 .f32)) (L12 : List (View.Piece (Elt F) S1x1x256 .f32)) (L13 : List (View.Piece (Elt F) S1x16x3 .f32)) (L14 : List (View.Piece (Elt F) S1x16x1 .f32)) (L15 : List (View.Piece (Elt F) S1x1x16 .f32)), { L16 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10 ∗ owns (c : Thread nD τ) arg13 fullShare xo11 ∗ owns (c : Thread nD τ) arg14 fullShare xo12 ∗ owns (c : Thread nD τ) arg15 fullShare xo13 ∗ owns (c : Thread nD τ) arg16 fullShare xo14 ∗ owns (c : Thread nD τ) arg17 fullShare xo15 ∗ owns (c : Thread nD τ) arg18 fullShare xo16
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

end Cert.Kernel.Fr

end
-- ==== Proof.K.Pieces.lean ====
/-
  What the body's stores leave in each output buffer, read back: the pieces the two runs found cover their buffers, and
  read through any whole view they are the explicit terms of the point's step — the soft-assignment block, and each
  accumulator advanced from the zeros just stored (a resetting point) or from what the buffer held (a carrying point).
-/
import proofs.«406053_j76209899700419_3_alg».proof.Proof.K.RunB
import proofs.«406053_j76209899700419_3_alg».proof.Proof.K.Step
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.Sem
open Cert.Kernel Cert.Kernel.Gen

variable {F : FTy → Type} [FloatOps F]

/-! ## One whole view per output buffer -/

/-- One staging buffer of output window 9, through which its contents are stated (any whole view reads the same). -/
abbrev VO0_9 : View sig .tc .vmem S2000x16 .f32 := (Memref.whole cc0_stg9_0 : Memref sig .tc .vmem S2000x16 .f32).view
/-- One staging buffer of output window 10, through which its contents are stated (any whole view reads the same). -/
abbrev VO0_10 : View sig .tc .vmem S1x256x128 .f32 := (Memref.whole cc0_stg10_0 : Memref sig .tc .vmem S1x256x128 .f32).view
/-- One staging buffer of output window 11, through which its contents are stated (any whole view reads the same). -/
abbrev VO0_11 : View sig .tc .vmem S1x256x3 .f32 := (Memref.whole cc0_stg11_0 : Memref sig .tc .vmem S1x256x3 .f32).view
/-- One staging buffer of output window 12, through which its contents are stated (any whole view reads the same). -/
abbrev VO0_12 : View sig .tc .vmem S1x1x256 .f32 := (Memref.whole cc0_stg12_0 : Memref sig .tc .vmem S1x1x256 .f32).view
/-- One staging buffer of output window 13, through which its contents are stated (any whole view reads the same). -/
abbrev VO0_13 : View sig .tc .vmem S1x16x3 .f32 := (Memref.whole cc0_stg13_0 : Memref sig .tc .vmem S1x16x3 .f32).view
/-- One staging buffer of output window 14, through which its contents are stated (any whole view reads the same). -/
abbrev VO0_14 : View sig .tc .vmem S1x16x1 .f32 := (Memref.whole cc0_stg14_0 : Memref sig .tc .vmem S1x16x1 .f32).view
/-- One staging buffer of output window 15, through which its contents are stated (any whole view reads the same). -/
abbrev VO0_15 : View sig .tc .vmem S1x1x16 .f32 := (Memref.whole cc0_stg15_0 : Memref sig .tc .vmem S1x1x16 .f32).view
/-- One staging buffer of output window 16, through which its contents are stated (any whole view reads the same). -/
abbrev VO0_16 : View sig .tc .vmem S1x1x1 .f32 := (Memref.whole cc0_stg16_0 : Memref sig .tc .vmem S1x1x1 .f32).view

/-- The zero offsets of a rank-2 and a rank-3 whole-buffer rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S2000x128 .f32) (harg2 : arg2.IsWhole) (arg3 : Memref sig .tc .vmem S2000x3 .f32) (harg3 : arg3.IsWhole) (arg4 : Memref sig .tc .vmem S2000x1 .i32) (harg4 : arg4.IsWhole) (arg5 : Memref sig .tc .vmem S2000x16 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S1x1 .f32) (harg10 : arg10.IsWhole) (arg11 : Memref sig .tc .vmem S2000x16 .f32) (harg11 : arg11.IsWhole) (arg12 : Memref sig .tc .vmem S1x256x128 .f32) (harg12 : arg12.IsWhole) (arg13 : Memref sig .tc .vmem S1x256x3 .f32) (harg13 : arg13.IsWhole) (arg14 : Memref sig .tc .vmem S1x1x256 .f32) (harg14 : arg14.IsWhole) (arg15 : Memref sig .tc .vmem S1x16x3 .f32) (harg15 : arg15.IsWhole) (arg16 : Memref sig .tc .vmem S1x16x1 .f32) (harg16 : arg16.IsWhole) (arg17 : Memref sig .tc .vmem S1x1x16 .f32) (harg17 : arg17.IsWhole) (arg18 : Memref sig .tc .vmem S1x1x1 .f32) (harg18 : arg18.IsWhole)

/-! ## A resetting point -/

section Reset

variable (hc0 : cond0_0 i) (x0 : Vec F S2000x128 .f32) (x1 : Vec F S2000x3 .f32) (x2 : Vec F S2000x1 .i32) (x3 : Vec F S2000x16 .f32) (x4 : Vec F S128x128 .f32) (x5 : Vec F S1x128 .f32) (x6 : Vec F S128x16 .f32) (x7 : Vec F S1x16 .f32) (x8 : Vec F S1x1 .f32)

local notation "runA" => kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8

/-- The pieces found for output 9 cover its buffer. -/
theorem cover0_A_9 (y : S2000x16.Idx) : ∃ pc ∈ (runA).1, y ∈ pc.1.set :=
  View.cover_of_tiledL (runA).1 S2000x16.size (by sl_kernel_rfl) y

/-- The pieces found for output 10 cover its buffer. -/
theorem cover0_A_10 (y : S1x256x128.Idx) : ∃ pc ∈ (runA).2.1, y ∈ pc.1.set :=
  View.cover_of_tiledL (runA).2.1 S1x256x128.size (by sl_kernel_rfl) y

/-- The pieces found for output 11 cover its buffer. -/
theorem cover0_A_11 (y : S1x256x3.Idx) : ∃ pc ∈ (runA).2.2.1, y ∈ pc.1.set :=
  View.cover_of_tiledL (runA).2.2.1 S1x256x3.size (by sl_kernel_rfl) y

/-- The pieces found for output 12 cover its buffer. -/
theorem cover0_A_12 (y : S1x1x256.Idx) : ∃ pc ∈ (runA).2.2.2.1, y ∈ pc.1.set :=
  View.cover_of_tiledL (runA).2.2.2.1 S1x1x256.size (by sl_kernel_rfl) y

/-- The pieces found for output 13 cover its buffer. -/
theorem cover0_A_13 (y : S1x16x3.Idx) : ∃ pc ∈ (runA).2.2.2.2.1, y ∈ pc.1.set :=
  View.cover_of_tiledL (runA).2.2.2.2.1 S1x16x3.size (by sl_kernel_rfl) y

/-- The pieces found for output 14 cover its buffer. -/
theorem cover0_A_14 (y : S1x16x1.Idx) : ∃ pc ∈ (runA).2.2.2.2.2.1, y ∈ pc.1.set :=
  View.cover_of_tiledL (runA).2.2.2.2.2.1 S1x16x1.size (by sl_kernel_rfl) y

/-- The pieces found for output 15 cover its buffer. -/
theorem cover0_A_15 (y : S1x1x16.Idx) : ∃ pc ∈ (runA).2.2.2.2.2.2.1, y ∈ pc.1.set :=
  View.cover_of_tiledL (runA).2.2.2.2.2.2.1 S1x1x16.size (by sl_kernel_rfl) y

/-- The pieces found for output 16 cover its buffer. -/
theorem cover0_A_16 (y : S1x1x1.Idx) : ∃ pc ∈ (runA).2.2.2.2.2.2.2.1, y ∈ pc.1.set :=
  View.cover_of_tiledL (runA).2.2.2.2.2.2.2.1 S1x1x1.size (by sl_kernel_rfl) y

/-- The soft-assignment buffer ends at the point's soft-assignment block. -/
theorem piece_A_9 : VO0_9.read (Elt F) (VO0_9.writes (Elt F) VO0_9.junk (runA).1) = sBlk x0 x3 x4 x5 x6 x7 x8 := by
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 10 ends at the step from the zeros the body has just stored. -/
theorem piece_A_10 : VO0_10.read (Elt F) (VO0_10.writes (Elt F) VO0_10.junk (runA).2.1) = (stepAll x0 x1 x2 x3 x4 x5 x6 x7 x8 zeroAll).1 := by
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x256x128) hz3, View.readCov_unit_zero (S := S1x256x128) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 11 ends at the step from the zeros the body has just stored. -/
theorem piece_A_11 : VO0_11.read (Elt F) (VO0_11.writes (Elt F) VO0_11.junk (runA).2.2.1) = (stepAll x0 x1 x2 x3 x4 x5 x6 x7 x8 zeroAll).2.1 := by
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x256x3) hz3, View.readCov_unit_zero (S := S1x256x3) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 12 ends at the step from the zeros the body has just stored. -/
theorem piece_A_12 : VO0_12.read (Elt F) (VO0_12.writes (Elt F) VO0_12.junk (runA).2.2.2.1) = (stepAll x0 x1 x2 x3 x4 x5 x6 x7 x8 zeroAll).2.2.1 := by
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 13 ends at the step from the zeros the body has just stored. -/
theorem piece_A_13 : VO0_13.read (Elt F) (VO0_13.writes (Elt F) VO0_13.junk (runA).2.2.2.2.1) = (stepAll x0 x1 x2 x3 x4 x5 x6 x7 x8 zeroAll).2.2.2.1 := by
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x16x3) hz3, View.readCov_unit_zero (S := S1x16x3) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 14 ends at the step from the zeros the body has just stored. -/
theorem piece_A_14 : VO0_14.read (Elt F) (VO0_14.writes (Elt F) VO0_14.junk (runA).2.2.2.2.2.1) = (stepAll x0 x1 x2 x3 x4 x5 x6 x7 x8 zeroAll).2.2.2.2.1 := by
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 15 ends at the step from the zeros the body has just stored. -/
theorem piece_A_15 : VO0_15.read (Elt F) (VO0_15.writes (Elt F) VO0_15.junk (runA).2.2.2.2.2.2.1) = (stepAll x0 x1 x2 x3 x4 x5 x6 x7 x8 zeroAll).2.2.2.2.2.1 := by
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x1x16) hz3, View.readCov_unit_zero (S := S1x1x16) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 16 ends at the step from the zeros the body has just stored. -/
theorem piece_A_16 : VO0_16.read (Elt F) (VO0_16.writes (Elt F) VO0_16.junk (runA).2.2.2.2.2.2.2.1) = (stepAll x0 x1 x2 x3 x4 x5 x6 x7 x8 zeroAll).2.2.2.2.2.2 := by
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

end Reset

/-! ## A carrying point -/

section Carry

variable (hc0 : ¬cond0_0 i) (x0 : Vec F S2000x128 .f32) (x1 : Vec F S2000x3 .f32) (x2 : Vec F S2000x1 .i32) (x3 : Vec F S2000x16 .f32) (x4 : Vec F S128x128 .f32) (x5 : Vec F S1x128 .f32) (x6 : Vec F S128x16 .f32) (x7 : Vec F S1x16 .f32) (x8 : Vec F S1x1 .f32) (xo10 : Vec F S1x256x128 .f32) (xo11 : Vec F S1x256x3 .f32) (xo12 : Vec F S1x1x256 .f32) (xo13 : Vec F S1x16x3 .f32) (xo14 : Vec F S1x16x1 .f32) (xo15 : Vec F S1x1x16 .f32) (xo16 : Vec F S1x1x1 .f32)

local notation "runB" => kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16

/-- The pieces found for output 9 cover its buffer. -/
theorem cover0_B_9 (y : S2000x16.Idx) : ∃ pc ∈ (runB).1, y ∈ pc.1.set :=
  View.cover_of_tiledL (runB).1 S2000x16.size (by sl_kernel_rfl) y

/-- The pieces found for output 10 cover its buffer. -/
theorem cover0_B_10 (y : S1x256x128.Idx) : ∃ pc ∈ (runB).2.1, y ∈ pc.1.set :=
  View.cover_of_tiledL (runB).2.1 S1x256x128.size (by sl_kernel_rfl) y

/-- The pieces found for output 11 cover its buffer. -/
theorem cover0_B_11 (y : S1x256x3.Idx) : ∃ pc ∈ (runB).2.2.1, y ∈ pc.1.set :=
  View.cover_of_tiledL (runB).2.2.1 S1x256x3.size (by sl_kernel_rfl) y

/-- The pieces found for output 12 cover its buffer. -/
theorem cover0_B_12 (y : S1x1x256.Idx) : ∃ pc ∈ (runB).2.2.2.1, y ∈ pc.1.set :=
  View.cover_of_tiledL (runB).2.2.2.1 S1x1x256.size (by sl_kernel_rfl) y

/-- The pieces found for output 13 cover its buffer. -/
theorem cover0_B_13 (y : S1x16x3.Idx) : ∃ pc ∈ (runB).2.2.2.2.1, y ∈ pc.1.set :=
  View.cover_of_tiledL (runB).2.2.2.2.1 S1x16x3.size (by sl_kernel_rfl) y

/-- The pieces found for output 14 cover its buffer. -/
theorem cover0_B_14 (y : S1x16x1.Idx) : ∃ pc ∈ (runB).2.2.2.2.2.1, y ∈ pc.1.set :=
  View.cover_of_tiledL (runB).2.2.2.2.2.1 S1x16x1.size (by sl_kernel_rfl) y

/-- The pieces found for output 15 cover its buffer. -/
theorem cover0_B_15 (y : S1x1x16.Idx) : ∃ pc ∈ (runB).2.2.2.2.2.2.1, y ∈ pc.1.set :=
  View.cover_of_tiledL (runB).2.2.2.2.2.2.1 S1x1x16.size (by sl_kernel_rfl) y

/-- The pieces found for output 16 cover its buffer. -/
theorem cover0_B_16 (y : S1x1x1.Idx) : ∃ pc ∈ (runB).2.2.2.2.2.2.2.1, y ∈ pc.1.set :=
  View.cover_of_tiledL (runB).2.2.2.2.2.2.2.1 S1x1x1.size (by sl_kernel_rfl) y

/-- The soft-assignment buffer ends at the point's soft-assignment block. -/
theorem piece_B_9 : VO0_9.read (Elt F) (VO0_9.writes (Elt F) VO0_9.junk (runB).1) = sBlk x0 x3 x4 x5 x6 x7 x8 := by
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 10 ends at the step from what its buffer held. -/
theorem piece_B_10 : VO0_10.read (Elt F) (VO0_10.writes (Elt F) VO0_10.junk (runB).2.1) = (stepAll x0 x1 x2 x3 x4 x5 x6 x7 x8 (xo10, xo11, xo12, xo13, xo14, xo15, xo16)).1 := by
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg12.read_unread, View.ld_unit_zero (S := S1x256x128) hz3]
  rfl

/-- Accumulator 11 ends at the step from what its buffer held. -/
theorem piece_B_11 : VO0_11.read (Elt F) (VO0_11.writes (Elt F) VO0_11.junk (runB).2.2.1) = (stepAll x0 x1 x2 x3 x4 x5 x6 x7 x8 (xo10, xo11, xo12, xo13, xo14, xo15, xo16)).2.1 := by
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg13.read_unread, View.ld_unit_zero (S := S1x256x3) hz3]
  rfl

/-- Accumulator 12 ends at the step from what its buffer held. -/
theorem piece_B_12 : VO0_12.read (Elt F) (VO0_12.writes (Elt F) VO0_12.junk (runB).2.2.2.1) = (stepAll x0 x1 x2 x3 x4 x5 x6 x7 x8 (xo10, xo11, xo12, xo13, xo14, xo15, xo16)).2.2.1 := by
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg14.read_unread, View.ld_unit_zero (S := S1x1x256) hz3]
  rfl

/-- Accumulator 13 ends at the step from what its buffer held. -/
theorem piece_B_13 : VO0_13.read (Elt F) (VO0_13.writes (Elt F) VO0_13.junk (runB).2.2.2.2.1) = (stepAll x0 x1 x2 x3 x4 x5 x6 x7 x8 (xo10, xo11, xo12, xo13, xo14, xo15, xo16)).2.2.2.1 := by
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg15.read_unread, View.ld_unit_zero (S := S1x16x3) hz3]
  rfl

/-- Accumulator 14 ends at the step from what its buffer held. -/
theorem piece_B_14 : VO0_14.read (Elt F) (VO0_14.writes (Elt F) VO0_14.junk (runB).2.2.2.2.2.1) = (stepAll x0 x1 x2 x3 x4 x5 x6 x7 x8 (xo10, xo11, xo12, xo13, xo14, xo15, xo16)).2.2.2.2.1 := by
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg16.read_unread, View.ld_unit_zero (S := S1x16x1) hz3]
  rfl

/-- Accumulator 15 ends at the step from what its buffer held. -/
theorem piece_B_15 : VO0_15.read (Elt F) (VO0_15.writes (Elt F) VO0_15.junk (runB).2.2.2.2.2.2.1) = (stepAll x0 x1 x2 x3 x4 x5 x6 x7 x8 (xo10, xo11, xo12, xo13, xo14, xo15, xo16)).2.2.2.2.2.1 := by
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg17.read_unread, View.ld_unit_zero (S := S1x1x16) hz3]
  rfl

/-- Accumulator 16 ends at the step from what its buffer held. -/
theorem piece_B_16 : VO0_16.read (Elt F) (VO0_16.writes (Elt F) VO0_16.junk (runB).2.2.2.2.2.2.2.1) = (stepAll x0 x1 x2 x3 x4 x5 x6 x7 x8 (xo10, xo11, xo12, xo13, xo14, xo15, xo16)).2.2.2.2.2.2 := by
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg18.read_unread, View.ld_unit_zero (S := S1x1x1) hz3]
  rfl

end Carry

end Cert.Kernel.Fr

end
-- ==== Proof.K.Frame.lean ====
/-
  The frame certificate of the printed program: the body obligation of its one pipeline at every grid point, the run of
  @main, and the frame claim.

  At grid point t = 25·core + step the body reads the nine input buffers, stores the point's soft-assignment block, and
  either (step = 0) stores the zero arrays into the seven accumulator buffers and adds the block's contribution, or
  (step > 0) adds the contribution to what the buffers held.  The accumulator buffers are written back only at step = 24,
  so at a point with step > 0 they still hold what the body left at the point before.
-/
import proofs.«406053_j76209899700419_3_alg».proof.Proof.K.Shared
import proofs.«406053_j76209899700419_3_alg».proof.Proof.K.Dats
import proofs.«406053_j76209899700419_3_alg».proof.Proof.K.Pieces

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold when the body is called -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- At a carrying point an accumulator's staging buffer holds what the body left at the point before: the point is not the
    first, the buffer was last written back at a point ≡ 24 (mod 25), which the point before is not, and the window is whole. -/
theorem before0_10_carry (c : Dev nD) (t : Fin cfg0.N) (h0 : ¬t.val % 25 = 0) (d) :
    (dats m 0 c).before 10 t d = (accAt m c (t.val - 1) (Nat.lt_of_le_of_lt (Nat.sub_le _ _) t.isLt)).1 := by
  rw [Dat.before_out_kept (dats m 0 c) 10 rfl t (by omega) (Bool.eq_false_iff.mpr fun h => by have := (flush0_10 _).mp h; dsimp only at this; omega)
    (fun _ => rfl) (fun _ _ => rfl)]
  exact after0_10 m c _
theorem before0_11_carry (c : Dev nD) (t : Fin cfg0.N) (h0 : ¬t.val % 25 = 0) (d) :
    (dats m 0 c).before 11 t d = (accAt m c (t.val - 1) (Nat.lt_of_le_of_lt (Nat.sub_le _ _) t.isLt)).2.1 := by
  rw [Dat.before_out_kept (dats m 0 c) 11 rfl t (by omega) (Bool.eq_false_iff.mpr fun h => by have := (flush0_11 _).mp h; dsimp only at this; omega)
    (fun _ => rfl) (fun _ _ => rfl)]
  exact after0_11 m c _
theorem before0_12_carry (c : Dev nD) (t : Fin cfg0.N) (h0 : ¬t.val % 25 = 0) (d) :
    (dats m 0 c).before 12 t d = (accAt m c (t.val - 1) (Nat.lt_of_le_of_lt (Nat.sub_le _ _) t.isLt)).2.2.1 := by
  rw [Dat.before_out_kept (dats m 0 c) 12 rfl t (by omega) (Bool.eq_false_iff.mpr fun h => by have := (flush0_12 _).mp h; dsimp only at this; omega)
    (fun _ => rfl) (fun _ _ => rfl)]
  exact after0_12 m c _
theorem before0_13_carry (c : Dev nD) (t : Fin cfg0.N) (h0 : ¬t.val % 25 = 0) (d) :
    (dats m 0 c).before 13 t d = (accAt m c (t.val - 1) (Nat.lt_of_le_of_lt (Nat.sub_le _ _) t.isLt)).2.2.2.1 := by
  rw [Dat.before_out_kept (dats m 0 c) 13 rfl t (by omega) (Bool.eq_false_iff.mpr fun h => by have := (flush0_13 _).mp h; dsimp only at this; omega)
    (fun _ => rfl) (fun _ _ => rfl)]
  exact after0_13 m c _
theorem before0_14_carry (c : Dev nD) (t : Fin cfg0.N) (h0 : ¬t.val % 25 = 0) (d) :
    (dats m 0 c).before 14 t d = (accAt m c (t.val - 1) (Nat.lt_of_le_of_lt (Nat.sub_le _ _) t.isLt)).2.2.2.2.1 := by
  rw [Dat.before_out_kept (dats m 0 c) 14 rfl t (by omega) (Bool.eq_false_iff.mpr fun h => by have := (flush0_14 _).mp h; dsimp only at this; omega)
    (fun _ => rfl) (fun _ _ => rfl)]
  exact after0_14 m c _
theorem before0_15_carry (c : Dev nD) (t : Fin cfg0.N) (h0 : ¬t.val % 25 = 0) (d) :
    (dats m 0 c).before 15 t d = (accAt m c (t.val - 1) (Nat.lt_of_le_of_lt (Nat.sub_le _ _) t.isLt)).2.2.2.2.2.1 := by
  rw [Dat.before_out_kept (dats m 0 c) 15 rfl t (by omega) (Bool.eq_false_iff.mpr fun h => by have := (flush0_15 _).mp h; dsimp only at this; omega)
    (fun _ => rfl) (fun _ _ => rfl)]
  exact after0_15 m c _
theorem before0_16_carry (c : Dev nD) (t : Fin cfg0.N) (h0 : ¬t.val % 25 = 0) (d) :
    (dats m 0 c).before 16 t d = (accAt m c (t.val - 1) (Nat.lt_of_le_of_lt (Nat.sub_le _ _) t.isLt)).2.2.2.2.2.2 := by
  rw [Dat.before_out_kept (dats m 0 c) 16 rfl t (by omega) (Bool.eq_false_iff.mpr fun h => by have := (flush0_16 _).mp h; dsimp only at this; omega)
    (fun _ => rfl) (fun _ _ => rfl)]
  exact after0_16 m c _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 8000000 in
/-- The body at any point: every input's staging buffer holds its block; at a multiple of 25 the body resets the accumulators,
    so whatever their buffers held is overwritten and they end at one step from the zero arrays; elsewhere their buffers hold what the
    point before left and end one step further.  The invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  have hN : t.val < 50 := lt_of_lt_of_eq t.isLt (show cfg0.N = 50 from N_0)
  by_cases h0 : t.val % 25 = 0
  · rw [accAt_reset m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (View.read_writes_of_cover _ _ _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H10]
    · unfold owns; iexists _; isplitr
      swap; · iexact H10
      ipureintro; exact (View.read_writes_of_cover _ _ _ _ _ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H11]
    · unfold owns; iexists _; isplitr
      swap; · iexact H11
      ipureintro; exact (View.read_writes_of_cover _ _ _ _ _ (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H12]
    · unfold owns; iexists _; isplitr
      swap; · iexact H12
      ipureintro; exact (View.read_writes_of_cover _ _ _ _ _ (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H13]
    · unfold owns; iexists _; isplitr
      swap; · iexact H13
      ipureintro; exact (View.read_writes_of_cover _ _ _ _ _ (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H14]
    · unfold owns; iexists _; isplitr
      swap; · iexact H14
      ipureintro; exact (View.read_writes_of_cover _ _ _ _ _ (cover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H15]
    · unfold owns; iexists _; isplitr
      swap; · iexact H15
      ipureintro; exact (View.read_writes_of_cover _ _ _ _ _ (cover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    unfold owns; iexists _; isplitr
    swap; · iexact H16
    ipureintro; exact (View.read_writes_of_cover _ _ _ _ _ (cover0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
  · rw [accAt_carry m c t h0]
    simp only [before0_10_carry m c t h0, before0_11_carry m c t h0, before0_12_carry m c t h0, before0_13_carry m c t h0, before0_14_carry m c t h0, before0_15_carry m c t h0, before0_16_carry m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (View.read_writes_of_cover _ _ _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H10]
    · unfold owns; iexists _; isplitr
      swap; · iexact H10
      ipureintro; exact (View.read_writes_of_cover _ _ _ _ _ (cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H11]
    · unfold owns; iexists _; isplitr
      swap; · iexact H11
      ipureintro; exact (View.read_writes_of_cover _ _ _ _ _ (cover0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H12]
    · unfold owns; iexists _; isplitr
      swap; · iexact H12
      ipureintro; exact (View.read_writes_of_cover _ _ _ _ _ (cover0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H13]
    · unfold owns; iexists _; isplitr
      swap; · iexact H13
      ipureintro; exact (View.read_writes_of_cover _ _ _ _ _ (cover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H14]
    · unfold owns; iexists _; isplitr
      swap; · iexact H14
      ipureintro; exact (View.read_writes_of_cover _ _ _ _ _ (cover0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H15]
    · unfold owns; iexists _; isplitr
      swap; · iexact H15
      ipureintro; exact (View.read_writes_of_cover _ _ _ _ _ (cover0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    unfold owns; iexists _; isplitr
    swap; · iexact H16
    ipureintro; exact (View.read_writes_of_cover _ _ _ _ _ (cover0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the nine argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Fr

end
-- ==== Proof.KI.Cond.lean ====
/-
  The body's one branch: the accumulators are reset at the first step of each core's row range, that is at the grid
  points whose second coordinate is 0 — the points 0 and 25 of the 50.
-/
import proofs.«406053_j76209899700419_3_alg».proof.Proof.Gen.KernelIdeal.Launch
import proofs.«406053_j76209899700419_3_alg».proof.Proof.Gen.KernelIdeal.Skeleton
import proofs.«406053_j76209899700419_3_alg».proof.Proof.Gen.KernelIdeal.Points

noncomputable section

namespace Cert.KernelIdeal.Fr

open Idealize.ShloMosaic Idealize.ShloMosaic.TcCoe
open Cert.KernelIdeal Cert.KernelIdeal.Gen

/-- The condition of the body's branch, from the grid coordinates (the printed scalar chain). -/
abbrev cond0_0 (i : grid0.Coords) : Prop :=
  (Scalar.cmpi .ne (Scalar.extui (Scalar.cmpi .eq (BitVec.ofNat 32 (i 1).val) 0#32)) 0#32) = 1#1

/-- It holds exactly at the points that are multiples of 25. -/
theorem hcond0_0 : ∀ t : Fin cfg0.N, cond0_0 (grid0.coords t) ↔ t.val % 25 = 0 :=
  (by decide +kernel : ∀ t : Fin grid0.N, cond0_0 (grid0.coords t) ↔ t.val % 25 = 0)

end Cert.KernelIdeal.Fr

end
-- ==== Proof.KI.Blocks.lean ====
/-
  What the region finds in each core's buffers, and each window's block of it at a grid point.

  Before the region the program only re-lays four arguments (the segment words as a column, the two biases as rows, the
  scale as a 1×1 array); the region's windows then cut, at grid point t = 25·core + step, rows [2000·t, 2000·t + 2000) of
  the row-indexed arrays, the whole of the weight arrays, and slab `core` of each accumulator.
-/
import proofs.«406053_j76209899700419_3_alg».proof.Proof.KI.Cond
import Idealize.ShloMosaic.Lib.Pipeline.FrameBody
import Idealize.ShloMosaic.Lib.Pipeline.FrameSuffix

set_option maxRecDepth 16384

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Core `c`'s TensorCore buffer contents when the region is entered, as a valuation: after the four re-laying lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Fr

end
-- ==== Proof.KI.Shared.lean ====
/-
  What the frame certificate of the printed program shares.

  @main is four re-laying lines, the one region, and ninety-one lines after it.  The lines before the region write only the
  four re-laid copies; the lines after it write only buffers of their own, none of them an array of the region's seventeen
  windows and none of them an argument.  So every argument buffer reads, through the region-entry valuation and through the
  tail, what the launch put there; every input window's staging buffer holds its block at every grid point, fetched there
  or not; and the frame claim's post follows from the frame run's.
-/
import proofs.«406053_j76209899700419_3_alg».proof.Proof.KI.Blocks

set_option maxRecDepth 16384

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host lines write -/

/-- The buffers the four lines before the region write: the re-laid copies. -/
def headW : List (Ref sig .tc) := [main_v0, main_v1, main_v2, main_v3]

/-- The buffers the ninety-one lines after the region write, line by line. -/
def tailW : List (Ref sig .tc) :=
  [main_cst, main_v5, main_cst_0, main_v6, main_cst_1, main_v7, main_cst_2, main_v8, main_cst_3, main_v9, main_cst_4, main_v10, main_cst_5, main_v11, main_v12, main_v13, main_cst_6, main_v14, main_v15, main_cst_7, main_v16, main_v17, main_v18, main_v19, main_cst_8, main_v20, main_v21, main_cst_9, main_v22, main_cst_10, main_v23, main_v24, main_v25, main_cst_11, main_v26, main_cst_12, main_v27, main_v28, main_v29, main_v30, main_v31, main_v32, main_v33, main_v34, main_cst_13, main_v35, main_v36, main_cst_14, main_v37, main_cst_15, main_v38, main_v39, main_v40, main_v41, main_v42, main_cst_16, main_v43, main_v44, main_v45, main_v46, main_v47, main_v48, main_v49, main_v50, main_v51, main_v52, main_cst_17, main_v53, main_v54, main_v55, main_c, main_v56, main_v57, main_v58, main_v59, main_v60, main_cst_18, main_v61, main_v62, main_cst_19, main_v63, main_v64, main_cst_20, main_v65, main_v66, main_v67, main_v68, main_cst_21, main_v69, main_cst_22, main_v70]

/-- A line whose one result buffer is in a list writes within the list. -/
theorem single_sub (W : List (Ref sig .tc)) (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-- The lines before the region write the re-laid copies only. -/
theorem hostOps0_writes : (List.flatten [(hostOps0 : List (HloOp τ sig (Elt F)))]).Forall fun op =>
    op.writes ⊆ (headW.map (Proc.devRef (τ := τ) .tc)).toFinset := by
  show (hostOps0 : List (HloOp τ sig (Elt F))).Forall _
  simp only [List.Forall, StableHlo.reshape_writes]
  repeat' constructor
  all_goals exact single_sub headW _ (by decide)

set_option maxHeartbeats 4000000 in
/-- The lines after the region write their own result buffers only. -/
theorem hostOps1_writes : (hostOps1 : List (HloOp τ sig (Elt F))).Forall fun op =>
    op.writes ⊆ (tailW.map (Proc.devRef (τ := τ) .tc)).toFinset := by
  simp only [List.Forall, StableHlo.nullary_writes, StableHlo.unary_writes, StableHlo.binary_writes, StableHlo.reshape_writes]
  repeat' constructor
  all_goals exact single_sub tailW _ (by decide)

/-- No array of the region's windows is a result buffer of a later line. -/
theorem arr_not_tailW : ∀ w : Fin 17, Pipeline.arrRef spec0 w ∉ tailW := by decide

set_option maxHeartbeats 4000000 in
/-- The later lines allocate nothing. -/
theorem hostOps1_fresh : (hostOps1 : List (HloOp τ sig (Elt F))).Forall fun op => op.fresh = ∅ := by
  simp only [List.Forall]; repeat' constructor

/-! ## @main around the region -/

/-- The lines before the region allocate nothing. -/
theorem hostOps0_fresh : (hostOps0 : List (HloOp τ sig (Elt F))).Forall fun op => op.fresh = ∅ :=
  ⟨rfl, rfl, rfl, rfl⟩

set_option maxHeartbeats 4000000 in
/-- @main around the region: the four lines before it, the region, then the later lines as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The later lines touch unscoped TensorCore buffers only: each an array of the region or a buffer bypassing it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop

/-- And they write no array of the region: what a line writes is in the list of result buffers, and no array is. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  obtain rfl := List.mem_singleton.mp hops
  obtain ⟨y, hy, he⟩ := List.mem_map.mp (List.mem_toFinset.mp ((List.forall_iff_forall_mem.mp hostOps1_writes) op hop hw))
  exact arr_not_tailW w (Proc.devRef_injective _ he ▸ hy)

/-! ## The argument buffers as the region finds them -/

theorem V_main_arg0 (c : Dev nD) : V m c main_arg0 = m ((c : Thread nD τ).loc main_arg0) :=
  StableHlo.after_of_writes_sub _ _ hostOps0_writes (by decide)
theorem V_main_arg1 (c : Dev nD) : V m c main_arg1 = m ((c : Thread nD τ).loc main_arg1) :=
  StableHlo.after_of_writes_sub _ _ hostOps0_writes (by decide)
theorem V_main_arg2 (c : Dev nD) : V m c main_arg2 = m ((c : Thread nD τ).loc main_arg2) :=
  StableHlo.after_of_writes_sub _ _ hostOps0_writes (by decide)
theorem V_main_arg3 (c : Dev nD) : V m c main_arg3 = m ((c : Thread nD τ).loc main_arg3) :=
  StableHlo.after_of_writes_sub _ _ hostOps0_writes (by decide)
theorem V_main_arg4 (c : Dev nD) : V m c main_arg4 = m ((c : Thread nD τ).loc main_arg4) :=
  StableHlo.after_of_writes_sub _ _ hostOps0_writes (by decide)
theorem V_main_arg5 (c : Dev nD) : V m c main_arg5 = m ((c : Thread nD τ).loc main_arg5) :=
  StableHlo.after_of_writes_sub _ _ hostOps0_writes (by decide)
theorem V_main_arg6 (c : Dev nD) : V m c main_arg6 = m ((c : Thread nD τ).loc main_arg6) :=
  StableHlo.after_of_writes_sub _ _ hostOps0_writes (by decide)
theorem V_main_arg7 (c : Dev nD) : V m c main_arg7 = m ((c : Thread nD τ).loc main_arg7) :=
  StableHlo.after_of_writes_sub _ _ hostOps0_writes (by decide)
theorem V_main_arg8 (c : Dev nD) : V m c main_arg8 = m ((c : Thread nD τ).loc main_arg8) :=
  StableHlo.after_of_writes_sub _ _ hostOps0_writes (by decide)

/-- A buffer that is no array of the region and that no host line writes holds, after the tail, what the launch put there. -/
theorem afterTail_untouched (dats : (p : Fin 1) → (c : Dev nD) → Dat τ (Elt F) Unit ℕ (UR sig nD τ) ℕ (cfgs p) c) (c : Dev nD)
    (b : Ref sig .tc) (h1 : b ∉ tailW) (h0 : b ∉ headW) (ha : ∀ w, Pipeline.arrRef spec0 w ≠ b) :
    Pipeline.afterTail₀ cfgs dats 0 (V0 m) [hostOps1] c b = m ((c : Thread nD τ).loc b) := by
  unfold Pipeline.afterTail₀
  rw [show List.flatten [(hostOps1 : List (HloOp τ sig (Elt F)))] = hostOps1 from List.append_nil _,
    StableHlo.after_of_writes_sub _ _ hostOps1_writes h1, Pipeline.withArrays_of_ne _ c _ _ b ha]
  exact StableHlo.after_of_writes_sub _ _ hostOps0_writes h0

/-! ## The input windows' staging buffers -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: an argument that is a window's array is an input's array, unchanged by the region and
    unwritten by the tail; an argument staged through a re-laid copy is a buffer bypassing the region, unwritten by every host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (Pipeline.mem_restRefs_of main_arg2 rfl (by decide))).trans (afterTail_untouched m dats c main_arg2 (by decide) (by decide) (by decide)),
     ((h c).1 3).trans (((dats 0 c).arrAt_in 3 rfl _).trans ((hA c 3).trans (V_main_arg3 m c))),
     ((h c).1 4).trans (((dats 0 c).arrAt_in 4 rfl _).trans ((hA c 4).trans (V_main_arg4 m c))),
     ((h c).2 main_arg5 (Pipeline.mem_restRefs_of main_arg5 rfl (by decide))).trans (afterTail_untouched m dats c main_arg5 (by decide) (by decide) (by decide)),
     ((h c).1 6).trans (((dats 0 c).arrAt_in 6 rfl _).trans ((hA c 6).trans (V_main_arg6 m c))),
     ((h c).2 main_arg7 (Pipeline.mem_restRefs_of main_arg7 rfl (by decide))).trans (afterTail_untouched m dats c main_arg7 (by decide) (by decide) (by decide)),
     ((h c).2 main_arg8 (Pipeline.mem_restRefs_of main_arg8 rfl (by decide))).trans (afterTail_untouched m dats c main_arg8 (by decide) (by decide) (by decide))⟩) h

/-! ## The staging memrefs at a point -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2000x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x3 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x16x3 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x16x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x16 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x1 .f32 := win0_16.stage (cfg0.slots t 16)
abbrev hs0_16 (t : Fin cfg0.N) : (ms0_16 t).IsWhole := hstage0_16 ((cfg0.slots t 16).cast nbuf0_16)

end Cert.KernelIdeal.Fr

end
-- ==== Proof.KI.Step.lean ====
/-
  One grid point's work as pure functions of the point's input blocks (generic in the float instance).

  From the blocks x0 (features), x1 (positions), x2 (segment words), x3 (noise) and the weights x4 … x8 the body computes the
  soft-assignment block `sBlk` and stores it; every accumulator buffer then ends at "what it held, plus this block's
  contribution" (`step10` … `step16`), where at a point that resets the accumulators "what it held" is the zero array
  the body has just stored (`zero10` … `zero16`).  `accAt` runs this along the grid: what the seven accumulator buffers
  hold after the body at each point.
-/
import proofs.«406053_j76209899700419_3_alg».proof.Proof.KI.Blocks

set_option maxRecDepth 16384

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]

/-- The seven accumulator buffers' contents: segment-wise feature sums, segment-wise position sums, segment-wise
    assignment sums, position sums, squared-length sums, assignment sums, the entropy sum. -/
abbrev Acc (F : FTy → Type) [FloatOps F] : Type :=
  Vec F S1x256x128 .f32 × Vec F S1x256x3 .f32 × Vec F S1x1x256 .f32 × Vec F S1x16x3 .f32 × Vec F S1x16x1 .f32
    × Vec F S1x1x16 .f32 × Vec F S1x1x1 .f32

section Point

variable (x0 : Vec F S2000x128 .f32) (x1 : Vec F S2000x3 .f32) (x2 : Vec F S2000x1 .i32) (x3 : Vec F S2000x16 .f32)
  (x4 : Vec F S128x128 .f32) (x5 : Vec F S1x128 .f32) (x6 : Vec F S128x16 .f32) (x7 : Vec F S1x16 .f32) (x8 : Vec F S1x1 .f32)

/-- The block's soft assignment (what the body stores into the assignment output). -/
def sBlk : FVec F S2000x16 .f32 := k0_pay16 (k0_pay14 x0 x3 x4 x5 x6 x7 x8) (k0_pay15 x0 x3 x4 x5 x6 x7 x8)

/-- "Column j belongs to the row's segment": the one-bit mask over the 256 (segment, cluster) columns. -/
def selBlk : IVec S2000x256 1 := k0_pay23 (k0_pay13 x2)

/-- The soft assignment repeated sixteen times along the columns. -/
def tileBlk : FVec F S2000x256 .f32 := k0_pay24 (sBlk x0 x3 x4 x5 x6 x7 x8)

def step10 (o : Vec F S1x256x128 .f32) : Vec F S1x256x128 .f32 := k0_pay4 x0 (selBlk x2) (tileBlk x0 x3 x4 x5 x6 x7 x8) o
def step11 (o : Vec F S1x256x3 .f32) : Vec F S1x256x3 .f32 := k0_pay2 x1 (selBlk x2) (tileBlk x0 x3 x4 x5 x6 x7 x8) o
def step12 (o : Vec F S1x1x256 .f32) : Vec F S1x1x256 .f32 := k0_pay3 (selBlk x2) (tileBlk x0 x3 x4 x5 x6 x7 x8) o
def step13 (o : Vec F S1x16x3 .f32) : Vec F S1x16x3 .f32 := k0_pay21 x1 (sBlk x0 x3 x4 x5 x6 x7 x8) (k0_pay20 o)
def step14 (o : Vec F S1x16x1 .f32) : Vec F S1x16x1 .f32 := k0_pay22 (sBlk x0 x3 x4 x5 x6 x7 x8) (k0_pay19 x1) o
def step15 (o : Vec F S1x1x16 .f32) : Vec F S1x1x16 .f32 :=
  k0_pay17 (k0_pay14 x0 x3 x4 x5 x6 x7 x8) (k0_pay15 x0 x3 x4 x5 x6 x7 x8) o
def step16 (o : Vec F S1x1x1 .f32) : Vec F S1x1x1 .f32 :=
  k0_pay18 (k0_pay14 x0 x3 x4 x5 x6 x7 x8) (k0_pay15 x0 x3 x4 x5 x6 x7 x8) o

/-- All seven accumulators advanced by one point. -/
def stepAll (o : Acc F) : Acc F :=
  (step10 x0 x2 x3 x4 x5 x6 x7 x8 o.1, step11 x0 x1 x2 x3 x4 x5 x6 x7 x8 o.2.1, step12 x0 x2 x3 x4 x5 x6 x7 x8 o.2.2.1,
   step13 x0 x1 x3 x4 x5 x6 x7 x8 o.2.2.2.1, step14 x0 x1 x3 x4 x5 x6 x7 x8 o.2.2.2.2.1, step15 x0 x3 x4 x5 x6 x7 x8 o.2.2.2.2.2.1,
   step16 x0 x3 x4 x5 x6 x7 x8 o.2.2.2.2.2.2)

end Point

/-- The zero arrays a resetting point stores first. -/
def zeroAll : Acc F := (k0_pay5, k0_pay6, k0_pay7, k0_pay8, k0_pay9, k0_pay10, k0_pay12 k0_pay11)

variable (m : (ℓ : Loc nD τ sig) → Buf (Elt F) ℓ)

/-- One point's step at the blocks the grid point cuts. -/
def stepAt (c : Dev nD) (t : Fin cfg0.N) (o : Acc F) : Acc F :=
  stepAll (iblk m c 0 t) (iblk m c 1 t) (iblk m c 2 t) (iblk m c 3 t) (iblk m c 4 t) (iblk m c 5 t) (iblk m c 6 t) (iblk m c 7 t)
    (iblk m c 8 t) o

/-- The soft-assignment block of point `t`. -/
def sAt (c : Dev nD) (t : Fin cfg0.N) : Vec F S2000x16 .f32 :=
  sBlk (iblk m c 0 t) (iblk m c 3 t) (iblk m c 4 t) (iblk m c 5 t) (iblk m c 6 t) (iblk m c 7 t) (iblk m c 8 t)

/-- THE ACCUMULATION: what the seven accumulator buffers hold after the body at position `n`: at a multiple of 25 the
    step from the zero arrays, elsewhere the step from what the point before left. -/
def accAt (c : Dev nD) : (n : ℕ) → n < cfg0.N → Acc F
  | 0, hn => stepAt m c ⟨0, hn⟩ zeroAll
  | n + 1, hn =>
    if (n + 1) % 25 = 0 then stepAt m c ⟨n + 1, hn⟩ zeroAll
    else stepAt m c ⟨n + 1, hn⟩ (accAt c n (Nat.lt_of_succ_lt hn))

/-- `accAt` at a resetting point. -/
theorem accAt_reset (c : Dev nD) (t : Fin cfg0.N) (h0 : t.val % 25 = 0) :
    accAt m c t.val t.isLt = stepAt m c t zeroAll := by
  obtain ⟨n, hn⟩ := t
  cases n with
  | zero => rfl
  | succ n => exact (if_pos h0).trans rfl

/-- `accAt` at a carrying point: the step over what the point before left. -/
theorem accAt_carry (c : Dev nD) (t : Fin cfg0.N) (h0 : ¬t.val % 25 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

end Cert.KernelIdeal.Fr

end
-- ==== Proof.KI.Dats.lean ====
/-
  The pipeline's proof data on one core: the arrays as the region finds them; after the body at grid point t every input
  window's buffer still at its block, the assignment output's buffer at the point's soft-assignment block, and the seven
  accumulator buffers at the running sums of `accAt`.
-/
import proofs.«406053_j76209899700419_3_alg».proof.Proof.KI.Step

set_option maxRecDepth 16384

noncomputable section

namespace Cert.KernelIdeal.Fr

open Idealize.ShloMosaic Idealize.ShloMosaic.TcCoe
open Idealize.SL Idealize.SL.RA Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => sAt m c t
    | ⟨10, _⟩ => (accAt m c t.val t.isLt).1
    | ⟨11, _⟩ => (accAt m c t.val t.isLt).2.1
    | ⟨12, _⟩ => (accAt m c t.val t.isLt).2.2.1
    | ⟨13, _⟩ => (accAt m c t.val t.isLt).2.2.2.1
    | ⟨14, _⟩ => (accAt m c t.val t.isLt).2.2.2.2.1
    | ⟨15, _⟩ => (accAt m c t.val t.isLt).2.2.2.2.2.1
    | ⟨16, _⟩ => (accAt m c t.val t.isLt).2.2.2.2.2.2
    | ⟨n + 17, h⟩ => absurd (show n + 17 < 17 from h) (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = sAt m c t := by dsimp only [dats]
theorem after0_10 (c : Dev nD) (t : Fin cfg0.N) : (dats m 0 c).after 10 t = (accAt m c t.val t.isLt).1 := by dsimp only [dats]
theorem after0_11 (c : Dev nD) (t : Fin cfg0.N) : (dats m 0 c).after 11 t = (accAt m c t.val t.isLt).2.1 := by dsimp only [dats]
theorem after0_12 (c : Dev nD) (t : Fin cfg0.N) : (dats m 0 c).after 12 t = (accAt m c t.val t.isLt).2.2.1 := by dsimp only [dats]
theorem after0_13 (c : Dev nD) (t : Fin cfg0.N) : (dats m 0 c).after 13 t = (accAt m c t.val t.isLt).2.2.2.1 := by dsimp only [dats]
theorem after0_14 (c : Dev nD) (t : Fin cfg0.N) : (dats m 0 c).after 14 t = (accAt m c t.val t.isLt).2.2.2.2.1 := by dsimp only [dats]
theorem after0_15 (c : Dev nD) (t : Fin cfg0.N) : (dats m 0 c).after 15 t = (accAt m c t.val t.isLt).2.2.2.2.2.1 := by dsimp only [dats]
theorem after0_16 (c : Dev nD) (t : Fin cfg0.N) : (dats m 0 c).after 16 t = (accAt m c t.val t.isLt).2.2.2.2.2.2 := by dsimp only [dats]

end Cert.KernelIdeal.Fr

end
-- ==== Proof.KI.RunA.lean ====
/-
  The kernel body run once on whole staging buffers at a point where the accumulators are reset: every input buffer at its block, every output buffer at whatever it held; it ends with the inputs as they were and each output buffer overwritten by the pieces the body stored.
-/
import proofs.«406053_j76209899700419_3_alg».proof.Proof.KI.Cond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in each output buffer at a reset point, with the proof that the body runs to its
    continuation holding them. -/
noncomputable def kernelRun0_A (c : Dev nD) (i : grid0.Coords) (arg2 : Memref sig .tc .vmem S2000x128 .f32) (harg2 : arg2.IsWhole) (arg3 : Memref sig .tc .vmem S2000x3 .f32) (harg3 : arg3.IsWhole) (arg4 : Memref sig .tc .vmem S2000x1 .i32) (harg4 : arg4.IsWhole) (arg5 : Memref sig .tc .vmem S2000x16 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S1x1 .f32) (harg10 : arg10.IsWhole) (arg11 : Memref sig .tc .vmem S2000x16 .f32) (harg11 : arg11.IsWhole) (arg12 : Memref sig .tc .vmem S1x256x128 .f32) (harg12 : arg12.IsWhole) (arg13 : Memref sig .tc .vmem S1x256x3 .f32) (harg13 : arg13.IsWhole) (arg14 : Memref sig .tc .vmem S1x1x256 .f32) (harg14 : arg14.IsWhole) (arg15 : Memref sig .tc .vmem S1x16x3 .f32) (harg15 : arg15.IsWhole) (arg16 : Memref sig .tc .vmem S1x16x1 .f32) (harg16 : arg16.IsWhole) (arg17 : Memref sig .tc .vmem S1x1x16 .f32) (harg17 : arg17.IsWhole) (arg18 : Memref sig .tc .vmem S1x1x1 .f32) (harg18 : arg18.IsWhole) (hc0 : cond0_0 i)
    (x0 : Vec F S2000x128 .f32) (x1 : Vec F S2000x3 .f32) (x2 : Vec F S2000x1 .i32) (x3 : Vec F S2000x16 .f32) (x4 : Vec F S128x128 .f32) (x5 : Vec F S1x128 .f32) (x6 : Vec F S128x16 .f32) (x7 : Vec F S1x16 .f32) (x8 : Vec F S1x1 .f32) :
    Σ' (L9 : List (View.Piece (Elt F) S2000x16 .f32)) (L10 : List (View.Piece (Elt F) S1x256x128 .f32)) (L11 : List (View.Piece (Elt F) S1x256x3 .f32)) (L12 : List (View.Piece (Elt F) S1x1x256 .f32)) (L13 : List (View.Piece (Elt F) S1x16x3 .f32)) (L14 : List (View.Piece (Elt F) S1x16x1 .f32)) (L15 : List (View.Piece (Elt F) S1x1x16 .f32)), { L16 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

end Cert.KernelIdeal.Fr

end
-- ==== Proof.KI.RunB.lean ====
/-
  The kernel body run once on whole staging buffers at a point where the accumulators are carried: every input buffer at its block, each accumulator's buffer at what the point before left; it ends with the inputs as they were and each output buffer overwritten by the pieces the body stored.
-/
import proofs.«406053_j76209899700419_3_alg».proof.Proof.KI.RunA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in each output buffer at a carrying point, with the proof that the body runs to its
    continuation holding them. -/
noncomputable def kernelRun0_B (c : Dev nD) (i : grid0.Coords) (arg2 : Memref sig .tc .vmem S2000x128 .f32) (harg2 : arg2.IsWhole) (arg3 : Memref sig .tc .vmem S2000x3 .f32) (harg3 : arg3.IsWhole) (arg4 : Memref sig .tc .vmem S2000x1 .i32) (harg4 : arg4.IsWhole) (arg5 : Memref sig .tc .vmem S2000x16 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S1x1 .f32) (harg10 : arg10.IsWhole) (arg11 : Memref sig .tc .vmem S2000x16 .f32) (harg11 : arg11.IsWhole) (arg12 : Memref sig .tc .vmem S1x256x128 .f32) (harg12 : arg12.IsWhole) (arg13 : Memref sig .tc .vmem S1x256x3 .f32) (harg13 : arg13.IsWhole) (arg14 : Memref sig .tc .vmem S1x1x256 .f32) (harg14 : arg14.IsWhole) (arg15 : Memref sig .tc .vmem S1x16x3 .f32) (harg15 : arg15.IsWhole) (arg16 : Memref sig .tc .vmem S1x16x1 .f32) (harg16 : arg16.IsWhole) (arg17 : Memref sig .tc .vmem S1x1x16 .f32) (harg17 : arg17.IsWhole) (arg18 : Memref sig .tc .vmem S1x1x1 .f32) (harg18 : arg18.IsWhole) (hc0 : ¬cond0_0 i)
    (x0 : Vec F S2000x128 .f32) (x1 : Vec F S2000x3 .f32) (x2 : Vec F S2000x1 .i32) (x3 : Vec F S2000x16 .f32) (x4 : Vec F S128x128 .f32) (x5 : Vec F S1x128 .f32) (x6 : Vec F S128x16 .f32) (x7 : Vec F S1x16 .f32) (x8 : Vec F S1x1 .f32) (xo10 : Vec F S1x256x128 .f32) (xo11 : Vec F S1x256x3 .f32) (xo12 : Vec F S1x1x256 .f32) (xo13 : Vec F S1x16x3 .f32) (xo14 : Vec F S1x16x1 .f32) (xo15 : Vec F S1x1x16 .f32) (xo16 : Vec F S1x1x1 .f32) :
    Σ' (L9 : List (View.Piece (Elt F) S2000x16 .f32)) (L10 : List (View.Piece (Elt F) S1x256x128 .f32)) (L11 : List (View.Piece (Elt F) S1x256x3 .f32)) (L12 : List (View.Piece (Elt F) S1x1x256 .f32)) (L13 : List (View.Piece (Elt F) S1x16x3 .f32)) (L14 : List (View.Piece (Elt F) S1x16x1 .f32)) (L15 : List (View.Piece (Elt F) S1x1x16 .f32)), { L16 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10 ∗ owns (c : Thread nD τ) arg13 fullShare xo11 ∗ owns (c : Thread nD τ) arg14 fullShare xo12 ∗ owns (c : Thread nD τ) arg15 fullShare xo13 ∗ owns (c : Thread nD τ) arg16 fullShare xo14 ∗ owns (c : Thread nD τ) arg17 fullShare xo15 ∗ owns (c : Thread nD τ) arg18 fullShare xo16
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    iexists _; iexact H16

end Cert.KernelIdeal.Fr

end
-- ==== Proof.KI.Pieces.lean ====
/-
  What the body's stores leave in each output buffer, read back: the pieces the two runs found cover their buffers, and
  read through any whole view they are the explicit terms of the point's step — the soft-assignment block, and each
  accumulator advanced from the zeros just stored (a resetting point) or from what the buffer held (a carrying point).
-/
import proofs.«406053_j76209899700419_3_alg».proof.Proof.KI.RunB
import proofs.«406053_j76209899700419_3_alg».proof.Proof.KI.Step
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.Sem
open Cert.KernelIdeal Cert.KernelIdeal.Gen

variable {F : FTy → Type} [FloatOps F]

/-! ## One whole view per output buffer -/

/-- One staging buffer of output window 9, through which its contents are stated (any whole view reads the same). -/
abbrev VO0_9 : View sig .tc .vmem S2000x16 .f32 := (Memref.whole cc0_stg9_0 : Memref sig .tc .vmem S2000x16 .f32).view
/-- One staging buffer of output window 10, through which its contents are stated (any whole view reads the same). -/
abbrev VO0_10 : View sig .tc .vmem S1x256x128 .f32 := (Memref.whole cc0_stg10_0 : Memref sig .tc .vmem S1x256x128 .f32).view
/-- One staging buffer of output window 11, through which its contents are stated (any whole view reads the same). -/
abbrev VO0_11 : View sig .tc .vmem S1x256x3 .f32 := (Memref.whole cc0_stg11_0 : Memref sig .tc .vmem S1x256x3 .f32).view
/-- One staging buffer of output window 12, through which its contents are stated (any whole view reads the same). -/
abbrev VO0_12 : View sig .tc .vmem S1x1x256 .f32 := (Memref.whole cc0_stg12_0 : Memref sig .tc .vmem S1x1x256 .f32).view
/-- One staging buffer of output window 13, through which its contents are stated (any whole view reads the same). -/
abbrev VO0_13 : View sig .tc .vmem S1x16x3 .f32 := (Memref.whole cc0_stg13_0 : Memref sig .tc .vmem S1x16x3 .f32).view
/-- One staging buffer of output window 14, through which its contents are stated (any whole view reads the same). -/
abbrev VO0_14 : View sig .tc .vmem S1x16x1 .f32 := (Memref.whole cc0_stg14_0 : Memref sig .tc .vmem S1x16x1 .f32).view
/-- One staging buffer of output window 15, through which its contents are stated (any whole view reads the same). -/
abbrev VO0_15 : View sig .tc .vmem S1x1x16 .f32 := (Memref.whole cc0_stg15_0 : Memref sig .tc .vmem S1x1x16 .f32).view
/-- One staging buffer of output window 16, through which its contents are stated (any whole view reads the same). -/
abbrev VO0_16 : View sig .tc .vmem S1x1x1 .f32 := (Memref.whole cc0_stg16_0 : Memref sig .tc .vmem S1x1x1 .f32).view

/-- The zero offsets of a rank-2 and a rank-3 whole-buffer rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S2000x128 .f32) (harg2 : arg2.IsWhole) (arg3 : Memref sig .tc .vmem S2000x3 .f32) (harg3 : arg3.IsWhole) (arg4 : Memref sig .tc .vmem S2000x1 .i32) (harg4 : arg4.IsWhole) (arg5 : Memref sig .tc .vmem S2000x16 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S1x1 .f32) (harg10 : arg10.IsWhole) (arg11 : Memref sig .tc .vmem S2000x16 .f32) (harg11 : arg11.IsWhole) (arg12 : Memref sig .tc .vmem S1x256x128 .f32) (harg12 : arg12.IsWhole) (arg13 : Memref sig .tc .vmem S1x256x3 .f32) (harg13 : arg13.IsWhole) (arg14 : Memref sig .tc .vmem S1x1x256 .f32) (harg14 : arg14.IsWhole) (arg15 : Memref sig .tc .vmem S1x16x3 .f32) (harg15 : arg15.IsWhole) (arg16 : Memref sig .tc .vmem S1x16x1 .f32) (harg16 : arg16.IsWhole) (arg17 : Memref sig .tc .vmem S1x1x16 .f32) (harg17 : arg17.IsWhole) (arg18 : Memref sig .tc .vmem S1x1x1 .f32) (harg18 : arg18.IsWhole)

/-! ## A resetting point -/

section Reset

variable (hc0 : cond0_0 i) (x0 : Vec F S2000x128 .f32) (x1 : Vec F S2000x3 .f32) (x2 : Vec F S2000x1 .i32) (x3 : Vec F S2000x16 .f32) (x4 : Vec F S128x128 .f32) (x5 : Vec F S1x128 .f32) (x6 : Vec F S128x16 .f32) (x7 : Vec F S1x16 .f32) (x8 : Vec F S1x1 .f32)

local notation "runA" => kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8

/-- The pieces found for output 9 cover its buffer. -/
theorem cover0_A_9 (y : S2000x16.Idx) : ∃ pc ∈ (runA).1, y ∈ pc.1.set :=
  View.cover_of_tiledL (runA).1 S2000x16.size (by sl_kernel_rfl) y

/-- The pieces found for output 10 cover its buffer. -/
theorem cover0_A_10 (y : S1x256x128.Idx) : ∃ pc ∈ (runA).2.1, y ∈ pc.1.set :=
  View.cover_of_tiledL (runA).2.1 S1x256x128.size (by sl_kernel_rfl) y

/-- The pieces found for output 11 cover its buffer. -/
theorem cover0_A_11 (y : S1x256x3.Idx) : ∃ pc ∈ (runA).2.2.1, y ∈ pc.1.set :=
  View.cover_of_tiledL (runA).2.2.1 S1x256x3.size (by sl_kernel_rfl) y

/-- The pieces found for output 12 cover its buffer. -/
theorem cover0_A_12 (y : S1x1x256.Idx) : ∃ pc ∈ (runA).2.2.2.1, y ∈ pc.1.set :=
  View.cover_of_tiledL (runA).2.2.2.1 S1x1x256.size (by sl_kernel_rfl) y

/-- The pieces found for output 13 cover its buffer. -/
theorem cover0_A_13 (y : S1x16x3.Idx) : ∃ pc ∈ (runA).2.2.2.2.1, y ∈ pc.1.set :=
  View.cover_of_tiledL (runA).2.2.2.2.1 S1x16x3.size (by sl_kernel_rfl) y

/-- The pieces found for output 14 cover its buffer. -/
theorem cover0_A_14 (y : S1x16x1.Idx) : ∃ pc ∈ (runA).2.2.2.2.2.1, y ∈ pc.1.set :=
  View.cover_of_tiledL (runA).2.2.2.2.2.1 S1x16x1.size (by sl_kernel_rfl) y

/-- The pieces found for output 15 cover its buffer. -/
theorem cover0_A_15 (y : S1x1x16.Idx) : ∃ pc ∈ (runA).2.2.2.2.2.2.1, y ∈ pc.1.set :=
  View.cover_of_tiledL (runA).2.2.2.2.2.2.1 S1x1x16.size (by sl_kernel_rfl) y

/-- The pieces found for output 16 cover its buffer. -/
theorem cover0_A_16 (y : S1x1x1.Idx) : ∃ pc ∈ (runA).2.2.2.2.2.2.2.1, y ∈ pc.1.set :=
  View.cover_of_tiledL (runA).2.2.2.2.2.2.2.1 S1x1x1.size (by sl_kernel_rfl) y

/-- The soft-assignment buffer ends at the point's soft-assignment block. -/
theorem piece_A_9 : VO0_9.read (Elt F) (VO0_9.writes (Elt F) VO0_9.junk (runA).1) = sBlk x0 x3 x4 x5 x6 x7 x8 := by
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 10 ends at the step from the zeros the body has just stored. -/
theorem piece_A_10 : VO0_10.read (Elt F) (VO0_10.writes (Elt F) VO0_10.junk (runA).2.1) = (stepAll x0 x1 x2 x3 x4 x5 x6 x7 x8 zeroAll).1 := by
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x256x128) hz3, View.readCov_unit_zero (S := S1x256x128) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 11 ends at the step from the zeros the body has just stored. -/
theorem piece_A_11 : VO0_11.read (Elt F) (VO0_11.writes (Elt F) VO0_11.junk (runA).2.2.1) = (stepAll x0 x1 x2 x3 x4 x5 x6 x7 x8 zeroAll).2.1 := by
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x256x3) hz3, View.readCov_unit_zero (S := S1x256x3) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 12 ends at the step from the zeros the body has just stored. -/
theorem piece_A_12 : VO0_12.read (Elt F) (VO0_12.writes (Elt F) VO0_12.junk (runA).2.2.2.1) = (stepAll x0 x1 x2 x3 x4 x5 x6 x7 x8 zeroAll).2.2.1 := by
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 13 ends at the step from the zeros the body has just stored. -/
theorem piece_A_13 : VO0_13.read (Elt F) (VO0_13.writes (Elt F) VO0_13.junk (runA).2.2.2.2.1) = (stepAll x0 x1 x2 x3 x4 x5 x6 x7 x8 zeroAll).2.2.2.1 := by
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x16x3) hz3, View.readCov_unit_zero (S := S1x16x3) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 14 ends at the step from the zeros the body has just stored. -/
theorem piece_A_14 : VO0_14.read (Elt F) (VO0_14.writes (Elt F) VO0_14.junk (runA).2.2.2.2.2.1) = (stepAll x0 x1 x2 x3 x4 x5 x6 x7 x8 zeroAll).2.2.2.2.1 := by
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 15 ends at the step from the zeros the body has just stored. -/
theorem piece_A_15 : VO0_15.read (Elt F) (VO0_15.writes (Elt F) VO0_15.junk (runA).2.2.2.2.2.2.1) = (stepAll x0 x1 x2 x3 x4 x5 x6 x7 x8 zeroAll).2.2.2.2.2.1 := by
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x1x16) hz3, View.readCov_unit_zero (S := S1x1x16) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 16 ends at the step from the zeros the body has just stored. -/
theorem piece_A_16 : VO0_16.read (Elt F) (VO0_16.writes (Elt F) VO0_16.junk (runA).2.2.2.2.2.2.2.1) = (stepAll x0 x1 x2 x3 x4 x5 x6 x7 x8 zeroAll).2.2.2.2.2.2 := by
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

end Reset

/-! ## A carrying point -/

section Carry

variable (hc0 : ¬cond0_0 i) (x0 : Vec F S2000x128 .f32) (x1 : Vec F S2000x3 .f32) (x2 : Vec F S2000x1 .i32) (x3 : Vec F S2000x16 .f32) (x4 : Vec F S128x128 .f32) (x5 : Vec F S1x128 .f32) (x6 : Vec F S128x16 .f32) (x7 : Vec F S1x16 .f32) (x8 : Vec F S1x1 .f32) (xo10 : Vec F S1x256x128 .f32) (xo11 : Vec F S1x256x3 .f32) (xo12 : Vec F S1x1x256 .f32) (xo13 : Vec F S1x16x3 .f32) (xo14 : Vec F S1x16x1 .f32) (xo15 : Vec F S1x1x16 .f32) (xo16 : Vec F S1x1x1 .f32)

local notation "runB" => kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16

/-- The pieces found for output 9 cover its buffer. -/
theorem cover0_B_9 (y : S2000x16.Idx) : ∃ pc ∈ (runB).1, y ∈ pc.1.set :=
  View.cover_of_tiledL (runB).1 S2000x16.size (by sl_kernel_rfl) y

/-- The pieces found for output 10 cover its buffer. -/
theorem cover0_B_10 (y : S1x256x128.Idx) : ∃ pc ∈ (runB).2.1, y ∈ pc.1.set :=
  View.cover_of_tiledL (runB).2.1 S1x256x128.size (by sl_kernel_rfl) y

/-- The pieces found for output 11 cover its buffer. -/
theorem cover0_B_11 (y : S1x256x3.Idx) : ∃ pc ∈ (runB).2.2.1, y ∈ pc.1.set :=
  View.cover_of_tiledL (runB).2.2.1 S1x256x3.size (by sl_kernel_rfl) y

/-- The pieces found for output 12 cover its buffer. -/
theorem cover0_B_12 (y : S1x1x256.Idx) : ∃ pc ∈ (runB).2.2.2.1, y ∈ pc.1.set :=
  View.cover_of_tiledL (runB).2.2.2.1 S1x1x256.size (by sl_kernel_rfl) y

/-- The pieces found for output 13 cover its buffer. -/
theorem cover0_B_13 (y : S1x16x3.Idx) : ∃ pc ∈ (runB).2.2.2.2.1, y ∈ pc.1.set :=
  View.cover_of_tiledL (runB).2.2.2.2.1 S1x16x3.size (by sl_kernel_rfl) y

/-- The pieces found for output 14 cover its buffer. -/
theorem cover0_B_14 (y : S1x16x1.Idx) : ∃ pc ∈ (runB).2.2.2.2.2.1, y ∈ pc.1.set :=
  View.cover_of_tiledL (runB).2.2.2.2.2.1 S1x16x1.size (by sl_kernel_rfl) y

/-- The pieces found for output 15 cover its buffer. -/
theorem cover0_B_15 (y : S1x1x16.Idx) : ∃ pc ∈ (runB).2.2.2.2.2.2.1, y ∈ pc.1.set :=
  View.cover_of_tiledL (runB).2.2.2.2.2.2.1 S1x1x16.size (by sl_kernel_rfl) y

/-- The pieces found for output 16 cover its buffer. -/
theorem cover0_B_16 (y : S1x1x1.Idx) : ∃ pc ∈ (runB).2.2.2.2.2.2.2.1, y ∈ pc.1.set :=
  View.cover_of_tiledL (runB).2.2.2.2.2.2.2.1 S1x1x1.size (by sl_kernel_rfl) y

/-- The soft-assignment buffer ends at the point's soft-assignment block. -/
theorem piece_B_9 : VO0_9.read (Elt F) (VO0_9.writes (Elt F) VO0_9.junk (runB).1) = sBlk x0 x3 x4 x5 x6 x7 x8 := by
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2]
  rfl

/-- Accumulator 10 ends at the step from what its buffer held. -/
theorem piece_B_10 : VO0_10.read (Elt F) (VO0_10.writes (Elt F) VO0_10.junk (runB).2.1) = (stepAll x0 x1 x2 x3 x4 x5 x6 x7 x8 (xo10, xo11, xo12, xo13, xo14, xo15, xo16)).1 := by
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg12.read_unread, View.ld_unit_zero (S := S1x256x128) hz3]
  rfl

/-- Accumulator 11 ends at the step from what its buffer held. -/
theorem piece_B_11 : VO0_11.read (Elt F) (VO0_11.writes (Elt F) VO0_11.junk (runB).2.2.1) = (stepAll x0 x1 x2 x3 x4 x5 x6 x7 x8 (xo10, xo11, xo12, xo13, xo14, xo15, xo16)).2.1 := by
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg13.read_unread, View.ld_unit_zero (S := S1x256x3) hz3]
  rfl

/-- Accumulator 12 ends at the step from what its buffer held. -/
theorem piece_B_12 : VO0_12.read (Elt F) (VO0_12.writes (Elt F) VO0_12.junk (runB).2.2.2.1) = (stepAll x0 x1 x2 x3 x4 x5 x6 x7 x8 (xo10, xo11, xo12, xo13, xo14, xo15, xo16)).2.2.1 := by
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg14.read_unread, View.ld_unit_zero (S := S1x1x256) hz3]
  rfl

/-- Accumulator 13 ends at the step from what its buffer held. -/
theorem piece_B_13 : VO0_13.read (Elt F) (VO0_13.writes (Elt F) VO0_13.junk (runB).2.2.2.2.1) = (stepAll x0 x1 x2 x3 x4 x5 x6 x7 x8 (xo10, xo11, xo12, xo13, xo14, xo15, xo16)).2.2.2.1 := by
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg15.read_unread, View.ld_unit_zero (S := S1x16x3) hz3]
  rfl

/-- Accumulator 14 ends at the step from what its buffer held. -/
theorem piece_B_14 : VO0_14.read (Elt F) (VO0_14.writes (Elt F) VO0_14.junk (runB).2.2.2.2.2.1) = (stepAll x0 x1 x2 x3 x4 x5 x6 x7 x8 (xo10, xo11, xo12, xo13, xo14, xo15, xo16)).2.2.2.2.1 := by
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg16.read_unread, View.ld_unit_zero (S := S1x16x1) hz3]
  rfl

/-- Accumulator 15 ends at the step from what its buffer held. -/
theorem piece_B_15 : VO0_15.read (Elt F) (VO0_15.writes (Elt F) VO0_15.junk (runB).2.2.2.2.2.2.1) = (stepAll x0 x1 x2 x3 x4 x5 x6 x7 x8 (xo10, xo11, xo12, xo13, xo14, xo15, xo16)).2.2.2.2.2.1 := by
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg17.read_unread, View.ld_unit_zero (S := S1x1x16) hz3]
  rfl

/-- Accumulator 16 ends at the step from what its buffer held. -/
theorem piece_B_16 : VO0_16.read (Elt F) (VO0_16.writes (Elt F) VO0_16.junk (runB).2.2.2.2.2.2.2.1) = (stepAll x0 x1 x2 x3 x4 x5 x6 x7 x8 (xo10, xo11, xo12, xo13, xo14, xo15, xo16)).2.2.2.2.2.2 := by
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 xo10 xo11 xo12 xo13 xo14 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S2000x128) hz2, View.ld_unit_zero (S := S2000x3) hz2, View.ld_unit_zero (S := S2000x1) hz2, View.ld_unit_zero (S := S2000x16) hz2, View.ld_unit_zero (S := S128x128) hz2, View.ld_unit_zero (S := S1x128) hz2, View.ld_unit_zero (S := S128x16) hz2, View.ld_unit_zero (S := S1x16) hz2, View.ld_unit_zero (S := S1x1) hz2, harg18.read_unread, View.ld_unit_zero (S := S1x1x1) hz3]
  rfl

end Carry

end Cert.KernelIdeal.Fr

end
-- ==== Proof.KI.Frame.lean ====
/-
  The frame certificate of the printed program: the body obligation of its one pipeline at every grid point, the run of
  @main, and the frame claim.

  At grid point t = 25·core + step the body reads the nine input buffers, stores the point's soft-assignment block, and
  either (step = 0) stores the zero arrays into the seven accumulator buffers and adds the block's contribution, or
  (step > 0) adds the contribution to what the buffers held.  The accumulator buffers are written back only at step = 24,
  so at a point with step > 0 they still hold what the body left at the point before.
-/
import proofs.«406053_j76209899700419_3_alg».proof.Proof.KI.Shared
import proofs.«406053_j76209899700419_3_alg».proof.Proof.KI.Dats
import proofs.«406053_j76209899700419_3_alg».proof.Proof.KI.Pieces

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold when the body is called -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- At a carrying point an accumulator's staging buffer holds what the body left at the point before: the point is not the
    first, the buffer was last written back at a point ≡ 24 (mod 25), which the point before is not, and the window is whole. -/
theorem before0_10_carry (c : Dev nD) (t : Fin cfg0.N) (h0 : ¬t.val % 25 = 0) (d) :
    (dats m 0 c).before 10 t d = (accAt m c (t.val - 1) (Nat.lt_of_le_of_lt (Nat.sub_le _ _) t.isLt)).1 := by
  rw [Dat.before_out_kept (dats m 0 c) 10 rfl t (by omega) (Bool.eq_false_iff.mpr fun h => by have := (flush0_10 _).mp h; dsimp only at this; omega)
    (fun _ => rfl) (fun _ _ => rfl)]
  exact after0_10 m c _
theorem before0_11_carry (c : Dev nD) (t : Fin cfg0.N) (h0 : ¬t.val % 25 = 0) (d) :
    (dats m 0 c).before 11 t d = (accAt m c (t.val - 1) (Nat.lt_of_le_of_lt (Nat.sub_le _ _) t.isLt)).2.1 := by
  rw [Dat.before_out_kept (dats m 0 c) 11 rfl t (by omega) (Bool.eq_false_iff.mpr fun h => by have := (flush0_11 _).mp h; dsimp only at this; omega)
    (fun _ => rfl) (fun _ _ => rfl)]
  exact after0_11 m c _
theorem before0_12_carry (c : Dev nD) (t : Fin cfg0.N) (h0 : ¬t.val % 25 = 0) (d) :
    (dats m 0 c).before 12 t d = (accAt m c (t.val - 1) (Nat.lt_of_le_of_lt (Nat.sub_le _ _) t.isLt)).2.2.1 := by
  rw [Dat.before_out_kept (dats m 0 c) 12 rfl t (by omega) (Bool.eq_false_iff.mpr fun h => by have := (flush0_12 _).mp h; dsimp only at this; omega)
    (fun _ => rfl) (fun _ _ => rfl)]
  exact after0_12 m c _
theorem before0_13_carry (c : Dev nD) (t : Fin cfg0.N) (h0 : ¬t.val % 25 = 0) (d) :
    (dats m 0 c).before 13 t d = (accAt m c (t.val - 1) (Nat.lt_of_le_of_lt (Nat.sub_le _ _) t.isLt)).2.2.2.1 := by
  rw [Dat.before_out_kept (dats m 0 c) 13 rfl t (by omega) (Bool.eq_false_iff.mpr fun h => by have := (flush0_13 _).mp h; dsimp only at this; omega)
    (fun _ => rfl) (fun _ _ => rfl)]
  exact after0_13 m c _
theorem before0_14_carry (c : Dev nD) (t : Fin cfg0.N) (h0 : ¬t.val % 25 = 0) (d) :
    (dats m 0 c).before 14 t d = (accAt m c (t.val - 1) (Nat.lt_of_le_of_lt (Nat.sub_le _ _) t.isLt)).2.2.2.2.1 := by
  rw [Dat.before_out_kept (dats m 0 c) 14 rfl t (by omega) (Bool.eq_false_iff.mpr fun h => by have := (flush0_14 _).mp h; dsimp only at this; omega)
    (fun _ => rfl) (fun _ _ => rfl)]
  exact after0_14 m c _
theorem before0_15_carry (c : Dev nD) (t : Fin cfg0.N) (h0 : ¬t.val % 25 = 0) (d) :
    (dats m 0 c).before 15 t d = (accAt m c (t.val - 1) (Nat.lt_of_le_of_lt (Nat.sub_le _ _) t.isLt)).2.2.2.2.2.1 := by
  rw [Dat.before_out_kept (dats m 0 c) 15 rfl t (by omega) (Bool.eq_false_iff.mpr fun h => by have := (flush0_15 _).mp h; dsimp only at this; omega)
    (fun _ => rfl) (fun _ _ => rfl)]
  exact after0_15 m c _
theorem before0_16_carry (c : Dev nD) (t : Fin cfg0.N) (h0 : ¬t.val % 25 = 0) (d) :
    (dats m 0 c).before 16 t d = (accAt m c (t.val - 1) (Nat.lt_of_le_of_lt (Nat.sub_le _ _) t.isLt)).2.2.2.2.2.2 := by
  rw [Dat.before_out_kept (dats m 0 c) 16 rfl t (by omega) (Bool.eq_false_iff.mpr fun h => by have := (flush0_16 _).mp h; dsimp only at this; omega)
    (fun _ => rfl) (fun _ _ => rfl)]
  exact after0_16 m c _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 8000000 in
/-- The body at any point: every input's staging buffer holds its block; at a multiple of 25 the body resets the accumulators,
    so whatever their buffers held is overwritten and they end at one step from the zero arrays; elsewhere their buffers hold what the
    point before left and end one step further.  The invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  have hN : t.val < 50 := lt_of_lt_of_eq t.isLt (show cfg0.N = 50 from N_0)
  by_cases h0 : t.val % 25 = 0
  · rw [accAt_reset m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (View.read_writes_of_cover _ _ _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H10]
    · unfold owns; iexists _; isplitr
      swap; · iexact H10
      ipureintro; exact (View.read_writes_of_cover _ _ _ _ _ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H11]
    · unfold owns; iexists _; isplitr
      swap; · iexact H11
      ipureintro; exact (View.read_writes_of_cover _ _ _ _ _ (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H12]
    · unfold owns; iexists _; isplitr
      swap; · iexact H12
      ipureintro; exact (View.read_writes_of_cover _ _ _ _ _ (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H13]
    · unfold owns; iexists _; isplitr
      swap; · iexact H13
      ipureintro; exact (View.read_writes_of_cover _ _ _ _ _ (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H14]
    · unfold owns; iexists _; isplitr
      swap; · iexact H14
      ipureintro; exact (View.read_writes_of_cover _ _ _ _ _ (cover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    isplitl [H15]
    · unfold owns; iexists _; isplitr
      swap; · iexact H15
      ipureintro; exact (View.read_writes_of_cover _ _ _ _ _ (cover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
    unfold owns; iexists _; isplitr
    swap; · iexact H16
    ipureintro; exact (View.read_writes_of_cover _ _ _ _ _ (cover0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))).trans (piece_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t))
  · rw [accAt_carry m c t h0]
    simp only [before0_10_carry m c t h0, before0_11_carry m c t h0, before0_12_carry m c t h0, before0_13_carry m c t h0, before0_14_carry m c t h0, before0_15_carry m c t h0, before0_16_carry m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (View.read_writes_of_cover _ _ _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H10]
    · unfold owns; iexists _; isplitr
      swap; · iexact H10
      ipureintro; exact (View.read_writes_of_cover _ _ _ _ _ (cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H11]
    · unfold owns; iexists _; isplitr
      swap; · iexact H11
      ipureintro; exact (View.read_writes_of_cover _ _ _ _ _ (cover0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H12]
    · unfold owns; iexists _; isplitr
      swap; · iexact H12
      ipureintro; exact (View.read_writes_of_cover _ _ _ _ _ (cover0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H13]
    · unfold owns; iexists _; isplitr
      swap; · iexact H13
      ipureintro; exact (View.read_writes_of_cover _ _ _ _ _ (cover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H14]
    · unfold owns; iexists _; isplitr
      swap; · iexact H14
      ipureintro; exact (View.read_writes_of_cover _ _ _ _ _ (cover0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    isplitl [H15]
    · unfold owns; iexists _; isplitr
      swap; · iexact H15
      ipureintro; exact (View.read_writes_of_cover _ _ _ _ _ (cover0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)
    unfold owns; iexists _; isplitr
    swap; · iexact H16
    ipureintro; exact (View.read_writes_of_cover _ _ _ _ _ (cover0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)).trans (piece_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2.1 (accAt m c (t.val - 1) (Nat.lt_of_le_of_lt (Nat.sub_le _ _) t.isLt)).2.2.2.2.1 (accAt m c (t.val - 1) (Nat.lt_of_le_of_lt (Nat.sub_le _ _) t.isLt)).2.2.2.2.2.1 (accAt m c (t.val - 1) (Nat.lt_of_le_of_lt (Nat.sub_le _ _) t.isLt)).2.2.2.2.2.2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the nine argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Fr

end
-- ==== Proof.KI.TailFns.lean ====
/-
  The program's lines after the region, as functions of the arrays they start from.

  After the region the program first adds the two cores' slabs of each accumulator array and re-lays the sums: the
  segment-wise feature sums as [16, 16, 128], the segment-wise position sums ap as [16, 16, 3], the segment-wise assignment
  sums as [16, 16], the assignment sums as [16], the squared-length sums as [16], the entropy sum as a scalar.  From these:

    diversity   Σ_k p_k · log(p_k + ε)                          with p = sums / 1e5,
    pruning     (Σ_k |p_k|) / 16,
    entropy     (-e) / 1e5,
    centres     μ[b, k, ·] = ap[b, k, ·] / (as[b, k] + ε),
    separation  (Σ_{b, i, j} (1 - [i = j]) / (|μ[b,i,·] - μ[b,j,·]|² + 1)) / 240,
    spread      (Σ_k ( sq[k] / D[k] - Σ_d (sp[k, d] / D[k])² )) / 16     with D = sums + ε.

  Each function is the program's own operations in order, over the extended reals.
-/
import proofs.«406053_j76209899700419_3_alg».proof.Proof.Gen.KernelIdeal
import Idealize.ShloMosaic.PureOps.Ideal
import Idealize.ShloMosaic.PureOps.Ideal.Laws
import Idealize.ShloMosaic.Lib.ValueIdx

set_option maxRecDepth 16384

noncomputable section

open scoped BigOperators

namespace Cert.KernelIdeal.Val

open Idealize.ShloMosaic Idealize.ShloMosaic.ValueIdx
open Cert.KernelIdeal Cert.KernelIdeal.Gen

/-! ## The program's later lines, as functions of the arrays they start from -/

/-- The assignment sums scaled by the number of rows: sums / 1e5. -/
def tFrac (sums : Vec Ideal S16 .f32) : Vec Ideal S16 .f32 :=
  Host.divf (F := Ideal) sums (broadcastInDim S16 ![] bcast_S_S16 (constant (F := Ideal) S_ .f32 0x47C35000#32))

/-- Σ_k p_k · log(p_k + ε) of the scaled sums p. -/
def tDiversity (sums : Vec Ideal S16 .f32) : Vec Ideal S_ .f32 :=
  Host.reduceAdd (F := Ideal)
    (mulf (tFrac sums)
      (Host.log (F := Ideal) (addf (tFrac sums) (broadcastInDim S16 ![] bcast_S_S16 (constant (F := Ideal) S_ .f32 0x3089705F#32)))))
    (constant (F := Ideal) S_ .f32 0x00000000#32) reducesTo_S16_S_d0 h_S_

/-- (Σ_k |p_k|) / 16 of the scaled sums p. -/
def tPruning (sums : Vec Ideal S16 .f32) : Vec Ideal S_ .f32 :=
  Host.divf (F := Ideal)
    (Host.reduceAdd (F := Ideal) (Host.absf (F := Ideal) (tFrac sums)) (constant (F := Ideal) S_ .f32 0x00000000#32) reducesTo_S16_S_d0 h_S_)
    (constant (F := Ideal) S_ .f32 0x41800000#32)

/-- -e / 1e5. -/
def tEntropy (e : Vec Ideal S_ .f32) : Vec Ideal S_ .f32 :=
  Host.divf (F := Ideal) (Host.negf (F := Ideal) e) (constant (F := Ideal) S_ .f32 0x47C35000#32)

/-- The segment-wise centres: ap[b,k,·] / (as[b,k] + ε). -/
def tMu (ap : Vec Ideal S16x16x3 .f32) (asg : Vec Ideal S16x16 .f32) : Vec Ideal S16x16x3 .f32 :=
  Host.divf (F := Ideal) ap
    (broadcastInDim S16x16x3 ![0, 1, 2] bcast_S16x16x1_S16x16x3_0_1_2
      (addf (broadcastInDim S16x16x1 ![0, 1] bcast_S16x16_S16x16x1_0_1 asg)
        (broadcastInDim S16x16x1 ![] bcast_S_S16x16x1 (constant (F := Ideal) S_ .f32 0x3089705F#32))))

/-- The mean over segments and pairs of distinct clusters of 1 / (|μ_i - μ_j|² + 1). -/
def tSeparation (mu : Vec Ideal S16x16x3 .f32) : Vec Ideal S_ .f32 :=
  Host.divf (F := Ideal)
    (Host.reduceAdd (F := Ideal)
      (mulf
        (Host.divf (F := Ideal) (broadcastInDim S16x16x16 ![] bcast_S_S16x16x16 (constant (F := Ideal) S_ .f32 0x3F800000#32))
          (addf
            (Host.reduceAdd (F := Ideal)
              (mulf
                (subf
                  (broadcastInDim S16x16x16x3 ![0, 1, 2, 3] bcast_S16x16x1x3_S16x16x16x3_0_1_2_3
                    (broadcastInDim S16x16x1x3 ![0, 1, 3] bcast_S16x16x3_S16x16x1x3_0_1_3 mu))
                  (broadcastInDim S16x16x16x3 ![0, 1, 2, 3] bcast_S16x1x16x3_S16x16x16x3_0_1_2_3
                    (broadcastInDim S16x1x16x3 ![0, 2, 3] bcast_S16x16x3_S16x1x16x3_0_2_3 mu)))
                (subf
                  (broadcastInDim S16x16x16x3 ![0, 1, 2, 3] bcast_S16x16x1x3_S16x16x16x3_0_1_2_3
                    (broadcastInDim S16x16x1x3 ![0, 1, 3] bcast_S16x16x3_S16x16x1x3_0_1_3 mu))
                  (broadcastInDim S16x16x16x3 ![0, 1, 2, 3] bcast_S16x1x16x3_S16x16x16x3_0_1_2_3
                    (broadcastInDim S16x1x16x3 ![0, 2, 3] bcast_S16x16x3_S16x1x16x3_0_2_3 mu))))
              (constant (F := Ideal) S_ .f32 0x00000000#32) reducesTo_S16x16x16x3_S16x16x16_d3 h_S_)
            (broadcastInDim S16x16x16 ![] bcast_S_S16x16x16 (constant (F := Ideal) S_ .f32 0x3F800000#32))))
        (broadcastInDim S16x16x16 ![0, 1, 2] bcast_S1x16x16_S16x16x16_0_1_2
          (subf (broadcastInDim S1x16x16 ![] bcast_S_S1x16x16 (constant (F := Ideal) S_ .f32 0x3F800000#32))
            (broadcastInDim S1x16x16 ![1, 2] bcast_S16x16_S1x16x16_1_2
              (uitofp (F := Ideal) .f32
                (cmpi .eq (addi (iotaInDim S16x16 32 0) (broadcastInDim S16x16 ![] bcast_S_S16x16 (constantI S_ 32 0#32)))
                  (iotaInDim S16x16 32 1)))))))
      (constant (F := Ideal) S_ .f32 0x00000000#32) reducesTo_S16x16x16_S_d0_1_2 h_S_)
    (constant (F := Ideal) S_ .f32 0x43700000#32)

/-- The assignment sums plus ε. -/
def tDen (sums : Vec Ideal S16 .f32) : Vec Ideal S16 .f32 :=
  addf sums (broadcastInDim S16 ![] bcast_S_S16 (constant (F := Ideal) S_ .f32 0x3089705F#32))

/-- The cluster centres sp[k,·] / D[k]. -/
def tCentre (sp : Vec Ideal S16x3 .f32) (sums : Vec Ideal S16 .f32) : Vec Ideal S16x3 .f32 :=
  Host.divf (F := Ideal) (φ := .f32) sp
    (broadcastInDim S16x3 ![0, 1] bcast_S16x1_S16x3_0_1 (broadcastInDim S16x1 ![0] bcast_S16_S16x1_0 (tDen sums)))

/-- The mean over clusters of sq[k] / D[k] - |sp[k,·] / D[k]|². -/
def tSpatialK (sp : Vec Ideal S16x3 .f32) (sq : Vec Ideal S16 .f32) (sums : Vec Ideal S16 .f32) : Vec Ideal S_ .f32 :=
  Host.divf (F := Ideal)
    (Host.reduceAdd (F := Ideal)
      (subf (Host.divf (F := Ideal) sq (tDen sums))
        (Host.reduceAdd (F := Ideal) (mulf (tCentre sp sums) (tCentre sp sums)) (constant (F := Ideal) S_ .f32 0x00000000#32)
          reducesTo_S16x3_S16_d1 h_S_))
      (constant (F := Ideal) S_ .f32 0x00000000#32) reducesTo_S16_S_d0 h_S_)
    (constant (F := Ideal) S_ .f32 0x41800000#32)

/-! ## The arrays the later lines start from, out of the seven two-slab accumulator arrays -/

/-- Each accumulator array summed over its two halves (from 0). -/
abbrev hsum10 (a : Vec Ideal S2x256x128 .f32) : Vec Ideal S256x128 .f32 :=
  Host.reduceAdd (F := Ideal) a (constant (F := Ideal) S_ .f32 0x00000000#32) reducesTo_S2x256x128_S256x128_d0 h_S_
abbrev hsum11 (a : Vec Ideal S2x256x3 .f32) : Vec Ideal S256x3 .f32 :=
  Host.reduceAdd (F := Ideal) a (constant (F := Ideal) S_ .f32 0x00000000#32) reducesTo_S2x256x3_S256x3_d0 h_S_
abbrev hsum12 (a : Vec Ideal S2x1x256 .f32) : Vec Ideal S1x256 .f32 :=
  Host.reduceAdd (F := Ideal) a (constant (F := Ideal) S_ .f32 0x00000000#32) reducesTo_S2x1x256_S1x256_d0 h_S_
abbrev hsum13 (a : Vec Ideal S2x16x3 .f32) : Vec Ideal S16x3 .f32 :=
  Host.reduceAdd (F := Ideal) a (constant (F := Ideal) S_ .f32 0x00000000#32) reducesTo_S2x16x3_S16x3_d0 h_S_
abbrev hsum14 (a : Vec Ideal S2x16x1 .f32) : Vec Ideal S16x1 .f32 :=
  Host.reduceAdd (F := Ideal) a (constant (F := Ideal) S_ .f32 0x00000000#32) reducesTo_S2x16x1_S16x1_d0 h_S_
abbrev hsum15 (a : Vec Ideal S2x1x16 .f32) : Vec Ideal S1x16 .f32 :=
  Host.reduceAdd (F := Ideal) a (constant (F := Ideal) S_ .f32 0x00000000#32) reducesTo_S2x1x16_S1x16_d0 h_S_
abbrev hsum16 (a : Vec Ideal S2x1x1 .f32) : Vec Ideal S1x1 .f32 :=
  Host.reduceAdd (F := Ideal) a (constant (F := Ideal) S_ .f32 0x00000000#32) reducesTo_S2x1x1_S1x1_d0 h_S_

/-- The arrays the later lines start from, out of the accumulator arrays: %12, %39, %41, %13, %24, %8, %32. -/
abbrev hOut (a : Vec Ideal S2x256x128 .f32) : Vec Ideal S16x16x128 .f32 := shapeCast S16x16x128 (hsum10 a) shapeCasts_S256x128_S16x16x128
abbrev hAp (a : Vec Ideal S2x256x3 .f32) : Vec Ideal S16x16x3 .f32 := shapeCast S16x16x3 (hsum11 a) shapeCasts_S256x3_S16x16x3
abbrev hAs (a : Vec Ideal S2x1x256 .f32) : Vec Ideal S16x16 .f32 :=
  shapeCast S16x16 (shapeCast S256 (hsum12 a) shapeCasts_S1x256_S256) shapeCasts_S256_S16x16
abbrev hSq (a : Vec Ideal S2x16x1 .f32) : Vec Ideal S16 .f32 := shapeCast S16 (hsum14 a) shapeCasts_S16x1_S16
abbrev hSums (a : Vec Ideal S2x1x16 .f32) : Vec Ideal S16 .f32 := shapeCast S16 (hsum15 a) shapeCasts_S1x16_S16
abbrev hEnt (a : Vec Ideal S2x1x1 .f32) : Vec Ideal S_ .f32 := shapeCast S_ (hsum16 a) shapeCasts_S1x1_S_

end Cert.KernelIdeal.Val

end
-- ==== Proof.KI.Cols.lean ====
/-
  The 256 accumulator columns are (segment, cluster) pairs: column j belongs to segment j / 16 and cluster j % 16.
-/
import Mathlib.Data.Fin.Basic
import Mathlib.Tactic.Common

namespace Cert.KernelIdeal.Val

/-- The segment of column j. -/
abbrev segOf (j : Fin 256) : Fin 16 := ⟨j.val / 16, by omega⟩
/-- The cluster of column j. -/
abbrev cluOf (j : Fin 256) : Fin 16 := ⟨j.val % 16, Nat.mod_lt _ (by decide)⟩
/-- The column of segment b and cluster k. -/
abbrev colOf (b k : Fin 16) : Fin 256 := ⟨16 * b.val + k.val, by omega⟩

end Cert.KernelIdeal.Val
-- ==== Proof.Math.Blocks.lean ====
/-
  Re-indexing sums over the 100000 rows.

  A row n < 100000 is n = 2000·t + r with a block t < 50 and a row-in-block r < 2000; a block is t = 25·cc + i with
  cc < 2 and i < 25.  Sums over rows are sums over (t, r), sums over blocks are sums over (cc, i); the extended reals
  are an additive commutative monoid, so no finiteness is needed.  A left-nested running sum from 0 is the finite sum.
-/
import Mathlib.Data.EReal.Basic
import Mathlib.Logic.Equiv.Fin.Basic
import Mathlib.Algebra.BigOperators.Fin
import Mathlib.Algebra.BigOperators.Group.Finset.Basic

open scoped BigOperators

namespace Cert.Math

/-- Row r of block t. -/
def rowOf (t : Fin 50) (r : Fin 2000) : Fin 100000 := ⟨2000 * t.val + r.val, by omega⟩

/-- Block i of half cc. -/
def blockOf (cc : Fin 2) (i : Fin 25) : Fin 50 := ⟨25 * cc.val + i.val, by omega⟩

@[simp] theorem rowOf_val (t : Fin 50) (r : Fin 2000) : (rowOf t r).val = 2000 * t.val + r.val := rfl
@[simp] theorem blockOf_val (cc : Fin 2) (i : Fin 25) : (blockOf cc i).val = 25 * cc.val + i.val := rfl

/-- A sum over Fin (a·b) is the double sum over (t, r) ↦ b·t + r, in any additive commutative monoid. -/
theorem sum_fin_mul {M : Type*} [AddCommMonoid M] (a b : Nat) (f : Fin (a * b) → M) :
    ∑ n : Fin (a * b), f n
      = ∑ t : Fin a, ∑ r : Fin b, f ⟨b * t.val + r.val, by
          calc b * t.val + r.val < b * t.val + b := by omega
            _ = b * (t.val + 1) := by ring
            _ ≤ b * a := Nat.mul_le_mul_left b t.isLt
            _ = a * b := Nat.mul_comm b a⟩ := by
  rw [← (Equiv.sum_comp (finProdFinEquiv : Fin a × Fin b ≃ Fin (a * b)) f), Fintype.sum_prod_type]
  refine Finset.sum_congr rfl fun t _ => Finset.sum_congr rfl fun r _ => ?_
  congr 1
  ext
  simp only [finProdFinEquiv, Equiv.coe_fn_mk]
  omega

/-- The sum over all rows is the sum over blocks of the sums over the rows of a block. -/
theorem sum_rows_blocks (f : Fin 100000 → EReal) :
    ∑ n : Fin 100000, f n = ∑ t : Fin 50, ∑ r : Fin 2000, f ⟨2000 * t.val + r.val, by omega⟩ :=
  sum_fin_mul 50 2000 f

/-- The same with the row named. -/
theorem sum_rows_rowOf (f : Fin 100000 → EReal) :
    ∑ n : Fin 100000, f n = ∑ t : Fin 50, ∑ r : Fin 2000, f (rowOf t r) :=
  sum_rows_blocks f

/-- The sum over all blocks is the sum over the two halves of the sums over a half's 25 blocks. -/
theorem sum_points_cores (g : Fin 50 → EReal) :
    ∑ t : Fin 50, g t = ∑ cc : Fin 2, ∑ i : Fin 25, g ⟨25 * cc.val + i.val, by omega⟩ :=
  sum_fin_mul 2 25 g

/-- The same with the block named. -/
theorem sum_points_blockOf (g : Fin 50 → EReal) :
    ∑ t : Fin 50, g t = ∑ cc : Fin 2, ∑ i : Fin 25, g (blockOf cc i) :=
  sum_points_cores g

/-- The sum over all rows by half, block of the half, row of the block. -/
theorem sum_rows_cores (f : Fin 100000 → EReal) :
    ∑ n : Fin 100000, f n = ∑ cc : Fin 2, ∑ i : Fin 25, ∑ r : Fin 2000, f (rowOf (blockOf cc i) r) := by
  rw [sum_rows_rowOf, sum_points_blockOf]

/-- The running sum of a 0, a 1, …, a (n-1) accumulated from the left, starting at 0. -/
noncomputable def accum (a : Nat → EReal) : Nat → EReal
  | 0 => 0
  | n + 1 => accum a n + a n

@[simp] theorem accum_zero (a : Nat → EReal) : accum a 0 = 0 := rfl
@[simp] theorem accum_succ (a : Nat → EReal) (n : Nat) : accum a (n + 1) = accum a n + a n := rfl

/-- The left-nested running sum is the finite sum. -/
theorem accum_eq_sum (a : Nat → EReal) (n : Nat) : accum a n = ∑ i ∈ Finset.range n, a i := by
  induction n with
  | zero => simp
  | succ n ih => rw [accum_succ, ih, Finset.sum_range_succ]

/-- The same fold written over a list of step numbers: folding (· + a ·) over 0, 1, …, n-1 from 0. -/
theorem foldl_range_eq_sum (a : Nat → EReal) (n : Nat) :
    (List.range n).foldl (fun acc i => acc + a i) 0 = ∑ i ∈ Finset.range n, a i := by
  induction n with
  | zero => simp
  | succ n ih => rw [List.range_succ, List.foldl_append, ih, Finset.sum_range_succ]; rfl

/-- A sum over Fin n of a function of the value is the sum over range n. -/
theorem sum_fin_eq_sum_range (a : Nat → EReal) (n : Nat) : ∑ i : Fin n, a i.val = ∑ i ∈ Finset.range n, a i :=
  Fin.sum_univ_eq_sum_range a n

end Cert.Math
-- ==== Proof.Spec.lean ====
/-
  The mathematics both programs compute, stated once, index by index, over the extended reals.

  Rows n < 100000 carry a feature vector x[n, ·] (128 entries), a position pos[n, ·] (3 entries), a segment word
  batch[n] and a noise vector gum[n, ·] (16 entries).  Each row gets a soft assignment to 16 clusters,
      s[n, ·] = softmax( (relu(x[n, ·] · W1 + b1) · W2 + b2) · sc + gum[n, ·] ),
  taken as exp(z - max z) / Σ exp(z - max z).  Everything else is a sum over rows of products of s with the row's
  data, either over all rows or over the rows whose segment word is a given b < 16 (a row whose word is no such b
  contributes to no segment).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An array of extended reals of rank 2, 1, 0; a vector of 32-bit words. -/
abbrev A2 (a b : Nat) : Type := (⟨2, ![a, b]⟩ : Shape).Idx → EReal
abbrev A1 (a : Nat) : Type := (⟨1, ![a]⟩ : Shape).Idx → EReal
abbrev A0 : Type := (⟨0, ![]⟩ : Shape).Idx → EReal
abbrev W1 (a : Nat) : Type := (⟨1, ![a]⟩ : Shape).Idx → BitVec 32

/-- The nine argument arrays. -/
structure Args where
  x : A2 100000 128
  pos : A2 100000 3
  batch : W1 100000
  gum : A2 100000 16
  w1 : A2 128 128
  b1 : A1 128
  w2 : A2 128 16
  b2 : A1 16
  sc : A0

/-- The literals both programs carry, as the exact values of their words. -/
abbrev one : EReal := Ideal.ofBits .f32 0x3F800000#32
abbrev eps : EReal := Ideal.ofBits .f32 0x3089705F#32
abbrev ninf : EReal := Ideal.ofBits .f32 0xFF800000#32
abbrev c1e5 : EReal := Ideal.ofBits .f32 0x47C35000#32
abbrev c16 : EReal := Ideal.ofBits .f32 0x41800000#32
abbrev c2 : EReal := Ideal.ofBits .f32 0x40000000#32

/-! ## One row's soft assignment, from the row's data and the weights -/

/-- The hidden layer of one row: relu(xr · W1 + b1). -/
def hidRow (xr : Fin 128 → EReal) (w1 : A2 128 128) (b1 : Fin 128 → EReal) (c : Fin 128) : EReal :=
  max ((∑ a : Fin 128, xr a * w1 (ix2 a c)) + b1 c) 0

/-- The noisy scaled logits of one row, divided by the temperature 1. -/
def zRow (xr : Fin 128 → EReal) (gr : Fin 16 → EReal) (w1 : A2 128 128) (b1 : Fin 128 → EReal) (w2 : A2 128 16)
    (b2 : Fin 16 → EReal) (sc : EReal) (k : Fin 16) : EReal :=
  Ideal.div ((((∑ c : Fin 128, hidRow xr w1 b1 c * w2 (ix2 c k)) + b2 k) * sc) + gr k) one

/-- The row's largest logit (the fold of max from -∞). -/
def zmaxRow (xr : Fin 128 → EReal) (gr : Fin 16 → EReal) (w1 : A2 128 128) (b1 : Fin 128 → EReal) (w2 : A2 128 16)
    (b2 : Fin 16 → EReal) (sc : EReal) : EReal :=
  (Finset.univ : Finset (Fin 16)).fold max ninf (fun k => zRow xr gr w1 b1 w2 b2 sc k)

/-- exp(z - max z). -/
def ezRow (xr : Fin 128 → EReal) (gr : Fin 16 → EReal) (w1 : A2 128 128) (b1 : Fin 128 → EReal) (w2 : A2 128 16)
    (b2 : Fin 16 → EReal) (sc : EReal) (k : Fin 16) : EReal :=
  Ideal.exp (zRow xr gr w1 b1 w2 b2 sc k - zmaxRow xr gr w1 b1 w2 b2 sc)

/-- The row's soft assignment. -/
def sRow (xr : Fin 128 → EReal) (gr : Fin 16 → EReal) (w1 : A2 128 128) (b1 : Fin 128 → EReal) (w2 : A2 128 16)
    (b2 : Fin 16 → EReal) (sc : EReal) (k : Fin 16) : EReal :=
  Ideal.div (ezRow xr gr w1 b1 w2 b2 sc k) (∑ k' : Fin 16, ezRow xr gr w1 b1 w2 b2 sc k')

variable (I : Args)

/-- Row n's soft assignment to cluster k. -/
def s (n : Fin 100000) (k : Fin 16) : EReal :=
  sRow (fun a => I.x (ix2 n a)) (fun k => I.gum (ix2 n k)) I.w1 (fun c => I.b1 (ix1 c)) I.w2 (fun k => I.b2 (ix1 k)) (I.sc ix0) k

/-- Row n belongs to segment b: its word is b. -/
def sel (n : Fin 100000) (b : Fin 16) : Prop := I.batch (ix1 n) = BitVec.ofNat 32 b.val

instance (n : Fin 100000) (b : Fin 16) : Decidable (sel I n b) := by unfold sel; infer_instance

/-- The squared length of row n's position. -/
def psq (n : Fin 100000) : EReal := ∑ d : Fin 3, I.pos (ix2 n d) * I.pos (ix2 n d)

/-! ## The sums over rows -/

/-- Σ over segment b's rows of s[n, k] · x[n, c]. -/
def accX (b k : Fin 16) (c : Fin 128) : EReal := ∑ n : Fin 100000, if sel I n b then s I n k * I.x (ix2 n c) else 0
/-- Σ over segment b's rows of s[n, k] · pos[n, d]. -/
def accP (b k : Fin 16) (d : Fin 3) : EReal := ∑ n : Fin 100000, if sel I n b then s I n k * I.pos (ix2 n d) else 0
/-- Σ over segment b's rows of s[n, k]. -/
def accS (b k : Fin 16) : EReal := ∑ n : Fin 100000, if sel I n b then s I n k else 0
/-- Σ over all rows of s[n, k]. -/
def sumS (k : Fin 16) : EReal := ∑ n : Fin 100000, s I n k
/-- Σ over all rows and clusters of s · log(s + ε). -/
def ent : EReal := ∑ n : Fin 100000, ∑ k : Fin 16, s I n k * Ideal.log (s I n k + eps)
/-- Σ over all rows of s[n, k] · pos[n, d]. -/
def ssP (k : Fin 16) (d : Fin 3) : EReal := ∑ n : Fin 100000, s I n k * I.pos (ix2 n d)
/-- Σ over all rows of s[n, k] · |pos[n]|². -/
def ssQ (k : Fin 16) : EReal := ∑ n : Fin 100000, s I n k * psq I n

/-! ## The arrays the two programs' common later lines start from -/

def sArr : A2 100000 16 := fun j => s I (j 0) (j 1)
def outArr : (⟨3, ![16, 16, 128]⟩ : Shape).Idx → EReal := fun j => accX I (j 0) (j 1) (j 2)
def apArr : (⟨3, ![16, 16, 3]⟩ : Shape).Idx → EReal := fun j => accP I (j 0) (j 1) (j 2)
def asArr : A2 16 16 := fun j => accS I (j 0) (j 1)
def sumArr : A1 16 := fun j => sumS I (j 0)
def entArr : A0 := fun _ => ent I

/-- The spatial spread: the mean over clusters of  Σ_n (s/D)·|pos|²  -  2·|μ|²  +  |μ|²,  where D[k] = Σ_n s[n,k] + ε
    and μ[k, ·] = Σ_n (s[n,k]/D[k]) · pos[n, ·]. -/
def dK (k : Fin 16) : EReal := sumS I k + eps
def muK (k : Fin 16) (d : Fin 3) : EReal := ∑ n : Fin 100000, Ideal.div (s I n k) (dK I k) * I.pos (ix2 n d)
def musq (k : Fin 16) : EReal := ∑ d : Fin 3, muK I k d * muK I k d
def varK (k : Fin 16) : EReal := ((∑ n : Fin 100000, Ideal.div (s I n k) (dK I k) * psq I n) - c2 * musq I k) + musq I k
def spatial : EReal := Ideal.div (∑ k : Fin 16, varK I k) c16
def spatialArr : A0 := fun _ => spatial I

theorem sArr_ix (n : Fin 100000) (k : Fin 16) : sArr I (ix2 n k) = s I n k := rfl
theorem outArr_ix (b k : Fin 16) (c : Fin 128) : outArr I (ix3 b k c) = accX I b k c := rfl
theorem apArr_ix (b k : Fin 16) (d : Fin 3) : apArr I (ix3 b k d) = accP I b k d := rfl
theorem asArr_ix (b k : Fin 16) : asArr I (ix2 b k) = accS I b k := rfl
theorem sumArr_ix (k : Fin 16) : sumArr I (ix1 k) = sumS I k := rfl

end Cert.Spec

end
-- ==== Proof.KI.TailArr.lean ====
/-
  The arrays the program's later lines start from, out of the seven accumulator arrays: each accumulator array holds one
  slab per half of the rows; the later lines add the two slabs (from the word 0) and re-lay the sum.  Column 16·b + k of a
  256-wide accumulator is (segment b, cluster k).  When each slab's entries are the sums over its half's 25 blocks of
  2000 rows, the re-laid sums are the specification's sums over all 100000 rows.
-/
import proofs.«406053_j76209899700419_3_alg».proof.Proof.KI.TailFns
import proofs.«406053_j76209899700419_3_alg».proof.Proof.KI.Cols
import proofs.«406053_j76209899700419_3_alg».proof.Proof.Math.Blocks
import proofs.«406053_j76209899700419_3_alg».proof.Proof.Spec
import Idealize.ShloMosaic.Lib.Pipeline.Value

set_option maxRecDepth 16384

noncomputable section

open scoped BigOperators

namespace Cert.KernelIdeal.Val

open Idealize.ShloMosaic Idealize.ShloMosaic.ValueIdx
open Cert.KernelIdeal Cert.KernelIdeal.Gen

/-! ## The two halves summed, read at an index -/

/-- The host's sum over the leading axis of extent 2, from the word 0, at (p, q): the two halves' entries added. -/
theorem coreSum_ix {A B : Nat} (a : FVec Ideal ⟨3, ![2, A, B]⟩ .f32)
    (h' : (⟨3, ![2, A, B]⟩ : Shape).ReducesTo [0] ⟨2, ![A, B]⟩) (h : (⟨3, ![2, A, B]⟩ : Shape).Reduces [0] ⟨2, ![A, B]⟩)
    (hu : 0 < S_.numel) (p : Fin A) (q : Fin B) :
    Host.reduceAdd (F := Ideal) a (constant (F := Ideal) S_ .f32 0x00000000#32) h' hu (ix2 p q) = ∑ cc : Fin 2, a (ix3 cc p q) := by
  simp only [Host.reduceAdd, Ideal.hostReduceAdd_def]
  rw [Ideal.hostReduceAdd_single h' h, ValueIdx.constant_apply, Ideal.ofBits_zero_f32, zero_add]
  refine Finset.sum_congr rfl fun cc _ => ?_
  exact congrArg a (funext fun d => Fin.ext (by match d with | ⟨0, _⟩ => rfl | ⟨1, _⟩ => rfl | ⟨2, _⟩ => rfl))

/-! ## Columns of the 256-wide accumulators: column 16·b + k is segment b, cluster k -/

/-- The column of segment b and cluster k is of segment b and of cluster k. -/
theorem segOf_colOf (b k : Fin 16) : segOf (colOf b k) = b := Fin.ext (by show (16 * b.val + k.val) / 16 = b.val; omega)
theorem cluOf_colOf (b k : Fin 16) : cluOf (colOf b k) = k := Fin.ext (by show (16 * b.val + k.val) % 16 = k.val; omega)

/-! ## Each result array at an index, as the two halves' entries added -/

theorem hOut_ix (a : Vec Ideal S2x256x128 .f32) (b k : Fin 16) (cf : Fin 128) :
    hOut a (ix3 b k cf) = ∑ cc : Fin 2, a (ix3 cc (colOf b k) cf) := by
  have e : hOut a (ix3 b k cf) = hsum10 a (ix2 (colOf b k) cf) :=
    shapeCast_apply _ _ _ _ (by
      rw [Shape.rowMajor_val_two, Shape.rowMajor_val_three]
      show (16 * b.val + k.val) * 128 + cf.val = (b.val * 16 + k.val) * 128 + cf.val
      omega)
  rw [e]
  exact coreSum_ix a reducesTo_S2x256x128_S256x128_d0 (by decide) h_S_ (colOf b k) cf

theorem hAp_ix (a : Vec Ideal S2x256x3 .f32) (b k : Fin 16) (d : Fin 3) :
    hAp a (ix3 b k d) = ∑ cc : Fin 2, a (ix3 cc (colOf b k) d) := by
  have e : hAp a (ix3 b k d) = hsum11 a (ix2 (colOf b k) d) :=
    shapeCast_apply _ _ _ _ (by
      rw [Shape.rowMajor_val_two, Shape.rowMajor_val_three]
      show (16 * b.val + k.val) * 3 + d.val = (b.val * 16 + k.val) * 3 + d.val
      omega)
  rw [e]
  exact coreSum_ix a reducesTo_S2x256x3_S256x3_d0 (by decide) h_S_ (colOf b k) d

theorem hAs_ix (a : Vec Ideal S2x1x256 .f32) (b k : Fin 16) :
    hAs a (ix2 b k) = ∑ cc : Fin 2, a (ix3 cc (0 : Fin 1) (colOf b k)) := by
  have e1 : hAs a (ix2 b k) = shapeCast S256 (hsum12 a) shapeCasts_S1x256_S256 (ix1 (colOf b k)) :=
    shapeCast_apply _ _ _ _ (by
      rw [Shape.rowMajor_val_one, Shape.rowMajor_val_two]
      show 16 * b.val + k.val = b.val * 16 + k.val
      omega)
  have e2 : shapeCast S256 (hsum12 a) shapeCasts_S1x256_S256 (ix1 (colOf b k)) = hsum12 a (ix2 (0 : Fin 1) (colOf b k)) :=
    shapeCast_apply _ _ _ _ (by
      rw [Shape.rowMajor_val_one, Shape.rowMajor_val_two]
      show 0 * 256 + (16 * b.val + k.val) = 16 * b.val + k.val
      omega)
  rw [e1, e2]
  exact coreSum_ix a reducesTo_S2x1x256_S1x256_d0 (by decide) h_S_ (0 : Fin 1) (colOf b k)

theorem hsum13_ix (a : Vec Ideal S2x16x3 .f32) (k : Fin 16) (d : Fin 3) :
    hsum13 a (ix2 k d) = ∑ cc : Fin 2, a (ix3 cc k d) :=
  coreSum_ix a reducesTo_S2x16x3_S16x3_d0 (by decide) h_S_ k d

theorem hSq_ix (a : Vec Ideal S2x16x1 .f32) (k : Fin 16) :
    hSq a (ix1 k) = ∑ cc : Fin 2, a (ix3 cc k (0 : Fin 1)) := by
  have e : hSq a (ix1 k) = hsum14 a (ix2 k (0 : Fin 1)) :=
    shapeCast_apply _ _ _ _ (by
      rw [Shape.rowMajor_val_one, Shape.rowMajor_val_two]
      show k.val * 1 + 0 = k.val
      omega)
  rw [e]
  exact coreSum_ix a reducesTo_S2x16x1_S16x1_d0 (by decide) h_S_ k (0 : Fin 1)

theorem hSums_ix (a : Vec Ideal S2x1x16 .f32) (k : Fin 16) :
    hSums a (ix1 k) = ∑ cc : Fin 2, a (ix3 cc (0 : Fin 1) k) := by
  have e : hSums a (ix1 k) = hsum15 a (ix2 (0 : Fin 1) k) :=
    shapeCast_apply _ _ _ _ (by
      rw [Shape.rowMajor_val_one, Shape.rowMajor_val_two]
      show 0 * 16 + k.val = k.val
      omega)
  rw [e]
  exact coreSum_ix a reducesTo_S2x1x16_S1x16_d0 (by decide) h_S_ (0 : Fin 1) k

theorem hEnt_ix (a : Vec Ideal S2x1x1 .f32) (j : S_.Idx) :
    hEnt a j = ∑ cc : Fin 2, a (ix3 cc (0 : Fin 1) (0 : Fin 1)) := by
  have e : hEnt a j = hsum16 a (ix2 (0 : Fin 1) (0 : Fin 1)) :=
    shapeCast_apply _ _ _ _ (by
      rw [Shape.rowMajor_val_two]
      have hj := (S_.rowMajor j).isLt
      have h1 : S_.numel = 1 := by decide
      show 0 * 1 + 0 = (S_.rowMajor j).val
      omega)
  rw [e]
  exact coreSum_ix a reducesTo_S2x1x1_S1x1_d0 (by decide) h_S_ (0 : Fin 1) (0 : Fin 1)

/-! ## The result arrays from per-half sums over the half's rows -/

open Cert.Math (rowOf blockOf)

variable (I : Cert.Spec.Args)

/-- The segment-wise feature sums. -/
theorem out_eq (a : Vec Ideal S2x256x128 .f32)
    (ha : ∀ (cc : Fin 2) (j : Fin 256) (cf : Fin 128), a (ix3 cc j cf) = ∑ i : Fin 25, ∑ r : Fin 2000,
      (if Cert.Spec.sel I (rowOf (blockOf cc i) r) (segOf j)
        then Cert.Spec.s I (rowOf (blockOf cc i) r) (cluOf j) * I.x (ix2 (rowOf (blockOf cc i) r) cf) else 0)) :
    hOut a = Cert.Spec.outArr I := by
  funext j
  obtain ⟨b, k, cf, rfl⟩ : ∃ (b k : Fin 16) (cf : Fin 128), j = ix3 b k cf := ⟨j 0, j 1, j 2, eq_ix3 j⟩
  rw [hOut_ix]
  simp only [ha, segOf_colOf, cluOf_colOf]
  exact (Cert.Math.sum_rows_cores (fun n => if Cert.Spec.sel I n b then Cert.Spec.s I n k * I.x (ix2 n cf) else 0)).symm

/-- The segment-wise position sums. -/
theorem ap_eq (a : Vec Ideal S2x256x3 .f32)
    (ha : ∀ (cc : Fin 2) (j : Fin 256) (d : Fin 3), a (ix3 cc j d) = ∑ i : Fin 25, ∑ r : Fin 2000,
      (if Cert.Spec.sel I (rowOf (blockOf cc i) r) (segOf j)
        then Cert.Spec.s I (rowOf (blockOf cc i) r) (cluOf j) * I.pos (ix2 (rowOf (blockOf cc i) r) d) else 0)) :
    hAp a = Cert.Spec.apArr I := by
  funext j
  obtain ⟨b, k, d, rfl⟩ : ∃ (b k : Fin 16) (d : Fin 3), j = ix3 b k d := ⟨j 0, j 1, j 2, eq_ix3 j⟩
  rw [hAp_ix]
  simp only [ha, segOf_colOf, cluOf_colOf]
  exact (Cert.Math.sum_rows_cores (fun n => if Cert.Spec.sel I n b then Cert.Spec.s I n k * I.pos (ix2 n d) else 0)).symm

/-- The segment-wise assignment sums. -/
theorem as_eq (a : Vec Ideal S2x1x256 .f32)
    (ha : ∀ (cc : Fin 2) (j : Fin 256), a (ix3 cc (0 : Fin 1) j) = ∑ i : Fin 25, ∑ r : Fin 2000,
      (if Cert.Spec.sel I (rowOf (blockOf cc i) r) (segOf j) then Cert.Spec.s I (rowOf (blockOf cc i) r) (cluOf j) else 0)) :
    hAs a = Cert.Spec.asArr I := by
  funext j
  obtain ⟨b, k, rfl⟩ : ∃ (b k : Fin 16), j = ix2 b k := ⟨j 0, j 1, eq_ix2 j⟩
  rw [hAs_ix]
  simp only [ha, segOf_colOf, cluOf_colOf]
  exact (Cert.Math.sum_rows_cores (fun n => if Cert.Spec.sel I n b then Cert.Spec.s I n k else 0)).symm

/-- The position sums Σ_n s[n, k] · pos[n, d]. -/
theorem sp_eq (a : Vec Ideal S2x16x3 .f32)
    (ha : ∀ (cc : Fin 2) (k : Fin 16) (d : Fin 3), a (ix3 cc k d) = ∑ i : Fin 25, ∑ r : Fin 2000,
      Cert.Spec.s I (rowOf (blockOf cc i) r) k * I.pos (ix2 (rowOf (blockOf cc i) r) d)) :
    hsum13 a = fun j => Cert.Spec.ssP I (j 0) (j 1) := by
  funext j
  obtain ⟨k, d, rfl⟩ : ∃ (k : Fin 16) (d : Fin 3), j = ix2 k d := ⟨j 0, j 1, eq_ix2 j⟩
  rw [hsum13_ix]
  simp only [ha]
  exact (Cert.Math.sum_rows_cores (fun n => Cert.Spec.s I n k * I.pos (ix2 n d))).symm

/-- The squared-length sums Σ_n s[n, k] · |pos[n]|². -/
theorem sq_eq (a : Vec Ideal S2x16x1 .f32)
    (ha : ∀ (cc : Fin 2) (k : Fin 16), a (ix3 cc k (0 : Fin 1)) = ∑ i : Fin 25, ∑ r : Fin 2000,
      Cert.Spec.s I (rowOf (blockOf cc i) r) k * Cert.Spec.psq I (rowOf (blockOf cc i) r)) :
    hSq a = fun j => Cert.Spec.ssQ I (j 0) := by
  funext j
  obtain ⟨k, rfl⟩ : ∃ k : Fin 16, j = ix1 k := ⟨j 0, eq_ix1 j⟩
  rw [hSq_ix]
  simp only [ha]
  exact (Cert.Math.sum_rows_cores (fun n => Cert.Spec.s I n k * Cert.Spec.psq I n)).symm

/-- The assignment sums Σ_n s[n, k]. -/
theorem sums_eq (a : Vec Ideal S2x1x16 .f32)
    (ha : ∀ (cc : Fin 2) (k : Fin 16), a (ix3 cc (0 : Fin 1) k) = ∑ i : Fin 25, ∑ r : Fin 2000,
      Cert.Spec.s I (rowOf (blockOf cc i) r) k) :
    hSums a = Cert.Spec.sumArr I := by
  funext j
  obtain ⟨k, rfl⟩ : ∃ k : Fin 16, j = ix1 k := ⟨j 0, eq_ix1 j⟩
  rw [hSums_ix]
  simp only [ha]
  exact (Cert.Math.sum_rows_cores (fun n => Cert.Spec.s I n k)).symm

/-- The entropy sum Σ_n Σ_k s · log(s + ε). -/
theorem ent_eq (a : Vec Ideal S2x1x1 .f32)
    (ha : ∀ cc : Fin 2, a (ix3 cc (0 : Fin 1) (0 : Fin 1)) = ∑ i : Fin 25, ∑ r : Fin 2000, ∑ k : Fin 16,
      Cert.Spec.s I (rowOf (blockOf cc i) r) k * Ideal.log (Cert.Spec.s I (rowOf (blockOf cc i) r) k + Cert.Spec.eps)) :
    hEnt a = Cert.Spec.entArr I := by
  funext j
  rw [hEnt_ix]
  simp only [ha]
  exact (Cert.Math.sum_rows_cores (fun n => ∑ k : Fin 16, Cert.Spec.s I n k * Ideal.log (Cert.Spec.s I n k + Cert.Spec.eps))).symm

end Cert.KernelIdeal.Val

end
-- ==== Proof.KI.Args.lean ====
/-
  The nine argument arrays of the kernel's program on one core, as the specification's argument record.
-/
import proofs.«406053_j76209899700419_3_alg».proof.KernelIdeal
import proofs.«406053_j76209899700419_3_alg».proof.Proof.Spec

noncomputable section

namespace Cert.KernelIdeal.Val

open Idealize.ShloMosaic Idealize.ShloMosaic.TcCoe Idealize.SL.Sem
open Cert.KernelIdeal

/-- Core `c`'s argument arrays in the memory `m`. -/
def argsOf (m : (ℓ : Loc nD τ sig) → Buf (Elt Ideal) ℓ) (c : Dev nD) : Cert.Spec.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

end Cert.KernelIdeal.Val

end
-- ==== Proof.KI.BlockRead.lean ====
/-
  Each input window's block at a grid point, read as rows of the argument arrays.

  At grid point t the row-indexed windows (features, positions, segment words, noise) cut rows [2000·t, 2000·t + 2000) of
  their arrays, so entry (r, ·) of the block is entry (2000·t + r, ·) of the array; the weight windows cut the whole of
  theirs at every point.  The features, positions, noise and the two weight matrices are argument arrays themselves; the
  segment words, the two biases and the scale are arguments re-laid before the region (a vector as a column or a row, the
  scalar as a 1×1 array), and a re-laid array read at an index is the argument at the index of the same row-major position.
-/
import proofs.«406053_j76209899700419_3_alg».proof.Proof.KI.Step
import proofs.«406053_j76209899700419_3_alg».proof.Proof.KI.Args
import proofs.«406053_j76209899700419_3_alg».proof.Proof.Math.Blocks
import Idealize.ShloMosaic.Lib.ValueIdx
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr
open Cert.Math (rowOf blockOf)

variable (m : (ℓ : Loc nD τ sig) → Buf (Elt Ideal) ℓ) (c : Dev nD)

/-- A grid point as a block number. -/
def pt (t : Fin cfg0.N) : Fin 50 := ⟨t.val, lt_of_lt_of_eq t.isLt N_0⟩

@[simp] theorem pt_val (t : Fin cfg0.N) : (pt t).val = t.val := rfl

/-! ## The printed index maps, decided once over the grid -/

theorem idx0 : ∀ t : Fin cfg0.N, win0_0.index t (0 : Fin 2) = t.val ∧ win0_0.index t 1 = 0 :=
  (by decide +kernel : ∀ t : Fin grid0.N, win0_0.index t (0 : Fin 2) = t.val ∧ win0_0.index t 1 = 0)
theorem idx1 : ∀ t : Fin cfg0.N, win0_1.index t (0 : Fin 2) = t.val ∧ win0_1.index t 1 = 0 :=
  (by decide +kernel : ∀ t : Fin grid0.N, win0_1.index t (0 : Fin 2) = t.val ∧ win0_1.index t 1 = 0)
theorem idx2 : ∀ t : Fin cfg0.N, win0_2.index t (0 : Fin 2) = t.val ∧ win0_2.index t 1 = 0 :=
  (by decide +kernel : ∀ t : Fin grid0.N, win0_2.index t (0 : Fin 2) = t.val ∧ win0_2.index t 1 = 0)
theorem idx3 : ∀ t : Fin cfg0.N, win0_3.index t (0 : Fin 2) = t.val ∧ win0_3.index t 1 = 0 :=
  (by decide +kernel : ∀ t : Fin grid0.N, win0_3.index t (0 : Fin 2) = t.val ∧ win0_3.index t 1 = 0)
theorem idx4 : ∀ t : Fin cfg0.N, win0_4.index t (0 : Fin 2) = 0 ∧ win0_4.index t 1 = 0 :=
  (by decide +kernel : ∀ t : Fin grid0.N, win0_4.index t (0 : Fin 2) = 0 ∧ win0_4.index t 1 = 0)
theorem idx5 : ∀ t : Fin cfg0.N, win0_5.index t (0 : Fin 2) = 0 ∧ win0_5.index t 1 = 0 :=
  (by decide +kernel : ∀ t : Fin grid0.N, win0_5.index t (0 : Fin 2) = 0 ∧ win0_5.index t 1 = 0)
theorem idx6 : ∀ t : Fin cfg0.N, win0_6.index t (0 : Fin 2) = 0 ∧ win0_6.index t 1 = 0 :=
  (by decide +kernel : ∀ t : Fin grid0.N, win0_6.index t (0 : Fin 2) = 0 ∧ win0_6.index t 1 = 0)
theorem idx7 : ∀ t : Fin cfg0.N, win0_7.index t (0 : Fin 2) = 0 ∧ win0_7.index t 1 = 0 :=
  (by decide +kernel : ∀ t : Fin grid0.N, win0_7.index t (0 : Fin 2) = 0 ∧ win0_7.index t 1 = 0)
theorem idx8 : ∀ t : Fin cfg0.N, win0_8.index t (0 : Fin 2) = 0 ∧ win0_8.index t 1 = 0 :=
  (by decide +kernel : ∀ t : Fin grid0.N, win0_8.index t (0 : Fin 2) = 0 ∧ win0_8.index t 1 = 0)

/-! ## The arrays the region finds: five arguments untouched, four re-laid -/

theorem V_arg0 : (V m c main_arg0 : S100000x128.Idx → EReal) = m ((c.tc : Thread nD τ).loc main_arg0) := by
  dsimp only [V, V0]
  simp only [hostOps0, List.flatten_cons, List.flatten_nil, List.append_nil]
  after_results
theorem V_arg1 : (V m c main_arg1 : S100000x3.Idx → EReal) = m ((c.tc : Thread nD τ).loc main_arg1) := by
  dsimp only [V, V0]
  simp only [hostOps0, List.flatten_cons, List.flatten_nil, List.append_nil]
  after_results
theorem V_arg3 : (V m c main_arg3 : S100000x16.Idx → EReal) = m ((c.tc : Thread nD τ).loc main_arg3) := by
  dsimp only [V, V0]
  simp only [hostOps0, List.flatten_cons, List.flatten_nil, List.append_nil]
  after_results
theorem V_arg4 : (V m c main_arg4 : S128x128.Idx → EReal) = m ((c.tc : Thread nD τ).loc main_arg4) := by
  dsimp only [V, V0]
  simp only [hostOps0, List.flatten_cons, List.flatten_nil, List.append_nil]
  after_results
theorem V_arg6 : (V m c main_arg6 : S128x16.Idx → EReal) = m ((c.tc : Thread nD τ).loc main_arg6) := by
  dsimp only [V, V0]
  simp only [hostOps0, List.flatten_cons, List.flatten_nil, List.append_nil]
  after_results

theorem V_v0 : (V m c main_v0 : S100000x1.Idx → BitVec 32)
    = shapeCast S100000x1 (m ((c.tc : Thread nD τ).loc main_arg2) : S100000.Idx → BitVec 32) shapeCasts_S100000_S100000x1 := by
  dsimp only [V, V0]
  simp only [hostOps0, List.flatten_cons, List.flatten_nil, List.append_nil]
  after_results
  rfl
theorem V_v1 : (V m c main_v1 : S1x128.Idx → EReal)
    = shapeCast S1x128 (m ((c.tc : Thread nD τ).loc main_arg5) : S128.Idx → EReal) shapeCasts_S128_S1x128 := by
  dsimp only [V, V0]
  simp only [hostOps0, List.flatten_cons, List.flatten_nil, List.append_nil]
  after_results
  rfl
theorem V_v2 : (V m c main_v2 : S1x16.Idx → EReal)
    = shapeCast S1x16 (m ((c.tc : Thread nD τ).loc main_arg7) : S16.Idx → EReal) shapeCasts_S16_S1x16 := by
  dsimp only [V, V0]
  simp only [hostOps0, List.flatten_cons, List.flatten_nil, List.append_nil]
  after_results
  rfl
theorem V_v3 : (V m c main_v3 : S1x1.Idx → EReal)
    = shapeCast S1x1 (m ((c.tc : Thread nD τ).loc main_arg8) : S_.Idx → EReal) shapeCasts_S_S1x1 := by
  dsimp only [V, V0]
  simp only [hostOps0, List.flatten_cons, List.flatten_nil, List.append_nil]
  after_results
  rfl

/-! ## The blocks as rows of the arguments -/

/-- The feature block: rows [2000·t, 2000·t + 2000) of x. -/
theorem iblk0_apply (t : Fin cfg0.N) (r : Fin 2000) (a : Fin 128) :
    iblk m c 0 t (ix2 r a) = (argsOf m c).x (ix2 (rowOf (pt t) r) a) := by
  unfold iblk
  rw [View.read_apply]
  show V m c main_arg0 _ = m (c.tc.loc main_arg0) _
  rw [V_arg0]
  congr 1
  funext ax
  apply Fin.ext
  match ax with
  | ⟨0, _⟩ => show win0_0.index t 0 * 2000 + 1 * r.val = 2000 * t.val + r.val; rw [(idx0 t).1]; omega
  | ⟨1, _⟩ => show win0_0.index t 1 * 128 + 1 * a.val = a.val; rw [(idx0 t).2]; omega

/-- The position block: the same rows of pos. -/
theorem iblk1_apply (t : Fin cfg0.N) (r : Fin 2000) (d : Fin 3) :
    iblk m c 1 t (ix2 r d) = (argsOf m c).pos (ix2 (rowOf (pt t) r) d) := by
  unfold iblk
  rw [View.read_apply]
  show V m c main_arg1 _ = m (c.tc.loc main_arg1) _
  rw [V_arg1]
  congr 1
  funext ax
  apply Fin.ext
  match ax with
  | ⟨0, _⟩ => show win0_1.index t 0 * 2000 + 1 * r.val = 2000 * t.val + r.val; rw [(idx1 t).1]; omega
  | ⟨1, _⟩ => show win0_1.index t 1 * 3 + 1 * d.val = d.val; rw [(idx1 t).2]; omega

/-- The noise block: the same rows of gum. -/
theorem iblk3_apply (t : Fin cfg0.N) (r : Fin 2000) (k : Fin 16) :
    iblk m c 3 t (ix2 r k) = (argsOf m c).gum (ix2 (rowOf (pt t) r) k) := by
  unfold iblk
  rw [View.read_apply]
  show V m c main_arg3 _ = m (c.tc.loc main_arg3) _
  rw [V_arg3]
  congr 1
  funext ax
  apply Fin.ext
  match ax with
  | ⟨0, _⟩ => show win0_3.index t 0 * 2000 + 1 * r.val = 2000 * t.val + r.val; rw [(idx3 t).1]; omega
  | ⟨1, _⟩ => show win0_3.index t 1 * 16 + 1 * k.val = k.val; rw [(idx3 t).2]; omega

/-- The first weight matrix, whole, at every point. -/
theorem iblk4_eq (t : Fin cfg0.N) : iblk m c 4 t = (argsOf m c).w1 := by
  funext y
  unfold iblk
  rw [View.read_apply]
  show V m c main_arg4 _ = m (c.tc.loc main_arg4) y
  rw [V_arg4]
  congr 1
  funext ax
  apply Fin.ext
  match ax with
  | ⟨0, _⟩ => show win0_4.index t 0 * 128 + 1 * (y 0).val = (y 0).val; rw [(idx4 t).1]; omega
  | ⟨1, _⟩ => show win0_4.index t 1 * 128 + 1 * (y 1).val = (y 1).val; rw [(idx4 t).2]; omega

/-- The second weight matrix, whole, at every point. -/
theorem iblk6_eq (t : Fin cfg0.N) : iblk m c 6 t = (argsOf m c).w2 := by
  funext y
  unfold iblk
  rw [View.read_apply]
  show V m c main_arg6 _ = m (c.tc.loc main_arg6) y
  rw [V_arg6]
  congr 1
  funext ax
  apply Fin.ext
  match ax with
  | ⟨0, _⟩ => show win0_6.index t 0 * 128 + 1 * (y 0).val = (y 0).val; rw [(idx6 t).1]; omega
  | ⟨1, _⟩ => show win0_6.index t 1 * 16 + 1 * (y 1).val = (y 1).val; rw [(idx6 t).2]; omega

/-- The segment-word block (a column): the same rows of batch. -/
theorem iblk2_apply (t : Fin cfg0.N) (r : Fin 2000) :
    iblk m c 2 t (ix2 r (0 : Fin 1)) = (argsOf m c).batch (ix1 (rowOf (pt t) r)) := by
  unfold iblk
  rw [View.read_apply]
  show V m c main_v0 _ = m (c.tc.loc main_arg2) _
  rw [V_v0]
  refine shapeCast_apply (s := S100000) (t := S100000x1) (m (c.tc.loc main_arg2) : S100000.Idx → BitVec 32) shapeCasts_S100000_S100000x1 _ (ix1 (rowOf (pt t) r)) ?_
  rw [Shape.rowMajor_val_two, Shape.rowMajor_val_one]
  show 2000 * t.val + r.val = (win0_2.index t 0 * 2000 + 1 * r.val) * 1 + (win0_2.index t 1 * 1 + 1 * 0)
  rw [(idx2 t).1, (idx2 t).2]; omega

/-- The first bias (a row), whole, at every point. -/
theorem iblk5_apply (t : Fin cfg0.N) (cf : Fin 128) :
    iblk m c 5 t (ix2 (0 : Fin 1) cf) = (argsOf m c).b1 (ix1 cf) := by
  unfold iblk
  rw [View.read_apply]
  show V m c main_v1 _ = m (c.tc.loc main_arg5) _
  rw [V_v1]
  refine shapeCast_apply (s := S128) (t := S1x128) (m (c.tc.loc main_arg5) : S128.Idx → EReal) shapeCasts_S128_S1x128 _ (ix1 cf) ?_
  rw [Shape.rowMajor_val_two, Shape.rowMajor_val_one]
  show cf.val = (win0_5.index t 0 * 1 + 1 * 0) * 128 + (win0_5.index t 1 * 128 + 1 * cf.val)
  rw [(idx5 t).1, (idx5 t).2]; omega

/-- The second bias (a row), whole, at every point. -/
theorem iblk7_apply (t : Fin cfg0.N) (k : Fin 16) :
    iblk m c 7 t (ix2 (0 : Fin 1) k) = (argsOf m c).b2 (ix1 k) := by
  unfold iblk
  rw [View.read_apply]
  show V m c main_v2 _ = m (c.tc.loc main_arg7) _
  rw [V_v2]
  refine shapeCast_apply (s := S16) (t := S1x16) (m (c.tc.loc main_arg7) : S16.Idx → EReal) shapeCasts_S16_S1x16 _ (ix1 k) ?_
  rw [Shape.rowMajor_val_two, Shape.rowMajor_val_one]
  show k.val = (win0_7.index t 0 * 1 + 1 * 0) * 16 + (win0_7.index t 1 * 16 + 1 * k.val)
  rw [(idx7 t).1, (idx7 t).2]; omega

/-- The scale (a 1×1 array), at every point. -/
theorem iblk8_apply (t : Fin cfg0.N) :
    iblk m c 8 t (ix2 (0 : Fin 1) (0 : Fin 1)) = (argsOf m c).sc ix0 := by
  unfold iblk
  rw [View.read_apply]
  show V m c main_v3 _ = m (c.tc.loc main_arg8) _
  rw [V_v3]
  refine shapeCast_apply (s := S_) (t := S1x1) (m (c.tc.loc main_arg8) : S_.Idx → EReal) shapeCasts_S_S1x1 _ ix0 ?_
  have h0 : ((S_ : Shape).rowMajor ix0).val = 0 := Shape.rowMajorPi_zero _ _
  rw [Shape.rowMajor_val_two, h0]
  show 0 = (win0_8.index t 0 * 1 + 1 * 0) * 1 + (win0_8.index t 1 * 1 + 1 * 0)
  rw [(idx8 t).1, (idx8 t).2]

end Cert.KernelIdeal.Val

end
-- ==== Proof.KI.PayS.lean ====
/-
  The block's pure values read at an index, over the extended reals.

  For one block of 2000 rows: the soft assignment `sBlk` at (r, k) is the softmax of row r's noisy scaled logits, as the
  specification's `sRow` states it from the row's features and noise and the weights; the mask `selBlk` at (r, j) is set
  exactly where row r's segment word is j / 16; the tiled assignment `tileBlk` at (r, j) is the assignment at
  (r, j mod 16); and their product, the masked tile, is the row's assignment to cluster j mod 16 where the row lies in
  segment j / 16 and zero elsewhere.  Each operation of the body is read at the index: the pointwise ones by
  definition, a product of blocks as the sum over the inner position, a reduction along a row as the sum or the fold of
  max over the row, a column cast or broadcast by its coordinates.
-/
import proofs.«406053_j76209899700419_3_alg».proof.Proof.KI.Step
import proofs.«406053_j76209899700419_3_alg».proof.Proof.Spec
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay

open Idealize.ShloMosaic Idealize.ShloMosaic.ValueIdx
open Cert.KernelIdeal Cert.KernelIdeal.Gen Cert.KernelIdeal.Fr

variable (x0 : Vec Ideal S2000x128 .f32) (x1 : Vec Ideal S2000x3 .f32) (x2 : Vec Ideal S2000x1 .i32) (x3 : Vec Ideal S2000x16 .f32)
  (x4 : Vec Ideal S128x128 .f32) (x5 : Vec Ideal S1x128 .f32) (x6 : Vec Ideal S128x16 .f32) (x7 : Vec Ideal S1x16 .f32) (x8 : Vec Ideal S1x1 .f32)

/-! ## The two products of the assignment network, read at an index -/

theorem lhs_mmA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_mmA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mmA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mmA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product of a 2000×128 block with a 128×128 one into the zero block, at (r, c): the sum over the 128 inner positions. -/
theorem mmA_apply (l : FVec Ideal S2000x128 .f32) (w : FVec Ideal S128x128 .f32) (r : Fin 2000) (c : Fin 128) :
    matmul dot_S2000x128_S128x128_S2000x128_1_0_0_1_n_n none l w (constant (F := Ideal) S2000x128 .f32 0x00000000#32) (ix2 r c)
      = ∑ a : Fin 128, l (ix2 r a) * w (ix2 a c) := by
  refine (Ideal.matmul_constant_zero_apply dot_S2000x128_S128x128_S2000x128_1_0_0_1_n_n none l w (ix2 r c)).trans ?_
  rw [← Equiv.sum_comp (contrEquiv1 dot_S2000x128_S128x128_S2000x128_1_0_0_1_n_n 128 rfl rfl).symm]
  refine Finset.sum_congr rfl fun a _ => ?_
  have ha := contrEquiv1_symm_val dot_S2000x128_S128x128_S2000x128_1_0_0_1_n_n 128 rfl rfl a
  have el : dot_S2000x128_S128x128_S2000x128_1_0_0_1_n_n.lhsIdx (ix2 r c) ((contrEquiv1 dot_S2000x128_S128x128_S2000x128_1_0_0_1_n_n 128 rfl rfl).symm a) = ix2 r a :=
    funext fun b => Fin.ext (by
      match b with
      | ⟨0, _⟩ => exact lhs_mmA_0 _ _
      | ⟨1, _⟩ => exact (lhs_mmA_1 _ _).trans ha)
  have er : dot_S2000x128_S128x128_S2000x128_1_0_0_1_n_n.rhsIdx (ix2 r c) ((contrEquiv1 dot_S2000x128_S128x128_S2000x128_1_0_0_1_n_n 128 rfl rfl).symm a) = ix2 a c :=
    funext fun b => Fin.ext (by
      match b with
      | ⟨0, _⟩ => exact (rhs_mmA_0 _ _).trans ha
      | ⟨1, _⟩ => exact rhs_mmA_1 _ _)
  rw [el, er]

theorem lhs_mmB_0 (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide),
    dif_pos (show (0 : Fin S2000x128.rank) ∈ dot_S2000x128_S128x16_S2000x16_1_0_0_1_n_n.lhsNonContracting by decide)]
  rfl
theorem lhs_mmB_1 (i : S2000x16.Idx) (q : dot_S2000x128_S128x16_S2000x16_1_0_0_1_n_n.contr.Idx) :
    (dot_S2000x128_S128x16_S2000x16_1_0_0_1_n_n.lhsIdx i q 1).val = (q ⟨0, by decide⟩).val :=
  dot_S2000x128_S128x16_S2000x16_1_0_0_1_n_n.lhsIdx_val_of_single rfl i q
theorem rhs_mmB_0 (i : S2000x16.Idx) (q : dot_S2000x128_S128x16_S2000x16_1_0_0_1_n_n.contr.Idx) :
    (dot_S2000x128_S128x16_S2000x16_1_0_0_1_n_n.rhsIdx i q 0).val = (q ⟨0, by decide⟩).val :=
  dot_S2000x128_S128x16_S2000x16_1_0_0_1_n_n.rhsIdx_val_of_single rfl i q
theorem rhs_mmB_1 (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide),
    dif_pos (show (1 : Fin S128x16.rank) ∈ dot_S2000x128_S128x16_S2000x16_1_0_0_1_n_n.rhsNonContracting by decide)]
  rfl

/-- The product of a 2000×128 block with a 128×16 one into the zero block, at (r, c): the sum over the 128 inner positions. -/
theorem mmB_apply (l : FVec Ideal S2000x128 .f32) (w : FVec Ideal S128x16 .f32) (r : Fin 2000) (c : Fin 16) :
    matmul dot_S2000x128_S128x16_S2000x16_1_0_0_1_n_n none l w (constant (F := Ideal) S2000x16 .f32 0x00000000#32) (ix2 r c)
      = ∑ a : Fin 128, l (ix2 r a) * w (ix2 a c) := by
  refine (Ideal.matmul_constant_zero_apply dot_S2000x128_S128x16_S2000x16_1_0_0_1_n_n none l w (ix2 r c)).trans ?_
  rw [← Equiv.sum_comp (contrEquiv1 dot_S2000x128_S128x16_S2000x16_1_0_0_1_n_n 128 rfl rfl).symm]
  refine Finset.sum_congr rfl fun a _ => ?_
  have ha := contrEquiv1_symm_val dot_S2000x128_S128x16_S2000x16_1_0_0_1_n_n 128 rfl rfl a
  have el : dot_S2000x128_S128x16_S2000x16_1_0_0_1_n_n.lhsIdx (ix2 r c) ((contrEquiv1 dot_S2000x128_S128x16_S2000x16_1_0_0_1_n_n 128 rfl rfl).symm a) = ix2 r a :=
    funext fun b => Fin.ext (by
      match b with
      | ⟨0, _⟩ => exact lhs_mmB_0 _ _
      | ⟨1, _⟩ => exact (lhs_mmB_1 _ _).trans ha)
  have er : dot_S2000x128_S128x16_S2000x16_1_0_0_1_n_n.rhsIdx (ix2 r c) ((contrEquiv1 dot_S2000x128_S128x16_S2000x16_1_0_0_1_n_n 128 rfl rfl).symm a) = ix2 a c :=
    funext fun b => Fin.ext (by
      match b with
      | ⟨0, _⟩ => exact (rhs_mmB_0 _ _).trans ha
      | ⟨1, _⟩ => exact rhs_mmB_1 _ _)
  rw [el, er]

/-! ## Columns: a vector cast to a column, a column broadcast along the rows, the index a one-axis reduction inserts -/

section Layout
variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along its columns (axis 1): the index over row `r` with column coordinate `k` is `(r, k)`. -/
theorem lift_axis1 {n m : ℕ} (h : (⟨2, ![n, m]⟩ : Shape).Reduces [1] ⟨1, ![n]⟩) (r : Fin n) (k : Fin m) :
    h.lift (ix1 r) k = ix2 r k :=
  funext fun a => Fin.ext (by match a with | ⟨0, _⟩ => rfl | ⟨1, _⟩ => rfl)

/-- Reducing a matrix along its rows (axis 0): the index over column `k` with row coordinate `r` is `(r, k)`. -/
theorem lift_axis0 {n m : ℕ} (h : (⟨2, ![n, m]⟩ : Shape).Reduces [0] ⟨1, ![m]⟩) (k : Fin m) (r : Fin n) :
    h.lift (ix1 k) r = ix2 r k :=
  funext fun a => Fin.ext (by match a with | ⟨0, _⟩ => rfl | ⟨1, _⟩ => rfl)

end Layout

/-! ## The logits -/

/-- The extract of the 1×1 scale block is its one entry. -/
theorem scale_extract (h : ∀ a, (![0, 0] : Fin 2 → Nat) a < S1x1.size a) :
    extractAt ![0, 0] x8 h = x8 (ix2 (0 : Fin 1) (0 : Fin 1)) :=
  congrArg x8 (funext fun a => Fin.ext (by match a with | ⟨0, _⟩ => rfl | ⟨1, _⟩ => rfl))

/-- The hidden layer at (r, c): relu of the row's product with the first weights plus the bias. -/
theorem hid_apply (h1 : S1x128.ShapeCasts S1x128) (h2 : S1x128.Broadcasts S2000x128) (r : Fin 2000) (c : Fin 128) :
    maximumf (addf (matmul (φ₁ := .f32) (φ₂ := .f32) dot_S2000x128_S128x128_S2000x128_1_0_0_1_n_n none x0 x4 (constant (F := Ideal) S2000x128 .f32 0x00000000#32))
        (broadcastTo S2000x128 (shapeCast S1x128 x5 h1) h2)) (broadcast S2000x128 (Ideal.ofBits .f32 0x00000000#32)) (ix2 r c)
      = Cert.Spec.hidRow (fun a => x0 (ix2 r a)) x4 (fun c => x5 (ix2 (0 : Fin 1) c)) c := by
  show max (matmul (φ₁ := .f32) (φ₂ := .f32) dot_S2000x128_S128x128_S2000x128_1_0_0_1_n_n none x0 x4 (constant (F := Ideal) S2000x128 .f32 0x00000000#32) (ix2 r c)
      + broadcastTo S2000x128 (shapeCast S1x128 x5 h1) h2 (ix2 r c)) (Ideal.ofBits .f32 0x00000000#32) = _
  rw [mmA_apply, broadcastTo_1b_ab_apply, shapeCast_self, Ideal.ofBits_zero_f32]
  rfl

/-- The noisy scaled logits at (r, k). -/
theorem pay14_apply (r : Fin 2000) (k : Fin 16) :
    k0_pay14 x0 x3 x4 x5 x6 x7 x8 (ix2 r k)
      = Cert.Spec.zRow (fun a => x0 (ix2 r a)) (fun k => x3 (ix2 r k)) x4 (fun c => x5 (ix2 (0 : Fin 1) c)) x6
          (fun k => x7 (ix2 (0 : Fin 1) k)) (x8 (ix2 (0 : Fin 1) (0 : Fin 1))) k := by
  unfold k0_pay14
  show Ideal.div ((matmul (φ₁ := .f32) (φ₂ := .f32) dot_S2000x128_S128x16_S2000x16_1_0_0_1_n_n none
          (maximumf (addf (matmul (φ₁ := .f32) (φ₂ := .f32) dot_S2000x128_S128x128_S2000x128_1_0_0_1_n_n none x0 x4 (constant (F := Ideal) S2000x128 .f32 0x00000000#32))
            (broadcastTo S2000x128 (shapeCast S1x128 x5 _) _)) (broadcast S2000x128 (Ideal.ofBits .f32 0x00000000#32)))
          x6 (constant (F := Ideal) S2000x16 .f32 0x00000000#32) (ix2 r k)
        + broadcastTo S2000x16 (shapeCast S1x16 x7 _) _ (ix2 r k)) * extractAt ![0, 0] x8 _ + x3 (ix2 r k)) Cert.Spec.one = _
  rw [mmB_apply, broadcastTo_1b_ab_apply, shapeCast_self x7, scale_extract]
  unfold Cert.Spec.zRow
  show Ideal.div ((_ + x7 (ix2 (0 : Fin 1) k)) * x8 (ix2 (0 : Fin 1) (0 : Fin 1)) + x3 (ix2 r k)) Cert.Spec.one
    = Ideal.div ((_ + x7 (ix2 (0 : Fin 1) k)) * x8 (ix2 (0 : Fin 1) (0 : Fin 1)) + x3 (ix2 r k)) Cert.Spec.one
  refine congrArg (fun t => Ideal.div ((t + x7 (ix2 (0 : Fin 1) k)) * x8 (ix2 (0 : Fin 1) (0 : Fin 1)) + x3 (ix2 r k)) Cert.Spec.one)
    (Finset.sum_congr rfl fun c _ => ?_)
  rw [hid_apply]

/-! ## The row maximum and the soft assignment -/

/-- The row's largest logit, broadcast along the row. -/
theorem pay15_apply (r : Fin 2000) (k : Fin 16) :
    k0_pay15 x0 x3 x4 x5 x6 x7 x8 (ix2 r k)
      = Cert.Spec.zmaxRow (fun a => x0 (ix2 r a)) (fun k => x3 (ix2 r k)) x4 (fun c => x5 (ix2 (0 : Fin 1) c)) x6
          (fun k => x7 (ix2 (0 : Fin 1) k)) (x8 (ix2 (0 : Fin 1) (0 : Fin 1))) := by
  unfold k0_pay15
  refine (broadcastTo_a1_ab_apply _ _ r k).trans ?_
  refine (shapeCast_a_a1_apply _ _ r (0 : Fin 1)).trans ?_
  refine (Ideal.multiReduction_maximumf_single (k0_pay14 x0 x3 x4 x5 x6 x7 x8) 0xFF800000#32 _ _ _ (ix1 r)).trans ?_
  unfold Cert.Spec.zmaxRow
  refine congrArg (fun f => (Finset.univ : Finset (Fin 16)).fold max Cert.Spec.ninf f) (funext fun (k' : Fin 16) => ?_)
  exact (congrArg (k0_pay14 x0 x3 x4 x5 x6 x7 x8) (lift_axis1 _ r k')).trans (pay14_apply x0 x3 x4 x5 x6 x7 x8 r k')

/-- exp(z − max z) at (r, k). -/
theorem ez_apply (r : Fin 2000) (k : Fin 16) :
    exp (subf (k0_pay14 x0 x3 x4 x5 x6 x7 x8) (k0_pay15 x0 x3 x4 x5 x6 x7 x8)) (ix2 r k)
      = Cert.Spec.ezRow (fun a => x0 (ix2 r a)) (fun k => x3 (ix2 r k)) x4 (fun c => x5 (ix2 (0 : Fin 1) c)) x6
          (fun k => x7 (ix2 (0 : Fin 1) k)) (x8 (ix2 (0 : Fin 1) (0 : Fin 1))) k := by
  show Ideal.exp (k0_pay14 x0 x3 x4 x5 x6 x7 x8 (ix2 r k) - k0_pay15 x0 x3 x4 x5 x6 x7 x8 (ix2 r k)) = _
  rw [pay14_apply, pay15_apply]
  rfl

/-- THE SOFT ASSIGNMENT at (r, k): the row's softmax of its logits. -/
theorem sBlk_apply (r : Fin 2000) (k : Fin 16) :
    sBlk x0 x3 x4 x5 x6 x7 x8 (ix2 r k)
      = Cert.Spec.sRow (fun a => x0 (ix2 r a)) (fun k => x3 (ix2 r k)) x4 (fun c => x5 (ix2 (0 : Fin 1) c)) x6
          (fun k => x7 (ix2 (0 : Fin 1) k)) (x8 (ix2 (0 : Fin 1) (0 : Fin 1))) k := by
  unfold sBlk k0_pay16
  show Ideal.div (exp (subf (k0_pay14 x0 x3 x4 x5 x6 x7 x8) (k0_pay15 x0 x3 x4 x5 x6 x7 x8)) (ix2 r k))
      (broadcastTo S2000x16 (shapeCast S2000x1 (multiReduction (F := Ideal) .add [1] S2000
        (exp (subf (k0_pay14 x0 x3 x4 x5 x6 x7 x8) (k0_pay15 x0 x3 x4 x5 x6 x7 x8))) 0x00000000#32 _ _ _) _) _ (ix2 r k)) = _
  refine congrArg₂ Ideal.div (ez_apply x0 x3 x4 x5 x6 x7 x8 r k) ?_
  refine (broadcastTo_a1_ab_apply _ _ r k).trans ?_
  refine (shapeCast_a_a1_apply _ _ r (0 : Fin 1)).trans ?_
  refine (Ideal.multiReduction_add_single _ 0x00000000#32 _ _ _ (ix1 r)).trans ?_
  refine Finset.sum_congr rfl fun (k' : Fin 16) _ => ?_
  exact (congrArg _ (lift_axis1 _ r k')).trans (ez_apply x0 x3 x4 x5 x6 x7 x8 r k')

/-! ## The segment mask and the tiled assignment -/

/-- Column `j`'s segment number as the body computes it from the column's word `w`: the floor division by 16, spelt with
    a truncating division, a remainder, and a correction by one where the signs differ and the remainder is not zero. -/
def colSeg (w : BitVec 32) : BitVec 32 :=
  Scalar.select
    (IntOp.andi
      (IntOp.cmpi .ne
        (IntOp.subi ((IntOp.cmpi .sgt w 0#32).setWidth 32) ((IntOp.cmpi .slt w 0#32).setWidth 32))
        (Scalar.subi (Scalar.extui (Scalar.cmpi .sgt 16#32 0#32)) (Scalar.extui (Scalar.cmpi .slt 16#32 0#32))))
      (IntOp.cmpi .ne (IntOp.remsi .vector w 16#32) 0#32))
    (IntOp.subi (IntOp.divsi .vector w 16#32) 1#32)
    (IntOp.divsi .vector w 16#32)

/-- On the 256 column numbers that word arithmetic is the quotient by 16. -/
theorem colSeg_eq : ∀ j : Fin 256, colSeg (BitVec.ofNat 32 j.val) = BitVec.ofNat 32 (j.val / 16) := by
  decide

/-- An equality comparison's bit is set exactly when the two words are equal. -/
theorem cmpi_eq_one_iff (a b : BitVec 32) : IntOp.cmpi .eq a b = 1#1 ↔ a = b := by
  show BitVec.ofBool (a == b) = 1#1 ↔ a = b
  by_cases e : a = b
  · subst e
    rw [beq_self_eq_true]
    exact ⟨fun _ => rfl, fun _ => rfl⟩
  · rw [beq_eq_false_iff_ne.mpr e]
    exact ⟨fun h => absurd h (by decide), fun h => absurd h e⟩

/-- The mask bit at (r, j): the row's segment word against column `j`'s segment number. -/
theorem selBlk_eq (r : Fin 2000) (j : Fin 256) :
    selBlk (F := Ideal) x2 (ix2 r j) = IntOp.cmpi .eq (colSeg (BitVec.ofNat 32 j.val)) (x2 (ix2 r (0 : Fin 1))) := by
  unfold selBlk k0_pay23 k0_pay13
  show IntOp.cmpi .eq (colSeg (iota .tc S2000x256 32 [1] _ (ix2 r j)))
      (broadcastTo S2000x256 (shapeCast S2000x1 x2 _) _ (ix2 r j)) = _
  rw [iota_single_apply, broadcastTo_a1_ab_apply, shapeCast_self]

/-- THE MASK: set exactly where the row's segment word is column `j`'s segment, `j / 16`. -/
theorem selBlk_apply (r : Fin 2000) (j : Fin 256) :
    selBlk (F := Ideal) x2 (ix2 r j) = 1#1 ↔ x2 (ix2 r (0 : Fin 1)) = BitVec.ofNat 32 (j.val / 16) := by
  rw [selBlk_eq, colSeg_eq j, cmpi_eq_one_iff]
  exact eq_comm

/-- The tiled assignment at (r, j): the assignment at (r, j mod 16), whichever of the sixteen copies `j` falls in. -/
theorem tileBlk_apply (r : Fin 2000) (j : Fin 256) :
    tileBlk x0 x3 x4 x5 x6 x7 x8 (ix2 r j)
      = sBlk x0 x3 x4 x5 x6 x7 x8 (ix2 r ⟨j.val % 16, Nat.mod_lt _ (by decide)⟩) := by
  unfold tileBlk k0_pay24
  exact concatenate_replicate_apply (t := S2000x256) (s₁ := S2000x16) 1 16 (sBlk x0 x3 x4 x5 x6 x7 x8) _ rfl (ix2 r j)
    (ix2 r ⟨j.val % 16, Nat.mod_lt _ (by decide)⟩) rfl
    (fun b hb => by
      match b with
      | ⟨0, _⟩ => rfl
      | ⟨1, _⟩ => exact absurd rfl hb)

/-- THE MASKED TILE at (r, j): the row's assignment to cluster `j mod 16` where the row lies in segment `j / 16`, zero
    elsewhere (the widened mask bit converts to 1 or 0). -/
theorem pay1_apply (r : Fin 2000) (j : Fin 256) :
    k0_pay1 (selBlk (F := Ideal) x2) (tileBlk x0 x3 x4 x5 x6 x7 x8) (ix2 r j)
      = if x2 (ix2 r (0 : Fin 1)) = BitVec.ofNat 32 (j.val / 16)
          then sBlk x0 x3 x4 x5 x6 x7 x8 (ix2 r ⟨j.val % 16, Nat.mod_lt _ (by decide)⟩) else 0 := by
  unfold k0_pay1
  show tileBlk x0 x3 x4 x5 x6 x7 x8 (ix2 r j)
      * ((((selBlk (F := Ideal) x2 (ix2 r j)).setWidth 32).toInt : ℝ) : EReal) = _
  rw [tileBlk_apply]
  by_cases h : x2 (ix2 r (0 : Fin 1)) = BitVec.ofNat 32 (j.val / 16)
  · have e1 : ((1#1 : BitVec 1).setWidth 32).toInt = 1 := by decide
    rw [if_pos h, (selBlk_apply x2 r j).mpr h, e1, Int.cast_one, EReal.coe_one, mul_one]
  · have e0 : ((0#1 : BitVec 1).setWidth 32).toInt = 0 := by decide
    rw [if_neg h, eq_zero_of_ne_one (fun h1 => h ((selBlk_apply x2 r j).mp h1)), e0, Int.cast_zero, EReal.coe_zero, mul_zero]

end Cert.KernelIdeal.Pay

end
-- ==== Proof.KI.PayAcc.lean ====
/-
  One block's contribution to each accumulator, read at an index over the extended reals.

  Each of the seven accumulator buffers ends a grid point at "what it held, plus a sum over the block's 2000 rows":
  the segment-wise sums take the masked tile (row r's assignment to cluster j mod 16 where r lies in segment j / 16)
  against the row's features, its position, or alone; the sums over all rows take the assignment against the position,
  the squared length of the position, or alone; the entropy sum takes s · log(s + ε) over rows and clusters.  A product
  contracted over the rows is the sum over the rows; a reduction along the rows likewise; the unit leading axis of a
  buffer is dropped and put back by its coordinates.  The zero arrays a resetting point stores are zero at every index.
-/
import proofs.«406053_j76209899700419_3_alg».proof.Proof.KI.Step
import proofs.«406053_j76209899700419_3_alg».proof.Proof.KI.PayS
import proofs.«406053_j76209899700419_3_alg».proof.Proof.Spec
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay

open Idealize.ShloMosaic Idealize.ShloMosaic.ValueIdx
open Cert.KernelIdeal Cert.KernelIdeal.Gen Cert.KernelIdeal.Fr

variable (x0 : Vec Ideal S2000x128 .f32) (x1 : Vec Ideal S2000x3 .f32) (x2 : Vec Ideal S2000x1 .i32) (x3 : Vec Ideal S2000x16 .f32)
  (x4 : Vec Ideal S128x128 .f32) (x5 : Vec Ideal S1x128 .f32) (x6 : Vec Ideal S128x16 .f32) (x7 : Vec Ideal S1x16 .f32) (x8 : Vec Ideal S1x1 .f32)

/-! ## The four products over the block's rows, read at an index -/

theorem lhs_mmC_0 (i : S256x128.Idx) (q : dot_S2000x256_S2000x128_S256x128_0_0_1_1_n_n.contr.Idx) :
    (dot_S2000x256_S2000x128_S256x128_0_0_1_1_n_n.lhsIdx i q 0).val = (q ⟨0, by decide⟩).val :=
  dot_S2000x256_S2000x128_S256x128_0_0_1_1_n_n.lhsIdx_val_of_single rfl i q
theorem lhs_mmC_1 (i : S256x128.Idx) (q : dot_S2000x256_S2000x128_S256x128_0_0_1_1_n_n.contr.Idx) :
    (dot_S2000x256_S2000x128_S256x128_0_0_1_1_n_n.lhsIdx i q 1).val = (i 0).val := by
  unfold DotDims.lhsIdx
  rw [dif_neg (show ¬(1 : Fin S2000x256.rank) ∈ dot_S2000x256_S2000x128_S256x128_0_0_1_1_n_n.lhsBatch by decide),
    dif_pos (show (1 : Fin S2000x256.rank) ∈ dot_S2000x256_S2000x128_S256x128_0_0_1_1_n_n.lhsNonContracting by decide)]
  rfl
theorem rhs_mmC_0 (i : S256x128.Idx) (q : dot_S2000x256_S2000x128_S256x128_0_0_1_1_n_n.contr.Idx) :
    (dot_S2000x256_S2000x128_S256x128_0_0_1_1_n_n.rhsIdx i q 0).val = (q ⟨0, by decide⟩).val :=
  dot_S2000x256_S2000x128_S256x128_0_0_1_1_n_n.rhsIdx_val_of_single rfl i q
theorem rhs_mmC_1 (i : S256x128.Idx) (q : dot_S2000x256_S2000x128_S256x128_0_0_1_1_n_n.contr.Idx) :
    (dot_S2000x256_S2000x128_S256x128_0_0_1_1_n_n.rhsIdx i q 1).val = (i 1).val := by
  unfold DotDims.rhsIdx
  rw [dif_neg (show ¬(1 : Fin S2000x128.rank) ∈ dot_S2000x256_S2000x128_S256x128_0_0_1_1_n_n.rhsBatch by decide),
    dif_pos (show (1 : Fin S2000x128.rank) ∈ dot_S2000x256_S2000x128_S256x128_0_0_1_1_n_n.rhsNonContracting by decide)]
  rfl

/-- The masked tile against the features, contracted over the block's 2000 rows into the zero block, at (j, c): the sum over the rows. -/
theorem mmC_apply (l : FVec Ideal S2000x256 .f32) (w : FVec Ideal S2000x128 .f32) (j : Fin 256) (c : Fin 128) :
    matmul dot_S2000x256_S2000x128_S256x128_0_0_1_1_n_n none l w (constant (F := Ideal) S256x128 .f32 0x00000000#32) (ix2 j c)
      = ∑ r : Fin 2000, l (ix2 r j) * w (ix2 r c) := by
  refine (Ideal.matmul_constant_zero_apply dot_S2000x256_S2000x128_S256x128_0_0_1_1_n_n none l w (ix2 j c)).trans ?_
  rw [← Equiv.sum_comp (contrEquiv1 dot_S2000x256_S2000x128_S256x128_0_0_1_1_n_n 2000 rfl rfl).symm]
  refine Finset.sum_congr rfl fun r _ => ?_
  have hr := contrEquiv1_symm_val dot_S2000x256_S2000x128_S256x128_0_0_1_1_n_n 2000 rfl rfl r
  have el : dot_S2000x256_S2000x128_S256x128_0_0_1_1_n_n.lhsIdx (ix2 j c) ((contrEquiv1 dot_S2000x256_S2000x128_S256x128_0_0_1_1_n_n 2000 rfl rfl).symm r) = ix2 r j :=
    funext fun b => Fin.ext (by
      match b with
      | ⟨0, _⟩ => exact (lhs_mmC_0 _ _).trans hr
      | ⟨1, _⟩ => exact lhs_mmC_1 _ _)
  have er : dot_S2000x256_S2000x128_S256x128_0_0_1_1_n_n.rhsIdx (ix2 j c) ((contrEquiv1 dot_S2000x256_S2000x128_S256x128_0_0_1_1_n_n 2000 rfl rfl).symm r) = ix2 r c :=
    funext fun b => Fin.ext (by
      match b with
      | ⟨0, _⟩ => exact (rhs_mmC_0 _ _).trans hr
      | ⟨1, _⟩ => exact rhs_mmC_1 _ _)
  rw [el, er]

theorem lhs_mmD_0 (i : S256x3.Idx) (q : dot_S2000x256_S2000x3_S256x3_0_0_1_1_n_n.contr.Idx) :
    (dot_S2000x256_S2000x3_S256x3_0_0_1_1_n_n.lhsIdx i q 0).val = (q ⟨0, by decide⟩).val :=
  dot_S2000x256_S2000x3_S256x3_0_0_1_1_n_n.lhsIdx_val_of_single rfl i q
theorem lhs_mmD_1 (i : S256x3.Idx) (q : dot_S2000x256_S2000x3_S256x3_0_0_1_1_n_n.contr.Idx) :
    (dot_S2000x256_S2000x3_S256x3_0_0_1_1_n_n.lhsIdx i q 1).val = (i 0).val := by
  unfold DotDims.lhsIdx
  rw [dif_neg (show ¬(1 : Fin S2000x256.rank) ∈ dot_S2000x256_S2000x3_S256x3_0_0_1_1_n_n.lhsBatch by decide),
    dif_pos (show (1 : Fin S2000x256.rank) ∈ dot_S2000x256_S2000x3_S256x3_0_0_1_1_n_n.lhsNonContracting by decide)]
  rfl
theorem rhs_mmD_0 (i : S256x3.Idx) (q : dot_S2000x256_S2000x3_S256x3_0_0_1_1_n_n.contr.Idx) :
    (dot_S2000x256_S2000x3_S256x3_0_0_1_1_n_n.rhsIdx i q 0).val = (q ⟨0, by decide⟩).val :=
  dot_S2000x256_S2000x3_S256x3_0_0_1_1_n_n.rhsIdx_val_of_single rfl i q
theorem rhs_mmD_1 (i : S256x3.Idx) (q : dot_S2000x256_S2000x3_S256x3_0_0_1_1_n_n.contr.Idx) :
    (dot_S2000x256_S2000x3_S256x3_0_0_1_1_n_n.rhsIdx i q 1).val = (i 1).val := by
  unfold DotDims.rhsIdx
  rw [dif_neg (show ¬(1 : Fin S2000x3.rank) ∈ dot_S2000x256_S2000x3_S256x3_0_0_1_1_n_n.rhsBatch by decide),
    dif_pos (show (1 : Fin S2000x3.rank) ∈ dot_S2000x256_S2000x3_S256x3_0_0_1_1_n_n.rhsNonContracting by decide)]
  rfl

/-- The masked tile against the positions, contracted over the block's 2000 rows into the zero block, at (j, c): the sum over the rows. -/
theorem mmD_apply (l : FVec Ideal S2000x256 .f32) (w : FVec Ideal S2000x3 .f32) (j : Fin 256) (c : Fin 3) :
    matmul dot_S2000x256_S2000x3_S256x3_0_0_1_1_n_n none l w (constant (F := Ideal) S256x3 .f32 0x00000000#32) (ix2 j c)
      = ∑ r : Fin 2000, l (ix2 r j) * w (ix2 r c) := by
  refine (Ideal.matmul_constant_zero_apply dot_S2000x256_S2000x3_S256x3_0_0_1_1_n_n none l w (ix2 j c)).trans ?_
  rw [← Equiv.sum_comp (contrEquiv1 dot_S2000x256_S2000x3_S256x3_0_0_1_1_n_n 2000 rfl rfl).symm]
  refine Finset.sum_congr rfl fun r _ => ?_
  have hr := contrEquiv1_symm_val dot_S2000x256_S2000x3_S256x3_0_0_1_1_n_n 2000 rfl rfl r
  have el : dot_S2000x256_S2000x3_S256x3_0_0_1_1_n_n.lhsIdx (ix2 j c) ((contrEquiv1 dot_S2000x256_S2000x3_S256x3_0_0_1_1_n_n 2000 rfl rfl).symm r) = ix2 r j :=
    funext fun b => Fin.ext (by
      match b with
      | ⟨0, _⟩ => exact (lhs_mmD_0 _ _).trans hr
      | ⟨1, _⟩ => exact lhs_mmD_1 _ _)
  have er : dot_S2000x256_S2000x3_S256x3_0_0_1_1_n_n.rhsIdx (ix2 j c) ((contrEquiv1 dot_S2000x256_S2000x3_S256x3_0_0_1_1_n_n 2000 rfl rfl).symm r) = ix2 r c :=
    funext fun b => Fin.ext (by
      match b with
      | ⟨0, _⟩ => exact (rhs_mmD_0 _ _).trans hr
      | ⟨1, _⟩ => exact rhs_mmD_1 _ _)
  rw [el, er]

theorem lhs_mmE_0 (i : S16x3.Idx) (q : dot_S2000x16_S2000x3_S16x3_0_0_1_1_n_n.contr.Idx) :
    (dot_S2000x16_S2000x3_S16x3_0_0_1_1_n_n.lhsIdx i q 0).val = (q ⟨0, by decide⟩).val :=
  dot_S2000x16_S2000x3_S16x3_0_0_1_1_n_n.lhsIdx_val_of_single rfl i q
theorem lhs_mmE_1 (i : S16x3.Idx) (q : dot_S2000x16_S2000x3_S16x3_0_0_1_1_n_n.contr.Idx) :
    (dot_S2000x16_S2000x3_S16x3_0_0_1_1_n_n.lhsIdx i q 1).val = (i 0).val := by
  unfold DotDims.lhsIdx
  rw [dif_neg (show ¬(1 : Fin S2000x16.rank) ∈ dot_S2000x16_S2000x3_S16x3_0_0_1_1_n_n.lhsBatch by decide),
    dif_pos (show (1 : Fin S2000x16.rank) ∈ dot_S2000x16_S2000x3_S16x3_0_0_1_1_n_n.lhsNonContracting by decide)]
  rfl
theorem rhs_mmE_0 (i : S16x3.Idx) (q : dot_S2000x16_S2000x3_S16x3_0_0_1_1_n_n.contr.Idx) :
    (dot_S2000x16_S2000x3_S16x3_0_0_1_1_n_n.rhsIdx i q 0).val = (q ⟨0, by decide⟩).val :=
  dot_S2000x16_S2000x3_S16x3_0_0_1_1_n_n.rhsIdx_val_of_single rfl i q
theorem rhs_mmE_1 (i : S16x3.Idx) (q : dot_S2000x16_S2000x3_S16x3_0_0_1_1_n_n.contr.Idx) :
    (dot_S2000x16_S2000x3_S16x3_0_0_1_1_n_n.rhsIdx i q 1).val = (i 1).val := by
  unfold DotDims.rhsIdx
  rw [dif_neg (show ¬(1 : Fin S2000x3.rank) ∈ dot_S2000x16_S2000x3_S16x3_0_0_1_1_n_n.rhsBatch by decide),
    dif_pos (show (1 : Fin S2000x3.rank) ∈ dot_S2000x16_S2000x3_S16x3_0_0_1_1_n_n.rhsNonContracting by decide)]
  rfl

/-- The assignment against the positions, contracted over the block's 2000 rows into the zero block, at (j, c): the sum over the rows. -/
theorem mmE_apply (l : FVec Ideal S2000x16 .f32) (w : FVec Ideal S2000x3 .f32) (j : Fin 16) (c : Fin 3) :
    matmul dot_S2000x16_S2000x3_S16x3_0_0_1_1_n_n none l w (constant (F := Ideal) S16x3 .f32 0x00000000#32) (ix2 j c)
      = ∑ r : Fin 2000, l (ix2 r j) * w (ix2 r c) := by
  refine (Ideal.matmul_constant_zero_apply dot_S2000x16_S2000x3_S16x3_0_0_1_1_n_n none l w (ix2 j c)).trans ?_
  rw [← Equiv.sum_comp (contrEquiv1 dot_S2000x16_S2000x3_S16x3_0_0_1_1_n_n 2000 rfl rfl).symm]
  refine Finset.sum_congr rfl fun r _ => ?_
  have hr := contrEquiv1_symm_val dot_S2000x16_S2000x3_S16x3_0_0_1_1_n_n 2000 rfl rfl r
  have el : dot_S2000x16_S2000x3_S16x3_0_0_1_1_n_n.lhsIdx (ix2 j c) ((contrEquiv1 dot_S2000x16_S2000x3_S16x3_0_0_1_1_n_n 2000 rfl rfl).symm r) = ix2 r j :=
    funext fun b => Fin.ext (by
      match b with
      | ⟨0, _⟩ => exact (lhs_mmE_0 _ _).trans hr
      | ⟨1, _⟩ => exact lhs_mmE_1 _ _)
  have er : dot_S2000x16_S2000x3_S16x3_0_0_1_1_n_n.rhsIdx (ix2 j c) ((contrEquiv1 dot_S2000x16_S2000x3_S16x3_0_0_1_1_n_n 2000 rfl rfl).symm r) = ix2 r c :=
    funext fun b => Fin.ext (by
      match b with
      | ⟨0, _⟩ => exact (rhs_mmE_0 _ _).trans hr
      | ⟨1, _⟩ => exact rhs_mmE_1 _ _)
  rw [el, er]

theorem lhs_mmF_0 (i : S16x1.Idx) (q : dot_S2000x16_S2000x1_S16x1_0_0_1_1_n_n.contr.Idx) :
    (dot_S2000x16_S2000x1_S16x1_0_0_1_1_n_n.lhsIdx i q 0).val = (q ⟨0, by decide⟩).val :=
  dot_S2000x16_S2000x1_S16x1_0_0_1_1_n_n.lhsIdx_val_of_single rfl i q
theorem lhs_mmF_1 (i : S16x1.Idx) (q : dot_S2000x16_S2000x1_S16x1_0_0_1_1_n_n.contr.Idx) :
    (dot_S2000x16_S2000x1_S16x1_0_0_1_1_n_n.lhsIdx i q 1).val = (i 0).val := by
  unfold DotDims.lhsIdx
  rw [dif_neg (show ¬(1 : Fin S2000x16.rank) ∈ dot_S2000x16_S2000x1_S16x1_0_0_1_1_n_n.lhsBatch by decide),
    dif_pos (show (1 : Fin S2000x16.rank) ∈ dot_S2000x16_S2000x1_S16x1_0_0_1_1_n_n.lhsNonContracting by decide)]
  rfl
theorem rhs_mmF_0 (i : S16x1.Idx) (q : dot_S2000x16_S2000x1_S16x1_0_0_1_1_n_n.contr.Idx) :
    (dot_S2000x16_S2000x1_S16x1_0_0_1_1_n_n.rhsIdx i q 0).val = (q ⟨0, by decide⟩).val :=
  dot_S2000x16_S2000x1_S16x1_0_0_1_1_n_n.rhsIdx_val_of_single rfl i q
theorem rhs_mmF_1 (i : S16x1.Idx) (q : dot_S2000x16_S2000x1_S16x1_0_0_1_1_n_n.contr.Idx) :
    (dot_S2000x16_S2000x1_S16x1_0_0_1_1_n_n.rhsIdx i q 1).val = (i 1).val := by
  unfold DotDims.rhsIdx
  rw [dif_neg (show ¬(1 : Fin S2000x1.rank) ∈ dot_S2000x16_S2000x1_S16x1_0_0_1_1_n_n.rhsBatch by decide),
    dif_pos (show (1 : Fin S2000x1.rank) ∈ dot_S2000x16_S2000x1_S16x1_0_0_1_1_n_n.rhsNonContracting by decide)]
  rfl

/-- The assignment against the squared lengths, contracted over the block's 2000 rows into the zero block, at (j, c): the sum over the rows. -/
theorem mmF_apply (l : FVec Ideal S2000x16 .f32) (w : FVec Ideal S2000x1 .f32) (j : Fin 16) (c : Fin 1) :
    matmul dot_S2000x16_S2000x1_S16x1_0_0_1_1_n_n none l w (constant (F := Ideal) S16x1 .f32 0x00000000#32) (ix2 j c)
      = ∑ r : Fin 2000, l (ix2 r j) * w (ix2 r c) := by
  refine (Ideal.matmul_constant_zero_apply dot_S2000x16_S2000x1_S16x1_0_0_1_1_n_n none l w (ix2 j c)).trans ?_
  rw [← Equiv.sum_comp (contrEquiv1 dot_S2000x16_S2000x1_S16x1_0_0_1_1_n_n 2000 rfl rfl).symm]
  refine Finset.sum_congr rfl fun r _ => ?_
  have hr := contrEquiv1_symm_val dot_S2000x16_S2000x1_S16x1_0_0_1_1_n_n 2000 rfl rfl r
  have el : dot_S2000x16_S2000x1_S16x1_0_0_1_1_n_n.lhsIdx (ix2 j c) ((contrEquiv1 dot_S2000x16_S2000x1_S16x1_0_0_1_1_n_n 2000 rfl rfl).symm r) = ix2 r j :=
    funext fun b => Fin.ext (by
      match b with
      | ⟨0, _⟩ => exact (lhs_mmF_0 _ _).trans hr
      | ⟨1, _⟩ => exact lhs_mmF_1 _ _)
  have er : dot_S2000x16_S2000x1_S16x1_0_0_1_1_n_n.rhsIdx (ix2 j c) ((contrEquiv1 dot_S2000x16_S2000x1_S16x1_0_0_1_1_n_n 2000 rfl rfl).symm r) = ix2 r c :=
    funext fun b => Fin.ext (by
      match b with
      | ⟨0, _⟩ => exact (rhs_mmF_0 _ _).trans hr
      | ⟨1, _⟩ => exact rhs_mmF_1 _ _)
  rw [el, er]

/-! ## The segment-wise accumulators -/

/-- Segment-wise feature sums: what the buffer held at (j, c) plus the block's rows' masked assignments times their features. -/
theorem step10_apply (o : Vec Ideal S1x256x128 .f32) (j : Fin 256) (c : Fin 128) :
    step10 x0 x2 x3 x4 x5 x6 x7 x8 o (ix3 (0 : Fin 1) j c)
      = o (ix3 (0 : Fin 1) j c) + ∑ r : Fin 2000,
          (if x2 (ix2 r (0 : Fin 1)) = BitVec.ofNat 32 (j.val / 16)
            then sBlk x0 x3 x4 x5 x6 x7 x8 (ix2 r ⟨j.val % 16, Nat.mod_lt _ (by decide)⟩) else 0) * x0 (ix2 r c) := by
  unfold step10 k0_pay4
  refine (shapeCast_ab_1ab_apply _ _ (0 : Fin 1) j c).trans ?_
  show shapeCast S256x128 o _ (ix2 j c)
      + matmul (φ₁ := .f32) (φ₂ := .f32) dot_S2000x256_S2000x128_S256x128_0_0_1_1_n_n none
          (k0_pay1 (selBlk (F := Ideal) x2) (tileBlk x0 x3 x4 x5 x6 x7 x8)) x0
          (constant (F := Ideal) S256x128 .f32 0x00000000#32) (ix2 j c) = _
  rw [shapeCast_1ab_ab_apply, mmC_apply]
  refine congrArg (o (ix3 (0 : Fin 1) j c) + ·) (Finset.sum_congr rfl fun r _ => ?_)
  rw [pay1_apply]

/-- Segment-wise position sums. -/
theorem step11_apply (o : Vec Ideal S1x256x3 .f32) (j : Fin 256) (d : Fin 3) :
    step11 x0 x1 x2 x3 x4 x5 x6 x7 x8 o (ix3 (0 : Fin 1) j d)
      = o (ix3 (0 : Fin 1) j d) + ∑ r : Fin 2000,
          (if x2 (ix2 r (0 : Fin 1)) = BitVec.ofNat 32 (j.val / 16)
            then sBlk x0 x3 x4 x5 x6 x7 x8 (ix2 r ⟨j.val % 16, Nat.mod_lt _ (by decide)⟩) else 0) * x1 (ix2 r d) := by
  unfold step11 k0_pay2
  refine (shapeCast_ab_1ab_apply _ _ (0 : Fin 1) j d).trans ?_
  show shapeCast S256x3 o _ (ix2 j d)
      + matmul (φ₁ := .f32) (φ₂ := .f32) dot_S2000x256_S2000x3_S256x3_0_0_1_1_n_n none
          (k0_pay1 (selBlk (F := Ideal) x2) (tileBlk x0 x3 x4 x5 x6 x7 x8)) x1
          (constant (F := Ideal) S256x3 .f32 0x00000000#32) (ix2 j d) = _
  rw [shapeCast_1ab_ab_apply, mmD_apply]
  refine congrArg (o (ix3 (0 : Fin 1) j d) + ·) (Finset.sum_congr rfl fun r _ => ?_)
  rw [pay1_apply]

/-- Segment-wise assignment sums. -/
theorem step12_apply (o : Vec Ideal S1x1x256 .f32) (j : Fin 256) :
    step12 x0 x2 x3 x4 x5 x6 x7 x8 o (ix3 (0 : Fin 1) (0 : Fin 1) j)
      = o (ix3 (0 : Fin 1) (0 : Fin 1) j) + ∑ r : Fin 2000,
          (if x2 (ix2 r (0 : Fin 1)) = BitVec.ofNat 32 (j.val / 16)
            then sBlk x0 x3 x4 x5 x6 x7 x8 (ix2 r ⟨j.val % 16, Nat.mod_lt _ (by decide)⟩) else 0) := by
  unfold step12 k0_pay3
  refine (shapeCast_ab_1ab_apply _ _ (0 : Fin 1) (0 : Fin 1) j).trans ?_
  show shapeCast S1x256 o _ (ix2 (0 : Fin 1) j)
      + shapeCast S1x256 (multiReduction (F := Ideal) .add [0] S256
          (k0_pay1 (selBlk (F := Ideal) x2) (tileBlk x0 x3 x4 x5 x6 x7 x8)) 0x00000000#32 _ _ _) _ (ix2 (0 : Fin 1) j) = _
  rw [shapeCast_1ab_ab_apply, shapeCast_a_1a_apply]
  refine congrArg (o (ix3 (0 : Fin 1) (0 : Fin 1) j) + ·) ?_
  refine (Ideal.multiReduction_add_single _ 0x00000000#32 _ _ _ (ix1 j)).trans ?_
  refine Finset.sum_congr rfl fun (r : Fin 2000) _ => ?_
  exact (congrArg _ (lift_axis0 _ j r)).trans (pay1_apply x0 x2 x3 x4 x5 x6 x7 x8 r j)

/-! ## The accumulators over all rows -/

/-- The squared length of each row's position, as a column. -/
theorem pay19_apply (r : Fin 2000) (u : Fin 1) :
    k0_pay19 x1 (ix2 r u) = ∑ d : Fin 3, x1 (ix2 r d) * x1 (ix2 r d) := by
  unfold k0_pay19
  refine (shapeCast_a_a1_apply _ _ r u).trans ?_
  refine (Ideal.multiReduction_add_single _ 0x00000000#32 _ _ _ (ix1 r)).trans ?_
  refine Finset.sum_congr rfl fun (d : Fin 3) _ => ?_
  exact congrArg (fun i => x1 i * x1 i) (lift_axis1 _ r d)

/-- Position sums: what the buffer held at (k, d) plus the block's rows' assignments times their positions. -/
theorem step13_apply (o : Vec Ideal S1x16x3 .f32) (k : Fin 16) (d : Fin 3) :
    step13 x0 x1 x3 x4 x5 x6 x7 x8 o (ix3 (0 : Fin 1) k d)
      = o (ix3 (0 : Fin 1) k d) + ∑ r : Fin 2000, sBlk x0 x3 x4 x5 x6 x7 x8 (ix2 r k) * x1 (ix2 r d) := by
  unfold step13 k0_pay21 k0_pay20
  refine (shapeCast_ab_1ab_apply _ _ (0 : Fin 1) k d).trans ?_
  show shapeCast S16x3 o _ (ix2 k d)
      + matmul (φ₁ := .f32) (φ₂ := .f32) dot_S2000x16_S2000x3_S16x3_0_0_1_1_n_n none (sBlk x0 x3 x4 x5 x6 x7 x8) x1
          (constant (F := Ideal) S16x3 .f32 0x00000000#32) (ix2 k d) = _
  rw [shapeCast_1ab_ab_apply, mmE_apply]

/-- Squared-length sums. -/
theorem step14_apply (o : Vec Ideal S1x16x1 .f32) (k : Fin 16) :
    step14 x0 x1 x3 x4 x5 x6 x7 x8 o (ix3 (0 : Fin 1) k (0 : Fin 1))
      = o (ix3 (0 : Fin 1) k (0 : Fin 1))
        + ∑ r : Fin 2000, sBlk x0 x3 x4 x5 x6 x7 x8 (ix2 r k) * ∑ d : Fin 3, x1 (ix2 r d) * x1 (ix2 r d) := by
  unfold step14 k0_pay22
  refine (shapeCast_ab_1ab_apply _ _ (0 : Fin 1) k (0 : Fin 1)).trans ?_
  show shapeCast S16x1 o _ (ix2 k (0 : Fin 1))
      + matmul (φ₁ := .f32) (φ₂ := .f32) dot_S2000x16_S2000x1_S16x1_0_0_1_1_n_n none (sBlk x0 x3 x4 x5 x6 x7 x8) (k0_pay19 x1)
          (constant (F := Ideal) S16x1 .f32 0x00000000#32) (ix2 k (0 : Fin 1)) = _
  rw [shapeCast_1ab_ab_apply, mmF_apply]
  refine congrArg (o (ix3 (0 : Fin 1) k (0 : Fin 1)) + ·) (Finset.sum_congr rfl fun r _ => ?_)
  rw [pay19_apply]

/-- Assignment sums. -/
theorem step15_apply (o : Vec Ideal S1x1x16 .f32) (k : Fin 16) :
    step15 x0 x3 x4 x5 x6 x7 x8 o (ix3 (0 : Fin 1) (0 : Fin 1) k)
      = o (ix3 (0 : Fin 1) (0 : Fin 1) k) + ∑ r : Fin 2000, sBlk x0 x3 x4 x5 x6 x7 x8 (ix2 r k) := by
  unfold step15 k0_pay17
  refine (shapeCast_ab_1ab_apply _ _ (0 : Fin 1) (0 : Fin 1) k).trans ?_
  show shapeCast S1x16 o _ (ix2 (0 : Fin 1) k)
      + shapeCast S1x16 (multiReduction (F := Ideal) .add [0] S16 (sBlk x0 x3 x4 x5 x6 x7 x8) 0x00000000#32 _ _ _) _
          (ix2 (0 : Fin 1) k) = _
  rw [shapeCast_1ab_ab_apply, shapeCast_a_1a_apply]
  refine congrArg (o (ix3 (0 : Fin 1) (0 : Fin 1) k) + ·) ?_
  refine (Ideal.multiReduction_add_single _ 0x00000000#32 _ _ _ (ix1 k)).trans ?_
  refine Finset.sum_congr rfl fun (r : Fin 2000) _ => ?_
  exact congrArg (sBlk x0 x3 x4 x5 x6 x7 x8) (lift_axis0 _ k r)

/-! ## The entropy sum -/

section Idx3

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A one-entry vector cast to a 1×1×1 block reads its entry. -/
theorem shapeCast_1_111_apply {α : Type} (x : (⟨1, ![1]⟩ : Shape).Idx → α) (h : (⟨1, ![1]⟩ : Shape).ShapeCasts ⟨3, ![1, 1, 1]⟩) :
    shapeCast ⟨3, ![1, 1, 1]⟩ x h (ix3 (0 : Fin 1) (0 : Fin 1) (0 : Fin 1)) = x (ix1 (0 : Fin 1)) :=
  shapeCast_apply x h _ _ (by
    rw [Shape.rowMajor_val_three, Shape.rowMajor_val_one]
    rfl)

end Idx3

/-- The entropy sum: what the buffer held plus the block's Σ s · log(s + ε) over its rows and clusters. -/
theorem step16_apply (o : Vec Ideal S1x1x1 .f32) :
    step16 x0 x3 x4 x5 x6 x7 x8 o (ix3 (0 : Fin 1) (0 : Fin 1) (0 : Fin 1))
      = o (ix3 (0 : Fin 1) (0 : Fin 1) (0 : Fin 1)) + ∑ r : Fin 2000, ∑ k : Fin 16,
          sBlk x0 x3 x4 x5 x6 x7 x8 (ix2 r k) * Ideal.log (sBlk x0 x3 x4 x5 x6 x7 x8 (ix2 r k) + Cert.Spec.eps) := by
  unfold step16 k0_pay18
  refine (shapeCast_ab_1ab_apply _ _ (0 : Fin 1) (0 : Fin 1) (0 : Fin 1)).trans ?_
  refine (addf_apply _ _ (ix2 (0 : Fin 1) (0 : Fin 1))).trans ?_
  refine congrArg₂ (· + ·) (shapeCast_1ab_ab_apply _ _ (0 : Fin 1) (0 : Fin 1)) ?_
  refine (broadcast_apply (s := S1x1) _ (ix2 (0 : Fin 1) (0 : Fin 1))).trans ?_
  have hx : ∀ (v : S1x1x1.Idx → EReal) (h : ∀ a, (![0, 0, 0] : Fin 3 → Nat) a < S1x1x1.size a),
      extractAt ![0, 0, 0] v h = v (ix3 (0 : Fin 1) (0 : Fin 1) (0 : Fin 1)) := fun v h =>
    congrArg v (funext fun a => Fin.ext (by match a with | ⟨0, _⟩ => rfl | ⟨1, _⟩ => rfl | ⟨2, _⟩ => rfl))
  refine (hx _ _).trans ?_
  refine (shapeCast_1_111_apply _ _).trans ?_
  refine (Ideal.multiReduction_add_total _ 0x00000000#32 _ (fun b => by match b with | ⟨0, _⟩ => rfl) _ _ (ix1 (0 : Fin 1))).trans ?_
  refine (sum_idx3 _).trans ?_
  rw [Fin.sum_univ_one]
  refine Finset.sum_congr rfl fun r _ => Finset.sum_congr rfl fun k _ => ?_
  exact shapeCast_ab_1ab_apply _ _ (0 : Fin 1) r k
/-! ## The zero arrays a resetting point stores -/

theorem zero10_apply (i : S1x256x128.Idx) : (zeroAll (F := Ideal)).1 i = 0 := Ideal.ofBits_zero_f32
theorem zero11_apply (i : S1x256x3.Idx) : (zeroAll (F := Ideal)).2.1 i = 0 := Ideal.ofBits_zero_f32
theorem zero12_apply (i : S1x1x256.Idx) : (zeroAll (F := Ideal)).2.2.1 i = 0 := Ideal.ofBits_zero_f32
theorem zero13_apply (i : S1x16x3.Idx) : (zeroAll (F := Ideal)).2.2.2.1 i = 0 := Ideal.ofBits_zero_f32
theorem zero14_apply (i : S1x16x1.Idx) : (zeroAll (F := Ideal)).2.2.2.2.1 i = 0 := Ideal.ofBits_zero_f32
theorem zero15_apply (i : S1x1x16.Idx) : (zeroAll (F := Ideal)).2.2.2.2.2.1 i = 0 := Ideal.ofBits_zero_f32
theorem zero16_apply (i : S1x1x1.Idx) : (zeroAll (F := Ideal)).2.2.2.2.2.2 i = 0 := Ideal.ofBits_zero_f32

end Cert.KernelIdeal.Pay

end
-- ==== Proof.KI.AccSum.lean ====
/-
  The kernel's per-point definitions in closed form over the global rows.

  Grid point t cuts rows [2000·t, 2000·t + 2000); its soft-assignment block is the specification's s at those rows.
  Along core cc's 25 points t = 25·cc + i every accumulator entry starts from 0 at i = 0 and gains, at each point,
  the sum over the point's 2000 rows of the entry's summand; after the core's last point it is the sum over the
  core's 25 blocks and each block's 2000 rows.
-/
import proofs.«406053_j76209899700419_3_alg».proof.Proof.KI.BlockRead
import proofs.«406053_j76209899700419_3_alg».proof.Proof.KI.PayS
import proofs.«406053_j76209899700419_3_alg».proof.Proof.KI.PayAcc
import proofs.«406053_j76209899700419_3_alg».proof.Proof.KI.Cols

set_option maxRecDepth 16384

noncomputable section

open scoped BigOperators

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr
open Cert.Math (rowOf blockOf)

variable (m : (ℓ : Loc nD τ sig) → Buf (Elt Ideal) ℓ) (c : Dev nD)

/-- The soft-assignment block of point t is rows [2000·t, 2000·t + 2000) of the specification's assignment. -/
theorem sAt_apply (t : Fin cfg0.N) (r : Fin 2000) (k : Fin 16) :
    sAt m c t (ix2 r k) = Cert.Spec.s (argsOf m c) (rowOf (pt t) r) k := by
  unfold sAt
  refine (Pay.sBlk_apply (iblk m c 0 t) (iblk m c 3 t) (iblk m c 4 t) (iblk m c 5 t) (iblk m c 6 t) (iblk m c 7 t)
    (iblk m c 8 t) r k).trans ?_
  unfold Cert.Spec.s
  simp only [iblk0_apply, iblk3_apply, iblk4_eq, iblk5_apply, iblk6_eq, iblk7_apply, iblk8_apply]

/-- The grid has 50 points. -/
theorem N50 : cfg0.N = 50 := N_0

/-- The last point of core cc. -/
def T (cc : Fin 2) : Fin cfg0.N := ⟨25 * cc.val + 24, by rw [N50]; omega⟩

theorem accAt_congr (n n' : ℕ) (h : n = n') (hn : n < cfg0.N) (hn' : n' < cfg0.N) :
    accAt m c n hn = accAt m c n' hn' := by subst h; rfl

/-- One entry of one accumulator along a core's 25 points: if a point's step adds the point's contribution to the entry
    and the zero arrays hold 0 there, then after point i of core cc the entry is the sum of the contributions of the
    core's points 0 … i. -/
theorem acc_fold (proj : Acc Ideal → EReal) (contrib : Fin 50 → EReal)
    (hz : proj zeroAll = 0)
    (hs : ∀ (t : Fin cfg0.N) (o : Acc Ideal), proj (stepAt m c t o) = proj o + contrib (pt t))
    (cc : Fin 2) (i : ℕ) (hi : i < 25) :
    proj (accAt m c (25 * cc.val + i) (by rw [N50]; omega))
      = ∑ i' ∈ Finset.range (i + 1), (if h : i' < 25 then contrib (blockOf cc ⟨i', h⟩) else 0) := by
  induction i with
  | zero =>
    have hr := accAt_reset m c ⟨25 * cc.val + 0, by rw [N50]; omega⟩ (by show (25 * cc.val + 0) % 25 = 0; omega)
    refine (congrArg proj hr).trans ?_
    rw [hs, hz, zero_add, Finset.sum_range_one, dif_pos (by omega)]
    congr 1
  | succ i ih =>
    have hc := accAt_carry m c ⟨25 * cc.val + (i + 1), by rw [N50]; omega⟩
      (by show ¬ (25 * cc.val + (i + 1)) % 25 = 0; omega)
    refine (congrArg proj hc).trans ?_
    rw [hs, accAt_congr m c (25 * cc.val + (i + 1) - 1) (25 * cc.val + i) (by omega) _ (by rw [N50]; omega),
      ih (by omega), Finset.sum_range_succ _ (i + 1), dif_pos hi]
    congr 1

/-- The sum over the first 25 step numbers is the sum over a core's 25 blocks. -/
theorem sum_range25 (g : Fin 25 → EReal) :
    ∑ i' ∈ Finset.range (24 + 1), (if h : i' < 25 then g ⟨i', h⟩ else 0) = ∑ i : Fin 25, g i := by
  show ∑ i' ∈ Finset.range 25, (if h : i' < 25 then g ⟨i', h⟩ else 0) = ∑ i : Fin 25, g i
  rw [Finset.sum_range]
  refine Finset.sum_congr rfl fun i _ => ?_
  rw [dif_pos i.isLt]

/-- The soft assignment computed from point t's blocks is the specification's at the block's rows. -/
theorem sBlk_at (t : Fin cfg0.N) (r : Fin 2000) (k : Fin 16) :
    sBlk (iblk m c 0 t) (iblk m c 3 t) (iblk m c 4 t) (iblk m c 5 t) (iblk m c 6 t) (iblk m c 7 t) (iblk m c 8 t) (ix2 r k)
      = Cert.Spec.s (argsOf m c) (rowOf (pt t) r) k :=
  sAt_apply m c t r k

/-! ## One point's step on each accumulator, over global rows -/

theorem stepAt10 (t : Fin cfg0.N) (o : Acc Ideal) (j : Fin 256) (cf : Fin 128) :
    (stepAt m c t o).1 (ix3 (0 : Fin 1) j cf)
      = o.1 (ix3 (0 : Fin 1) j cf) + ∑ r : Fin 2000,
          (if Cert.Spec.sel (argsOf m c) (rowOf (pt t) r) (segOf j)
            then Cert.Spec.s (argsOf m c) (rowOf (pt t) r) (cluOf j) * (argsOf m c).x (ix2 (rowOf (pt t) r) cf)
            else 0) := by
  refine (Pay.step10_apply (iblk m c 0 t) (iblk m c 2 t) (iblk m c 3 t) (iblk m c 4 t) (iblk m c 5 t) (iblk m c 6 t)
    (iblk m c 7 t) (iblk m c 8 t) o.1 j cf).trans ?_
  refine congrArg (HAdd.hAdd _) ?_
  refine Finset.sum_congr rfl fun r _ => ?_
  rw [iblk2_apply, iblk0_apply, sBlk_at, ite_mul, zero_mul]
  exact if_congr Iff.rfl rfl rfl

theorem stepAt11 (t : Fin cfg0.N) (o : Acc Ideal) (j : Fin 256) (d : Fin 3) :
    (stepAt m c t o).2.1 (ix3 (0 : Fin 1) j d)
      = o.2.1 (ix3 (0 : Fin 1) j d) + ∑ r : Fin 2000,
          (if Cert.Spec.sel (argsOf m c) (rowOf (pt t) r) (segOf j)
            then Cert.Spec.s (argsOf m c) (rowOf (pt t) r) (cluOf j) * (argsOf m c).pos (ix2 (rowOf (pt t) r) d)
            else 0) := by
  refine (Pay.step11_apply (iblk m c 0 t) (iblk m c 1 t) (iblk m c 2 t) (iblk m c 3 t) (iblk m c 4 t) (iblk m c 5 t)
    (iblk m c 6 t) (iblk m c 7 t) (iblk m c 8 t) o.2.1 j d).trans ?_
  refine congrArg (HAdd.hAdd _) ?_
  refine Finset.sum_congr rfl fun r _ => ?_
  rw [iblk2_apply, iblk1_apply, sBlk_at, ite_mul, zero_mul]
  exact if_congr Iff.rfl rfl rfl

theorem stepAt12 (t : Fin cfg0.N) (o : Acc Ideal) (j : Fin 256) :
    (stepAt m c t o).2.2.1 (ix3 (0 : Fin 1) (0 : Fin 1) j)
      = o.2.2.1 (ix3 (0 : Fin 1) (0 : Fin 1) j) + ∑ r : Fin 2000,
          (if Cert.Spec.sel (argsOf m c) (rowOf (pt t) r) (segOf j)
            then Cert.Spec.s (argsOf m c) (rowOf (pt t) r) (cluOf j) else 0) := by
  refine (Pay.step12_apply (iblk m c 0 t) (iblk m c 2 t) (iblk m c 3 t) (iblk m c 4 t) (iblk m c 5 t) (iblk m c 6 t)
    (iblk m c 7 t) (iblk m c 8 t) o.2.2.1 j).trans ?_
  refine congrArg (HAdd.hAdd _) ?_
  refine Finset.sum_congr rfl fun r _ => ?_
  rw [iblk2_apply, sBlk_at]
  exact if_congr Iff.rfl rfl rfl

theorem stepAt13 (t : Fin cfg0.N) (o : Acc Ideal) (k : Fin 16) (d : Fin 3) :
    (stepAt m c t o).2.2.2.1 (ix3 (0 : Fin 1) k d)
      = o.2.2.2.1 (ix3 (0 : Fin 1) k d) + ∑ r : Fin 2000,
          Cert.Spec.s (argsOf m c) (rowOf (pt t) r) k * (argsOf m c).pos (ix2 (rowOf (pt t) r) d) := by
  refine (Pay.step13_apply (iblk m c 0 t) (iblk m c 1 t) (iblk m c 3 t) (iblk m c 4 t) (iblk m c 5 t) (iblk m c 6 t)
    (iblk m c 7 t) (iblk m c 8 t) o.2.2.2.1 k d).trans ?_
  refine congrArg (HAdd.hAdd _) ?_
  refine Finset.sum_congr rfl fun r _ => ?_
  rw [iblk1_apply, sBlk_at]

theorem stepAt14 (t : Fin cfg0.N) (o : Acc Ideal) (k : Fin 16) :
    (stepAt m c t o).2.2.2.2.1 (ix3 (0 : Fin 1) k (0 : Fin 1))
      = o.2.2.2.2.1 (ix3 (0 : Fin 1) k (0 : Fin 1)) + ∑ r : Fin 2000,
          Cert.Spec.s (argsOf m c) (rowOf (pt t) r) k * Cert.Spec.psq (argsOf m c) (rowOf (pt t) r) := by
  refine (Pay.step14_apply (iblk m c 0 t) (iblk m c 1 t) (iblk m c 3 t) (iblk m c 4 t) (iblk m c 5 t) (iblk m c 6 t)
    (iblk m c 7 t) (iblk m c 8 t) o.2.2.2.2.1 k).trans ?_
  refine congrArg (HAdd.hAdd _) ?_
  refine Finset.sum_congr rfl fun r _ => ?_
  rw [sBlk_at]
  congr 1
  exact Finset.sum_congr rfl fun d _ => by rw [iblk1_apply]

theorem stepAt15 (t : Fin cfg0.N) (o : Acc Ideal) (k : Fin 16) :
    (stepAt m c t o).2.2.2.2.2.1 (ix3 (0 : Fin 1) (0 : Fin 1) k)
      = o.2.2.2.2.2.1 (ix3 (0 : Fin 1) (0 : Fin 1) k) + ∑ r : Fin 2000, Cert.Spec.s (argsOf m c) (rowOf (pt t) r) k := by
  refine (Pay.step15_apply (iblk m c 0 t) (iblk m c 3 t) (iblk m c 4 t) (iblk m c 5 t) (iblk m c 6 t)
    (iblk m c 7 t) (iblk m c 8 t) o.2.2.2.2.2.1 k).trans ?_
  refine congrArg (HAdd.hAdd _) ?_
  refine Finset.sum_congr rfl fun r _ => ?_
  rw [sBlk_at]

theorem stepAt16 (t : Fin cfg0.N) (o : Acc Ideal) :
    (stepAt m c t o).2.2.2.2.2.2 (ix3 (0 : Fin 1) (0 : Fin 1) (0 : Fin 1))
      = o.2.2.2.2.2.2 (ix3 (0 : Fin 1) (0 : Fin 1) (0 : Fin 1)) + ∑ r : Fin 2000, ∑ k : Fin 16,
          Cert.Spec.s (argsOf m c) (rowOf (pt t) r) k
            * Ideal.log (Cert.Spec.s (argsOf m c) (rowOf (pt t) r) k + Cert.Spec.eps) := by
  refine (Pay.step16_apply (iblk m c 0 t) (iblk m c 3 t) (iblk m c 4 t) (iblk m c 5 t) (iblk m c 6 t)
    (iblk m c 7 t) (iblk m c 8 t) o.2.2.2.2.2.2).trans ?_
  refine congrArg (HAdd.hAdd _) ?_
  refine Finset.sum_congr rfl fun r _ => Finset.sum_congr rfl fun k _ => ?_
  rw [sBlk_at]

/-! ## The accumulators after a core's last point: sums over the core's 25 blocks of 2000 rows -/

/-- One entry of one accumulator after a core's last point: the sum of the contributions of the core's 25 blocks. -/
theorem acc_last (proj : Acc Ideal → EReal) (contrib : Fin 50 → EReal) (hz : proj zeroAll = 0)
    (hs : ∀ (t : Fin cfg0.N) (o : Acc Ideal), proj (stepAt m c t o) = proj o + contrib (pt t)) (cc : Fin 2) :
    proj (accAt m c (T cc).val (T cc).isLt) = ∑ i : Fin 25, contrib (blockOf cc i) :=
  (acc_fold m c proj contrib hz hs cc 24 (by omega)).trans (sum_range25 (fun i => contrib (blockOf cc i)))

theorem acc10_last (cc : Fin 2) (j : Fin 256) (cf : Fin 128) :
    (accAt m c (T cc).val (T cc).isLt).1 (ix3 (0 : Fin 1) j cf)
      = ∑ i : Fin 25, ∑ r : Fin 2000,
          (if Cert.Spec.sel (argsOf m c) (rowOf (blockOf cc i) r) (segOf j)
            then Cert.Spec.s (argsOf m c) (rowOf (blockOf cc i) r) (cluOf j)
              * (argsOf m c).x (ix2 (rowOf (blockOf cc i) r) cf)
            else 0) :=
  acc_last m c (fun o => o.1 (ix3 (0 : Fin 1) j cf))
    (fun t' => ∑ r : Fin 2000,
      (if Cert.Spec.sel (argsOf m c) (rowOf t' r) (segOf j)
        then Cert.Spec.s (argsOf m c) (rowOf t' r) (cluOf j) * (argsOf m c).x (ix2 (rowOf t' r) cf) else 0))
    (Pay.zero10_apply _) (fun t o => stepAt10 m c t o j cf) cc

theorem acc11_last (cc : Fin 2) (j : Fin 256) (d : Fin 3) :
    (accAt m c (T cc).val (T cc).isLt).2.1 (ix3 (0 : Fin 1) j d)
      = ∑ i : Fin 25, ∑ r : Fin 2000,
          (if Cert.Spec.sel (argsOf m c) (rowOf (blockOf cc i) r) (segOf j)
            then Cert.Spec.s (argsOf m c) (rowOf (blockOf cc i) r) (cluOf j)
              * (argsOf m c).pos (ix2 (rowOf (blockOf cc i) r) d)
            else 0) :=
  acc_last m c (fun o => o.2.1 (ix3 (0 : Fin 1) j d))
    (fun t' => ∑ r : Fin 2000,
      (if Cert.Spec.sel (argsOf m c) (rowOf t' r) (segOf j)
        then Cert.Spec.s (argsOf m c) (rowOf t' r) (cluOf j) * (argsOf m c).pos (ix2 (rowOf t' r) d) else 0))
    (Pay.zero11_apply _) (fun t o => stepAt11 m c t o j d) cc

theorem acc12_last (cc : Fin 2) (j : Fin 256) :
    (accAt m c (T cc).val (T cc).isLt).2.2.1 (ix3 (0 : Fin 1) (0 : Fin 1) j)
      = ∑ i : Fin 25, ∑ r : Fin 2000,
          (if Cert.Spec.sel (argsOf m c) (rowOf (blockOf cc i) r) (segOf j)
            then Cert.Spec.s (argsOf m c) (rowOf (blockOf cc i) r) (cluOf j) else 0) :=
  acc_last m c (fun o => o.2.2.1 (ix3 (0 : Fin 1) (0 : Fin 1) j))
    (fun t' => ∑ r : Fin 2000,
      (if Cert.Spec.sel (argsOf m c) (rowOf t' r) (segOf j) then Cert.Spec.s (argsOf m c) (rowOf t' r) (cluOf j) else 0))
    (Pay.zero12_apply _) (fun t o => stepAt12 m c t o j) cc

theorem acc13_last (cc : Fin 2) (k : Fin 16) (d : Fin 3) :
    (accAt m c (T cc).val (T cc).isLt).2.2.2.1 (ix3 (0 : Fin 1) k d)
      = ∑ i : Fin 25, ∑ r : Fin 2000,
          Cert.Spec.s (argsOf m c) (rowOf (blockOf cc i) r) k * (argsOf m c).pos (ix2 (rowOf (blockOf cc i) r) d) :=
  acc_last m c (fun o => o.2.2.2.1 (ix3 (0 : Fin 1) k d))
    (fun t' => ∑ r : Fin 2000, Cert.Spec.s (argsOf m c) (rowOf t' r) k * (argsOf m c).pos (ix2 (rowOf t' r) d))
    (Pay.zero13_apply _) (fun t o => stepAt13 m c t o k d) cc

theorem acc14_last (cc : Fin 2) (k : Fin 16) :
    (accAt m c (T cc).val (T cc).isLt).2.2.2.2.1 (ix3 (0 : Fin 1) k (0 : Fin 1))
      = ∑ i : Fin 25, ∑ r : Fin 2000,
          Cert.Spec.s (argsOf m c) (rowOf (blockOf cc i) r) k * Cert.Spec.psq (argsOf m c) (rowOf (blockOf cc i) r) :=
  acc_last m c (fun o => o.2.2.2.2.1 (ix3 (0 : Fin 1) k (0 : Fin 1)))
    (fun t' => ∑ r : Fin 2000, Cert.Spec.s (argsOf m c) (rowOf t' r) k * Cert.Spec.psq (argsOf m c) (rowOf t' r))
    (Pay.zero14_apply _) (fun t o => stepAt14 m c t o k) cc

theorem acc15_last (cc : Fin 2) (k : Fin 16) :
    (accAt m c (T cc).val (T cc).isLt).2.2.2.2.2.1 (ix3 (0 : Fin 1) (0 : Fin 1) k)
      = ∑ i : Fin 25, ∑ r : Fin 2000, Cert.Spec.s (argsOf m c) (rowOf (blockOf cc i) r) k :=
  acc_last m c (fun o => o.2.2.2.2.2.1 (ix3 (0 : Fin 1) (0 : Fin 1) k))
    (fun t' => ∑ r : Fin 2000, Cert.Spec.s (argsOf m c) (rowOf t' r) k)
    (Pay.zero15_apply _) (fun t o => stepAt15 m c t o k) cc

theorem acc16_last (cc : Fin 2) :
    (accAt m c (T cc).val (T cc).isLt).2.2.2.2.2.2 (ix3 (0 : Fin 1) (0 : Fin 1) (0 : Fin 1))
      = ∑ i : Fin 25, ∑ r : Fin 2000, ∑ k : Fin 16,
          Cert.Spec.s (argsOf m c) (rowOf (blockOf cc i) r) k
            * Ideal.log (Cert.Spec.s (argsOf m c) (rowOf (blockOf cc i) r) k + Cert.Spec.eps) :=
  acc_last m c (fun o => o.2.2.2.2.2.2 (ix3 (0 : Fin 1) (0 : Fin 1) (0 : Fin 1)))
    (fun t' => ∑ r : Fin 2000, ∑ k : Fin 16,
      Cert.Spec.s (argsOf m c) (rowOf t' r) k * Ideal.log (Cert.Spec.s (argsOf m c) (rowOf t' r) k + Cert.Spec.eps))
    (Pay.zero16_apply _) (fun t o => stepAt16 m c t o) cc

end Cert.KernelIdeal.Val

end
-- ==== Proof.KI.Final.lean ====
/-
  From what the body leaves at each grid point to what the eight output ARRAYS hold after the region.

  The assignment output is written back at every point: block t of the [100000,16] array (rows 2000·t … 2000·t + 1999)
  is the soft-assignment block of point t, and every row n lies in the block of point n / 2000; so the array ends as the
  specification's assignment array.  Each of the seven accumulator arrays has two slabs, one per half of the grid; slab
  cc is written back once, at the half's last point 25·cc + 24 (the points ≡ 24 mod 25), and holds what the running
  sums were after that point.
-/
import proofs.«406053_j76209899700419_3_alg».proof.Proof.KI.Dats
import proofs.«406053_j76209899700419_3_alg».proof.Proof.KI.AccSum
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr
open Cert.Math (rowOf blockOf)

variable (m : (ℓ : Loc nD τ sig) → Buf (Elt Ideal) ℓ) (c : Dev nD)

/-! ## The assignment output (window 9): block t of the [100000,16] array is what point t stored -/

/-- The printed index map of window 9: block row t, block column 0. -/
theorem idx9 : ∀ t : Fin cfg0.N, win0_9.index t (0 : Fin 2) = t.val ∧ win0_9.index t (1 : Fin 2) = 0 :=
  (by decide +kernel : ∀ t : Fin grid0.N, _)

/-- What point t writes back is block t of the specification's assignment array. -/
theorem flushed9_eq (t : Fin cfg0.N) :
    (dats m 0 c).flushed 9 t = ((cfg0.win 9).blk t).view.read (Elt Ideal) (Cert.Spec.sArr (argsOf m c)) := by
  show (cfg0.win 9).cut (grid0.coords t) ((dats m 0 c).after 9 t) = _
  rw [after0_9]
  funext j
  have hj0 : (j 0).val < 2000 := (j 0).isLt
  have hj1 : (j 1).val < 16 := (j 1).isLt
  obtain ⟨e0, e1⟩ := idx9 t
  have hemb : ((cfg0.win 9).blk t).view.emb j = ix2 (rowOf (pt t) ⟨(j 0).val, hj0⟩) ⟨(j 1).val, hj1⟩ := by
    funext a; apply Fin.ext
    match a with
    | ⟨0, _⟩ => show win0_9.index t (0 : Fin 2) * 2000 + 1 * (j 0).val = 2000 * t.val + (j 0).val; rw [e0]; omega
    | ⟨1, _⟩ => show win0_9.index t (1 : Fin 2) * 16 + 1 * (j 1).val = (j 1).val; rw [e1]; omega
  have hx : (cfg0.win 9).xinj (grid0.coords t) j = ix2 ⟨(j 0).val, hj0⟩ ⟨(j 1).val, hj1⟩ := by
    funext a
    match a with
    | ⟨0, _⟩ => rfl
    | ⟨1, _⟩ => rfl
  show sAt m c t ((cfg0.win 9).xinj (grid0.coords t) j) = Cert.Spec.sArr (argsOf m c) (((cfg0.win 9).blk t).view.emb j)
  rw [hx, hemb, sAt_apply]
  rfl

/-- An index of the array is in point t's block iff each coordinate is in the block's range. -/
theorem mem_blk9 (t : Fin cfg0.N) (i : S100000x16.Idx) :
    i ∈ ((cfg0.win 9).blk t).view.set ↔ ∀ a : Fin 2, win0_9.index t a * S2000x16.size a ≤ (i a).val ∧ (i a).val < win0_9.index t a * S2000x16.size a + S2000x16.size a := by
  show i ∈ ((View.whole main_v4_0).slice (win0_9.rect t)).set ↔ _
  rw [View.set_slice_whole, Rect.mem_set_unit]
  exact Iff.rfl

/-- The assignment array after the region: every row n is covered by the block of point n / 2000. -/
theorem final9 : (dats m 0 c).arrAt 9 cfg0.N = Cert.Spec.sArr (argsOf m c) :=
  (dats m 0 c).arrAt_eq_of_cover 9 (Cert.Spec.sArr (argsOf m c)) (fun t _ => flushed9_eq m c t) fun i => by
    have hi0 : (i 0).val < 100000 := (i 0).isLt
    have hi1 : (i 1).val < 16 := (i 1).isLt
    have hN : cfg0.N = 50 := N_0
    have hq : (i 0).val / 2000 < cfg0.N := by rw [hN]; omega
    refine ⟨⟨(i 0).val / 2000, hq⟩, flush0_9 _, ?_⟩
    rw [mem_blk9]
    obtain ⟨e0, e1⟩ := idx9 ⟨(i 0).val / 2000, hq⟩
    intro a
    match a with
    | ⟨0, _⟩ =>
      show win0_9.index ⟨(i 0).val / 2000, hq⟩ (0 : Fin 2) * 2000 ≤ (i 0).val ∧ (i 0).val < win0_9.index ⟨(i 0).val / 2000, hq⟩ (0 : Fin 2) * 2000 + 2000
      rw [e0]; dsimp only; omega
    | ⟨1, _⟩ =>
      show win0_9.index ⟨(i 0).val / 2000, hq⟩ (1 : Fin 2) * 16 ≤ (i 1).val ∧ (i 1).val < win0_9.index ⟨(i 0).val / 2000, hq⟩ (1 : Fin 2) * 16 + 16
      rw [e1]; omega

/-! ## Accumulator window 10 (segment-wise feature sums): slab cc of the [2,256,128] array is what the half's last point left -/

/-- The printed index map of window 10: slab t / 25, nothing else. -/
theorem idx10 : ∀ t : Fin cfg0.N, win0_10.index t (0 : Fin 3) = t.val / 25 ∧ win0_10.index t (1 : Fin 3) = 0 ∧ win0_10.index t (2 : Fin 3) = 0 :=
  (by decide +kernel : ∀ t : Fin grid0.N, _)

/-- The array the write-backs assemble: slab cc holds what the buffer held after point 25·cc + 24. -/
def G10 : Vec Ideal S2x256x128 .f32 := fun i =>
  (accAt m c (T (i 0)).val (T (i 0)).isLt).1 (ix3 (0 : Fin 1) (i 1) (i 2))

theorem G10_ix (cc : Fin 2) (p : Fin 256) (q : Fin 128) :
    G10 m c (ix3 cc p q) = (accAt m c (T cc).val (T cc).isLt).1 (ix3 (0 : Fin 1) p q) := rfl

/-- What a writing point (t ≡ 24 mod 25) writes back is its slab of that array. -/
theorem flushed10_eq (t : Fin cfg0.N) (hf : (cfg0.win 10).flush t = true) :
    (dats m 0 c).flushed 10 t = ((cfg0.win 10).blk t).view.read (Elt Ideal) (G10 m c) := by
  have h24 : t.val % 25 = 24 := (flush0_10 t).mp hf
  have hN : cfg0.N = 50 := N_0
  have ht : t.val < 50 := lt_of_lt_of_eq t.isLt hN
  show (cfg0.win 10).cut (grid0.coords t) ((dats m 0 c).after 10 t) = _
  rw [after0_10]
  funext j
  have hj0 : (j 0).val < 1 := (j 0).isLt
  have hj1 : (j 1).val < 256 := (j 1).isLt
  have hj2 : (j 2).val < 128 := (j 2).isLt
  have hq : t.val / 25 < 2 := by omega
  obtain ⟨e0, e1, e2⟩ := idx10 t
  have hemb : ((cfg0.win 10).blk t).view.emb j = ix3 (⟨t.val / 25, hq⟩ : Fin 2) (⟨(j 1).val, hj1⟩ : Fin 256) (⟨(j 2).val, hj2⟩ : Fin 128) := by
    funext a; apply Fin.ext
    match a with
    | ⟨0, _⟩ => show win0_10.index t (0 : Fin 3) * 1 + 1 * (j 0).val = t.val / 25; rw [e0]; omega
    | ⟨1, _⟩ => show win0_10.index t (1 : Fin 3) * 256 + 1 * (j 1).val = (j 1).val; rw [e1]; omega
    | ⟨2, _⟩ => show win0_10.index t (2 : Fin 3) * 128 + 1 * (j 2).val = (j 2).val; rw [e2]; omega
  have hx : (cfg0.win 10).xinj (grid0.coords t) j = ix3 (0 : Fin 1) (⟨(j 1).val, hj1⟩ : Fin 256) (⟨(j 2).val, hj2⟩ : Fin 128) := by
    funext a
    match a with
    | ⟨0, _⟩ => exact Fin.ext (by show (j 0).val = 0; omega)
    | ⟨1, _⟩ => rfl
    | ⟨2, _⟩ => rfl
  have hT : T (⟨t.val / 25, hq⟩ : Fin 2) = t := Fin.ext (by show 25 * (t.val / 25) + 24 = t.val; omega)
  have hacc : ∀ u : Fin cfg0.N, u = t → accAt m c u.val u.isLt = accAt m c t.val t.isLt := fun u e => by subst e; rfl
  show (accAt m c t.val t.isLt).1 ((cfg0.win 10).xinj (grid0.coords t) j) = G10 m c (((cfg0.win 10).blk t).view.emb j)
  rw [hx, hemb, G10_ix, hacc _ hT]

/-- An index of the array is in point t's block iff each coordinate is in the block's range. -/
theorem mem_blk10 (t : Fin cfg0.N) (i : S2x256x128.Idx) :
    i ∈ ((cfg0.win 10).blk t).view.set ↔ ∀ a : Fin 3, win0_10.index t a * S1x256x128.size a ≤ (i a).val ∧ (i a).val < win0_10.index t a * S1x256x128.size a + S1x256x128.size a := by
  show i ∈ ((View.whole main_v4_1).slice (win0_10.rect t)).set ↔ _
  rw [View.set_slice_whole, Rect.mem_set_unit]
  exact Iff.rfl

/-- The array after the region: slab cc is covered by the block of the half's last point 25·cc + 24, which writes. -/
theorem arr10 : (dats m 0 c).arrAt 10 cfg0.N = G10 m c :=
  (dats m 0 c).arrAt_eq_of_cover 10 (G10 m c) (flushed10_eq m c) fun i => by
    have hi0 : (i 0).val < 2 := (i 0).isLt
    have hi1 : (i 1).val < 256 := (i 1).isLt
    have hi2 : (i 2).val < 128 := (i 2).isLt
    refine ⟨T ⟨(i 0).val, hi0⟩, (flush0_10 _).mpr (by show (25 * (i 0).val + 24) % 25 = 24; omega), ?_⟩
    rw [mem_blk10]
    obtain ⟨e0, e1, e2⟩ := idx10 (T ⟨(i 0).val, hi0⟩)
    have hT : (T ⟨(i 0).val, hi0⟩).val / 25 = (i 0).val := by show (25 * (i 0).val + 24) / 25 = (i 0).val; omega
    intro a
    match a with
    | ⟨0, _⟩ =>
      show win0_10.index (T ⟨(i 0).val, hi0⟩) (0 : Fin 3) * 1 ≤ (i 0).val ∧ (i 0).val < win0_10.index (T ⟨(i 0).val, hi0⟩) (0 : Fin 3) * 1 + 1
      rw [e0, hT]; omega
    | ⟨1, _⟩ =>
      show win0_10.index (T ⟨(i 0).val, hi0⟩) (1 : Fin 3) * 256 ≤ (i 1).val ∧ (i 1).val < win0_10.index (T ⟨(i 0).val, hi0⟩) (1 : Fin 3) * 256 + 256
      rw [e1]; omega
    | ⟨2, _⟩ =>
      show win0_10.index (T ⟨(i 0).val, hi0⟩) (2 : Fin 3) * 128 ≤ (i 2).val ∧ (i 2).val < win0_10.index (T ⟨(i 0).val, hi0⟩) (2 : Fin 3) * 128 + 128
      rw [e2]; omega

/-- Entry (cc, p, q) of the array after the region. -/
theorem final10 (cc : Fin 2) (p : Fin 256) (q : Fin 128) :
    (dats m 0 c).arrAt 10 cfg0.N (ix3 cc p q) = (accAt m c (T cc).val (T cc).isLt).1 (ix3 (0 : Fin 1) p q) := by
  rw [arr10]; rfl

/-! ## Accumulator window 11 (segment-wise position sums): slab cc of the [2,256,3] array is what the half's last point left -/

/-- The printed index map of window 11: slab t / 25, nothing else. -/
theorem idx11 : ∀ t : Fin cfg0.N, win0_11.index t (0 : Fin 3) = t.val / 25 ∧ win0_11.index t (1 : Fin 3) = 0 ∧ win0_11.index t (2 : Fin 3) = 0 :=
  (by decide +kernel : ∀ t : Fin grid0.N, _)

/-- The array the write-backs assemble: slab cc holds what the buffer held after point 25·cc + 24. -/
def G11 : Vec Ideal S2x256x3 .f32 := fun i =>
  (accAt m c (T (i 0)).val (T (i 0)).isLt).2.1 (ix3 (0 : Fin 1) (i 1) (i 2))

theorem G11_ix (cc : Fin 2) (p : Fin 256) (q : Fin 3) :
    G11 m c (ix3 cc p q) = (accAt m c (T cc).val (T cc).isLt).2.1 (ix3 (0 : Fin 1) p q) := rfl

/-- What a writing point (t ≡ 24 mod 25) writes back is its slab of that array. -/
theorem flushed11_eq (t : Fin cfg0.N) (hf : (cfg0.win 11).flush t = true) :
    (dats m 0 c).flushed 11 t = ((cfg0.win 11).blk t).view.read (Elt Ideal) (G11 m c) := by
  have h24 : t.val % 25 = 24 := (flush0_11 t).mp hf
  have hN : cfg0.N = 50 := N_0
  have ht : t.val < 50 := lt_of_lt_of_eq t.isLt hN
  show (cfg0.win 11).cut (grid0.coords t) ((dats m 0 c).after 11 t) = _
  rw [after0_11]
  funext j
  have hj0 : (j 0).val < 1 := (j 0).isLt
  have hj1 : (j 1).val < 256 := (j 1).isLt
  have hj2 : (j 2).val < 3 := (j 2).isLt
  have hq : t.val / 25 < 2 := by omega
  obtain ⟨e0, e1, e2⟩ := idx11 t
  have hemb : ((cfg0.win 11).blk t).view.emb j = ix3 (⟨t.val / 25, hq⟩ : Fin 2) (⟨(j 1).val, hj1⟩ : Fin 256) (⟨(j 2).val, hj2⟩ : Fin 3) := by
    funext a; apply Fin.ext
    match a with
    | ⟨0, _⟩ => show win0_11.index t (0 : Fin 3) * 1 + 1 * (j 0).val = t.val / 25; rw [e0]; omega
    | ⟨1, _⟩ => show win0_11.index t (1 : Fin 3) * 256 + 1 * (j 1).val = (j 1).val; rw [e1]; omega
    | ⟨2, _⟩ => show win0_11.index t (2 : Fin 3) * 3 + 1 * (j 2).val = (j 2).val; rw [e2]; omega
  have hx : (cfg0.win 11).xinj (grid0.coords t) j = ix3 (0 : Fin 1) (⟨(j 1).val, hj1⟩ : Fin 256) (⟨(j 2).val, hj2⟩ : Fin 3) := by
    funext a
    match a with
    | ⟨0, _⟩ => exact Fin.ext (by show (j 0).val = 0; omega)
    | ⟨1, _⟩ => rfl
    | ⟨2, _⟩ => rfl
  have hT : T (⟨t.val / 25, hq⟩ : Fin 2) = t := Fin.ext (by show 25 * (t.val / 25) + 24 = t.val; omega)
  have hacc : ∀ u : Fin cfg0.N, u = t → accAt m c u.val u.isLt = accAt m c t.val t.isLt := fun u e => by subst e; rfl
  show (accAt m c t.val t.isLt).2.1 ((cfg0.win 11).xinj (grid0.coords t) j) = G11 m c (((cfg0.win 11).blk t).view.emb j)
  rw [hx, hemb, G11_ix, hacc _ hT]

/-- An index of the array is in point t's block iff each coordinate is in the block's range. -/
theorem mem_blk11 (t : Fin cfg0.N) (i : S2x256x3.Idx) :
    i ∈ ((cfg0.win 11).blk t).view.set ↔ ∀ a : Fin 3, win0_11.index t a * S1x256x3.size a ≤ (i a).val ∧ (i a).val < win0_11.index t a * S1x256x3.size a + S1x256x3.size a := by
  show i ∈ ((View.whole main_v4_2).slice (win0_11.rect t)).set ↔ _
  rw [View.set_slice_whole, Rect.mem_set_unit]
  exact Iff.rfl

/-- The array after the region: slab cc is covered by the block of the half's last point 25·cc + 24, which writes. -/
theorem arr11 : (dats m 0 c).arrAt 11 cfg0.N = G11 m c :=
  (dats m 0 c).arrAt_eq_of_cover 11 (G11 m c) (flushed11_eq m c) fun i => by
    have hi0 : (i 0).val < 2 := (i 0).isLt
    have hi1 : (i 1).val < 256 := (i 1).isLt
    have hi2 : (i 2).val < 3 := (i 2).isLt
    refine ⟨T ⟨(i 0).val, hi0⟩, (flush0_11 _).mpr (by show (25 * (i 0).val + 24) % 25 = 24; omega), ?_⟩
    rw [mem_blk11]
    obtain ⟨e0, e1, e2⟩ := idx11 (T ⟨(i 0).val, hi0⟩)
    have hT : (T ⟨(i 0).val, hi0⟩).val / 25 = (i 0).val := by show (25 * (i 0).val + 24) / 25 = (i 0).val; omega
    intro a
    match a with
    | ⟨0, _⟩ =>
      show win0_11.index (T ⟨(i 0).val, hi0⟩) (0 : Fin 3) * 1 ≤ (i 0).val ∧ (i 0).val < win0_11.index (T ⟨(i 0).val, hi0⟩) (0 : Fin 3) * 1 + 1
      rw [e0, hT]; omega
    | ⟨1, _⟩ =>
      show win0_11.index (T ⟨(i 0).val, hi0⟩) (1 : Fin 3) * 256 ≤ (i 1).val ∧ (i 1).val < win0_11.index (T ⟨(i 0).val, hi0⟩) (1 : Fin 3) * 256 + 256
      rw [e1]; omega
    | ⟨2, _⟩ =>
      show win0_11.index (T ⟨(i 0).val, hi0⟩) (2 : Fin 3) * 3 ≤ (i 2).val ∧ (i 2).val < win0_11.index (T ⟨(i 0).val, hi0⟩) (2 : Fin 3) * 3 + 3
      rw [e2]; omega

/-- Entry (cc, p, q) of the array after the region. -/
theorem final11 (cc : Fin 2) (p : Fin 256) (q : Fin 3) :
    (dats m 0 c).arrAt 11 cfg0.N (ix3 cc p q) = (accAt m c (T cc).val (T cc).isLt).2.1 (ix3 (0 : Fin 1) p q) := by
  rw [arr11]; rfl

/-! ## Accumulator window 12 (segment-wise assignment sums): slab cc of the [2,1,256] array is what the half's last point left -/

/-- The printed index map of window 12: slab t / 25, nothing else. -/
theorem idx12 : ∀ t : Fin cfg0.N, win0_12.index t (0 : Fin 3) = t.val / 25 ∧ win0_12.index t (1 : Fin 3) = 0 ∧ win0_12.index t (2 : Fin 3) = 0 :=
  (by decide +kernel : ∀ t : Fin grid0.N, _)

/-- The array the write-backs assemble: slab cc holds what the buffer held after point 25·cc + 24. -/
def G12 : Vec Ideal S2x1x256 .f32 := fun i =>
  (accAt m c (T (i 0)).val (T (i 0)).isLt).2.2.1 (ix3 (0 : Fin 1) (i 1) (i 2))

theorem G12_ix (cc : Fin 2) (p : Fin 1) (q : Fin 256) :
    G12 m c (ix3 cc p q) = (accAt m c (T cc).val (T cc).isLt).2.2.1 (ix3 (0 : Fin 1) p q) := rfl

/-- What a writing point (t ≡ 24 mod 25) writes back is its slab of that array. -/
theorem flushed12_eq (t : Fin cfg0.N) (hf : (cfg0.win 12).flush t = true) :
    (dats m 0 c).flushed 12 t = ((cfg0.win 12).blk t).view.read (Elt Ideal) (G12 m c) := by
  have h24 : t.val % 25 = 24 := (flush0_12 t).mp hf
  have hN : cfg0.N = 50 := N_0
  have ht : t.val < 50 := lt_of_lt_of_eq t.isLt hN
  show (cfg0.win 12).cut (grid0.coords t) ((dats m 0 c).after 12 t) = _
  rw [after0_12]
  funext j
  have hj0 : (j 0).val < 1 := (j 0).isLt
  have hj1 : (j 1).val < 1 := (j 1).isLt
  have hj2 : (j 2).val < 256 := (j 2).isLt
  have hq : t.val / 25 < 2 := by omega
  obtain ⟨e0, e1, e2⟩ := idx12 t
  have hemb : ((cfg0.win 12).blk t).view.emb j = ix3 (⟨t.val / 25, hq⟩ : Fin 2) (⟨(j 1).val, hj1⟩ : Fin 1) (⟨(j 2).val, hj2⟩ : Fin 256) := by
    funext a; apply Fin.ext
    match a with
    | ⟨0, _⟩ => show win0_12.index t (0 : Fin 3) * 1 + 1 * (j 0).val = t.val / 25; rw [e0]; omega
    | ⟨1, _⟩ => show win0_12.index t (1 : Fin 3) * 1 + 1 * (j 1).val = (j 1).val; rw [e1]; omega
    | ⟨2, _⟩ => show win0_12.index t (2 : Fin 3) * 256 + 1 * (j 2).val = (j 2).val; rw [e2]; omega
  have hx : (cfg0.win 12).xinj (grid0.coords t) j = ix3 (0 : Fin 1) (⟨(j 1).val, hj1⟩ : Fin 1) (⟨(j 2).val, hj2⟩ : Fin 256) := by
    funext a
    match a with
    | ⟨0, _⟩ => exact Fin.ext (by show (j 0).val = 0; omega)
    | ⟨1, _⟩ => rfl
    | ⟨2, _⟩ => rfl
  have hT : T (⟨t.val / 25, hq⟩ : Fin 2) = t := Fin.ext (by show 25 * (t.val / 25) + 24 = t.val; omega)
  have hacc : ∀ u : Fin cfg0.N, u = t → accAt m c u.val u.isLt = accAt m c t.val t.isLt := fun u e => by subst e; rfl
  show (accAt m c t.val t.isLt).2.2.1 ((cfg0.win 12).xinj (grid0.coords t) j) = G12 m c (((cfg0.win 12).blk t).view.emb j)
  rw [hx, hemb, G12_ix, hacc _ hT]

/-- An index of the array is in point t's block iff each coordinate is in the block's range. -/
theorem mem_blk12 (t : Fin cfg0.N) (i : S2x1x256.Idx) :
    i ∈ ((cfg0.win 12).blk t).view.set ↔ ∀ a : Fin 3, win0_12.index t a * S1x1x256.size a ≤ (i a).val ∧ (i a).val < win0_12.index t a * S1x1x256.size a + S1x1x256.size a := by
  show i ∈ ((View.whole main_v4_3).slice (win0_12.rect t)).set ↔ _
  rw [View.set_slice_whole, Rect.mem_set_unit]
  exact Iff.rfl

/-- The array after the region: slab cc is covered by the block of the half's last point 25·cc + 24, which writes. -/
theorem arr12 : (dats m 0 c).arrAt 12 cfg0.N = G12 m c :=
  (dats m 0 c).arrAt_eq_of_cover 12 (G12 m c) (flushed12_eq m c) fun i => by
    have hi0 : (i 0).val < 2 := (i 0).isLt
    have hi1 : (i 1).val < 1 := (i 1).isLt
    have hi2 : (i 2).val < 256 := (i 2).isLt
    refine ⟨T ⟨(i 0).val, hi0⟩, (flush0_12 _).mpr (by show (25 * (i 0).val + 24) % 25 = 24; omega), ?_⟩
    rw [mem_blk12]
    obtain ⟨e0, e1, e2⟩ := idx12 (T ⟨(i 0).val, hi0⟩)
    have hT : (T ⟨(i 0).val, hi0⟩).val / 25 = (i 0).val := by show (25 * (i 0).val + 24) / 25 = (i 0).val; omega
    intro a
    match a with
    | ⟨0, _⟩ =>
      show win0_12.index (T ⟨(i 0).val, hi0⟩) (0 : Fin 3) * 1 ≤ (i 0).val ∧ (i 0).val < win0_12.index (T ⟨(i 0).val, hi0⟩) (0 : Fin 3) * 1 + 1
      rw [e0, hT]; omega
    | ⟨1, _⟩ =>
      show win0_12.index (T ⟨(i 0).val, hi0⟩) (1 : Fin 3) * 1 ≤ (i 1).val ∧ (i 1).val < win0_12.index (T ⟨(i 0).val, hi0⟩) (1 : Fin 3) * 1 + 1
      rw [e1]; omega
    | ⟨2, _⟩ =>
      show win0_12.index (T ⟨(i 0).val, hi0⟩) (2 : Fin 3) * 256 ≤ (i 2).val ∧ (i 2).val < win0_12.index (T ⟨(i 0).val, hi0⟩) (2 : Fin 3) * 256 + 256
      rw [e2]; omega

/-- Entry (cc, p, q) of the array after the region. -/
theorem final12 (cc : Fin 2) (p : Fin 1) (q : Fin 256) :
    (dats m 0 c).arrAt 12 cfg0.N (ix3 cc p q) = (accAt m c (T cc).val (T cc).isLt).2.2.1 (ix3 (0 : Fin 1) p q) := by
  rw [arr12]; rfl

/-! ## Accumulator window 13 (position sums): slab cc of the [2,16,3] array is what the half's last point left -/

/-- The printed index map of window 13: slab t / 25, nothing else. -/
theorem idx13 : ∀ t : Fin cfg0.N, win0_13.index t (0 : Fin 3) = t.val / 25 ∧ win0_13.index t (1 : Fin 3) = 0 ∧ win0_13.index t (2 : Fin 3) = 0 :=
  (by decide +kernel : ∀ t : Fin grid0.N, _)

/-- The array the write-backs assemble: slab cc holds what the buffer held after point 25·cc + 24. -/
def G13 : Vec Ideal S2x16x3 .f32 := fun i =>
  (accAt m c (T (i 0)).val (T (i 0)).isLt).2.2.2.1 (ix3 (0 : Fin 1) (i 1) (i 2))

theorem G13_ix (cc : Fin 2) (p : Fin 16) (q : Fin 3) :
    G13 m c (ix3 cc p q) = (accAt m c (T cc).val (T cc).isLt).2.2.2.1 (ix3 (0 : Fin 1) p q) := rfl

/-- What a writing point (t ≡ 24 mod 25) writes back is its slab of that array. -/
theorem flushed13_eq (t : Fin cfg0.N) (hf : (cfg0.win 13).flush t = true) :
    (dats m 0 c).flushed 13 t = ((cfg0.win 13).blk t).view.read (Elt Ideal) (G13 m c) := by
  have h24 : t.val % 25 = 24 := (flush0_13 t).mp hf
  have hN : cfg0.N = 50 := N_0
  have ht : t.val < 50 := lt_of_lt_of_eq t.isLt hN
  show (cfg0.win 13).cut (grid0.coords t) ((dats m 0 c).after 13 t) = _
  rw [after0_13]
  funext j
  have hj0 : (j 0).val < 1 := (j 0).isLt
  have hj1 : (j 1).val < 16 := (j 1).isLt
  have hj2 : (j 2).val < 3 := (j 2).isLt
  have hq : t.val / 25 < 2 := by omega
  obtain ⟨e0, e1, e2⟩ := idx13 t
  have hemb : ((cfg0.win 13).blk t).view.emb j = ix3 (⟨t.val / 25, hq⟩ : Fin 2) (⟨(j 1).val, hj1⟩ : Fin 16) (⟨(j 2).val, hj2⟩ : Fin 3) := by
    funext a; apply Fin.ext
    match a with
    | ⟨0, _⟩ => show win0_13.index t (0 : Fin 3) * 1 + 1 * (j 0).val = t.val / 25; rw [e0]; omega
    | ⟨1, _⟩ => show win0_13.index t (1 : Fin 3) * 16 + 1 * (j 1).val = (j 1).val; rw [e1]; omega
    | ⟨2, _⟩ => show win0_13.index t (2 : Fin 3) * 3 + 1 * (j 2).val = (j 2).val; rw [e2]; omega
  have hx : (cfg0.win 13).xinj (grid0.coords t) j = ix3 (0 : Fin 1) (⟨(j 1).val, hj1⟩ : Fin 16) (⟨(j 2).val, hj2⟩ : Fin 3) := by
    funext a
    match a with
    | ⟨0, _⟩ => exact Fin.ext (by show (j 0).val = 0; omega)
    | ⟨1, _⟩ => rfl
    | ⟨2, _⟩ => rfl
  have hT : T (⟨t.val / 25, hq⟩ : Fin 2) = t := Fin.ext (by show 25 * (t.val / 25) + 24 = t.val; omega)
  have hacc : ∀ u : Fin cfg0.N, u = t → accAt m c u.val u.isLt = accAt m c t.val t.isLt := fun u e => by subst e; rfl
  show (accAt m c t.val t.isLt).2.2.2.1 ((cfg0.win 13).xinj (grid0.coords t) j) = G13 m c (((cfg0.win 13).blk t).view.emb j)
  rw [hx, hemb, G13_ix, hacc _ hT]

/-- An index of the array is in point t's block iff each coordinate is in the block's range. -/
theorem mem_blk13 (t : Fin cfg0.N) (i : S2x16x3.Idx) :
    i ∈ ((cfg0.win 13).blk t).view.set ↔ ∀ a : Fin 3, win0_13.index t a * S1x16x3.size a ≤ (i a).val ∧ (i a).val < win0_13.index t a * S1x16x3.size a + S1x16x3.size a := by
  show i ∈ ((View.whole main_v4_4).slice (win0_13.rect t)).set ↔ _
  rw [View.set_slice_whole, Rect.mem_set_unit]
  exact Iff.rfl

/-- The array after the region: slab cc is covered by the block of the half's last point 25·cc + 24, which writes. -/
theorem arr13 : (dats m 0 c).arrAt 13 cfg0.N = G13 m c :=
  (dats m 0 c).arrAt_eq_of_cover 13 (G13 m c) (flushed13_eq m c) fun i => by
    have hi0 : (i 0).val < 2 := (i 0).isLt
    have hi1 : (i 1).val < 16 := (i 1).isLt
    have hi2 : (i 2).val < 3 := (i 2).isLt
    refine ⟨T ⟨(i 0).val, hi0⟩, (flush0_13 _).mpr (by show (25 * (i 0).val + 24) % 25 = 24; omega), ?_⟩
    rw [mem_blk13]
    obtain ⟨e0, e1, e2⟩ := idx13 (T ⟨(i 0).val, hi0⟩)
    have hT : (T ⟨(i 0).val, hi0⟩).val / 25 = (i 0).val := by show (25 * (i 0).val + 24) / 25 = (i 0).val; omega
    intro a
    match a with
    | ⟨0, _⟩ =>
      show win0_13.index (T ⟨(i 0).val, hi0⟩) (0 : Fin 3) * 1 ≤ (i 0).val ∧ (i 0).val < win0_13.index (T ⟨(i 0).val, hi0⟩) (0 : Fin 3) * 1 + 1
      rw [e0, hT]; omega
    | ⟨1, _⟩ =>
      show win0_13.index (T ⟨(i 0).val, hi0⟩) (1 : Fin 3) * 16 ≤ (i 1).val ∧ (i 1).val < win0_13.index (T ⟨(i 0).val, hi0⟩) (1 : Fin 3) * 16 + 16
      rw [e1]; omega
    | ⟨2, _⟩ =>
      show win0_13.index (T ⟨(i 0).val, hi0⟩) (2 : Fin 3) * 3 ≤ (i 2).val ∧ (i 2).val < win0_13.index (T ⟨(i 0).val, hi0⟩) (2 : Fin 3) * 3 + 3
      rw [e2]; omega

/-- Entry (cc, p, q) of the array after the region. -/
theorem final13 (cc : Fin 2) (p : Fin 16) (q : Fin 3) :
    (dats m 0 c).arrAt 13 cfg0.N (ix3 cc p q) = (accAt m c (T cc).val (T cc).isLt).2.2.2.1 (ix3 (0 : Fin 1) p q) := by
  rw [arr13]; rfl

/-! ## Accumulator window 14 (squared-length sums): slab cc of the [2,16,1] array is what the half's last point left -/

/-- The printed index map of window 14: slab t / 25, nothing else. -/
theorem idx14 : ∀ t : Fin cfg0.N, win0_14.index t (0 : Fin 3) = t.val / 25 ∧ win0_14.index t (1 : Fin 3) = 0 ∧ win0_14.index t (2 : Fin 3) = 0 :=
  (by decide +kernel : ∀ t : Fin grid0.N, _)

/-- The array the write-backs assemble: slab cc holds what the buffer held after point 25·cc + 24. -/
def G14 : Vec Ideal S2x16x1 .f32 := fun i =>
  (accAt m c (T (i 0)).val (T (i 0)).isLt).2.2.2.2.1 (ix3 (0 : Fin 1) (i 1) (i 2))

theorem G14_ix (cc : Fin 2) (p : Fin 16) (q : Fin 1) :
    G14 m c (ix3 cc p q) = (accAt m c (T cc).val (T cc).isLt).2.2.2.2.1 (ix3 (0 : Fin 1) p q) := rfl

/-- What a writing point (t ≡ 24 mod 25) writes back is its slab of that array. -/
theorem flushed14_eq (t : Fin cfg0.N) (hf : (cfg0.win 14).flush t = true) :
    (dats m 0 c).flushed 14 t = ((cfg0.win 14).blk t).view.read (Elt Ideal) (G14 m c) := by
  have h24 : t.val % 25 = 24 := (flush0_14 t).mp hf
  have hN : cfg0.N = 50 := N_0
  have ht : t.val < 50 := lt_of_lt_of_eq t.isLt hN
  show (cfg0.win 14).cut (grid0.coords t) ((dats m 0 c).after 14 t) = _
  rw [after0_14]
  funext j
  have hj0 : (j 0).val < 1 := (j 0).isLt
  have hj1 : (j 1).val < 16 := (j 1).isLt
  have hj2 : (j 2).val < 1 := (j 2).isLt
  have hq : t.val / 25 < 2 := by omega
  obtain ⟨e0, e1, e2⟩ := idx14 t
  have hemb : ((cfg0.win 14).blk t).view.emb j = ix3 (⟨t.val / 25, hq⟩ : Fin 2) (⟨(j 1).val, hj1⟩ : Fin 16) (⟨(j 2).val, hj2⟩ : Fin 1) := by
    funext a; apply Fin.ext
    match a with
    | ⟨0, _⟩ => show win0_14.index t (0 : Fin 3) * 1 + 1 * (j 0).val = t.val / 25; rw [e0]; omega
    | ⟨1, _⟩ => show win0_14.index t (1 : Fin 3) * 16 + 1 * (j 1).val = (j 1).val; rw [e1]; omega
    | ⟨2, _⟩ => show win0_14.index t (2 : Fin 3) * 1 + 1 * (j 2).val = (j 2).val; rw [e2]; omega
  have hx : (cfg0.win 14).xinj (grid0.coords t) j = ix3 (0 : Fin 1) (⟨(j 1).val, hj1⟩ : Fin 16) (⟨(j 2).val, hj2⟩ : Fin 1) := by
    funext a
    match a with
    | ⟨0, _⟩ => exact Fin.ext (by show (j 0).val = 0; omega)
    | ⟨1, _⟩ => rfl
    | ⟨2, _⟩ => rfl
  have hT : T (⟨t.val / 25, hq⟩ : Fin 2) = t := Fin.ext (by show 25 * (t.val / 25) + 24 = t.val; omega)
  have hacc : ∀ u : Fin cfg0.N, u = t → accAt m c u.val u.isLt = accAt m c t.val t.isLt := fun u e => by subst e; rfl
  show (accAt m c t.val t.isLt).2.2.2.2.1 ((cfg0.win 14).xinj (grid0.coords t) j) = G14 m c (((cfg0.win 14).blk t).view.emb j)
  rw [hx, hemb, G14_ix, hacc _ hT]

/-- An index of the array is in point t's block iff each coordinate is in the block's range. -/
theorem mem_blk14 (t : Fin cfg0.N) (i : S2x16x1.Idx) :
    i ∈ ((cfg0.win 14).blk t).view.set ↔ ∀ a : Fin 3, win0_14.index t a * S1x16x1.size a ≤ (i a).val ∧ (i a).val < win0_14.index t a * S1x16x1.size a + S1x16x1.size a := by
  show i ∈ ((View.whole main_v4_5).slice (win0_14.rect t)).set ↔ _
  rw [View.set_slice_whole, Rect.mem_set_unit]
  exact Iff.rfl

/-- The array after the region: slab cc is covered by the block of the half's last point 25·cc + 24, which writes. -/
theorem arr14 : (dats m 0 c).arrAt 14 cfg0.N = G14 m c :=
  (dats m 0 c).arrAt_eq_of_cover 14 (G14 m c) (flushed14_eq m c) fun i => by
    have hi0 : (i 0).val < 2 := (i 0).isLt
    have hi1 : (i 1).val < 16 := (i 1).isLt
    have hi2 : (i 2).val < 1 := (i 2).isLt
    refine ⟨T ⟨(i 0).val, hi0⟩, (flush0_14 _).mpr (by show (25 * (i 0).val + 24) % 25 = 24; omega), ?_⟩
    rw [mem_blk14]
    obtain ⟨e0, e1, e2⟩ := idx14 (T ⟨(i 0).val, hi0⟩)
    have hT : (T ⟨(i 0).val, hi0⟩).val / 25 = (i 0).val := by show (25 * (i 0).val + 24) / 25 = (i 0).val; omega
    intro a
    match a with
    | ⟨0, _⟩ =>
      show win0_14.index (T ⟨(i 0).val, hi0⟩) (0 : Fin 3) * 1 ≤ (i 0).val ∧ (i 0).val < win0_14.index (T ⟨(i 0).val, hi0⟩) (0 : Fin 3) * 1 + 1
      rw [e0, hT]; omega
    | ⟨1, _⟩ =>
      show win0_14.index (T ⟨(i 0).val, hi0⟩) (1 : Fin 3) * 16 ≤ (i 1).val ∧ (i 1).val < win0_14.index (T ⟨(i 0).val, hi0⟩) (1 : Fin 3) * 16 + 16
      rw [e1]; omega
    | ⟨2, _⟩ =>
      show win0_14.index (T ⟨(i 0).val, hi0⟩) (2 : Fin 3) * 1 ≤ (i 2).val ∧ (i 2).val < win0_14.index (T ⟨(i 0).val, hi0⟩) (2 : Fin 3) * 1 + 1
      rw [e2]; omega

/-- Entry (cc, p, q) of the array after the region. -/
theorem final14 (cc : Fin 2) (p : Fin 16) (q : Fin 1) :
    (dats m 0 c).arrAt 14 cfg0.N (ix3 cc p q) = (accAt m c (T cc).val (T cc).isLt).2.2.2.2.1 (ix3 (0 : Fin 1) p q) := by
  rw [arr14]; rfl

/-! ## Accumulator window 15 (assignment sums): slab cc of the [2,1,16] array is what the half's last point left -/

/-- The printed index map of window 15: slab t / 25, nothing else. -/
theorem idx15 : ∀ t : Fin cfg0.N, win0_15.index t (0 : Fin 3) = t.val / 25 ∧ win0_15.index t (1 : Fin 3) = 0 ∧ win0_15.index t (2 : Fin 3) = 0 :=
  (by decide +kernel : ∀ t : Fin grid0.N, _)

/-- The array the write-backs assemble: slab cc holds what the buffer held after point 25·cc + 24. -/
def G15 : Vec Ideal S2x1x16 .f32 := fun i =>
  (accAt m c (T (i 0)).val (T (i 0)).isLt).2.2.2.2.2.1 (ix3 (0 : Fin 1) (i 1) (i 2))

theorem G15_ix (cc : Fin 2) (p : Fin 1) (q : Fin 16) :
    G15 m c (ix3 cc p q) = (accAt m c (T cc).val (T cc).isLt).2.2.2.2.2.1 (ix3 (0 : Fin 1) p q) := rfl

/-- What a writing point (t ≡ 24 mod 25) writes back is its slab of that array. -/
theorem flushed15_eq (t : Fin cfg0.N) (hf : (cfg0.win 15).flush t = true) :
    (dats m 0 c).flushed 15 t = ((cfg0.win 15).blk t).view.read (Elt Ideal) (G15 m c) := by
  have h24 : t.val % 25 = 24 := (flush0_15 t).mp hf
  have hN : cfg0.N = 50 := N_0
  have ht : t.val < 50 := lt_of_lt_of_eq t.isLt hN
  show (cfg0.win 15).cut (grid0.coords t) ((dats m 0 c).after 15 t) = _
  rw [after0_15]
  funext j
  have hj0 : (j 0).val < 1 := (j 0).isLt
  have hj1 : (j 1).val < 1 := (j 1).isLt
  have hj2 : (j 2).val < 16 := (j 2).isLt
  have hq : t.val / 25 < 2 := by omega
  obtain ⟨e0, e1, e2⟩ := idx15 t
  have hemb : ((cfg0.win 15).blk t).view.emb j = ix3 (⟨t.val / 25, hq⟩ : Fin 2) (⟨(j 1).val, hj1⟩ : Fin 1) (⟨(j 2).val, hj2⟩ : Fin 16) := by
    funext a; apply Fin.ext
    match a with
    | ⟨0, _⟩ => show win0_15.index t (0 : Fin 3) * 1 + 1 * (j 0).val = t.val / 25; rw [e0]; omega
    | ⟨1, _⟩ => show win0_15.index t (1 : Fin 3) * 1 + 1 * (j 1).val = (j 1).val; rw [e1]; omega
    | ⟨2, _⟩ => show win0_15.index t (2 : Fin 3) * 16 + 1 * (j 2).val = (j 2).val; rw [e2]; omega
  have hx : (cfg0.win 15).xinj (grid0.coords t) j = ix3 (0 : Fin 1) (⟨(j 1).val, hj1⟩ : Fin 1) (⟨(j 2).val, hj2⟩ : Fin 16) := by
    funext a
    match a with
    | ⟨0, _⟩ => exact Fin.ext (by show (j 0).val = 0; omega)
    | ⟨1, _⟩ => rfl
    | ⟨2, _⟩ => rfl
  have hT : T (⟨t.val / 25, hq⟩ : Fin 2) = t := Fin.ext (by show 25 * (t.val / 25) + 24 = t.val; omega)
  have hacc : ∀ u : Fin cfg0.N, u = t → accAt m c u.val u.isLt = accAt m c t.val t.isLt := fun u e => by subst e; rfl
  show (accAt m c t.val t.isLt).2.2.2.2.2.1 ((cfg0.win 15).xinj (grid0.coords t) j) = G15 m c (((cfg0.win 15).blk t).view.emb j)
  rw [hx, hemb, G15_ix, hacc _ hT]

/-- An index of the array is in point t's block iff each coordinate is in the block's range. -/
theorem mem_blk15 (t : Fin cfg0.N) (i : S2x1x16.Idx) :
    i ∈ ((cfg0.win 15).blk t).view.set ↔ ∀ a : Fin 3, win0_15.index t a * S1x1x16.size a ≤ (i a).val ∧ (i a).val < win0_15.index t a * S1x1x16.size a + S1x1x16.size a := by
  show i ∈ ((View.whole main_v4_6).slice (win0_15.rect t)).set ↔ _
  rw [View.set_slice_whole, Rect.mem_set_unit]
  exact Iff.rfl

/-- The array after the region: slab cc is covered by the block of the half's last point 25·cc + 24, which writes. -/
theorem arr15 : (dats m 0 c).arrAt 15 cfg0.N = G15 m c :=
  (dats m 0 c).arrAt_eq_of_cover 15 (G15 m c) (flushed15_eq m c) fun i => by
    have hi0 : (i 0).val < 2 := (i 0).isLt
    have hi1 : (i 1).val < 1 := (i 1).isLt
    have hi2 : (i 2).val < 16 := (i 2).isLt
    refine ⟨T ⟨(i 0).val, hi0⟩, (flush0_15 _).mpr (by show (25 * (i 0).val + 24) % 25 = 24; omega), ?_⟩
    rw [mem_blk15]
    obtain ⟨e0, e1, e2⟩ := idx15 (T ⟨(i 0).val, hi0⟩)
    have hT : (T ⟨(i 0).val, hi0⟩).val / 25 = (i 0).val := by show (25 * (i 0).val + 24) / 25 = (i 0).val; omega
    intro a
    match a with
    | ⟨0, _⟩ =>
      show win0_15.index (T ⟨(i 0).val, hi0⟩) (0 : Fin 3) * 1 ≤ (i 0).val ∧ (i 0).val < win0_15.index (T ⟨(i 0).val, hi0⟩) (0 : Fin 3) * 1 + 1
      rw [e0, hT]; omega
    | ⟨1, _⟩ =>
      show win0_15.index (T ⟨(i 0).val, hi0⟩) (1 : Fin 3) * 1 ≤ (i 1).val ∧ (i 1).val < win0_15.index (T ⟨(i 0).val, hi0⟩) (1 : Fin 3) * 1 + 1
      rw [e1]; omega
    | ⟨2, _⟩ =>
      show win0_15.index (T ⟨(i 0).val, hi0⟩) (2 : Fin 3) * 16 ≤ (i 2).val ∧ (i 2).val < win0_15.index (T ⟨(i 0).val, hi0⟩) (2 : Fin 3) * 16 + 16
      rw [e2]; omega

/-- Entry (cc, p, q) of the array after the region. -/
theorem final15 (cc : Fin 2) (p : Fin 1) (q : Fin 16) :
    (dats m 0 c).arrAt 15 cfg0.N (ix3 cc p q) = (accAt m c (T cc).val (T cc).isLt).2.2.2.2.2.1 (ix3 (0 : Fin 1) p q) := by
  rw [arr15]; rfl

/-! ## Accumulator window 16 (the entropy sum): slab cc of the [2,1,1] array is what the half's last point left -/

/-- The printed index map of window 16: slab t / 25, nothing else. -/
theorem idx16 : ∀ t : Fin cfg0.N, win0_16.index t (0 : Fin 3) = t.val / 25 ∧ win0_16.index t (1 : Fin 3) = 0 ∧ win0_16.index t (2 : Fin 3) = 0 :=
  (by decide +kernel : ∀ t : Fin grid0.N, _)

/-- The array the write-backs assemble: slab cc holds what the buffer held after point 25·cc + 24. -/
def G16 : Vec Ideal S2x1x1 .f32 := fun i =>
  (accAt m c (T (i 0)).val (T (i 0)).isLt).2.2.2.2.2.2 (ix3 (0 : Fin 1) (i 1) (i 2))

theorem G16_ix (cc : Fin 2) (p : Fin 1) (q : Fin 1) :
    G16 m c (ix3 cc p q) = (accAt m c (T cc).val (T cc).isLt).2.2.2.2.2.2 (ix3 (0 : Fin 1) p q) := rfl

/-- What a writing point (t ≡ 24 mod 25) writes back is its slab of that array. -/
theorem flushed16_eq (t : Fin cfg0.N) (hf : (cfg0.win 16).flush t = true) :
    (dats m 0 c).flushed 16 t = ((cfg0.win 16).blk t).view.read (Elt Ideal) (G16 m c) := by
  have h24 : t.val % 25 = 24 := (flush0_16 t).mp hf
  have hN : cfg0.N = 50 := N_0
  have ht : t.val < 50 := lt_of_lt_of_eq t.isLt hN
  show (cfg0.win 16).cut (grid0.coords t) ((dats m 0 c).after 16 t) = _
  rw [after0_16]
  funext j
  have hj0 : (j 0).val < 1 := (j 0).isLt
  have hj1 : (j 1).val < 1 := (j 1).isLt
  have hj2 : (j 2).val < 1 := (j 2).isLt
  have hq : t.val / 25 < 2 := by omega
  obtain ⟨e0, e1, e2⟩ := idx16 t
  have hemb : ((cfg0.win 16).blk t).view.emb j = ix3 (⟨t.val / 25, hq⟩ : Fin 2) (⟨(j 1).val, hj1⟩ : Fin 1) (⟨(j 2).val, hj2⟩ : Fin 1) := by
    funext a; apply Fin.ext
    match a with
    | ⟨0, _⟩ => show win0_16.index t (0 : Fin 3) * 1 + 1 * (j 0).val = t.val / 25; rw [e0]; omega
    | ⟨1, _⟩ => show win0_16.index t (1 : Fin 3) * 1 + 1 * (j 1).val = (j 1).val; rw [e1]; omega
    | ⟨2, _⟩ => show win0_16.index t (2 : Fin 3) * 1 + 1 * (j 2).val = (j 2).val; rw [e2]; omega
  have hx : (cfg0.win 16).xinj (grid0.coords t) j = ix3 (0 : Fin 1) (⟨(j 1).val, hj1⟩ : Fin 1) (⟨(j 2).val, hj2⟩ : Fin 1) := by
    funext a
    match a with
    | ⟨0, _⟩ => exact Fin.ext (by show (j 0).val = 0; omega)
    | ⟨1, _⟩ => rfl
    | ⟨2, _⟩ => rfl
  have hT : T (⟨t.val / 25, hq⟩ : Fin 2) = t := Fin.ext (by show 25 * (t.val / 25) + 24 = t.val; omega)
  have hacc : ∀ u : Fin cfg0.N, u = t → accAt m c u.val u.isLt = accAt m c t.val t.isLt := fun u e => by subst e; rfl
  show (accAt m c t.val t.isLt).2.2.2.2.2.2 ((cfg0.win 16).xinj (grid0.coords t) j) = G16 m c (((cfg0.win 16).blk t).view.emb j)
  rw [hx, hemb, G16_ix, hacc _ hT]

/-- An index of the array is in point t's block iff each coordinate is in the block's range. -/
theorem mem_blk16 (t : Fin cfg0.N) (i : S2x1x1.Idx) :
    i ∈ ((cfg0.win 16).blk t).view.set ↔ ∀ a : Fin 3, win0_16.index t a * S1x1x1.size a ≤ (i a).val ∧ (i a).val < win0_16.index t a * S1x1x1.size a + S1x1x1.size a := by
  show i ∈ ((View.whole main_v4_7).slice (win0_16.rect t)).set ↔ _
  rw [View.set_slice_whole, Rect.mem_set_unit]
  exact Iff.rfl

/-- The array after the region: slab cc is covered by the block of the half's last point 25·cc + 24, which writes. -/
theorem arr16 : (dats m 0 c).arrAt 16 cfg0.N = G16 m c :=
  (dats m 0 c).arrAt_eq_of_cover 16 (G16 m c) (flushed16_eq m c) fun i => by
    have hi0 : (i 0).val < 2 := (i 0).isLt
    have hi1 : (i 1).val < 1 := (i 1).isLt
    have hi2 : (i 2).val < 1 := (i 2).isLt
    refine ⟨T ⟨(i 0).val, hi0⟩, (flush0_16 _).mpr (by show (25 * (i 0).val + 24) % 25 = 24; omega), ?_⟩
    rw [mem_blk16]
    obtain ⟨e0, e1, e2⟩ := idx16 (T ⟨(i 0).val, hi0⟩)
    have hT : (T ⟨(i 0).val, hi0⟩).val / 25 = (i 0).val := by show (25 * (i 0).val + 24) / 25 = (i 0).val; omega
    intro a
    match a with
    | ⟨0, _⟩ =>
      show win0_16.index (T ⟨(i 0).val, hi0⟩) (0 : Fin 3) * 1 ≤ (i 0).val ∧ (i 0).val < win0_16.index (T ⟨(i 0).val, hi0⟩) (0 : Fin 3) * 1 + 1
      rw [e0, hT]; omega
    | ⟨1, _⟩ =>
      show win0_16.index (T ⟨(i 0).val, hi0⟩) (1 : Fin 3) * 1 ≤ (i 1).val ∧ (i 1).val < win0_16.index (T ⟨(i 0).val, hi0⟩) (1 : Fin 3) * 1 + 1
      rw [e1]; omega
    | ⟨2, _⟩ =>
      show win0_16.index (T ⟨(i 0).val, hi0⟩) (2 : Fin 3) * 1 ≤ (i 2).val ∧ (i 2).val < win0_16.index (T ⟨(i 0).val, hi0⟩) (2 : Fin 3) * 1 + 1
      rw [e2]; omega

/-- Entry (cc, p, q) of the array after the region. -/
theorem final16 (cc : Fin 2) (p : Fin 1) (q : Fin 1) :
    (dats m 0 c).arrAt 16 cfg0.N (ix3 cc p q) = (accAt m c (T cc).val (T cc).isLt).2.2.2.2.2.2 (ix3 (0 : Fin 1) p q) := by
  rw [arr16]; rfl

end Cert.KernelIdeal.Val

end
-- ==== Proof.Math.Finite.lean ====
/-
  Every quantity of the specification is a real number when the float arguments are real.

  A row's logits are finite sums and products of reals; the largest of the 16 logits is a real; exp(z - max z) is a
  positive real; a sum of 16 positive reals is a positive real; their quotient, the soft assignment s, is a positive
  real.  Hence the sums over rows are real and  D[k] = Σ_n s[n, k] + ε  is a positive real.
-/
import proofs.«406053_j76209899700419_3_alg».proof.Proof.Spec
import Mathlib.Data.EReal.Operations
import Mathlib.Data.EReal.Inv
import Mathlib.Data.Finset.Fold
import Mathlib.Analysis.SpecialFunctions.Exp
import Mathlib.Analysis.SpecialFunctions.Log.Basic
import Mathlib.Tactic.NormNum
import Mathlib.Tactic.Ring
import Mathlib.Tactic.Positivity

noncomputable section

open scoped BigOperators

namespace Cert.Math

open Idealize.ShloMosaic Idealize.ShloMosaic.ValueIdx Cert.Spec

/-! ## Real and positive real extended reals -/

/-- The extended real x is (the coercion of) a real number. -/
abbrev IsReal (x : EReal) : Prop := ∃ r : ℝ, x = (r : EReal)

/-- The extended real x is a positive real number. -/
abbrev IsPosReal (x : EReal) : Prop := ∃ r : ℝ, 0 < r ∧ x = (r : EReal)

theorem isReal_coe (r : ℝ) : IsReal (r : EReal) := ⟨r, rfl⟩

theorem isReal_zero : IsReal (0 : EReal) := ⟨0, EReal.coe_zero.symm⟩

theorem IsPosReal.isReal {x : EReal} (h : IsPosReal x) : IsReal x := let ⟨r, _, e⟩ := h; ⟨r, e⟩

theorem IsPosReal.pos {x : EReal} (h : IsPosReal x) : 0 < x := by
  obtain ⟨r, hr, rfl⟩ := h
  exact_mod_cast hr

/-- An extended real that is neither infinity is a real. -/
theorem isReal_of_ne {x : EReal} (ht : x ≠ ⊤) (hb : x ≠ ⊥) : IsReal x := ⟨x.toReal, (EReal.coe_toReal ht hb).symm⟩

theorem IsReal.ne_top {x : EReal} (h : IsReal x) : x ≠ ⊤ := by obtain ⟨r, rfl⟩ := h; exact EReal.coe_ne_top r

theorem IsReal.ne_bot {x : EReal} (h : IsReal x) : x ≠ ⊥ := by obtain ⟨r, rfl⟩ := h; exact EReal.coe_ne_bot r

/-- A real extended real is the coercion of its real part. -/
theorem IsReal.coe_toReal {x : EReal} (h : IsReal x) : ((x.toReal : ℝ) : EReal) = x :=
  EReal.coe_toReal h.ne_top h.ne_bot

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases le_total x y with h | h
  · rw [max_eq_right h]; exact hy
  · rw [max_eq_left h]; exact hx

/-- A finite sum of reals is a real. -/
theorem isReal_sum {ι : Type*} (t : Finset ι) (f : ι → EReal) (h : ∀ i ∈ t, IsReal (f i)) : IsReal (∑ i ∈ t, f i) :=
  Finset.sum_induction f IsReal (fun _ _ ha hb => ha.add hb) isReal_zero h

/-- The coercion of a finite sum of reals is the sum of the coercions. -/
theorem coe_finset_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem IsPosReal.add {x y : EReal} (hx : IsPosReal x) (hy : IsPosReal y) : IsPosReal (x + y) := by
  obtain ⟨a, ha, rfl⟩ := hx; obtain ⟨b, hb, rfl⟩ := hy; exact ⟨a + b, add_pos ha hb, (EReal.coe_add a b).symm⟩

theorem IsPosReal.mul {x y : EReal} (hx : IsPosReal x) (hy : IsPosReal y) : IsPosReal (x * y) := by
  obtain ⟨a, ha, rfl⟩ := hx; obtain ⟨b, hb, rfl⟩ := hy; exact ⟨a * b, mul_pos ha hb, (EReal.coe_mul a b).symm⟩

/-- A sum of positive reals over a nonempty finite set is a positive real. -/
theorem isPosReal_sum {ι : Type*} (t : Finset ι) (ht : t.Nonempty) (f : ι → EReal) (h : ∀ i ∈ t, IsPosReal (f i)) :
    IsPosReal (∑ i ∈ t, f i) :=
  Finset.sum_induction_nonempty f IsPosReal (fun _ _ ha hb => ha.add hb) ht h

/-- The quotient of two reals with nonzero denominator is the real quotient. -/
theorem div_coe_coe (a : ℝ) {d : ℝ} (hd : d ≠ 0) : Ideal.div (a : EReal) (d : EReal) = ((a / d : ℝ) : EReal) := by
  rw [Ideal.div_coe hd, ← EReal.coe_mul, mul_one_div]

theorem IsReal.div {x y : EReal} (hx : IsReal x) (hy : IsReal y) (h0 : y ≠ 0) : IsReal (Ideal.div x y) := by
  obtain ⟨a, rfl⟩ := hx; obtain ⟨d, rfl⟩ := hy
  have hd : d ≠ 0 := fun h => h0 (by rw [h, EReal.coe_zero])
  exact ⟨a / d, div_coe_coe a hd⟩

theorem IsReal.div_pos {x y : EReal} (hx : IsReal x) (hy : IsPosReal y) : IsReal (Ideal.div x y) :=
  hx.div hy.isReal hy.pos.ne'

theorem IsPosReal.div {x y : EReal} (hx : IsPosReal x) (hy : IsPosReal y) : IsPosReal (Ideal.div x y) := by
  obtain ⟨a, ha, rfl⟩ := hx; obtain ⟨d, hd, rfl⟩ := hy
  exact ⟨a / d, div_pos ha hd, div_coe_coe a hd.ne'⟩

/-- exp of a real is a positive real. -/
theorem IsReal.exp {x : EReal} (hx : IsReal x) : IsPosReal (Ideal.exp x) := by
  obtain ⟨a, rfl⟩ := hx; exact ⟨Real.exp a, Real.exp_pos a, rfl⟩

/-- log of a positive real is a real. -/
theorem IsPosReal.log {x : EReal} (hx : IsPosReal x) : IsReal (Ideal.log x) := by
  obtain ⟨a, ha, rfl⟩ := hx
  exact ⟨Real.log a, by rw [Ideal.log_coe, if_neg (not_le.mpr ha)]⟩

/-- The fold of max from -∞ over a nonempty finite set of reals is a real. -/
theorem isReal_fold_max {ι : Type*} [DecidableEq ι] (f : ι → EReal) (hf : ∀ i, IsReal (f i)) (t : Finset ι)
    (ht : t.Nonempty) : IsReal (t.fold max ⊥ f) := by
  have key : ∀ u : Finset ι, (u = ∅ ∧ u.fold max ⊥ f = ⊥) ∨ IsReal (u.fold max ⊥ f) := by
    intro u
    induction u using Finset.induction_on with
    | empty => exact Or.inl ⟨rfl, Finset.fold_empty⟩
    | insert a u ha ih =>
      right
      rw [Finset.fold_insert ha]
      rcases ih with ⟨_, h⟩ | h
      · rw [h, max_bot_right]; exact hf a
      · exact (hf a).max h
  rcases key t with ⟨h, _⟩ | h
  · exact absurd h ht.ne_empty
  · exact h

/-! ## The literals -/

theorem one_eq : Cert.Spec.one = ((1 : ℝ) : EReal) := by
  have h : Cert.Spec.one = ((8388608 * (2 ^ 23)⁻¹ : ℝ) : EReal) := by simp [Ideal.ofBits, Ideal.ieee]
  rw [h]; congr 1; norm_num

theorem ninf_eq : Cert.Spec.ninf = ⊥ := by simp [Ideal.ofBits, Ideal.ieee]

theorem c2_eq : Cert.Spec.c2 = ((2 : ℝ) : EReal) := by
  have h : Cert.Spec.c2 = ((8388608 * (2 ^ 22)⁻¹ : ℝ) : EReal) := by simp [Ideal.ofBits, Ideal.ieee]
  rw [h]; congr 1; norm_num

theorem c16_eq : Cert.Spec.c16 = ((16 : ℝ) : EReal) := by
  have h : Cert.Spec.c16 = ((8388608 * (2 ^ 19)⁻¹ : ℝ) : EReal) := by simp [Ideal.ofBits, Ideal.ieee]
  rw [h]; congr 1; norm_num

theorem c1e5_eq : Cert.Spec.c1e5 = ((100000 : ℝ) : EReal) := by
  have h : Cert.Spec.c1e5 = ((12800000 * (2 ^ 7)⁻¹ : ℝ) : EReal) := by simp [Ideal.ofBits, Ideal.ieee]
  rw [h]; congr 1; norm_num

/-! ## One row -/

/-- The row's data and the weights are real. -/
structure RowReal (xr : Fin 128 → EReal) (gr : Fin 16 → EReal) (w1 : A2 128 128) (b1 : Fin 128 → EReal)
    (w2 : A2 128 16) (b2 : Fin 16 → EReal) (sc : EReal) : Prop where
  hx : ∀ a, IsReal (xr a)
  hg : ∀ k, IsReal (gr k)
  hw1 : ∀ j, IsReal (w1 j)
  hb1 : ∀ c, IsReal (b1 c)
  hw2 : ∀ j, IsReal (w2 j)
  hb2 : ∀ k, IsReal (b2 k)
  hsc : IsReal sc

section Row

variable {xr : Fin 128 → EReal} {gr : Fin 16 → EReal} {w1 : A2 128 128} {b1 : Fin 128 → EReal}
  {w2 : A2 128 16} {b2 : Fin 16 → EReal} {sc : EReal}

theorem isReal_hidRow (h : RowReal xr gr w1 b1 w2 b2 sc) (c : Fin 128) : IsReal (hidRow xr w1 b1 c) :=
  ((isReal_sum _ _ fun a _ => (h.hx a).mul (h.hw1 _)).add (h.hb1 c)).max isReal_zero

theorem isReal_zRow (h : RowReal xr gr w1 b1 w2 b2 sc) (k : Fin 16) : IsReal (zRow xr gr w1 b1 w2 b2 sc k) := by
  unfold zRow
  refine IsReal.div ?_ ⟨1, one_eq⟩ ?_
  · exact ((((isReal_sum _ _ fun c _ => (isReal_hidRow h c).mul (h.hw2 _)).add (h.hb2 k)).mul h.hsc).add (h.hg k))
  · rw [one_eq, EReal.coe_one]; exact one_ne_zero

theorem isReal_zmaxRow (h : RowReal xr gr w1 b1 w2 b2 sc) : IsReal (zmaxRow xr gr w1 b1 w2 b2 sc) := by
  unfold zmaxRow
  rw [ninf_eq]
  exact isReal_fold_max _ (isReal_zRow h) _ Finset.univ_nonempty

theorem isPosReal_ezRow (h : RowReal xr gr w1 b1 w2 b2 sc) (k : Fin 16) : IsPosReal (ezRow xr gr w1 b1 w2 b2 sc k) :=
  ((isReal_zRow h k).sub (isReal_zmaxRow h)).exp

theorem isPosReal_sRow (h : RowReal xr gr w1 b1 w2 b2 sc) (k : Fin 16) : IsPosReal (sRow xr gr w1 b1 w2 b2 sc k) :=
  (isPosReal_ezRow h k).div (isPosReal_sum _ Finset.univ_nonempty _ fun k' _ => isPosReal_ezRow h k')

end Row

/-! ## The whole specification -/

/-- Every entry of every float argument is a real number. -/
structure RealArgs (I : Cert.Spec.Args) : Prop where
  x : ∀ j, IsReal (I.x j)
  pos : ∀ j, IsReal (I.pos j)
  gum : ∀ j, IsReal (I.gum j)
  w1 : ∀ j, IsReal (I.w1 j)
  b1 : ∀ j, IsReal (I.b1 j)
  w2 : ∀ j, IsReal (I.w2 j)
  b2 : ∀ j, IsReal (I.b2 j)
  sc : ∀ j, IsReal (I.sc j)

/-- Arguments none of whose entries is an infinity are real. -/
theorem RealArgs.of_ne {I : Cert.Spec.Args}
    (hx : ∀ j, I.x j ≠ ⊤ ∧ I.x j ≠ ⊥) (hpos : ∀ j, I.pos j ≠ ⊤ ∧ I.pos j ≠ ⊥) (hgum : ∀ j, I.gum j ≠ ⊤ ∧ I.gum j ≠ ⊥)
    (hw1 : ∀ j, I.w1 j ≠ ⊤ ∧ I.w1 j ≠ ⊥) (hb1 : ∀ j, I.b1 j ≠ ⊤ ∧ I.b1 j ≠ ⊥) (hw2 : ∀ j, I.w2 j ≠ ⊤ ∧ I.w2 j ≠ ⊥)
    (hb2 : ∀ j, I.b2 j ≠ ⊤ ∧ I.b2 j ≠ ⊥) (hsc : ∀ j, I.sc j ≠ ⊤ ∧ I.sc j ≠ ⊥) : RealArgs I where
  x j := isReal_of_ne (hx j).1 (hx j).2
  pos j := isReal_of_ne (hpos j).1 (hpos j).2
  gum j := isReal_of_ne (hgum j).1 (hgum j).2
  w1 j := isReal_of_ne (hw1 j).1 (hw1 j).2
  b1 j := isReal_of_ne (hb1 j).1 (hb1 j).2
  w2 j := isReal_of_ne (hw2 j).1 (hw2 j).2
  b2 j := isReal_of_ne (hb2 j).1 (hb2 j).2
  sc j := isReal_of_ne (hsc j).1 (hsc j).2

variable {I : Cert.Spec.Args}

/-- Row n's data and the weights are real. -/
theorem RealArgs.row (h : RealArgs I) (n : Fin 100000) :
    RowReal (fun a => I.x (ix2 n a)) (fun k => I.gum (ix2 n k)) I.w1 (fun c => I.b1 (ix1 c)) I.w2
      (fun k => I.b2 (ix1 k)) (I.sc ix0) where
  hx a := h.x _
  hg k := h.gum _
  hw1 := h.w1
  hb1 c := h.b1 _
  hw2 := h.w2
  hb2 k := h.b2 _
  hsc := h.sc _

/-- The soft assignment is a positive real. -/
theorem s_isPosReal (h : RealArgs I) (n : Fin 100000) (k : Fin 16) : IsPosReal (s I n k) :=
  isPosReal_sRow (h.row n) k

theorem s_isReal (h : RealArgs I) (n : Fin 100000) (k : Fin 16) : IsReal (s I n k) := (s_isPosReal h n k).isReal

/-- The soft assignment is a positive real, with the witness named. -/
theorem s_eq_pos_real (h : RealArgs I) (n : Fin 100000) (k : Fin 16) : ∃ r : ℝ, 0 < r ∧ s I n k = (r : EReal) :=
  s_isPosReal h n k

theorem psq_isReal (h : RealArgs I) (n : Fin 100000) : IsReal (psq I n) :=
  isReal_sum _ _ fun d _ => (h.pos _).mul (h.pos _)

theorem sumS_isPosReal (h : RealArgs I) (k : Fin 16) : IsPosReal (sumS I k) :=
  isPosReal_sum _ Finset.univ_nonempty _ fun n _ => s_isPosReal h n k

theorem sumS_isReal (h : RealArgs I) (k : Fin 16) : IsReal (sumS I k) := (sumS_isPosReal h k).isReal

theorem ssP_isReal (h : RealArgs I) (k : Fin 16) (d : Fin 3) : IsReal (ssP I k d) :=
  isReal_sum _ _ fun n _ => (s_isReal h n k).mul (h.pos _)

theorem ssQ_isReal (h : RealArgs I) (k : Fin 16) : IsReal (ssQ I k) :=
  isReal_sum _ _ fun n _ => (s_isReal h n k).mul (psq_isReal h n)

/-- ε is a positive real. -/
theorem eps_isPosReal : IsPosReal Cert.Spec.eps := by
  have h : Cert.Spec.eps = ((9007199 * (2 ^ 53)⁻¹ : ℝ) : EReal) := by simp [Ideal.ofBits, Ideal.ieee]
  exact ⟨9007199 * (2 ^ 53)⁻¹, by positivity, h⟩

/-- D[k] = Σ_n s[n, k] + ε is a positive real. -/
theorem dK_isPosReal (h : RealArgs I) (k : Fin 16) : IsPosReal (dK I k) :=
  (sumS_isPosReal h k).add eps_isPosReal

theorem dK_isReal (h : RealArgs I) (k : Fin 16) : IsReal (dK I k) := (dK_isPosReal h k).isReal

theorem dK_ne_zero (h : RealArgs I) (k : Fin 16) : dK I k ≠ 0 := (dK_isPosReal h k).pos.ne'

/-- The sums over a segment's rows are real. -/
theorem accS_isReal (h : RealArgs I) (b k : Fin 16) : IsReal (accS I b k) :=
  isReal_sum _ _ fun n _ => by
    by_cases hs : sel I n b
    · rw [if_pos hs]; exact s_isReal h n k
    · rw [if_neg hs]; exact isReal_zero

theorem accP_isReal (h : RealArgs I) (b k : Fin 16) (d : Fin 3) : IsReal (accP I b k d) :=
  isReal_sum _ _ fun n _ => by
    by_cases hs : sel I n b
    · rw [if_pos hs]; exact (s_isReal h n k).mul (h.pos _)
    · rw [if_neg hs]; exact isReal_zero

theorem accX_isReal (h : RealArgs I) (b k : Fin 16) (c : Fin 128) : IsReal (accX I b k c) :=
  isReal_sum _ _ fun n _ => by
    by_cases hs : sel I n b
    · rw [if_pos hs]; exact (s_isReal h n k).mul (h.x _)
    · rw [if_neg hs]; exact isReal_zero

/-- The entropy sum is real: s + ε is a positive real, so its log is real. -/
theorem ent_isReal (h : RealArgs I) : IsReal (ent I) :=
  isReal_sum _ _ fun n _ => isReal_sum _ _ fun k _ =>
    (s_isReal h n k).mul ((s_isPosReal h n k).add eps_isPosReal).log

end Cert.Math

end
-- ==== Proof.Math.Spatial.lean ====
/-
  The one identity of this certificate that needs finiteness: the spatial spread.

  For a cluster k let D = Σ_n s[n, k] + ε, a positive real.  The real factor 1/D comes out of a finite sum of reals,
      Σ_n (s[n, k] / D) · q[n] = (Σ_n s[n, k] · q[n]) / D,
  so the weighted mean is μ[k, d] = (Σ_n s·pos[n, d]) / D, and with A = (Σ_n s·|pos|²) / D and M = Σ_d μ[k, d]²
  real numbers, (A - 2·M) + M = A - M.
-/
import proofs.«406053_j76209899700419_3_alg».proof.Proof.Math.Finite
import Mathlib.Tactic.Choose

noncomputable section

open scoped BigOperators

namespace Cert.Math

open Idealize.ShloMosaic Idealize.ShloMosaic.ValueIdx Cert.Spec

/-! ## Pulling a real factor out of a finite sum of reals -/

/-- Σ_i (a i / d) · q i = (Σ_i a i · q i) / d over the reals, read in the extended reals. -/
theorem sum_coe_div_mul {ι : Type*} (t : Finset ι) (a q : ι → ℝ) {d : ℝ} (hd : d ≠ 0) :
    ∑ i ∈ t, Ideal.div (a i : EReal) (d : EReal) * (q i : EReal)
      = Ideal.div (∑ i ∈ t, (a i : EReal) * (q i : EReal)) (d : EReal) := by
  have h1 : ∀ i ∈ t, Ideal.div (a i : EReal) (d : EReal) * (q i : EReal) = ((a i * q i / d : ℝ) : EReal) := fun i _ => by
    rw [div_coe_coe _ hd, ← EReal.coe_mul]; congr 1; ring
  have h2 : ∀ i ∈ t, (a i : EReal) * (q i : EReal) = ((a i * q i : ℝ) : EReal) := fun i _ => (EReal.coe_mul _ _).symm
  rw [Finset.sum_congr rfl h1, Finset.sum_congr rfl h2, ← coe_finset_sum, ← coe_finset_sum, div_coe_coe _ hd,
    Finset.sum_div]

/-- The same for extended reals known to be real, with a nonzero real divisor. -/
theorem sum_div_mul {ι : Type*} (t : Finset ι) (a q : ι → EReal) (ha : ∀ i, IsReal (a i)) (hq : ∀ i, IsReal (q i))
    {D : EReal} (hD : IsReal D) (h0 : D ≠ 0) :
    ∑ i ∈ t, Ideal.div (a i) D * q i = Ideal.div (∑ i ∈ t, a i * q i) D := by
  obtain ⟨d, rfl⟩ := hD
  have hd : d ≠ 0 := fun h => h0 (by rw [h, EReal.coe_zero])
  choose α hα using ha
  choose θ hθ using hq
  obtain rfl : a = fun i => (α i : EReal) := funext hα
  obtain rfl : q = fun i => (θ i : EReal) := funext hθ
  exact sum_coe_div_mul t α θ hd

/-- (A - 2·M) + M = A - M for real A and M. -/
theorem sub_two_mul_add {A M : EReal} (hA : IsReal A) (hM : IsReal M) : (A - Cert.Spec.c2 * M) + M = A - M := by
  obtain ⟨a, rfl⟩ := hA
  obtain ⟨m, rfl⟩ := hM
  rw [c2_eq, ← EReal.coe_mul, ← EReal.coe_sub, ← EReal.coe_add, ← EReal.coe_sub]
  congr 1
  ring

/-! ## The spread of one cluster, and the spatial spread -/

variable {I : Cert.Spec.Args}

/-- The weighted second moment: Σ_n (s/D)·|pos|² = (Σ_n s·|pos|²) / D. -/
theorem sum_div_psq (h : RealArgs I) (k : Fin 16) :
    ∑ n : Fin 100000, Ideal.div (s I n k) (dK I k) * psq I n = Ideal.div (ssQ I k) (dK I k) :=
  sum_div_mul Finset.univ (fun n => s I n k) (fun n => psq I n) (fun n => s_isReal h n k) (fun n => psq_isReal h n)
    (dK_isReal h k) (dK_ne_zero h k)

/-- The weighted mean position: μ[k, d] = (Σ_n s·pos[n, d]) / D. -/
theorem muK_eq (h : RealArgs I) (k : Fin 16) (d : Fin 3) : muK I k d = Ideal.div (ssP I k d) (dK I k) :=
  sum_div_mul Finset.univ (fun n => s I n k) (fun n => I.pos (ix2 n d)) (fun n => s_isReal h n k) (fun n => h.pos _)
    (dK_isReal h k) (dK_ne_zero h k)

theorem muK_isReal (h : RealArgs I) (k : Fin 16) (d : Fin 3) : IsReal (muK I k d) := by
  rw [muK_eq h]; exact (ssP_isReal h k d).div_pos (dK_isPosReal h k)

theorem musq_eq (h : RealArgs I) (k : Fin 16) :
    musq I k = ∑ d : Fin 3, Ideal.div (ssP I k d) (dK I k) * Ideal.div (ssP I k d) (dK I k) :=
  Finset.sum_congr rfl fun d _ => by rw [muK_eq h]

theorem musq_isReal (h : RealArgs I) (k : Fin 16) : IsReal (musq I k) :=
  isReal_sum _ _ fun d _ => (muK_isReal h k d).mul (muK_isReal h k d)

/-- The spread of cluster k: second moment minus squared mean. -/
theorem varK_eq (h : RealArgs I) (k : Fin 16) :
    varK I k = Ideal.div (ssQ I k) (dK I k)
      - ∑ d : Fin 3, Ideal.div (ssP I k d) (dK I k) * Ideal.div (ssP I k d) (dK I k) := by
  unfold varK
  rw [sum_div_psq h, sub_two_mul_add ((ssQ_isReal h k).div_pos (dK_isPosReal h k)) (musq_isReal h k), musq_eq h]

theorem varK_isReal (h : RealArgs I) (k : Fin 16) : IsReal (varK I k) := by
  rw [varK_eq h, ← musq_eq h]
  exact ((ssQ_isReal h k).div_pos (dK_isPosReal h k)).sub (musq_isReal h k)

/-- The spatial spread is the mean over clusters of second moment minus squared mean. -/
theorem spatial_eq (h : RealArgs I) :
    Cert.Spec.spatial I
      = Ideal.div (∑ k : Fin 16, (Ideal.div (Cert.Spec.ssQ I k) (Cert.Spec.dK I k)
          - ∑ d : Fin 3, Ideal.div (Cert.Spec.ssP I k d) (Cert.Spec.dK I k)
              * Ideal.div (Cert.Spec.ssP I k d) (Cert.Spec.dK I k))) Cert.Spec.c16 := by
  unfold spatial
  rw [Finset.sum_congr rfl fun k _ => varK_eq h k]

theorem spatial_isReal (h : RealArgs I) : IsReal (spatial I) := by
  unfold spatial
  refine (isReal_sum _ _ fun k _ => varK_isReal h k).div ⟨16, c16_eq⟩ ?_
  rw [c16_eq]; exact EReal.coe_ne_zero.mpr (by norm_num)

/-! ## Division of a negated value by a nonzero real -/

/-- (-a) / c = -(a / c) for any extended real a and a nonzero real c. -/
theorem div_neg_coe (a : EReal) {c : ℝ} (hc : c ≠ 0) : Ideal.div (-a) (c : EReal) = -(Ideal.div a (c : EReal)) := by
  rw [Ideal.div_coe hc, Ideal.div_coe hc, neg_mul]

/-- The same against the literals 100000 and 16. -/
theorem div_neg_c1e5 (a : EReal) : Ideal.div (-a) Cert.Spec.c1e5 = -(Ideal.div a Cert.Spec.c1e5) := by
  rw [c1e5_eq]; exact div_neg_coe a (by norm_num)

theorem div_neg_c16 (a : EReal) : Ideal.div (-a) Cert.Spec.c16 = -(Ideal.div a Cert.Spec.c16) := by
  rw [c16_eq]; exact div_neg_coe a (by norm_num)

/-- Division by the literal 1 changes nothing. -/
theorem div_one_lit (a : EReal) : Ideal.div a Cert.Spec.one = a := by
  rw [one_eq, Ideal.div_coe one_ne_zero, div_one, EReal.coe_one, mul_one]

end Cert.Math

end
-- ==== Proof.KI.Tail.lean ====
/-
  The later lines of the program: from the eight arrays the region leaves to the VALUES of the eight results.

  After the region the program adds the two halves' slabs of each accumulator array (a sum over the leading axis, from
  0), re-lays the sums — the 256 columns as (segment, cluster) pairs, column j = 16·b + k —, and computes its scalar
  results from them.  The two slabs of an accumulator entry are the sums over the two halves' rows, so their sum is the
  sum over all 100000 rows: the re-laid arrays are the specification's arrays.  The scalar results are then the later
  lines' own functions of those arrays; only the spatial spread is compared with the specification's closed form
  (second moment over D minus squared mean), which needs the arguments real.
-/
import proofs.«406053_j76209899700419_3_alg».proof.Proof.KI.TailFns
import proofs.«406053_j76209899700419_3_alg».proof.Proof.KI.TailArr
import proofs.«406053_j76209899700419_3_alg».proof.Proof.KI.Final
import proofs.«406053_j76209899700419_3_alg».proof.Proof.KI.Frame
import proofs.«406053_j76209899700419_3_alg».proof.Proof.Math.Spatial
import Idealize.ShloMosaic.Lib.Pipeline.FrameSuffix
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr
open Cert.Math (rowOf blockOf)

/-! ## What the later lines leave in each result, from any contents of the seven accumulator arrays -/

section After

variable (W : Valuation τ sig (Elt Ideal))

set_option maxHeartbeats 4000000 in
theorem after_v12 : StableHlo.after (hostOps1 (F := Ideal)) W (Proc.devRef .tc main_v12) = hOut (W (Proc.devRef .tc main_v4_1)) := by
  after_results_simp
  rfl

set_option maxHeartbeats 4000000 in
theorem after_v4_0 : StableHlo.after (hostOps1 (F := Ideal)) W (Proc.devRef .tc main_v4_0) = W (Proc.devRef .tc main_v4_0) := by
  after_results_simp

set_option maxHeartbeats 4000000 in
theorem after_v20 : StableHlo.after (hostOps1 (F := Ideal)) W (Proc.devRef .tc main_v20) = tDiversity (hSums (W (Proc.devRef .tc main_v4_6))) := by
  after_results_simp
  rfl

set_option maxHeartbeats 4000000 in
theorem after_v26 : StableHlo.after (hostOps1 (F := Ideal)) W (Proc.devRef .tc main_v26) = tEntropy (hEnt (W (Proc.devRef .tc main_v4_7))) := by
  after_results_simp
  rfl

set_option maxHeartbeats 4000000 in
theorem after_v23 : StableHlo.after (hostOps1 (F := Ideal)) W (Proc.devRef .tc main_v23) = tPruning (hSums (W (Proc.devRef .tc main_v4_6))) := by
  after_results_simp
  rfl

set_option maxHeartbeats 4000000 in
theorem after_v46 : StableHlo.after (hostOps1 (F := Ideal)) W (Proc.devRef .tc main_v46)
    = tMu (hAp (W (Proc.devRef .tc main_v4_2))) (hAs (W (Proc.devRef .tc main_v4_3))) := by
  after_results_simp
  rfl

set_option maxHeartbeats 4000000 in
theorem after_v70 : StableHlo.after (hostOps1 (F := Ideal)) W (Proc.devRef .tc main_v70)
    = tSeparation (tMu (hAp (W (Proc.devRef .tc main_v4_2))) (hAs (W (Proc.devRef .tc main_v4_3)))) := by
  after_results_simp
  rfl

set_option maxHeartbeats 4000000 in
theorem after_v38 : StableHlo.after (hostOps1 (F := Ideal)) W (Proc.devRef .tc main_v38)
    = tSpatialK (hsum13 (W (Proc.devRef .tc main_v4_4))) (hSq (W (Proc.devRef .tc main_v4_5))) (hSums (W (Proc.devRef .tc main_v4_6))) := by
  after_results_simp
  rfl

end After

/-! ## The spatial spread from the three sums it starts from -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host sum of a 16-vector from 0 is the sum of its entries. -/
theorem red16 (x : Vec Ideal S16 .f32) (j : S_.Idx) :
    Host.reduceAdd (F := Ideal) x (constant (F := Ideal) S_ .f32 0x00000000#32) reducesTo_S16_S_d0 h_S_ j = ∑ k : Fin 16, x (ix1 k) := by
  show Ideal.hostReduceAdd reducesTo_S16_S_d0 x (Ideal.ofBits .f32 0x00000000#32) j = _
  rw [Ideal.hostReduceAdd_total reducesTo_S16_S_d0 (fun b => b.elim0), Ideal.ofBits_zero_f32, zero_add]
  exact sum_idx1 x

/-- The host sum of a [16,3] array along its second axis from 0, at k, is the sum of row k. -/
theorem red16x3 (x : Vec Ideal S16x3 .f32) (k : Fin 16) :
    Host.reduceAdd (F := Ideal) x (constant (F := Ideal) S_ .f32 0x00000000#32) reducesTo_S16x3_S16_d1 h_S_ (ix1 k) = ∑ d : Fin 3, x (ix2 k d) := by
  have hR : S16x3.Reduces [(1 : Fin 2)] S16 := by decide
  show Ideal.hostReduceAdd reducesTo_S16x3_S16_d1 x (Ideal.ofBits .f32 0x00000000#32) (ix1 k) = _
  rw [Ideal.hostReduceAdd_single reducesTo_S16x3_S16_d1 hR, Ideal.ofBits_zero_f32, zero_add]
  exact Finset.sum_congr rfl fun d _ => congrArg x (by funext a; match a with | ⟨0, _⟩ => exact Fin.ext rfl | ⟨1, _⟩ => exact Fin.ext rfl)

theorem tDen_ix (sums : Vec Ideal S16 .f32) (k : Fin 16) : tDen sums (ix1 k) = sums (ix1 k) + Cert.Spec.eps := rfl

theorem tCentre_ix (sp : Vec Ideal S16x3 .f32) (sums : Vec Ideal S16 .f32) (k : Fin 16) (d : Fin 3) :
    tCentre sp sums (ix2 k d) = Ideal.div (sp (ix2 k d)) (sums (ix1 k) + Cert.Spec.eps) := by
  show Ideal.div (sp (ix2 k d)) (broadcastInDim S16x3 ![0, 1] bcast_S16x1_S16x3_0_1 (broadcastInDim S16x1 ![0] bcast_S16_S16x1_0 (tDen sums)) (ix2 k d)) = _
  rw [broadcastInDim_apply _ _ _ (ix2 k d) (ix2 k (0 : Fin 1)) (fun a => by match a with | ⟨0, _⟩ => rfl | ⟨1, _⟩ => rfl),
    broadcastInDim_apply _ _ _ (ix2 k (0 : Fin 1)) (ix1 k) (fun a => by match a with | ⟨0, _⟩ => rfl)]
  rfl

/-- The later lines' spatial spread at its one index. -/
theorem tSpatialK_ix (sp : Vec Ideal S16x3 .f32) (sq sums : Vec Ideal S16 .f32) (j : S_.Idx) :
    tSpatialK sp sq sums j
      = Ideal.div (∑ k : Fin 16, (Ideal.div (sq (ix1 k)) (sums (ix1 k) + Cert.Spec.eps)
          - ∑ d : Fin 3, Ideal.div (sp (ix2 k d)) (sums (ix1 k) + Cert.Spec.eps) * Ideal.div (sp (ix2 k d)) (sums (ix1 k) + Cert.Spec.eps)))
          Cert.Spec.c16 := by
  unfold tSpatialK
  refine (divf_apply _ _ j).trans ?_
  rw [red16]
  refine congrArg (fun z => Ideal.div z Cert.Spec.c16) (Finset.sum_congr rfl fun k _ => ?_)
  refine (subf_apply _ _ (ix1 k)).trans ?_
  rw [red16x3]
  refine congrArg₂ (· - ·) ?_ (Finset.sum_congr rfl fun d _ => ?_)
  · exact (divf_apply _ _ (ix1 k)).trans rfl
  · refine (mulf_apply _ _ (ix2 k d)).trans ?_
    rw [tCentre_ix]

/-- From the specification's three sums the later lines compute the specification's spatial spread (on real arguments). -/
theorem spatial_tail (I : Cert.Spec.Args) (hre : Cert.Math.RealArgs I) :
    tSpatialK (fun j => Cert.Spec.ssP I (j 0) (j 1)) (fun j => Cert.Spec.ssQ I (j 0)) (Cert.Spec.sumArr I) = Cert.Spec.spatialArr I := by
  funext j
  refine (tSpatialK_ix _ _ _ j).trans ?_
  show _ = Cert.Spec.spatial I
  rw [Cert.Math.spatial_eq hre]
  rfl

/-! ## The frame run's post, read on one core -/

variable (m : (ℓ : Loc nD τ sig) → Buf (Elt Ideal) ℓ) (c : Dev nD)

/-- Window w's array as the pipeline leaves it. -/
abbrev Aout (w : Fin cfg0.W) := (dats m 0 c).arrAt w cfg0.N

/-- The core's buffer contents at the region's exit: the windows' arrays at what the pipeline left, every other buffer as the region found it. -/
abbrev Wout : Valuation τ sig (Elt Ideal) := Pipeline.withArrays spec0 c (V0 m c) (fun w => (dats m 0 c).arrAt w cfg0.N)

/-- After the later lines a buffer holds their value from the region's exit contents. -/
theorem afterTail_eq (b : Ref sig .tc) :
    Pipeline.afterTail₀ cfgs (dats m) 0 (V0 m) [hostOps1] c b = StableHlo.after (hostOps1 (F := Ideal)) (Wout m c) (Proc.devRef .tc b) := by
  unfold Pipeline.afterTail₀
  rw [show List.flatten [(hostOps1 : List (HloOp τ sig (Elt Ideal)))] = hostOps1 from List.append_nil _]

/-- Every argument buffer ends as launched. -/
theorem args_of_post (r : PUnit × MemSt nD τ sig (Elt Ideal))
    (h : Pipeline.FramePost cfgs (dats m) 0 (Pipeline.afterTail₀ cfgs (dats m) 0 (V0 m) [hostOps1]) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).2 main_arg2 (Pipeline.mem_restRefs_of main_arg2 rfl (by decide))).trans (afterTail_untouched m (dats m) c main_arg2 (by decide) (by decide) (by decide)),
   ((h c).1 3).trans (((dats m 0 c).arrAt_in 3 rfl _).trans ((A_eq m c 3).trans (V_main_arg3 m c))),
   ((h c).1 4).trans (((dats m 0 c).arrAt_in 4 rfl _).trans ((A_eq m c 4).trans (V_main_arg4 m c))),
   ((h c).2 main_arg5 (Pipeline.mem_restRefs_of main_arg5 rfl (by decide))).trans (afterTail_untouched m (dats m) c main_arg5 (by decide) (by decide) (by decide)),
   ((h c).1 6).trans (((dats m 0 c).arrAt_in 6 rfl _).trans ((A_eq m c 6).trans (V_main_arg6 m c))),
   ((h c).2 main_arg7 (Pipeline.mem_restRefs_of main_arg7 rfl (by decide))).trans (afterTail_untouched m (dats m) c main_arg7 (by decide) (by decide) (by decide)),
   ((h c).2 main_arg8 (Pipeline.mem_restRefs_of main_arg8 rfl (by decide))).trans (afterTail_untouched m (dats m) c main_arg8 (by decide) (by decide) (by decide))⟩

/-- Each result buffer of the later lines ends at those lines' value from the region's exit contents, and the assignment
    array at what the pipeline left. -/
theorem res_of_post (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v12) = StableHlo.after (hostOps1 (F := Ideal)) (Wout m c) (Proc.devRef .tc main_v12)
      ∧ r.2.mem ((c.tc : Thread nD τ).loc main_v20) = StableHlo.after (hostOps1 (F := Ideal)) (Wout m c) (Proc.devRef .tc main_v20)
      ∧ r.2.mem ((c.tc : Thread nD τ).loc main_v26) = StableHlo.after (hostOps1 (F := Ideal)) (Wout m c) (Proc.devRef .tc main_v26)
      ∧ r.2.mem ((c.tc : Thread nD τ).loc main_v23) = StableHlo.after (hostOps1 (F := Ideal)) (Wout m c) (Proc.devRef .tc main_v23)
      ∧ r.2.mem ((c.tc : Thread nD τ).loc main_v70) = StableHlo.after (hostOps1 (F := Ideal)) (Wout m c) (Proc.devRef .tc main_v70)
      ∧ r.2.mem ((c.tc : Thread nD τ).loc main_v38) = StableHlo.after (hostOps1 (F := Ideal)) (Wout m c) (Proc.devRef .tc main_v38)
      ∧ r.2.mem ((c.tc : Thread nD τ).loc main_v46) = StableHlo.after (hostOps1 (F := Ideal)) (Wout m c) (Proc.devRef .tc main_v46)
      ∧ r.2.mem ((c.tc : Thread nD τ).loc main_v4_0) = (dats m 0 c).arrAt 9 cfg0.N :=
  ⟨((h c).2 main_v12 (Pipeline.mem_restRefs_of main_v12 rfl (by decide))).trans (afterTail_eq m c main_v12),
   ((h c).2 main_v20 (Pipeline.mem_restRefs_of main_v20 rfl (by decide))).trans (afterTail_eq m c main_v20),
   ((h c).2 main_v26 (Pipeline.mem_restRefs_of main_v26 rfl (by decide))).trans (afterTail_eq m c main_v26),
   ((h c).2 main_v23 (Pipeline.mem_restRefs_of main_v23 rfl (by decide))).trans (afterTail_eq m c main_v23),
   ((h c).2 main_v70 (Pipeline.mem_restRefs_of main_v70 rfl (by decide))).trans (afterTail_eq m c main_v70),
   ((h c).2 main_v38 (Pipeline.mem_restRefs_of main_v38 rfl (by decide))).trans (afterTail_eq m c main_v38),
   ((h c).2 main_v46 (Pipeline.mem_restRefs_of main_v46 rfl (by decide))).trans (afterTail_eq m c main_v46),
   (h c).1 9⟩

/-- The region's exit contents at each accumulator array: what the pipeline left there. -/
theorem Wout_arr1 : Wout m c (Proc.devRef .tc main_v4_1) = (dats m 0 c).arrAt 10 cfg0.N :=
  Pipeline.withArrays_arr spec0 launch0.win.arr_inj c _ _ 10
theorem Wout_arr2 : Wout m c (Proc.devRef .tc main_v4_2) = (dats m 0 c).arrAt 11 cfg0.N :=
  Pipeline.withArrays_arr spec0 launch0.win.arr_inj c _ _ 11
theorem Wout_arr3 : Wout m c (Proc.devRef .tc main_v4_3) = (dats m 0 c).arrAt 12 cfg0.N :=
  Pipeline.withArrays_arr spec0 launch0.win.arr_inj c _ _ 12
theorem Wout_arr4 : Wout m c (Proc.devRef .tc main_v4_4) = (dats m 0 c).arrAt 13 cfg0.N :=
  Pipeline.withArrays_arr spec0 launch0.win.arr_inj c _ _ 13
theorem Wout_arr5 : Wout m c (Proc.devRef .tc main_v4_5) = (dats m 0 c).arrAt 14 cfg0.N :=
  Pipeline.withArrays_arr spec0 launch0.win.arr_inj c _ _ 14
theorem Wout_arr6 : Wout m c (Proc.devRef .tc main_v4_6) = (dats m 0 c).arrAt 15 cfg0.N :=
  Pipeline.withArrays_arr spec0 launch0.win.arr_inj c _ _ 15
theorem Wout_arr7 : Wout m c (Proc.devRef .tc main_v4_7) = (dats m 0 c).arrAt 16 cfg0.N :=
  Pipeline.withArrays_arr spec0 launch0.win.arr_inj c _ _ 16

/-! ## The arrays the later lines start from are the specification's -/

/-- %12: the segment-wise feature sums. -/
theorem out_val : hOut (G10 m c) = Cert.Spec.outArr (argsOf m c) :=
  out_eq (argsOf m c) (G10 m c) fun cc j cf => (G10_ix m c cc j cf).trans (acc10_last m c cc j cf)
/-- %39: the segment-wise position sums. -/
theorem ap_val : hAp (G11 m c) = Cert.Spec.apArr (argsOf m c) :=
  ap_eq (argsOf m c) (G11 m c) fun cc j d => (G11_ix m c cc j d).trans (acc11_last m c cc j d)
/-- %41: the segment-wise assignment sums. -/
theorem as_val : hAs (G12 m c) = Cert.Spec.asArr (argsOf m c) :=
  as_eq (argsOf m c) (G12 m c) fun cc j => (G12_ix m c cc (0 : Fin 1) j).trans (acc12_last m c cc j)
/-- %8: the position sums. -/
theorem sp_val : hsum13 (G13 m c) = fun j => Cert.Spec.ssP (argsOf m c) (j 0) (j 1) :=
  sp_eq (argsOf m c) (G13 m c) fun cc k d => (G13_ix m c cc k d).trans (acc13_last m c cc k d)
/-- %32: the squared-length sums. -/
theorem sq_val : hSq (G14 m c) = fun j => Cert.Spec.ssQ (argsOf m c) (j 0) :=
  sq_eq (argsOf m c) (G14 m c) fun cc k => (G14_ix m c cc k (0 : Fin 1)).trans (acc14_last m c cc k)
/-- %13: the assignment sums. -/
theorem sums_val : hSums (G15 m c) = Cert.Spec.sumArr (argsOf m c) :=
  sums_eq (argsOf m c) (G15 m c) fun cc k => (G15_ix m c cc (0 : Fin 1) k).trans (acc15_last m c cc k)
/-- %24: the entropy sum. -/
theorem ent_val : hEnt (G16 m c) = Cert.Spec.entArr (argsOf m c) :=
  ent_eq (argsOf m c) (G16 m c) fun cc => (G16_ix m c cc (0 : Fin 1) (0 : Fin 1)).trans (acc16_last m c cc)

/-! ## The run, read -/

/-- Every weakly fair execution of the program ends with its eight results at the later lines' functions of the
    specification's arrays, and its nine arguments as launched. -/
theorem kernel_values (ρ : Dev nD → PrngReg) (hre : ∀ c, Cert.Math.RealArgs (argsOf m c)) :
    θ_run defs (onTc (τ := τ) (main (F := Ideal))) ⟨m, fun _ => 0, ρ⟩ (fun r => ∀ c : Dev nD,
      r.2.mem ((c.tc : Thread nD τ).loc main_v12) = Cert.Spec.outArr (argsOf m c)
      ∧ r.2.mem ((c.tc : Thread nD τ).loc main_v4_0) = Cert.Spec.sArr (argsOf m c)
      ∧ r.2.mem ((c.tc : Thread nD τ).loc main_v20) = tDiversity (Cert.Spec.sumArr (argsOf m c))
      ∧ r.2.mem ((c.tc : Thread nD τ).loc main_v26) = tEntropy (Cert.Spec.entArr (argsOf m c))
      ∧ r.2.mem ((c.tc : Thread nD τ).loc main_v23) = tPruning (Cert.Spec.sumArr (argsOf m c))
      ∧ r.2.mem ((c.tc : Thread nD τ).loc main_v70) = tSeparation (tMu (Cert.Spec.apArr (argsOf m c)) (Cert.Spec.asArr (argsOf m c)))
      ∧ r.2.mem ((c.tc : Thread nD τ).loc main_v38) = Cert.Spec.spatialArr (argsOf m c)
      ∧ r.2.mem ((c.tc : Thread nD τ).loc main_v46) = tMu (Cert.Spec.apArr (argsOf m c)) (Cert.Spec.asArr (argsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    obtain ⟨h12, h20, h26, h23, h70, h38, h46, h40⟩ := res_of_post m c r h
    refine ⟨?_, ?_, ?_, ?_, ?_, ?_, ?_, ?_, args_of_post m c r h⟩
    · rw [h12, after_v12, Wout_arr1, arr10, out_val]
    · rw [h40, final9]
    · rw [h20, after_v20, Wout_arr6, arr15, sums_val]
    · rw [h26, after_v26, Wout_arr7, arr16, ent_val]
    · rw [h23, after_v23, Wout_arr6, arr15, sums_val]
    · rw [h70, after_v70, Wout_arr2, Wout_arr3, arr11, arr12, ap_val, as_val]
    · rw [h38, after_v38, Wout_arr4, Wout_arr5, Wout_arr6, arr13, arr14, arr15, sp_val, sq_val, sums_val]
      exact spatial_tail (argsOf m c) (hre c)
    · rw [h46, after_v46, Wout_arr2, Wout_arr3, arr11, arr12, ap_val, as_val])
    (run_main m ρ)

end Cert.KernelIdeal.Val

end
-- ==== Proof.Ref.S.lean ====
/-
  The reference's soft assignment read index by index: row n, cluster k of its softmax is the shared
  specification's s[n, k] of the argument arrays.
-/
import proofs.«406053_j76209899700419_3_alg».proof.Proof.Gen.ReferenceIdeal.Run
import proofs.«406053_j76209899700419_3_alg».proof.Proof.Gen.ReferenceIdeal.Read
import proofs.«406053_j76209899700419_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The contents of an f32 array, and of a 32-bit integer array, of a given shape at the extended reals. -/
abbrev FA (s : Shape) : Type := (⟨s, .f32⟩ : BufTy).Contents (Elt Ideal)
abbrev IA (s : Shape) : Type := (⟨s, .i32⟩ : BufTy).Contents (Elt Ideal)

/-- The specification's argument record of the nine argument arrays. -/
def argsOf (x0 : FA S100000x128) (x1 : FA S100000x3) (x2 : IA S100000) (x3 : FA S100000x16) (x4 : FA S128x128)
    (x5 : FA S128) (x6 : FA S128x16) (x7 : FA S16) (x8 : FA S_) : Cert.Spec.Args :=
  ⟨x0, x1, x2, x3, x4, x5, x6, x7, x8⟩

/-! ## The composed index functions at coordinates -/

theorem lidx0_ix (n : Fin 100000) (c k : Fin 128) : lidx_main_v0 (ix2 n c) k = ix2 n k :=
  funext fun a => by match a with | ⟨0, _⟩ => rfl | ⟨1, _⟩ => rfl
theorem ridx0_ix (n : Fin 100000) (c k : Fin 128) : ridx_main_v0 (ix2 n c) k = ix2 k c :=
  funext fun a => by match a with | ⟨0, _⟩ => rfl | ⟨1, _⟩ => rfl
theorem idx12_ix (n : Fin 100000) (c : Fin 128) : idx_main_v1 (idx_main_v2 (ix2 n c)) = ix1 c :=
  funext fun a => by match a with | ⟨0, _⟩ => rfl
theorem lidx5_ix (n : Fin 100000) (k : Fin 16) (c : Fin 128) : lidx_main_v5 (ix2 n k) c = ix2 n c :=
  funext fun a => by match a with | ⟨0, _⟩ => rfl | ⟨1, _⟩ => rfl
theorem ridx5_ix (n : Fin 100000) (k : Fin 16) (c : Fin 128) : ridx_main_v5 (ix2 n k) c = ix2 c k :=
  funext fun a => by match a with | ⟨0, _⟩ => rfl | ⟨1, _⟩ => rfl
theorem idx67_ix (n : Fin 100000) (k : Fin 16) : idx_main_v6 (idx_main_v7 (ix2 n k)) = ix1 k :=
  funext fun a => by match a with | ⟨0, _⟩ => rfl
theorem idx9_ix (i : S100000x16.Idx) : idx_main_v9 i = ix0 := rfl
theorem idx1718_ix (n : Fin 100000) (k : Fin 16) : idx_main_v17 (idx_main_v18 (ix2 n k)) = ix1 n :=
  funext fun a => by match a with | ⟨0, _⟩ => rfl
theorem idx2223_ix (n : Fin 100000) (k : Fin 16) : idx_main_v22 (idx_main_v23 (ix2 n k)) = ix1 n :=
  funext fun a => by match a with | ⟨0, _⟩ => rfl
theorem idx21_ix (n : Fin 100000) (k : Fin 16) : idx_main_v21 (ix1 n) k = ix2 n k :=
  funext fun a => by match a with | ⟨0, _⟩ => rfl | ⟨1, _⟩ => rfl

/-! ## The hidden layer, the logits, their maximum, the exponentials, the quotient -/

section
variable (x0 : FA S100000x128) (x3 : FA S100000x16) (x4 : FA S128x128) (x5 : FA S128) (x6 : FA S128x16) (x7 : FA S16) (x8 : FA S_)

/-- relu(x · W1 + b1) at (n, c). -/
theorem v4_ix (n : Fin 100000) (c : Fin 128) :
    val_main_v4 (F := Ideal) x0 x4 x5 (ix2 n c) = Cert.Spec.hidRow (fun a => x0 (ix2 n a)) x4 (fun c => x5 (ix1 c)) c := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, lidx0_ix, ridx0_ix, idx12_ix]
  rfl

/-- ((h · W2 + b2) · scaling + gumbel) / 1 at (n, k). -/
theorem v13_ix (n : Fin 100000) (k : Fin 16) :
    val_main_v13 (F := Ideal) x0 x3 x4 x5 x6 x7 x8 (ix2 n k)
      = Cert.Spec.zRow (fun a => x0 (ix2 n a)) (fun k => x3 (ix2 n k)) x4 (fun c => x5 (ix1 c)) x6 (fun k => x7 (ix1 k)) (x8 ix0) k := by
  rw [val_main_v13_apply, val_main_v11_apply, val_main_v10_apply, val_main_v8_apply, val_main_v5_apply, val_main_v7_apply,
    val_main_v6_apply, val_main_v9_apply, val_main_v12_apply, val_main_cst_apply]
  simp only [Ideal.hostDivf_def, Ideal.addf_def, Ideal.mulf_def, Ideal.ofBits_def, lidx5_ix, ridx5_ix, idx67_ix, idx9_ix, v4_ix]
  rfl

/-- Row n with cluster k put back on the reduced axis is (n, k). -/
theorem lift16_ix (h : S100000x16.Reduces [1] S100000) (n : Fin 100000) (k : Fin (S100000x16.size 1)) :
    h.lift (ix1 n) k = ix2 n (⟨k.val, k.isLt⟩ : Fin 16) := by
  funext a; apply Fin.ext
  match a with
  | ⟨0, _⟩ => rfl
  | ⟨1, _⟩ => rfl

/-- The row maximum: the fold of max from −∞ over the 16 logits; a further maximum with −∞ changes nothing. -/
theorem v16_ix (n : Fin 100000) :
    val_main_v16 (F := Ideal) x0 x3 x4 x5 x6 x7 x8 (ix1 n)
      = Cert.Spec.zmaxRow (fun a => x0 (ix2 n a)) (fun k => x3 (ix2 n k)) x4 (fun c => x5 (ix1 c)) x6 (fun k => x7 (ix1 k)) (x8 ix0) := by
  have h : S100000x16.Reduces [1] S100000 := by decide
  rw [val_main_v16_apply, val_main_v15_apply, val_main_cst_1_apply]
  unfold val_main_v14
  rw [Host.reduce_eq_fold_single FloatOps.maximumf _ _ reducesTo_S100000x16_S100000_d1 h h_S_, val_main_cst_0_apply]
  have hf : (val_main_v13 (F := Ideal) x0 x3 x4 x5 x6 x7 x8 ∘ h.lift (ix1 n))
      = fun k : Fin 16 => Cert.Spec.zRow (fun a => x0 (ix2 n a)) (fun k => x3 (ix2 n k)) x4 (fun c => x5 (ix1 c)) x6
          (fun k => x7 (ix1 k)) (x8 ix0) k :=
    funext fun k => by
      show val_main_v13 (F := Ideal) x0 x3 x4 x5 x6 x7 x8 (h.lift (ix1 n) k) = _
      rw [lift16_ix, v13_ix]
      rfl
  rw [hf]
  simp only [Ideal.maximumf_def, Ideal.ofBits_def]
  exact max_eq_right ((Finset.le_fold_max _).mpr (Or.inl le_rfl))

/-- exp(z − max z) at (n, k). -/
theorem v20_ix (n : Fin 100000) (k : Fin 16) :
    val_main_v20 (F := Ideal) x0 x3 x4 x5 x6 x7 x8 (ix2 n k)
      = Cert.Spec.ezRow (fun a => x0 (ix2 n a)) (fun k => x3 (ix2 n k)) x4 (fun c => x5 (ix1 c)) x6 (fun k => x7 (ix1 k)) (x8 ix0) k := by
  rw [val_main_v20_apply, val_main_v19_apply, val_main_v18_apply, val_main_v17_apply, idx1718_ix, v13_ix, v16_ix]
  simp only [Ideal.hostUnary_exp_def, Ideal.subf_def]
  rfl

/-- The softmax at (n, k): exp(z − max z) over the row's sum of them (the sum starts from the word 0). -/
theorem v24_ix (n : Fin 100000) (k : Fin 16) :
    val_main_v24 (F := Ideal) x0 x3 x4 x5 x6 x7 x8 (ix2 n k)
      = Cert.Spec.sRow (fun a => x0 (ix2 n a)) (fun k => x3 (ix2 n k)) x4 (fun c => x5 (ix1 c)) x6 (fun k => x7 (ix1 k)) (x8 ix0) k := by
  rw [val_main_v24_apply, val_main_v23_apply, val_main_v22_apply, idx2223_ix, val_main_v21_apply, val_main_cst_2_apply]
  simp only [Ideal.hostDivf_def, Ideal.ofBits_def, Ideal.ofBits_zero_f32, zero_add, idx21_ix, v20_ix]
  rfl

end

/-- R1. The reference's soft assignment is the specification's. -/
theorem v24_eq (x0 : FA S100000x128) (x1 : FA S100000x3) (x2 : IA S100000) (x3 : FA S100000x16) (x4 : FA S128x128)
    (x5 : FA S128) (x6 : FA S128x16) (x7 : FA S16) (x8 : FA S_) :
    val_main_v24 (F := Ideal) x0 x3 x4 x5 x6 x7 x8 = Cert.Spec.sArr (argsOf x0 x1 x2 x3 x4 x5 x6 x7 x8) := by
  funext j
  obtain ⟨n, k, rfl⟩ : ∃ (n : Fin 100000) (k : Fin 16), j = ix2 n k := ⟨j 0, j 1, eq_ix2 j⟩
  rw [v24_ix]
  rfl

end Cert.ReferenceIdeal.RefValue

end
-- ==== Proof.Ref.Sums.lean ====
/-
  The reference's sums of the soft assignment over all rows, read index by index: the column sums Σ_n s[n, k]
  (computed twice) and the entropy sum Σ_n Σ_k s · log(s + ε).
-/
import proofs.«406053_j76209899700419_3_alg».proof.Proof.Gen.ReferenceIdeal.Run
import proofs.«406053_j76209899700419_3_alg».proof.Proof.Gen.ReferenceIdeal.Read
import proofs.«406053_j76209899700419_3_alg».proof.Proof.Spec
import proofs.«406053_j76209899700419_3_alg».proof.Proof.Ref.S

noncomputable section

open scoped BigOperators

namespace Cert.ReferenceIdeal.RefValue

open Cert.ReferenceIdeal Cert.ReferenceIdeal.Gen Cert.ReferenceIdeal.Read Idealize.ShloMosaic Idealize.ShloMosaic.ValueIdx

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem idx33_ix (k : Fin 16) (n : Fin 100000) : idx_main_v33 (ix1 k) n = ix2 n k :=
  funext fun a => by match a with | ⟨0, _⟩ => rfl | ⟨1, _⟩ => rfl
theorem idx44_ix (k : Fin 16) (n : Fin 100000) : idx_main_v44 (ix1 k) n = ix2 n k :=
  funext fun a => by match a with | ⟨0, _⟩ => rfl | ⟨1, _⟩ => rfl
theorem idx29_ix (n : Fin 100000) (k : Fin 16) : idx_main_v29 (ix1 n) k = ix2 n k :=
  funext fun a => by match a with | ⟨0, _⟩ => rfl | ⟨1, _⟩ => rfl

/-- R3. The column sums of s, from the word 0. -/
theorem v33_eq (x0 : FA S100000x128) (x1 : FA S100000x3) (x2 : IA S100000) (x3 : FA S100000x16) (x4 : FA S128x128)
    (x5 : FA S128) (x6 : FA S128x16) (x7 : FA S16) (x8 : FA S_) :
    val_main_v33 (F := Ideal) x0 x3 x4 x5 x6 x7 x8 = Cert.Spec.sumArr (argsOf x0 x1 x2 x3 x4 x5 x6 x7 x8) := by
  funext i
  obtain ⟨k, rfl⟩ : ∃ k : Fin 16, i = ix1 k := ⟨i 0, eq_ix1 i⟩
  rw [val_main_v33_apply, val_main_cst_7_apply]
  simp only [Ideal.ofBits_def, Ideal.ofBits_zero_f32, zero_add, idx33_ix, v24_ix]
  rfl

/-- R3, the second computation of the same sums. -/
theorem v44_eq (x0 : FA S100000x128) (x1 : FA S100000x3) (x2 : IA S100000) (x3 : FA S100000x16) (x4 : FA S128x128)
    (x5 : FA S128) (x6 : FA S128x16) (x7 : FA S16) (x8 : FA S_) :
    val_main_v44 (F := Ideal) x0 x3 x4 x5 x6 x7 x8 = Cert.Spec.sumArr (argsOf x0 x1 x2 x3 x4 x5 x6 x7 x8) := by
  funext i
  obtain ⟨k, rfl⟩ : ∃ k : Fin 16, i = ix1 k := ⟨i 0, eq_ix1 i⟩
  rw [val_main_v44_apply, val_main_cst_13_apply]
  simp only [Ideal.ofBits_def, Ideal.ofBits_zero_f32, zero_add, idx44_ix, v24_ix]
  rfl

/-- R5. The entropy sum: over the rows, of the row's sum over the clusters of s · log(s + ε), each from the word 0. -/
theorem v30_eq (x0 : FA S100000x128) (x1 : FA S100000x3) (x2 : IA S100000) (x3 : FA S100000x16) (x4 : FA S128x128)
    (x5 : FA S128) (x6 : FA S128x16) (x7 : FA S16) (x8 : FA S_) :
    val_main_v30 (F := Ideal) x0 x3 x4 x5 x6 x7 x8 = Cert.Spec.entArr (argsOf x0 x1 x2 x3 x4 x5 x6 x7 x8) := by
  funext i
  rw [val_main_v30_apply, val_main_cst_5_apply, sum_idx1]
  simp only [Ideal.ofBits_def, Ideal.ofBits_zero_f32, zero_add, val_main_v29_apply, val_main_cst_4_apply, idx29_ix,
    val_main_v28_apply, val_main_v27_apply, val_main_v26_apply, val_main_v25_apply, val_main_cst_3_apply, v24_ix,
    Ideal.mulf_def, Ideal.addf_def, Ideal.hostUnary_log_def]
  rfl

end Cert.ReferenceIdeal.RefValue

end
-- ==== Proof.Ref.Scatter.lean ====
/-
  The reference's three segment sums (scatter-adds over the rows' segment words) read index by index: the
  specification's sums over the rows of each segment.
-/
import proofs.«406053_j76209899700419_3_alg».proof.Proof.Gen.ReferenceIdeal.Run
import proofs.«406053_j76209899700419_3_alg».proof.Proof.Gen.ReferenceIdeal.Read
import proofs.«406053_j76209899700419_3_alg».proof.Proof.Spec
import proofs.«406053_j76209899700419_3_alg».proof.Proof.Ref.S

noncomputable section

open scoped BigOperators

namespace Cert.ReferenceIdeal.RefValue

open Cert.ReferenceIdeal Cert.ReferenceIdeal.Gen Cert.ReferenceIdeal.Read Idealize.ShloMosaic Idealize.ShloMosaic.ValueIdx

/-- A 32-bit word read signed is the natural number b < 16 exactly when it is the word of b. -/
theorem toInt_eq_iff (w : BitVec 32) (b : Fin 16) : w.toInt = (b.val : Int) ↔ w = BitVec.ofNat 32 b.val := by
  have hb := b.isLt
  have hw := w.isLt
  rw [BitVec.toInt_eq_toNat_cond]
  constructor
  · intro h
    apply BitVec.eq_of_toNat_eq
    rw [BitVec.toNat_ofNat]
    split at h <;> omega
  · intro h
    rw [h, BitVec.toNat_ofNat]
    split <;> omega

/-! ## Where an update lands

The three scatters have one scatter index per row (the row's word, read signed and not clamped), the operand's axis 0
inserted, and the updates' later axes as window axes: update (n, k, c) lands on (word n, k, c) when the word is a
segment number below 16, and nowhere otherwise. -/

/-- The dimension numbers of the scatter of s, of pos·s and of x·s. -/
abbrev dS := scatter_S16x16_S100000x1_S100000x16_1_0_0_1
abbrev dP := scatter_S16x16x3_S100000x1_S100000x16x3_12_0_0_1
abbrev dX := scatter_S16x16x128_S100000x1_S100000x16x128_12_0_0_1

theorem dS_start0 (idx : IVec S100000x1 32) (n : Fin 100000) (k : Fin 16) :
    dS.start (ix2 n k : S100000x16.Idx) idx (0 : Fin 2) = (idx (ix2 n (0 : Fin 1))).toInt := by
  unfold ScatterDims.start
  rw [dif_pos (show (0 : Fin S16x16.rank) ∈ dS.scatterDimsToOperandDims from List.mem_singleton.mpr rfl)]
  congr 2
  funext b
  refine Fin.ext ?_
  match b with
  | ⟨0, _⟩ => rfl
  | ⟨1, _⟩ => rfl

theorem dS_start1 (idx : IVec S100000x1 32) (j : S100000x16.Idx) :
    dS.start j idx (1 : Fin 2) = 0 := by
  unfold ScatterDims.start
  rw [dif_neg (show ¬ (1 : Fin S16x16.rank) ∈ dS.scatterDimsToOperandDims by decide)]

theorem dS_window0 (j : S100000x16.Idx) : dS.window j (0 : Fin 2) = 0 := by
  unfold ScatterDims.window
  rw [dif_neg (show ¬ (0 : Fin S16x16.rank) ∈ dS.sKept by decide)]

theorem dS_window1 (n : Fin 100000) (k : Fin 16) : dS.window (ix2 n k : S100000x16.Idx) (1 : Fin 2) = k.val := by
  unfold ScatterDims.window
  rw [dif_pos (show (1 : Fin S16x16.rank) ∈ dS.sKept by decide)]
  rfl

theorem dS_resultIdx (idx : IVec S100000x1 32) (n : Fin 100000) (k : Fin 16) (b k' : Fin 16) :
    dS.resultIdx? (ix2 n k : S100000x16.Idx) idx = some (ix2 b k' : S16x16.Idx)
      ↔ (idx (ix2 n (0 : Fin 1)) = BitVec.ofNat 32 b.val ∧ k = k') := by
  unfold ScatterDims.resultIdx?
  constructor
  · intro h
    split at h
    · rename_i hc
      have e := Option.some.inj h
      have e0 := congrArg (fun f : S16x16.Idx => (f 0).val) e
      have e1 := congrArg (fun f : S16x16.Idx => (f 1).val) e
      simp only [dS_start0, dS_start1, dS_window0, dS_window1] at e0 e1
      have h0 := hc 0
      simp only [dS_start0, dS_window0] at h0
      refine ⟨(toInt_eq_iff _ b).mp ?_, Fin.ext ?_⟩
      · have : ((ix2 b k' : S16x16.Idx) 0).val = b.val := rfl
        omega
      · have : ((ix2 b k' : S16x16.Idx) 1).val = k'.val := rfl
        omega
    · exact absurd h (by simp)
  · rintro ⟨hb, rfl⟩
    have hi := (toInt_eq_iff _ b).mpr hb
    have hc : ∀ a : Fin S16x16.rank, 0 ≤ dS.start (ix2 n k : S100000x16.Idx) idx a + dS.window (ix2 n k : S100000x16.Idx) a ∧
        dS.start (ix2 n k : S100000x16.Idx) idx a + dS.window (ix2 n k : S100000x16.Idx) a < S16x16.size a := by
      intro a
      match a with
      | ⟨0, _⟩ =>
        have := b.isLt
        show 0 ≤ dS.start (ix2 n k : S100000x16.Idx) idx (0 : Fin 2) + dS.window (ix2 n k : S100000x16.Idx) (0 : Fin 2) ∧ dS.start (ix2 n k : S100000x16.Idx) idx (0 : Fin 2) + dS.window (ix2 n k : S100000x16.Idx) (0 : Fin 2) < (16 : Nat)
        rw [dS_start0, dS_window0, hi]; omega
      | ⟨1, _⟩ =>
        have := k.isLt
        show 0 ≤ dS.start (ix2 n k : S100000x16.Idx) idx (1 : Fin 2) + dS.window (ix2 n k : S100000x16.Idx) (1 : Fin 2) ∧ dS.start (ix2 n k : S100000x16.Idx) idx (1 : Fin 2) + dS.window (ix2 n k : S100000x16.Idx) (1 : Fin 2) < (16 : Nat)
        rw [dS_start1, dS_window1]; omega
    rw [dif_pos hc]
    congr 1
    funext a
    refine Fin.ext ?_
    match a with
    | ⟨0, _⟩ =>
      show (dS.start (ix2 n k : S100000x16.Idx) idx (0 : Fin 2) + dS.window (ix2 n k : S100000x16.Idx) (0 : Fin 2)).toNat = b.val
      rw [dS_start0, dS_window0, hi]; omega
    | ⟨1, _⟩ =>
      show (dS.start (ix2 n k : S100000x16.Idx) idx (1 : Fin 2) + dS.window (ix2 n k : S100000x16.Idx) (1 : Fin 2)).toNat = k.val
      rw [dS_start1, dS_window1]; omega

/-- The updates that land on (b, k') are, one per row n whose word is b, the update at (n, k'). -/
theorem dS_sum (idx : IVec S100000x1 32) (upd : S100000x16.Idx → EReal) (b k' : Fin 16)
    [DecidablePred fun j : S100000x16.Idx => dS.resultIdx? j idx = some (ix2 b k' : S16x16.Idx)] :
    ∑ j ∈ Finset.univ.filter (fun j : S100000x16.Idx => dS.resultIdx? j idx = some (ix2 b k' : S16x16.Idx)), upd j
      = ∑ n : Fin 100000, if idx (ix2 n (0 : Fin 1)) = BitVec.ofNat 32 b.val then upd (ix2 n k') else 0 := by
  refine Eq.trans ?_ (Finset.sum_filter _ _)
  refine Finset.sum_nbij' (fun j : S100000x16.Idx => (⟨(j 0).val, (j 0).isLt⟩ : Fin 100000)) (fun n => (ix2 n k' : S100000x16.Idx)) ?_ ?_ ?_ ?_ ?_
  · intro j hj
    obtain ⟨n, k, rfl⟩ : ∃ (n : Fin 100000) (k : Fin 16), j = ix2 n k := ⟨j 0, j 1, eq_ix2 j⟩
    exact Finset.mem_filter.mpr ⟨Finset.mem_univ _, ((dS_resultIdx idx n k b k').mp (Finset.mem_filter.mp hj).2).1⟩
  · intro n hn
    exact Finset.mem_filter.mpr ⟨Finset.mem_univ _, (dS_resultIdx idx n k' b k').mpr ⟨(Finset.mem_filter.mp hn).2, rfl⟩⟩
  · intro j hj
    obtain ⟨n, k, rfl⟩ : ∃ (n : Fin 100000) (k : Fin 16), j = ix2 n k := ⟨j 0, j 1, eq_ix2 j⟩
    obtain ⟨_, rfl⟩ := (dS_resultIdx idx n k b k').mp (Finset.mem_filter.mp hj).2
    rfl
  · intro n _
    rfl
  · intro j hj
    obtain ⟨n, k, rfl⟩ : ∃ (n : Fin 100000) (k : Fin 16), j = ix2 n k := ⟨j 0, j 1, eq_ix2 j⟩
    obtain ⟨_, rfl⟩ := (dS_resultIdx idx n k b k').mp (Finset.mem_filter.mp hj).2
    rfl

theorem dP_start0 (idx : IVec S100000x1 32) (n : Fin 100000) (k : Fin 16) (c : Fin 3) :
    dP.start (ix3 n k c : S100000x16x3.Idx) idx (0 : Fin 3) = (idx (ix2 n (0 : Fin 1))).toInt := by
  unfold ScatterDims.start
  rw [dif_pos (show (0 : Fin S16x16x3.rank) ∈ dP.scatterDimsToOperandDims from List.mem_singleton.mpr rfl)]
  congr 2
  funext b
  refine Fin.ext ?_
  match b with
  | ⟨0, _⟩ => rfl
  | ⟨1, _⟩ => rfl

theorem dP_start1 (idx : IVec S100000x1 32) (j : S100000x16x3.Idx) : dP.start j idx (1 : Fin 3) = 0 := by
  unfold ScatterDims.start
  rw [dif_neg (show ¬ (1 : Fin S16x16x3.rank) ∈ dP.scatterDimsToOperandDims by decide)]

theorem dP_start2 (idx : IVec S100000x1 32) (j : S100000x16x3.Idx) : dP.start j idx (2 : Fin 3) = 0 := by
  unfold ScatterDims.start
  rw [dif_neg (show ¬ (2 : Fin S16x16x3.rank) ∈ dP.scatterDimsToOperandDims by decide)]

theorem dP_window0 (j : S100000x16x3.Idx) : dP.window j (0 : Fin 3) = 0 := by
  unfold ScatterDims.window
  rw [dif_neg (show ¬ (0 : Fin S16x16x3.rank) ∈ dP.sKept by decide)]

theorem dP_window1 (n : Fin 100000) (k : Fin 16) (c : Fin 3) : dP.window (ix3 n k c : S100000x16x3.Idx) (1 : Fin 3) = k.val := by
  unfold ScatterDims.window
  rw [dif_pos (show (1 : Fin S16x16x3.rank) ∈ dP.sKept by decide)]
  rfl

theorem dP_window2 (n : Fin 100000) (k : Fin 16) (c : Fin 3) : dP.window (ix3 n k c : S100000x16x3.Idx) (2 : Fin 3) = c.val := by
  unfold ScatterDims.window
  rw [dif_pos (show (2 : Fin S16x16x3.rank) ∈ dP.sKept by decide)]
  rfl

/-- Update (n, k, c) lands on (b, k', c') exactly when row n's word is b and (k, c) = (k', c'). -/
theorem dP_resultIdx (idx : IVec S100000x1 32) (n : Fin 100000) (k : Fin 16) (c : Fin 3) (b k' : Fin 16) (c' : Fin 3) :
    dP.resultIdx? (ix3 n k c : S100000x16x3.Idx) idx = some (ix3 b k' c' : S16x16x3.Idx)
      ↔ (idx (ix2 n (0 : Fin 1)) = BitVec.ofNat 32 b.val ∧ k = k' ∧ c = c') := by
  unfold ScatterDims.resultIdx?
  constructor
  · intro h
    split at h
    · rename_i hc
      have e := Option.some.inj h
      have e0 := congrArg (fun f : S16x16x3.Idx => (f 0).val) e
      have e1 := congrArg (fun f : S16x16x3.Idx => (f 1).val) e
      have e2 := congrArg (fun f : S16x16x3.Idx => (f 2).val) e
      simp only [dP_start0, dP_start1, dP_start2, dP_window0, dP_window1, dP_window2] at e0 e1 e2
      have h0 := hc 0
      simp only [dP_start0, dP_window0] at h0
      refine ⟨(toInt_eq_iff _ b).mp ?_, Fin.ext ?_, Fin.ext ?_⟩
      · have : ((ix3 b k' c' : S16x16x3.Idx) 0).val = b.val := rfl
        omega
      · have : ((ix3 b k' c' : S16x16x3.Idx) 1).val = k'.val := rfl
        omega
      · have : ((ix3 b k' c' : S16x16x3.Idx) 2).val = c'.val := rfl
        omega
    · exact absurd h (by simp)
  · rintro ⟨hb, rfl, rfl⟩
    have hi := (toInt_eq_iff _ b).mpr hb
    have hc : ∀ a : Fin S16x16x3.rank, 0 ≤ dP.start (ix3 n k c : S100000x16x3.Idx) idx a + dP.window (ix3 n k c : S100000x16x3.Idx) a ∧
        dP.start (ix3 n k c : S100000x16x3.Idx) idx a + dP.window (ix3 n k c : S100000x16x3.Idx) a < S16x16x3.size a := by
      intro a
      match a with
      | ⟨0, _⟩ =>
        have := b.isLt
        show 0 ≤ dP.start (ix3 n k c : S100000x16x3.Idx) idx (0 : Fin 3) + dP.window (ix3 n k c : S100000x16x3.Idx) (0 : Fin 3) ∧
          dP.start (ix3 n k c : S100000x16x3.Idx) idx (0 : Fin 3) + dP.window (ix3 n k c : S100000x16x3.Idx) (0 : Fin 3) < (16 : Nat)
        rw [dP_start0, dP_window0, hi]; omega
      | ⟨1, _⟩ =>
        have := k.isLt
        show 0 ≤ dP.start (ix3 n k c : S100000x16x3.Idx) idx (1 : Fin 3) + dP.window (ix3 n k c : S100000x16x3.Idx) (1 : Fin 3) ∧
          dP.start (ix3 n k c : S100000x16x3.Idx) idx (1 : Fin 3) + dP.window (ix3 n k c : S100000x16x3.Idx) (1 : Fin 3) < (16 : Nat)
        rw [dP_start1, dP_window1]; omega
      | ⟨2, _⟩ =>
        have := c.isLt
        show 0 ≤ dP.start (ix3 n k c : S100000x16x3.Idx) idx (2 : Fin 3) + dP.window (ix3 n k c : S100000x16x3.Idx) (2 : Fin 3) ∧
          dP.start (ix3 n k c : S100000x16x3.Idx) idx (2 : Fin 3) + dP.window (ix3 n k c : S100000x16x3.Idx) (2 : Fin 3) < (3 : Nat)
        rw [dP_start2, dP_window2]; omega
    rw [dif_pos hc]
    congr 1
    funext a
    refine Fin.ext ?_
    match a with
    | ⟨0, _⟩ =>
      show (dP.start (ix3 n k c : S100000x16x3.Idx) idx (0 : Fin 3) + dP.window (ix3 n k c : S100000x16x3.Idx) (0 : Fin 3)).toNat = b.val
      rw [dP_start0, dP_window0, hi]; omega
    | ⟨1, _⟩ =>
      show (dP.start (ix3 n k c : S100000x16x3.Idx) idx (1 : Fin 3) + dP.window (ix3 n k c : S100000x16x3.Idx) (1 : Fin 3)).toNat = k.val
      rw [dP_start1, dP_window1]; omega
    | ⟨2, _⟩ =>
      show (dP.start (ix3 n k c : S100000x16x3.Idx) idx (2 : Fin 3) + dP.window (ix3 n k c : S100000x16x3.Idx) (2 : Fin 3)).toNat = c.val
      rw [dP_start2, dP_window2]; omega

/-- The updates that land on (b, k', c') are, one per row n whose word is b, the update at (n, k', c'). -/
theorem dP_sum (idx : IVec S100000x1 32) (upd : S100000x16x3.Idx → EReal) (b k' : Fin 16) (c' : Fin 3)
    [DecidablePred fun j : S100000x16x3.Idx => dP.resultIdx? j idx = some (ix3 b k' c' : S16x16x3.Idx)] :
    ∑ j ∈ Finset.univ.filter (fun j : S100000x16x3.Idx => dP.resultIdx? j idx = some (ix3 b k' c' : S16x16x3.Idx)), upd j
      = ∑ n : Fin 100000, if idx (ix2 n (0 : Fin 1)) = BitVec.ofNat 32 b.val then upd (ix3 n k' c') else 0 := by
  refine Eq.trans ?_ (Finset.sum_filter _ _)
  refine Finset.sum_nbij' (fun j : S100000x16x3.Idx => (⟨(j 0).val, (j 0).isLt⟩ : Fin 100000)) (fun n => (ix3 n k' c' : S100000x16x3.Idx)) ?_ ?_ ?_ ?_ ?_
  · intro j hj
    obtain ⟨n, k, c, rfl⟩ : ∃ (n : Fin 100000) (k : Fin 16) (c : Fin 3), j = ix3 n k c := ⟨j 0, j 1, j 2, eq_ix3 j⟩
    exact Finset.mem_filter.mpr ⟨Finset.mem_univ _, ((dP_resultIdx idx n k c b k' c').mp (Finset.mem_filter.mp hj).2).1⟩
  · intro n hn
    exact Finset.mem_filter.mpr ⟨Finset.mem_univ _, (dP_resultIdx idx n k' c' b k' c').mpr ⟨(Finset.mem_filter.mp hn).2, rfl, rfl⟩⟩
  · intro j hj
    obtain ⟨n, k, c, rfl⟩ : ∃ (n : Fin 100000) (k : Fin 16) (c : Fin 3), j = ix3 n k c := ⟨j 0, j 1, j 2, eq_ix3 j⟩
    obtain ⟨_, rfl, rfl⟩ := (dP_resultIdx idx n k c b k' c').mp (Finset.mem_filter.mp hj).2
    rfl
  · intro n _
    rfl
  · intro j hj
    obtain ⟨n, k, c, rfl⟩ : ∃ (n : Fin 100000) (k : Fin 16) (c : Fin 3), j = ix3 n k c := ⟨j 0, j 1, j 2, eq_ix3 j⟩
    obtain ⟨_, rfl, rfl⟩ := (dP_resultIdx idx n k c b k' c').mp (Finset.mem_filter.mp hj).2
    rfl

theorem dX_start0 (idx : IVec S100000x1 32) (n : Fin 100000) (k : Fin 16) (c : Fin 128) :
    dX.start (ix3 n k c : S100000x16x128.Idx) idx (0 : Fin 3) = (idx (ix2 n (0 : Fin 1))).toInt := by
  unfold ScatterDims.start
  rw [dif_pos (show (0 : Fin S16x16x128.rank) ∈ dX.scatterDimsToOperandDims from List.mem_singleton.mpr rfl)]
  congr 2
  funext b
  refine Fin.ext ?_
  match b with
  | ⟨0, _⟩ => rfl
  | ⟨1, _⟩ => rfl

theorem dX_start1 (idx : IVec S100000x1 32) (j : S100000x16x128.Idx) : dX.start j idx (1 : Fin 3) = 0 := by
  unfold ScatterDims.start
  rw [dif_neg (show ¬ (1 : Fin S16x16x128.rank) ∈ dX.scatterDimsToOperandDims by decide)]

theorem dX_start2 (idx : IVec S100000x1 32) (j : S100000x16x128.Idx) : dX.start j idx (2 : Fin 3) = 0 := by
  unfold ScatterDims.start
  rw [dif_neg (show ¬ (2 : Fin S16x16x128.rank) ∈ dX.scatterDimsToOperandDims by decide)]

theorem dX_window0 (j : S100000x16x128.Idx) : dX.window j (0 : Fin 3) = 0 := by
  unfold ScatterDims.window
  rw [dif_neg (show ¬ (0 : Fin S16x16x128.rank) ∈ dX.sKept by decide)]

theorem dX_window1 (n : Fin 100000) (k : Fin 16) (c : Fin 128) : dX.window (ix3 n k c : S100000x16x128.Idx) (1 : Fin 3) = k.val := by
  unfold ScatterDims.window
  rw [dif_pos (show (1 : Fin S16x16x128.rank) ∈ dX.sKept by decide)]
  rfl

theorem dX_window2 (n : Fin 100000) (k : Fin 16) (c : Fin 128) : dX.window (ix3 n k c : S100000x16x128.Idx) (2 : Fin 3) = c.val := by
  unfold ScatterDims.window
  rw [dif_pos (show (2 : Fin S16x16x128.rank) ∈ dX.sKept by decide)]
  rfl

/-- Update (n, k, c) lands on (b, k', c') exactly when row n's word is b and (k, c) = (k', c'). -/
theorem dX_resultIdx (idx : IVec S100000x1 32) (n : Fin 100000) (k : Fin 16) (c : Fin 128) (b k' : Fin 16) (c' : Fin 128) :
    dX.resultIdx? (ix3 n k c : S100000x16x128.Idx) idx = some (ix3 b k' c' : S16x16x128.Idx)
      ↔ (idx (ix2 n (0 : Fin 1)) = BitVec.ofNat 32 b.val ∧ k = k' ∧ c = c') := by
  unfold ScatterDims.resultIdx?
  constructor
  · intro h
    split at h
    · rename_i hc
      have e := Option.some.inj h
      have e0 := congrArg (fun f : S16x16x128.Idx => (f 0).val) e
      have e1 := congrArg (fun f : S16x16x128.Idx => (f 1).val) e
      have e2 := congrArg (fun f : S16x16x128.Idx => (f 2).val) e
      simp only [dX_start0, dX_start1, dX_start2, dX_window0, dX_window1, dX_window2] at e0 e1 e2
      have h0 := hc 0
      simp only [dX_start0, dX_window0] at h0
      refine ⟨(toInt_eq_iff _ b).mp ?_, Fin.ext ?_, Fin.ext ?_⟩
      · have : ((ix3 b k' c' : S16x16x128.Idx) 0).val = b.val := rfl
        omega
      · have : ((ix3 b k' c' : S16x16x128.Idx) 1).val = k'.val := rfl
        omega
      · have : ((ix3 b k' c' : S16x16x128.Idx) 2).val = c'.val := rfl
        omega
    · exact absurd h (by simp)
  · rintro ⟨hb, rfl, rfl⟩
    have hi := (toInt_eq_iff _ b).mpr hb
    have hc : ∀ a : Fin S16x16x128.rank, 0 ≤ dX.start (ix3 n k c : S100000x16x128.Idx) idx a + dX.window (ix3 n k c : S100000x16x128.Idx) a ∧
        dX.start (ix3 n k c : S100000x16x128.Idx) idx a + dX.window (ix3 n k c : S100000x16x128.Idx) a < S16x16x128.size a := by
      intro a
      match a with
      | ⟨0, _⟩ =>
        have := b.isLt
        show 0 ≤ dX.start (ix3 n k c : S100000x16x128.Idx) idx (0 : Fin 3) + dX.window (ix3 n k c : S100000x16x128.Idx) (0 : Fin 3) ∧
          dX.start (ix3 n k c : S100000x16x128.Idx) idx (0 : Fin 3) + dX.window (ix3 n k c : S100000x16x128.Idx) (0 : Fin 3) < (16 : Nat)
        rw [dX_start0, dX_window0, hi]; omega
      | ⟨1, _⟩ =>
        have := k.isLt
        show 0 ≤ dX.start (ix3 n k c : S100000x16x128.Idx) idx (1 : Fin 3) + dX.window (ix3 n k c : S100000x16x128.Idx) (1 : Fin 3) ∧
          dX.start (ix3 n k c : S100000x16x128.Idx) idx (1 : Fin 3) + dX.window (ix3 n k c : S100000x16x128.Idx) (1 : Fin 3) < (16 : Nat)
        rw [dX_start1, dX_window1]; omega
      | ⟨2, _⟩ =>
        have := c.isLt
        show 0 ≤ dX.start (ix3 n k c : S100000x16x128.Idx) idx (2 : Fin 3) + dX.window (ix3 n k c : S100000x16x128.Idx) (2 : Fin 3) ∧
          dX.start (ix3 n k c : S100000x16x128.Idx) idx (2 : Fin 3) + dX.window (ix3 n k c : S100000x16x128.Idx) (2 : Fin 3) < (128 : Nat)
        rw [dX_start2, dX_window2]; omega
    rw [dif_pos hc]
    congr 1
    funext a
    refine Fin.ext ?_
    match a with
    | ⟨0, _⟩ =>
      show (dX.start (ix3 n k c : S100000x16x128.Idx) idx (0 : Fin 3) + dX.window (ix3 n k c : S100000x16x128.Idx) (0 : Fin 3)).toNat = b.val
      rw [dX_start0, dX_window0, hi]; omega
    | ⟨1, _⟩ =>
      show (dX.start (ix3 n k c : S100000x16x128.Idx) idx (1 : Fin 3) + dX.window (ix3 n k c : S100000x16x128.Idx) (1 : Fin 3)).toNat = k.val
      rw [dX_start1, dX_window1]; omega
    | ⟨2, _⟩ =>
      show (dX.start (ix3 n k c : S100000x16x128.Idx) idx (2 : Fin 3) + dX.window (ix3 n k c : S100000x16x128.Idx) (2 : Fin 3)).toNat = c.val
      rw [dX_start2, dX_window2]; omega

/-- The updates that land on (b, k', c') are, one per row n whose word is b, the update at (n, k', c'). -/
theorem dX_sum (idx : IVec S100000x1 32) (upd : S100000x16x128.Idx → EReal) (b k' : Fin 16) (c' : Fin 128)
    [DecidablePred fun j : S100000x16x128.Idx => dX.resultIdx? j idx = some (ix3 b k' c' : S16x16x128.Idx)] :
    ∑ j ∈ Finset.univ.filter (fun j : S100000x16x128.Idx => dX.resultIdx? j idx = some (ix3 b k' c' : S16x16x128.Idx)), upd j
      = ∑ n : Fin 100000, if idx (ix2 n (0 : Fin 1)) = BitVec.ofNat 32 b.val then upd (ix3 n k' c') else 0 := by
  refine Eq.trans ?_ (Finset.sum_filter _ _)
  refine Finset.sum_nbij' (fun j : S100000x16x128.Idx => (⟨(j 0).val, (j 0).isLt⟩ : Fin 100000)) (fun n => (ix3 n k' c' : S100000x16x128.Idx)) ?_ ?_ ?_ ?_ ?_
  · intro j hj
    obtain ⟨n, k, c, rfl⟩ : ∃ (n : Fin 100000) (k : Fin 16) (c : Fin 128), j = ix3 n k c := ⟨j 0, j 1, j 2, eq_ix3 j⟩
    exact Finset.mem_filter.mpr ⟨Finset.mem_univ _, ((dX_resultIdx idx n k c b k' c').mp (Finset.mem_filter.mp hj).2).1⟩
  · intro n hn
    exact Finset.mem_filter.mpr ⟨Finset.mem_univ _, (dX_resultIdx idx n k' c' b k' c').mpr ⟨(Finset.mem_filter.mp hn).2, rfl, rfl⟩⟩
  · intro j hj
    obtain ⟨n, k, c, rfl⟩ : ∃ (n : Fin 100000) (k : Fin 16) (c : Fin 128), j = ix3 n k c := ⟨j 0, j 1, j 2, eq_ix3 j⟩
    obtain ⟨_, rfl, rfl⟩ := (dX_resultIdx idx n k c b k' c').mp (Finset.mem_filter.mp hj).2
    rfl
  · intro n _
    rfl
  · intro j hj
    obtain ⟨n, k, c, rfl⟩ : ∃ (n : Fin 100000) (k : Fin 16) (c : Fin 128), j = ix3 n k c := ⟨j 0, j 1, j 2, eq_ix3 j⟩
    obtain ⟨_, rfl, rfl⟩ := (dX_resultIdx idx n k c b k' c').mp (Finset.mem_filter.mp hj).2
    rfl

/-! ## The three sums -/

theorem idx77_ix (n : Fin 100000) : idx_main_v77 (ix2 n (0 : Fin 1)) = ix1 n :=
  funext fun a => by match a with | ⟨0, _⟩ => rfl
theorem idx74_ix (n : Fin 100000) : idx_main_v74 (ix2 n (0 : Fin 1)) = ix1 n :=
  funext fun a => by match a with | ⟨0, _⟩ => rfl
theorem idx114_ix (n : Fin 100000) : idx_main_v114 (ix2 n (0 : Fin 1)) = ix1 n :=
  funext fun a => by match a with | ⟨0, _⟩ => rfl
theorem idx6870_ix (n : Fin 100000) (k : Fin 16) (c : Fin 3) : idx_main_v68 (idx_main_v70 (ix3 n k c)) = ix2 n c :=
  funext fun a => by match a with | ⟨0, _⟩ => rfl | ⟨1, _⟩ => rfl
theorem idx6971_ix (n : Fin 100000) (k : Fin 16) (c : Fin 3) : idx_main_v69 (idx_main_v71 (ix3 n k c)) = ix2 n k :=
  funext fun a => by match a with | ⟨0, _⟩ => rfl | ⟨1, _⟩ => rfl
theorem idx108110_ix (n : Fin 100000) (k : Fin 16) (c : Fin 128) : idx_main_v108 (idx_main_v110 (ix3 n k c)) = ix2 n c :=
  funext fun a => by match a with | ⟨0, _⟩ => rfl | ⟨1, _⟩ => rfl
theorem idx109111_ix (n : Fin 100000) (k : Fin 16) (c : Fin 128) : idx_main_v109 (idx_main_v111 (ix3 n k c)) = ix2 n k :=
  funext fun a => by match a with | ⟨0, _⟩ => rfl | ⟨1, _⟩ => rfl

/-- "Row n's word is b" is the specification's membership of row n in segment b. -/
theorem sel_ite (x0 : FA S100000x128) (x1 : FA S100000x3) (x2 : IA S100000) (x3 : FA S100000x16) (x4 : FA S128x128)
    (x5 : FA S128) (x6 : FA S128x16) (x7 : FA S16) (x8 : FA S_) (n : Fin 100000) (b : Fin 16) (u : EReal) :
    (if x2 (ix1 n) = BitVec.ofNat 32 b.val then u else 0) = (if Cert.Spec.sel (argsOf x0 x1 x2 x3 x4 x5 x6 x7 x8) n b then u else 0) := by
  by_cases h : x2 (ix1 n) = BitVec.ofNat 32 b.val
  · rw [if_pos h, if_pos (show Cert.Spec.sel (argsOf x0 x1 x2 x3 x4 x5 x6 x7 x8) n b from h)]
  · rw [if_neg h, if_neg (show ¬ Cert.Spec.sel (argsOf x0 x1 x2 x3 x4 x5 x6 x7 x8) n b from h)]

/-- R4 (second half). The segment sums of s. -/
theorem v78_eq (x0 : FA S100000x128) (x1 : FA S100000x3) (x2 : IA S100000) (x3 : FA S100000x16) (x4 : FA S128x128)
    (x5 : FA S128) (x6 : FA S128x16) (x7 : FA S16) (x8 : FA S_) :
    val_main_v78 (F := Ideal) x0 x2 x3 x4 x5 x6 x7 x8 = Cert.Spec.asArr (argsOf x0 x1 x2 x3 x4 x5 x6 x7 x8) := by
  funext i
  obtain ⟨b, k', rfl⟩ : ∃ (b k' : Fin 16), i = ix2 b k' := ⟨i 0, i 1, eq_ix2 i⟩
  show val_main_v76 (F := Ideal) (ix2 b k') + ∑ j ∈ Finset.univ.filter (fun j : S100000x16.Idx =>
      dS.resultIdx? j (val_main_v77 (F := Ideal) x2) = some (ix2 b k' : S16x16.Idx)), val_main_v24 (F := Ideal) x0 x3 x4 x5 x6 x7 x8 j = _
  rw [val_main_v76_apply, val_main_cst_22_apply, dS_sum]
  simp only [Ideal.ofBits_def, Ideal.ofBits_zero_f32, zero_add, val_main_v77_apply, idx77_ix, v24_ix]
  show _ = Cert.Spec.accS (argsOf x0 x1 x2 x3 x4 x5 x6 x7 x8) b k'
  unfold Cert.Spec.accS
  refine Finset.sum_congr rfl fun n _ => ?_
  rw [sel_ite x0 x1 x2 x3 x4 x5 x6 x7 x8]
  rfl

/-- R4 (first half). The segment sums of s · pos (the reference multiplies pos · s). -/
theorem v75_eq (x0 : FA S100000x128) (x1 : FA S100000x3) (x2 : IA S100000) (x3 : FA S100000x16) (x4 : FA S128x128)
    (x5 : FA S128) (x6 : FA S128x16) (x7 : FA S16) (x8 : FA S_) :
    val_main_v75 (F := Ideal) x0 x1 x2 x3 x4 x5 x6 x7 x8 = Cert.Spec.apArr (argsOf x0 x1 x2 x3 x4 x5 x6 x7 x8) := by
  funext i
  obtain ⟨b, k', c', rfl⟩ : ∃ (b k' : Fin 16) (c' : Fin 3), i = ix3 b k' c' := ⟨i 0, i 1, i 2, eq_ix3 i⟩
  show val_main_v73 (F := Ideal) (ix3 b k' c') + ∑ j ∈ Finset.univ.filter (fun j : S100000x16x3.Idx =>
      dP.resultIdx? j (val_main_v74 (F := Ideal) x2) = some (ix3 b k' c' : S16x16x3.Idx)), val_main_v72 (F := Ideal) x0 x1 x3 x4 x5 x6 x7 x8 j = _
  rw [val_main_v73_apply, val_main_cst_21_apply, dP_sum]
  simp only [Ideal.ofBits_def, Ideal.ofBits_zero_f32, zero_add, val_main_v74_apply, idx74_ix, val_main_v72_apply,
    val_main_v70_apply, val_main_v68_apply, val_main_v71_apply, val_main_v69_apply, idx6870_ix, idx6971_ix, v24_ix, Ideal.mulf_def]
  show _ = Cert.Spec.accP (argsOf x0 x1 x2 x3 x4 x5 x6 x7 x8) b k' c'
  unfold Cert.Spec.accP
  refine Finset.sum_congr rfl fun n _ => ?_
  rw [sel_ite x0 x1 x2 x3 x4 x5 x6 x7 x8, mul_comm]
  rfl

/-- R2. The segment sums of s · x (the reference multiplies x · s). -/
theorem v115_eq (x0 : FA S100000x128) (x1 : FA S100000x3) (x2 : IA S100000) (x3 : FA S100000x16) (x4 : FA S128x128)
    (x5 : FA S128) (x6 : FA S128x16) (x7 : FA S16) (x8 : FA S_) :
    val_main_v115 (F := Ideal) x0 x2 x3 x4 x5 x6 x7 x8 = Cert.Spec.outArr (argsOf x0 x1 x2 x3 x4 x5 x6 x7 x8) := by
  funext i
  obtain ⟨b, k', c', rfl⟩ : ∃ (b k' : Fin 16) (c' : Fin 128), i = ix3 b k' c' := ⟨i 0, i 1, i 2, eq_ix3 i⟩
  show val_main_v113 (F := Ideal) (ix3 b k' c') + ∑ j ∈ Finset.univ.filter (fun j : S100000x16x128.Idx =>
      dX.resultIdx? j (val_main_v114 (F := Ideal) x2) = some (ix3 b k' c' : S16x16x128.Idx)), val_main_v112 (F := Ideal) x0 x3 x4 x5 x6 x7 x8 j = _
  rw [val_main_v113_apply, val_main_cst_30_apply, dX_sum]
  simp only [Ideal.ofBits_def, Ideal.ofBits_zero_f32, zero_add, val_main_v114_apply, idx114_ix, val_main_v112_apply,
    val_main_v110_apply, val_main_v108_apply, val_main_v111_apply, val_main_v109_apply, idx108110_ix, idx109111_ix, v24_ix, Ideal.mulf_def]
  show _ = Cert.Spec.accX (argsOf x0 x1 x2 x3 x4 x5 x6 x7 x8) b k' c'
  unfold Cert.Spec.accX
  refine Finset.sum_congr rfl fun n _ => ?_
  rw [sel_ite x0 x1 x2 x3 x4 x5 x6 x7 x8, mul_comm]
  rfl

end Cert.ReferenceIdeal.RefValue

end
-- ==== Proof.Ref.Spatial.lean ====
/-
  The reference's spatial spread read index by index: the specification's, written operation for operation in
  the reference's own form (normalised assignment s/D, centroids μ, Σ (s/D)·|pos|² − 2·|μ|² + |μ|², mean over clusters).
-/
import proofs.«406053_j76209899700419_3_alg».proof.Proof.Gen.ReferenceIdeal.Run
import proofs.«406053_j76209899700419_3_alg».proof.Proof.Gen.ReferenceIdeal.Read
import proofs.«406053_j76209899700419_3_alg».proof.Proof.Spec
import proofs.«406053_j76209899700419_3_alg».proof.Proof.Ref.S
import proofs.«406053_j76209899700419_3_alg».proof.Proof.Ref.Sums

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The composed index functions at coordinates -/

theorem idx4548_ix (n : Fin 100000) (k : Fin 16) : idx_main_v45 (idx_main_v48 (ix2 n k)) = ix1 k :=
  funext fun a => by match a with | ⟨0, _⟩ => rfl
theorem idx50lidx51_ix (k : Fin 16) (d : Fin 3) (n : Fin 100000) : idx_main_v50 (lidx_main_v51 (ix2 k d) n) = ix2 n k :=
  funext fun a => by match a with | ⟨0, _⟩ => rfl | ⟨1, _⟩ => rfl
theorem ridx51_ix (k : Fin 16) (d : Fin 3) (n : Fin 100000) : ridx_main_v51 (ix2 k d) n = ix2 n d :=
  funext fun a => by match a with | ⟨0, _⟩ => rfl | ⟨1, _⟩ => rfl
theorem idx53_ix (n : Fin 100000) (d : Fin 3) : idx_main_v53 (ix1 n) d = ix2 n d :=
  funext fun a => by match a with | ⟨0, _⟩ => rfl | ⟨1, _⟩ => rfl
theorem idx56_ix (k : Fin 16) (d : Fin 3) : idx_main_v56 (ix1 k) d = ix2 k d :=
  funext fun a => by match a with | ⟨0, _⟩ => rfl | ⟨1, _⟩ => rfl
theorem idx61_ix (k : Fin 16) (d : Fin 3) : idx_main_v61 (ix1 k) d = ix2 k d :=
  funext fun a => by match a with | ⟨0, _⟩ => rfl | ⟨1, _⟩ => rfl
theorem idx59_ix (k : Fin 16) : idx_main_v59 (ix1 k) = ix2 k (0 : Fin 1) :=
  funext fun a => Fin.ext (by match a with | ⟨0, _⟩ => exact Nat.div_one _ | ⟨1, _⟩ => rfl)
theorem idx57lidx58_ix (k : Fin 16) (n : Fin 100000) : idx_main_v57 (lidx_main_v58 (ix2 k (0 : Fin 1)) n) = ix2 n k :=
  funext fun a => by match a with | ⟨0, _⟩ => rfl | ⟨1, _⟩ => rfl
theorem idx54ridx58_ix (k : Fin 16) (n : Fin 100000) : idx_main_v54 (ridx_main_v58 (ix2 k (0 : Fin 1)) n) = ix1 n :=
  funext fun a => by match a with | ⟨0, _⟩ => rfl

section
variable (x0 : FA S100000x128) (x1 : FA S100000x3) (x2 : IA S100000) (x3 : FA S100000x16) (x4 : FA S128x128)
    (x5 : FA S128) (x6 : FA S128x16) (x7 : FA S16) (x8 : FA S_)

/-- The normalised assignment s[n, k] / (Σ_n s[n, k] + ε). -/
theorem v49_ix (n : Fin 100000) (k : Fin 16) :
    val_main_v49 (F := Ideal) x0 x3 x4 x5 x6 x7 x8 (ix2 n k)
      = Ideal.div (Cert.Spec.s (argsOf x0 x1 x2 x3 x4 x5 x6 x7 x8) n k) (Cert.Spec.dK (argsOf x0 x1 x2 x3 x4 x5 x6 x7 x8) k) := by
  rw [val_main_v49_apply, val_main_v48_apply, val_main_v47_apply, val_main_v45_apply, val_main_v46_apply, val_main_cst_14_apply,
    idx4548_ix, v44_eq x0 x1 x2 x3 x4 x5 x6 x7 x8, v24_ix]
  simp only [Ideal.hostDivf_def, Ideal.addf_def, Ideal.ofBits_def]
  rfl

/-- The squared length of row n's position, from the word 0. -/
theorem v53_ix (n : Fin 100000) : val_main_v53 (F := Ideal) x1 (ix1 n) = Cert.Spec.psq (argsOf x0 x1 x2 x3 x4 x5 x6 x7 x8) n := by
  rw [val_main_v53_apply, val_main_cst_15_apply]
  simp only [Ideal.ofBits_def, Ideal.ofBits_zero_f32, zero_add, val_main_v52_apply, idx53_ix, Ideal.mulf_def]
  rfl

/-- The centroid coordinate μ[k, d] = Σ_n (s/D)[n, k] · pos[n, d]. -/
theorem v51_ix (k : Fin 16) (d : Fin 3) :
    val_main_v51 (F := Ideal) x0 x1 x3 x4 x5 x6 x7 x8 (ix2 k d) = Cert.Spec.muK (argsOf x0 x1 x2 x3 x4 x5 x6 x7 x8) k d := by
  rw [val_main_v51_apply]
  simp only [val_main_v50_apply, idx50lidx51_ix, ridx51_ix, v49_ix x0 x1 x2 x3 x4 x5 x6 x7 x8]
  rfl

/-- One cluster's spread: Σ_n (s/D) · |pos|² − 2 · |μ|² + |μ|². -/
theorem v65_ix (k : Fin 16) :
    val_main_v65 (F := Ideal) x0 x1 x3 x4 x5 x6 x7 x8 (ix1 k) = Cert.Spec.varK (argsOf x0 x1 x2 x3 x4 x5 x6 x7 x8) k := by
  rw [val_main_v65_apply, val_main_v64_apply, val_main_v63_apply, val_main_v62_apply, val_main_cst_18_apply, val_main_v61_apply,
    val_main_cst_17_apply, val_main_v56_apply, val_main_cst_16_apply, val_main_v59_apply, idx59_ix, val_main_v58_apply]
  simp only [Ideal.addf_def, Ideal.subf_def, Ideal.mulf_def, Ideal.ofBits_def, Ideal.ofBits_zero_f32, zero_add, idx56_ix, idx61_ix,
    val_main_v60_apply, val_main_v55_apply, val_main_v57_apply, val_main_v54_apply, idx57lidx58_ix, idx54ridx58_ix,
    v51_ix x0 x1 x2 x3 x4 x5 x6 x7 x8, v49_ix x0 x1 x2 x3 x4 x5 x6 x7 x8, v53_ix x0 x1 x2 x3 x4 x5 x6 x7 x8]
  rfl

end

/-- R6. The spatial spread: the clusters' spreads summed from the word 0, over 16. -/
theorem v67_eq (x0 : FA S100000x128) (x1 : FA S100000x3) (x2 : IA S100000) (x3 : FA S100000x16) (x4 : FA S128x128)
    (x5 : FA S128) (x6 : FA S128x16) (x7 : FA S16) (x8 : FA S_) :
    val_main_v67 (F := Ideal) x0 x1 x3 x4 x5 x6 x7 x8 = Cert.Spec.spatialArr (argsOf x0 x1 x2 x3 x4 x5 x6 x7 x8) := by
  funext i
  rw [val_main_v67_apply, val_main_v66_apply, val_main_cst_19_apply, val_main_cst_20_apply, sum_idx1]
  simp only [Ideal.hostDivf_def, Ideal.ofBits_def, Ideal.ofBits_zero_f32, zero_add, v65_ix x0 x1 x2 x3 x4 x5 x6 x7 x8]
  rfl

end Cert.ReferenceIdeal.RefValue

end
-- ==== Proof.Ref.Vals.lean ====
/-
  The reference program's results, read index by index: each is the shared specification's array of the argument arrays.
  R1 the soft assignment (Ref/S), R3 and R5 the sums over all rows (Ref/Sums), R2 and R4 the segment sums
  (Ref/Scatter), R6 the spatial spread (Ref/Spatial).
-/
import proofs.«406053_j76209899700419_3_alg».proof.Proof.Gen.ReferenceIdeal.Run
import proofs.«406053_j76209899700419_3_alg».proof.Proof.Gen.ReferenceIdeal.Read
import proofs.«406053_j76209899700419_3_alg».proof.Proof.Spec
import proofs.«406053_j76209899700419_3_alg».proof.Proof.Ref.S
import proofs.«406053_j76209899700419_3_alg».proof.Proof.Ref.Sums
import proofs.«406053_j76209899700419_3_alg».proof.Proof.Ref.Scatter
import proofs.«406053_j76209899700419_3_alg».proof.Proof.Ref.Spatial

noncomputable section

namespace Cert.ReferenceIdeal.RefValue

end Cert.ReferenceIdeal.RefValue

end
-- ==== Proof.Ref.Tails.lean ====
/-
  The reference's later lines are the kernel program's later lines.

  After its row sums the reference computes the diversity, pruning and entropy terms, the segment-wise centres and their
  separation with the very operations the kernel's program applies after its region, to arrays of the same shapes: each of
  these results is the corresponding function of Proof/KI/TailFns.lean at the reference's own sums.  The one difference
  is the entropy term, where the reference divides by 1e5 and then negates and the kernel negates and then divides:
  (-a) / 1e5 = -(a / 1e5) over the extended reals.  With the reference's sums in closed form this gives each result as a
  function of the specification's arrays.
-/
import proofs.«406053_j76209899700419_3_alg».proof.Proof.Gen.ReferenceIdeal.Read
import proofs.«406053_j76209899700419_3_alg».proof.Proof.Spec
import proofs.«406053_j76209899700419_3_alg».proof.Proof.Math.Spatial
import proofs.«406053_j76209899700419_3_alg».proof.Proof.KI.TailFns
import proofs.«406053_j76209899700419_3_alg».proof.Proof.Ref.S
import proofs.«406053_j76209899700419_3_alg».proof.Proof.Ref.Sums
import proofs.«406053_j76209899700419_3_alg».proof.Proof.Ref.Scatter

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.KernelIdeal.Val (tDiversity tPruning tEntropy tMu tSeparation tFrac)

variable (x0 : FA S100000x128) (x1 : FA S100000x3) (x2 : IA S100000) (x3 : FA S100000x16) (x4 : FA S128x128)
  (x5 : FA S128) (x6 : FA S128x16) (x7 : FA S16) (x8 : FA S_)

/-! ## Each later result as the program's function of the reference's sums -/

/-- The diversity term: the same eight operations on the assignment sums. -/
theorem v40_fn : val_main_v40 (F := Ideal) x0 x3 x4 x5 x6 x7 x8 = tDiversity (val_main_v33 (F := Ideal) x0 x3 x4 x5 x6 x7 x8) := by
  unfold val_main_v40 val_main_v39 val_main_v38 val_main_v37 val_main_v36 val_main_v35 val_main_v34 val_main_cst_8 val_main_cst_9
    val_main_cst_10 tDiversity tFrac
  rfl

/-- The pruning term. -/
theorem v43_fn : val_main_v43 (F := Ideal) x0 x3 x4 x5 x6 x7 x8 = tPruning (val_main_v33 (F := Ideal) x0 x3 x4 x5 x6 x7 x8) := by
  unfold val_main_v43 val_main_v42 val_main_v41 val_main_v35 val_main_v34 val_main_cst_8 val_main_cst_11 val_main_cst_12 tPruning tFrac
  rfl

/-- The entropy term: dividing then negating is negating then dividing. -/
theorem v32_fn : val_main_v32 (F := Ideal) x0 x3 x4 x5 x6 x7 x8 = tEntropy (val_main_v30 (F := Ideal) x0 x3 x4 x5 x6 x7 x8) := by
  funext i
  exact (Cert.Math.div_neg_c1e5 (val_main_v30 (F := Ideal) x0 x3 x4 x5 x6 x7 x8 i)).symm

/-- The segment-wise centres. -/
theorem v83_fn : val_main_v83 (F := Ideal) x0 x1 x2 x3 x4 x5 x6 x7 x8
    = tMu (val_main_v75 (F := Ideal) x0 x1 x2 x3 x4 x5 x6 x7 x8) (val_main_v78 (F := Ideal) x0 x2 x3 x4 x5 x6 x7 x8) := by
  unfold val_main_v83 val_main_v82 val_main_v81 val_main_v80 val_main_v79 val_main_cst_23 tMu
  rfl

/-- The separation of the centres. -/
theorem v107_fn : val_main_v107 (F := Ideal) x0 x1 x2 x3 x4 x5 x6 x7 x8
    = tSeparation (val_main_v83 (F := Ideal) x0 x1 x2 x3 x4 x5 x6 x7 x8) := by
  unfold val_main_v107 val_main_v106 val_main_v105 val_main_v104 val_main_v103 val_main_v102 val_main_v101 val_main_v100 val_main_v99
    val_main_v98 val_main_v97 val_main_v96 val_main_v95 val_main_v94 val_main_v93 val_main_v92 val_main_v91 val_main_c val_main_v90
    val_main_v89 val_main_v88 val_main_v87 val_main_v86 val_main_v85 val_main_v84
    val_main_cst_24 val_main_cst_25 val_main_cst_26 val_main_cst_27 val_main_cst_28 val_main_cst_29 tSeparation
  rfl

/-! ## The same at the specification's arrays -/

theorem v40_eq : val_main_v40 (F := Ideal) x0 x3 x4 x5 x6 x7 x8
    = tDiversity (Cert.Spec.sumArr (argsOf x0 x1 x2 x3 x4 x5 x6 x7 x8)) := by
  rw [v40_fn, v33_eq x0 x1 x2 x3 x4 x5 x6 x7 x8]

theorem v43_eq : val_main_v43 (F := Ideal) x0 x3 x4 x5 x6 x7 x8
    = tPruning (Cert.Spec.sumArr (argsOf x0 x1 x2 x3 x4 x5 x6 x7 x8)) := by
  rw [v43_fn, v33_eq x0 x1 x2 x3 x4 x5 x6 x7 x8]

theorem v32_eq : val_main_v32 (F := Ideal) x0 x3 x4 x5 x6 x7 x8
    = tEntropy (Cert.Spec.entArr (argsOf x0 x1 x2 x3 x4 x5 x6 x7 x8)) := by
  rw [v32_fn, v30_eq x0 x1 x2 x3 x4 x5 x6 x7 x8]

theorem v83_eq : val_main_v83 (F := Ideal) x0 x1 x2 x3 x4 x5 x6 x7 x8
    = tMu (Cert.Spec.apArr (argsOf x0 x1 x2 x3 x4 x5 x6 x7 x8)) (Cert.Spec.asArr (argsOf x0 x1 x2 x3 x4 x5 x6 x7 x8)) := by
  rw [v83_fn, v75_eq x0 x1 x2 x3 x4 x5 x6 x7 x8, v78_eq x0 x1 x2 x3 x4 x5 x6 x7 x8]

theorem v107_eq : val_main_v107 (F := Ideal) x0 x1 x2 x3 x4 x5 x6 x7 x8
    = tSeparation (tMu (Cert.Spec.apArr (argsOf x0 x1 x2 x3 x4 x5 x6 x7 x8)) (Cert.Spec.asArr (argsOf x0 x1 x2 x3 x4 x5 x6 x7 x8))) := by
  rw [v107_fn, v83_eq x0 x1 x2 x3 x4 x5 x6 x7 x8]

end Cert.ReferenceIdeal.RefValue

end
-- ==== Proof.PreReal.lean ====
/-
  From the programs' precondition to real arguments.

  The precondition is the conjunction, over the eight float arguments, of "every entry x has |x| < +∞".  Each
  conjunct is an and-reduction of the entrywise comparison down to a single word, so the word being 1 gives the
  comparison at every entry; |x| < +∞, that is max x (-x) < ⊤, says x is neither +∞ nor -∞, hence a real.
-/
import proofs.«406053_j76209899700419_3_alg».proof.Defs
import proofs.«406053_j76209899700419_3_alg».proof.Proof.KI.Args
import proofs.«406053_j76209899700419_3_alg».proof.Proof.Math.Finite
import Idealize.ShloMosaic.Lib.ReduceAll
import Idealize.ShloMosaic.Lib.ValueIdx
import Idealize.ShloMosaic.PureOps.Ideal.Laws

noncomputable section

namespace Cert.KernelIdeal.Val

open Idealize.ShloMosaic Idealize.SL.Sem

/-- The shape of a single word. -/
abbrev S0 : Shape := ⟨0, ![]⟩

instance : Subsingleton S0.Idx := ⟨fun a b => funext fun d => d.elim0⟩

/-- The word 0x7F800000 is +∞. -/
theorem inf_eq_top : Ideal.ofBits .f32 0x7F800000#32 = (⊤ : EReal) := by simp [Ideal.ofBits, Ideal.ieee]

/-- |a| < +∞ says a is neither infinity. -/
theorem ne_of_abs_lt_inf (a : EReal) (e : Ideal.cmp .olt (max a (-a)) (Ideal.ofBits .f32 0x7F800000#32) = 1#1) :
    a ≠ ⊤ ∧ a ≠ ⊥ := by
  rw [inf_eq_top] at e
  simp only [Ideal.cmp] at e
  have hlt : max a (-a) < ⊤ := by
    by_contra hn
    rw [decide_eq_false hn] at e
    exact absurd e (by decide)
  constructor
  · rintro rfl
    exact lt_irrefl _ (lt_of_le_of_lt (le_max_left _ _) hlt)
  · rintro rfl
    have h2 : -(⊥ : EReal) < ⊤ := lt_of_le_of_lt (le_max_right _ _) hlt
    rw [EReal.neg_bot] at h2
    exact lt_irrefl _ h2

/-- "All entries of x have |x| < +∞" reduced to one word that is 1: every entry is neither infinity. -/
theorem finite_of_all {t : Shape} {axes : List (Fin t.rank)} (x : FVec Ideal t .f32) (hb : S0.BroadcastsInDim t ![])
    (hr : t.ReducesTo axes S0) (hu : 0 < S0.numel) (j0 : S0.Idx)
    (e : Host.reduce IntOp.andi (cmpf .olt (Host.absf x) (broadcastInDim t ![] hb (constant S0 .f32 0x7F800000#32)))
      (constantI S0 1 1#1) hr hu j0 = 1#1) (j : t.Idx) : x j ≠ ⊤ ∧ x j ≠ ⊥ :=
  ne_of_abs_lt_inf (x j) (Host.reduce_andi_all _ _ hr hu j0 e j)

/-- The same for a single number, compared with +∞ directly. -/
theorem finite_of_all_scalar {axes : List (Fin S0.rank)} (x : FVec Ideal S0 .f32)
    (hr : S0.ReducesTo axes S0) (hu : 0 < S0.numel) (j0 : S0.Idx)
    (e : Host.reduce IntOp.andi (cmpf .olt (Host.absf x) (constant S0 .f32 0x7F800000#32))
      (constantI S0 1 1#1) hr hu j0 = 1#1) (j : S0.Idx) : x j ≠ ⊤ ∧ x j ≠ ⊥ :=
  ne_of_abs_lt_inf (x j) (Host.reduce_andi_all _ _ hr hu j0 e j)

/-- Under the precondition every entry of every float argument on a core is a real number. -/
theorem realArgs_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Math.RealArgs (Cert.KernelIdeal.Val.argsOf m c) := by
  have e := congrFun (h c) ValueIdx.ix0
  dsimp only [Cert.Pre_finite_inputs.fn, Cert.Pre_finite_inputs.fn_part1, Cert.Pre_finite_inputs.fn_part2] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e1⟩ := IntOp.andi_eq_one.1 e
  have h0 := fun j => finite_of_all _ _ _ _ _ e0 j
  have h1 := fun j => finite_of_all _ _ _ _ _ e1 j
  have h3 := fun j => finite_of_all _ _ _ _ _ e3 j
  have h4 := fun j => finite_of_all _ _ _ _ _ e4 j
  have h5 := fun j => finite_of_all _ _ _ _ _ e5 j
  have h6 := fun j => finite_of_all _ _ _ _ _ e6 j
  have h7 := fun j => finite_of_all _ _ _ _ _ e7 j
  have h8 := fun j => finite_of_all_scalar _ _ _ _ e8 j
  exact Cert.Math.RealArgs.of_ne h0 h1 h3 h4 h5 h6 h7 h8

end Cert.KernelIdeal.Val

end
-- ==== Proof.lean ====
/-
  The certificate of the pooling kernel against its jnp reference.

  Both programs give every row n a soft assignment s[n, ·] to 16 clusters (a softmax of a two-layer perceptron's noisy
  logits) and then form sums over rows of s times the row's data: over all rows (per-cluster totals, an entropy sum, position
  moments) and over the rows of each of 16 segments (pooled features, pooled positions, pooled mass).  The reference takes
  the segment sums by scatter-add over the segment words and everything else by whole-array reductions; the kernel walks
  the rows in 50 blocks of 2000 on a 2 × 25 grid, keeps running sums per core in its output buffers — the segment sums as
  products with a 0/1 mask over the 256 (segment, cluster) columns — and the program adds the two cores' sums afterwards.
  Over the extended reals these are the same sums in another order, which needs no finiteness; the one step that does is
  the spatial term, where the reference normalises s by the cluster totals before summing and the kernel after, and where
  A − 2M + M is A − M: there the inputs' finiteness makes every quantity a real number and the cluster totals positive.

  The frames of the two kernel programs are proved from the body's run at each grid point (Proof/KI/*, and the same text at
  the word-level instance in Proof/K/*); the reference's frame is its generated run.  The later host lines that the two
  programs share (diversity, pruning, entropy, centroids, separation) are carried as functions and never opened.
-/
import proofs.«406053_j76209899700419_3_alg».proof.Defs
import proofs.«406053_j76209899700419_3_alg».proof.Proof.Gen.Kernel
import proofs.«406053_j76209899700419_3_alg».proof.Proof.Gen.KernelIdeal
import proofs.«406053_j76209899700419_3_alg».proof.Proof.Gen.ReferenceIdeal
import proofs.«406053_j76209899700419_3_alg».proof.Proof.Gen.Pre_finite_inputs
import proofs.«406053_j76209899700419_3_alg».proof.Proof.Gen.ReferenceIdeal.Run
import proofs.«406053_j76209899700419_3_alg».proof.Proof.Gen.ReferenceIdeal.Read
import proofs.«406053_j76209899700419_3_alg».proof.Proof.K.Frame
import proofs.«406053_j76209899700419_3_alg».proof.Proof.KI.Frame
import proofs.«406053_j76209899700419_3_alg».proof.Proof.KI.Tail
import proofs.«406053_j76209899700419_3_alg».proof.Proof.Ref.Vals
import proofs.«406053_j76209899700419_3_alg».proof.Proof.Ref.Tails
import proofs.«406053_j76209899700419_3_alg».proof.Proof.PreReal
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Fr.frame m ρ

/-- So does the idealized one. -/
theorem frame_ki : Cert.frame_KernelIdeal := fun m ρ _ => Cert.KernelIdeal.Fr.frame m ρ

/-- The reference is host operations only: its frame is its run with the results dropped. -/
theorem frame_ri : Cert.frame_ReferenceIdeal := fun m ρ _ =>
  (θ_run Cert.ReferenceIdeal.defs _ _).mono (fun _ h c => (h c).2.2.2.2.2.2.2.2) (Cert.ReferenceIdeal.Value.run (F := Ideal) m ρ)

/-- The idealization rewrote nothing. -/
theorem preserves : Cert.preserves_Kernel_KernelIdeal := trivial

open Cert.ReferenceIdeal.RefValue Cert.ReferenceIdeal.Read in
/-- From memories agreeing on the arguments the two idealized programs end with the same eight results: each is the
    specification's array of the argument arrays, or a shared later line of one. -/
theorem algebraic : Cert.algebraic_KernelIdeal_ReferenceIdeal := by
  intro m ρ m' ρ' hpre hagree
  refine ⟨_, _, _, _, _, _, _, _, Cert.KernelIdeal.Val.kernel_values m ρ (fun c => Cert.KernelIdeal.Val.realArgs_of_pre m hpre c), ?_⟩
  refine (θ_run Cert.ReferenceIdeal.defs _ _).mono (fun _ h c => ?_) (Cert.ReferenceIdeal.Value.run (F := Ideal) m' ρ')
  obtain ⟨h0, h1, h2, h3, h4, h5, h6, h7, hargs⟩ := h c
  obtain ⟨a0, a1, a2, a3, a4, a5, a6, a7, a8⟩ := hagree c
  have hI : argsOf (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      = Cert.KernelIdeal.Val.argsOf m c := by
    rw [a0, a1, a2, a3, a4, a5, a6, a7, a8]; rfl
  refine ⟨?_, ?_, ?_, ?_, ?_, ?_, ?_, ?_, hargs⟩
  · rw [h0, val_main_v115_eq, v115_eq _ (m' ((c.tc : Thread Cert.ReferenceIdeal.nD Cert.ReferenceIdeal.τ).loc Cert.ReferenceIdeal.main_arg1)), hI]
  · rw [h1, val_main_v24_eq, v24_eq _ (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)), hI]
  · rw [h2, val_main_v40_eq, v40_eq _ (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)), hI]
  · rw [h3, val_main_v32_eq, v32_eq _ (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)), hI]
  · rw [h4, val_main_v43_eq, v43_eq _ (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)), hI]
  · rw [h5, val_main_v107_eq, v107_eq, hI]
  · rw [h6, val_main_v67_eq, v67_eq _ _ (m' ((c.tc : Thread Cert.ReferenceIdeal.nD Cert.ReferenceIdeal.τ).loc Cert.ReferenceIdeal.main_arg2)), hI]
  · rw [h7, val_main_v83_eq, v83_eq, hI]

end Cert.Proof

/-- The certificate. -/
theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
